-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v146)) (v1 : (c : Dev Cert.KernelIdeal.nD) → Buf (Elt Ideal) ((c.tc : Thread Cert.KernelIdeal.nD Cert.KernelIdeal.τ).loc Cert.KernelIdeal.main_v157_0)) (v2 : (c : Dev Cert.KernelIdeal.nD) → Buf (Elt Ideal) ((c.tc : Thread Cert.KernelIdeal.nD Cert.KernelIdeal.τ).loc Cert.KernelIdeal.main_v157_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_v157_0) = v1 c
          ∧ r.2.mem ((c.tc : Thread Cert.KernelIdeal.nD Cert.KernelIdeal.τ).loc Cert.KernelIdeal.main_v157_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v235) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S256x128x128 : S_.BroadcastsInDim S256x128x128 (![] : Fin 0 → Fin S256x128x128.rank)
  reducesTo_S256x128x128_S_d0_1_2 : S256x128x128.ReducesTo [0, 1, 2] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S2x384x256 : S_.BroadcastsInDim S2x384x256 (![] : Fin 0 → Fin S2x384x256.rank)
  reducesTo_S2x384x256_S_d0_1_2 : S2x384x256.ReducesTo [0, 1, 2] S_
  bcast_S_S2x384x128 : S_.BroadcastsInDim S2x384x128 (![] : Fin 0 → Fin S2x384x128.rank)
  reducesTo_S2x384x128_S_d0_1_2 : S2x384x128.ReducesTo [0, 1, 2] S_
  bcast_S_S2x384 : S_.BroadcastsInDim S2x384 (![] : Fin 0 → Fin S2x384.rank)
  reducesTo_S2x384_S_d0_1 : S2x384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S1x128 .f32) (main_arg17 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S1x128 .f32 := Host.absf main_arg16
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S1x128 .f32) (main_arg13 : FVec F S1 .f32) (main_arg14 : FVec F S128x128 .f32) (main_arg15 : FVec F S128 .f32) (main_arg16 : FVec F S1x128 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg12
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) (main_v33 : IVec S_ 1) : IVec S_ 1 :=
  let main_v34 : FVec F S2x384 .f32 := Host.absf main_arg8
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  let main_v39 : FVec F S2x384 .f32 := Host.absf main_arg9
  let main_cst_14 : FVec F S_ .f32 := constant S_ .f32 0x7F800000#32
  let main_v40 : FVec F S2x384 .f32 := broadcastInDim S2x384 ![] bcast_S_S2x384 main_cst_14
  let main_v41 : IVec S2x384 1 := cmpf .olt main_v39 main_v40
  let main_c_15 : IVec S_ 1 := constantI S_ 1 1#1
  let main_v42 : IVec S_ 1 := (fun x v => Host.reduce IntOp.andi x v reducesTo_S2x384_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S2x256 .f32) (main_arg6 : FVec F S2x384x256 .f32) (main_arg7 : FVec F S2x384x128 .f32) (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x384x256 .f32 := Host.absf main_arg6
  let main_cst_8 : FVec F S_ .f32 := constant S_ .f32 0x7F800000#32
  let main_v25 : FVec F S2x384x256 .f32 := broadcastInDim S2x384x256 ![] bcast_S_S2x384x256 main_cst_8
  let main_v26 : IVec S2x384x256 1 := cmpf .olt main_v24 main_v25
  let main_c_9 : IVec S_ 1 := constantI S_ 1 1#1
  let main_v27 : IVec S_ 1 := (fun x v => Host.reduce IntOp.andi x v reducesTo_S2x384x256_S_d0_1_2 h_S_) main_v26 main_c_9
  let main_v28 : IVec S_ 1 := andi main_v23 main_v27
  let main_v29 : FVec F S2x384x128 .f32 := Host.absf main_arg7
  let main_cst_10 : FVec F S_ .f32 := constant S_ .f32 0x7F800000#32
  let main_v30 : FVec F S2x384x128 .f32 := broadcastInDim S2x384x128 ![] bcast_S_S2x384x128 main_cst_10
  let main_v31 : IVec S2x384x128 1 := cmpf .olt main_v29 main_v30
  let main_c_11 : IVec S_ 1 := constantI S_ 1 1#1
  let main_v32 : IVec S_ 1 := (fun x v => Host.reduce IntOp.andi x v reducesTo_S2x384x128_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S256x128x128 .f32) (main_arg1 : IVec S2x262144 32) (main_arg2 : FVec F S2x256x256 .f32) (main_arg3 : FVec F S2x256 .f32) (main_arg4 : FVec F S2x256x256 .f32) (main_arg5 : FVec F S2x256 .f32) (main_arg6 : FVec F S2x384x256 .f32) (main_arg7 : FVec F S2x384x128 .f32) (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) : IVec S_ 1 :=
  let main_v0 : FVec F S256x128x128 .f32 := Host.absf main_arg0
  let main_cst : FVec F S_ .f32 := constant S_ .f32 0x7F800000#32
  let main_v1 : FVec F S256x128x128 .f32 := broadcastInDim S256x128x128 ![] bcast_S_S256x128x128 main_cst
  let main_v2 : IVec S256x128x128 1 := cmpf .olt main_v0 main_v1
  let main_c : IVec S_ 1 := constantI S_ 1 1#1
  let main_v3 : IVec S_ 1 := (fun x v => Host.reduce IntOp.andi x v reducesTo_S256x128x128_S_d0_1_2 h_S_) main_v2 main_c
  let main_v4 : FVec F S2x256x256 .f32 := Host.absf main_arg2
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S2x256 .f32 := Host.absf main_arg3
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256x256 .f32 := Host.absf main_arg4
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S32768x128 : Shape := ⟨2, ![32768, 128]⟩
abbrev S1x262144 : Shape := ⟨2, ![1, 262144]⟩
abbrev S262144 : Shape := ⟨1, ![262144]⟩
abbrev S_ : Shape := ⟨0, ![]⟩
abbrev S32768 : Shape := ⟨1, ![32768]⟩
abbrev S262144x1 : Shape := ⟨2, ![262144, 1]⟩
abbrev S32768x1 : Shape := ⟨2, ![32768, 1]⟩
abbrev S1x256x256 : Shape := ⟨3, ![1, 256, 256]⟩
abbrev S256x256 : Shape := ⟨2, ![256, 256]⟩
abbrev S256x128 : Shape := ⟨2, ![256, 128]⟩
abbrev S128x256 : Shape := ⟨2, ![128, 256]⟩
abbrev S128x1024 : Shape := ⟨2, ![128, 1024]⟩
abbrev S32768x1024 : Shape := ⟨2, ![32768, 1024]⟩
abbrev S8192x128 : Shape := ⟨2, ![8192, 128]⟩
abbrev S8192x1024 : Shape := ⟨2, ![8192, 1024]⟩
abbrev S32768x256 : Shape := ⟨2, ![32768, 256]⟩
abbrev S262144x256 : Shape := ⟨2, ![262144, 256]⟩
abbrev S524288x256 : Shape := ⟨2, ![524288, 256]⟩
abbrev S524288 : Shape := ⟨1, ![524288]⟩
abbrev S524288x1 : Shape := ⟨2, ![524288, 1]⟩
abbrev S1x384x256 : Shape := ⟨3, ![1, 384, 256]⟩
abbrev S384x256 : Shape := ⟨2, ![384, 256]⟩
abbrev S256x384 : Shape := ⟨2, ![256, 384]⟩
abbrev S1x384x128 : Shape := ⟨3, ![1, 384, 128]⟩
abbrev S384x128 : Shape := ⟨2, ![384, 128]⟩
abbrev S128x384 : Shape := ⟨2, ![128, 384]⟩
abbrev S1x256 : Shape := ⟨2, ![1, 256]⟩
abbrev S256 : Shape := ⟨1, ![256]⟩
abbrev S1x384 : Shape := ⟨2, ![1, 384]⟩
abbrev S384 : Shape := ⟨1, ![384]⟩
abbrev S4096x256 : Shape := ⟨2, ![4096, 256]⟩
abbrev S4096x1 : Shape := ⟨2, ![4096, 1]⟩
abbrev S4096x128 : Shape := ⟨2, ![4096, 128]⟩
abbrev S4096x384 : Shape := ⟨2, ![4096, 384]⟩
abbrev S4096 : Shape := ⟨1, ![4096]⟩
abbrev S1x1 : Shape := ⟨2, ![1, 1]⟩
abbrev S32x128x128 : Shape := ⟨3, ![32, 128, 128]⟩
abbrev S32x128 : Shape := ⟨2, ![32, 128]⟩
abbrev S32 : Shape := ⟨1, ![32]⟩
abbrev S32x1 : Shape := ⟨2, ![32, 1]⟩

abbrev nBuf : Space → Nat
  | .hbm => 190
  | .vmem => 64
  | .smem => 0
  | _ => 0

abbrev hbmTy0_0 (i : Nat) : BufTy := match i % 128 with
  | 0 => ⟨S256x128x128, .f32⟩
  | 1 => ⟨S2x262144, .i32⟩
  | 2 => ⟨S2x256x256, .f32⟩
  | 3 => ⟨S2x256, .f32⟩
  | 4 => ⟨S2x256x256, .f32⟩
  | 5 => ⟨S2x256, .f32⟩
  | 6 => ⟨S2x384x256, .f32⟩
  | 7 => ⟨S2x384x128, .f32⟩
  | 8 => ⟨S2x384, .f32⟩
  | 9 => ⟨S2x384, .f32⟩
  | 10 => ⟨S128x128, .f32⟩
  | 11 => ⟨S128, .f32⟩
  | 12 => ⟨S1x128, .f32⟩
  | 13 => ⟨S1, .f32⟩
  | 14 => ⟨S128x128, .f32⟩
  | 15 => ⟨S128, .f32⟩
  | 16 => ⟨S1x128, .f32⟩
  | 17 => ⟨S1, .f32⟩
  | 18 => ⟨S32768x128, .f32⟩
  | 19 => ⟨S1x262144, .i32⟩
  | 20 => ⟨S262144, .i32⟩
  | 21 => ⟨S1x262144, .i32⟩
  | 22 => ⟨S262144, .i32⟩
  | 23 => ⟨S_, .f32⟩
  | 24 => ⟨S262144, .f32⟩
  | 25 => ⟨S_, .f32⟩
  | 26 => ⟨S32768, .f32⟩
  | 27 => ⟨S262144x1, .i32⟩
  | 28 => ⟨S32768, .f32⟩
  | 29 => ⟨S32768x1, .f32⟩
  | 30 => ⟨S_, .f32⟩
  | 31 => ⟨S32768, .f32⟩
  | 32 => ⟨S262144x1, .i32⟩
  | 33 => ⟨S32768, .f32⟩
  | 34 => ⟨S32768x1, .f32⟩
  | 35 => ⟨S1x256x256, .f32⟩
  | 36 => ⟨S256x256, .f32⟩
  | 37 => ⟨S256x128, .f32⟩
  | 38 => ⟨S128x256, .f32⟩
  | 39 => ⟨S1x256x256, .f32⟩
  | 40 => ⟨S256x256, .f32⟩
  | 41 => ⟨S256x128, .f32⟩
  | 42 => ⟨S128x256, .f32⟩
  | 43 => ⟨S1x256x256, .f32⟩
  | 44 => ⟨S256x256, .f32⟩
  | 45 => ⟨S256x128, .f32⟩
  | 46 => ⟨S128x256, .f32⟩
  | 47 => ⟨S1x256x256, .f32⟩
  | 48 => ⟨S256x256, .f32⟩
  | 49 => ⟨S256x128, .f32⟩
  | 50 => ⟨S128x256, .f32⟩
  | 51 => ⟨S128x1024, .f32⟩
  | 52 => ⟨S128x1024, .bf16⟩
  | 53 => ⟨S32768x1024, .bf16⟩
  | 54 => ⟨S32768x256, .bf16⟩
  | 55 => ⟨S32768x256, .bf16⟩
  | 56 => ⟨S32768x256, .bf16⟩
  | 57 => ⟨S32768x256, .bf16⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S262144x1, .i32⟩
  | 66 => ⟨S262144x256, .bf16⟩
  | 67 => ⟨S_, .i32⟩
  | 68 => ⟨S262144, .i32⟩
  | 69 => ⟨S262144, .i1⟩
  | 70 => ⟨S_, .i32⟩
  | 71 => ⟨S262144, .i32⟩
  | 72 => ⟨S262144, .i32⟩
  | 73 => ⟨S262144, .i32⟩
  | 74 => ⟨S262144x1, .i32⟩
  | 75 => ⟨S262144x256, .bf16⟩
  | 76 => ⟨S524288x256, .bf16⟩
  | 77 => ⟨S524288x256, .f32⟩
  | 78 => ⟨S524288, .i32⟩
  | 79 => ⟨S_, .f32⟩
  | 80 => ⟨S32768x256, .f32⟩
  | 81 => ⟨S524288x1, .i32⟩
  | 82 => ⟨S32768x256, .f32⟩
  | 83 => ⟨S32768x256, .f32⟩
  | 84 => ⟨S32768x256, .f32⟩
  | 85 => ⟨S1x384x256, .f32⟩
  | 86 => ⟨S384x256, .f32⟩
  | 87 => ⟨S256x384, .f32⟩
  | 88 => ⟨S1x384x128, .f32⟩
  | 89 => ⟨S384x128, .f32⟩
  | 90 => ⟨S128x384, .f32⟩
  | 91 => ⟨S1x256, .f32⟩
  | 92 => ⟨S256, .f32⟩
  | 93 => ⟨S1x256, .f32⟩
  | 94 => ⟨S256, .f32⟩
  | 95 => ⟨S1x384, .f32⟩
  | 96 => ⟨S384, .f32⟩
  | 97 => ⟨S1x384, .f32⟩
  | 98 => ⟨S384, .f32⟩
  | 99 => ⟨S1x256, .f32⟩
  | 100 => ⟨S1x256, .f32⟩
  | 101 => ⟨S1x384, .f32⟩
  | 102 => ⟨S1x384, .f32⟩
  | 103 => ⟨S256x384, .bf16⟩
  | 104 => ⟨S128x384, .bf16⟩
  | 105 => ⟨S32768x128, .f32⟩
  | 106 => ⟨S1x256x256, .f32⟩
  | 107 => ⟨S256x256, .f32⟩
  | 108 => ⟨S256x128, .f32⟩
  | 109 => ⟨S128x256, .f32⟩
  | 110 => ⟨S1x256x256, .f32⟩
  | 111 => ⟨S256x256, .f32⟩
  | 112 => ⟨S256x128, .f32⟩
  | 113 => ⟨S128x256, .f32⟩
  | 114 => ⟨S1x256x256, .f32⟩
  | 115 => ⟨S256x256, .f32⟩
  | 116 => ⟨S256x128, .f32⟩
  | 117 => ⟨S128x256, .f32⟩
  | 118 => ⟨S1x256x256, .f32⟩
  | 119 => ⟨S256x256, .f32⟩
  | 120 => ⟨S256x128, .f32⟩
  | 121 => ⟨S128x256, .f32⟩
  | 122 => ⟨S128x1024, .f32⟩
  | 123 => ⟨S128x1024, .bf16⟩
  | 124 => ⟨S32768x1024, .bf16⟩
  | 125 => ⟨S32768x256, .bf16⟩
  | 126 => ⟨S32768x256, .bf16⟩
  | 127 => ⟨S32768x256, .bf16⟩
  | _ => ⟨S256x128x128, .f32⟩

abbrev hbmTy0_1 (i : Nat) : BufTy := match i % 128 with
  | 0 => ⟨S32768x256, .bf16⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S262144x1, .i32⟩
  | 9 => ⟨S262144x256, .bf16⟩
  | 10 => ⟨S_, .i32⟩
  | 11 => ⟨S262144, .i32⟩
  | 12 => ⟨S262144, .i1⟩
  | 13 => ⟨S_, .i32⟩
  | 14 => ⟨S262144, .i32⟩
  | 15 => ⟨S262144, .i32⟩
  | 16 => ⟨S262144, .i32⟩
  | 17 => ⟨S262144x1, .i32⟩
  | 18 => ⟨S262144x256, .bf16⟩
  | 19 => ⟨S524288x256, .bf16⟩
  | 20 => ⟨S524288x256, .f32⟩
  | 21 => ⟨S524288, .i32⟩
  | 22 => ⟨S_, .f32⟩
  | 23 => ⟨S32768x256, .f32⟩
  | 24 => ⟨S524288x1, .i32⟩
  | 25 => ⟨S32768x256, .f32⟩
  | 26 => ⟨S32768x256, .f32⟩
  | 27 => ⟨S32768x256, .f32⟩
  | 28 => ⟨S1x384x256, .f32⟩
  | 29 => ⟨S384x256, .f32⟩
  | 30 => ⟨S256x384, .f32⟩
  | 31 => ⟨S1x384x128, .f32⟩
  | 32 => ⟨S384x128, .f32⟩
  | 33 => ⟨S128x384, .f32⟩
  | 34 => ⟨S1x256, .f32⟩
  | 35 => ⟨S256, .f32⟩
  | 36 => ⟨S1x256, .f32⟩
  | 37 => ⟨S256, .f32⟩
  | 38 => ⟨S1x384, .f32⟩
  | 39 => ⟨S384, .f32⟩
  | 40 => ⟨S1x384, .f32⟩
  | 41 => ⟨S384, .f32⟩
  | 42 => ⟨S1x256, .f32⟩
  | 43 => ⟨S1x256, .f32⟩
  | 44 => ⟨S1x384, .f32⟩
  | 45 => ⟨S1x384, .f32⟩
  | 46 => ⟨S256x384, .bf16⟩
  | 47 => ⟨S128x384, .bf16⟩
  | 48 => ⟨S32768x128, .f32⟩
  | 49 => ⟨S256x128x128, .f32⟩
  | 50 => ⟨S128x128, .f32⟩
  | 51 => ⟨S128x128, .bf16⟩
  | 52 => ⟨S1x128, .bf16⟩
  | 53 => ⟨S128x128, .f32⟩
  | 54 => ⟨S128x128, .bf16⟩
  | 55 => ⟨S1x128, .bf16⟩
  | 56 => ⟨S1x128, .f32⟩
  | 57 => ⟨S1x1, .f32⟩
  | 58 => ⟨S1x128, .f32⟩
  | 59 => ⟨S1x1, .f32⟩
  | 60 => ⟨S256x128, .f32⟩
  | 61 => ⟨S256x128, .f32⟩
  | _ => ⟨S256x128x128, .f32⟩

abbrev hbmTy (i : Nat) : BufTy := match i / 128 with
  | 0 => hbmTy0_0 i
  | 1 => hbmTy0_1 i
  | _ => ⟨S256x128x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S128x1024, .bf16⟩
  | .local _ .vmem, ⟨3, _⟩ => ⟨S8192x1024, .bf16⟩
  | .local _ .vmem, ⟨4, _⟩ => ⟨S8192x1024, .bf16⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x1, .f32⟩
  | .local _ .vmem, ⟨12, _⟩ => ⟨S4096x1, .f32⟩
  | .local _ .vmem, ⟨13, _⟩ => ⟨S4096x1, .f32⟩
  | .local _ .vmem, ⟨14, _⟩ => ⟨S4096x1, .f32⟩
  | .local _ .vmem, ⟨15, _⟩ => ⟨S1x256, .f32⟩
  | .local _ .vmem, ⟨16, _⟩ => ⟨S1x256, .f32⟩
  | .local _ .vmem, ⟨17, _⟩ => ⟨S4096x128, .f32⟩
  | .local _ .vmem, ⟨18, _⟩ => ⟨S4096x128, .f32⟩
  | .local _ .vmem, ⟨19, _⟩ => ⟨S256x384, .bf16⟩
  | .local _ .vmem, ⟨20, _⟩ => ⟨S128x384, .bf16⟩
  | .local _ .vmem, ⟨21, _⟩ => ⟨S1x384, .f32⟩
  | .local _ .vmem, ⟨22, _⟩ => ⟨S1x384, .f32⟩
  | .local _ .vmem, ⟨23, _⟩ => ⟨S4096x128, .f32⟩
  | .local _ .vmem, ⟨24, _⟩ => ⟨S4096x128, .f32⟩
  | .local _ .vmem, ⟨25, _⟩ => ⟨S8192x128, .f32⟩
  | .local _ .vmem, ⟨26, _⟩ => ⟨S8192x128, .f32⟩
  | .local _ .vmem, ⟨27, _⟩ => ⟨S128x1024, .bf16⟩
  | .local _ .vmem, ⟨28, _⟩ => ⟨S8192x1024, .bf16⟩
  | .local _ .vmem, ⟨29, _⟩ => ⟨S8192x1024, .bf16⟩
  | .local _ .vmem, ⟨30, _⟩ => ⟨S4096x256, .f32⟩
  | .local _ .vmem, ⟨31, _⟩ => ⟨S4096x256, .f32⟩
  | .local _ .vmem, ⟨32, _⟩ => ⟨S4096x256, .f32⟩
  | .local _ .vmem, ⟨33, _⟩ => ⟨S4096x256, .f32⟩
  | .local _ .vmem, ⟨34, _⟩ => ⟨S4096x256, .f32⟩
  | .local _ .vmem, ⟨35, _⟩ => ⟨S4096x256, .f32⟩
  | .local _ .vmem, ⟨36, _⟩ => ⟨S4096x1, .f32⟩
  | .local _ .vmem, ⟨37, _⟩ => ⟨S4096x1, .f32⟩
  | .local _ .vmem, ⟨38, _⟩ => ⟨S4096x1, .f32⟩
  | .local _ .vmem, ⟨39, _⟩ => ⟨S4096x1, .f32⟩
  | .local _ .vmem, ⟨40, _⟩ => ⟨S1x256, .f32⟩
  | .local _ .vmem, ⟨41, _⟩ => ⟨S1x256, .f32⟩
  | .local _ .vmem, ⟨42, _⟩ => ⟨S4096x128, .f32⟩
  | .local _ .vmem, ⟨43, _⟩ => ⟨S4096x128, .f32⟩
  | .local _ .vmem, ⟨44, _⟩ => ⟨S256x384, .bf16⟩
  | .local _ .vmem, ⟨45, _⟩ => ⟨S128x384, .bf16⟩
  | .local _ .vmem, ⟨46, _⟩ => ⟨S1x384, .f32⟩
  | .local _ .vmem, ⟨47, _⟩ => ⟨S1x384, .f32⟩
  | .local _ .vmem, ⟨48, _⟩ => ⟨S4096x128, .f32⟩
  | .local _ .vmem, ⟨49, _⟩ => ⟨S4096x128, .f32⟩
  | .local _ .vmem, ⟨50, _⟩ => ⟨S32x128x128, .f32⟩
  | .local _ .vmem, ⟨51, _⟩ => ⟨S32x128x128, .f32⟩
  | .local _ .vmem, ⟨52, _⟩ => ⟨S128x128, .bf16⟩
  | .local _ .vmem, ⟨53, _⟩ => ⟨S1x128, .f32⟩
  | .local _ .vmem, ⟨54, _⟩ => ⟨S1x128, .bf16⟩
  | .local _ .vmem, ⟨55, _⟩ => ⟨S1x1, .f32⟩
  | .local _ .vmem, ⟨56, _⟩ => ⟨S128x128, .bf16⟩
  | .local _ .vmem, ⟨57, _⟩ => ⟨S1x128, .f32⟩
  | .local _ .vmem, ⟨58, _⟩ => ⟨S1x128, .bf16⟩
  | .local _ .vmem, ⟨59, _⟩ => ⟨S1x1, .f32⟩
  | .local _ .vmem, ⟨60, _⟩ => ⟨S32x128, .f32⟩
  | .local _ .vmem, ⟨61, _⟩ => ⟨S32x128, .f32⟩
  | .local _ .vmem, ⟨62, _⟩ => ⟨S32x128, .f32⟩
  | .local _ .vmem, ⟨63, _⟩ => ⟨S32x128, .f32⟩
  | _, _ => ⟨S256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c : Ref sig .tc := ⟨.hbm, 58, rfl⟩
abbrev main_v37 : Ref sig .tc := ⟨.hbm, 59, rfl⟩
abbrev main_v38 : Ref sig .tc := ⟨.hbm, 60, rfl⟩
abbrev main_c_2 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_3 : Ref sig .tc := ⟨.hbm, 67, rfl⟩
abbrev main_v44 : Ref sig .tc := ⟨.hbm, 68, rfl⟩
abbrev main_v45 : Ref sig .tc := ⟨.hbm, 69, rfl⟩
abbrev main_c_4 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_5 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_c_6 : Ref sig .tc := ⟨.hbm, 129, rfl⟩
abbrev main_v103 : Ref sig .tc := ⟨.hbm, 130, rfl⟩
abbrev main_v104 : Ref sig .tc := ⟨.hbm, 131, rfl⟩
abbrev main_c_7 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_c_8 : Ref sig .tc := ⟨.hbm, 138, rfl⟩
abbrev main_v110 : Ref sig .tc := ⟨.hbm, 139, rfl⟩
abbrev main_v111 : Ref sig .tc := ⟨.hbm, 140, rfl⟩
abbrev main_c_9 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_10 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157_0 : Ref sig .tc := ⟨.hbm, 188, rfl⟩
abbrev main_v157_1 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg12_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg10_0 : Ref sig .tc := ⟨.vmem, 46, rfl⟩
abbrev cc3_stg11_0 : Ref sig .tc := ⟨.vmem, 47, rfl⟩
abbrev cc3_stg12_0 : Ref sig .tc := ⟨.vmem, 48, rfl⟩
abbrev cc3_stg12_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg8_0 : Ref sig .tc := ⟨.vmem, 59, rfl⟩
abbrev cc4_stg9_0 : Ref sig .tc := ⟨.vmem, 60, rfl⟩
abbrev cc4_stg9_1 : Ref sig .tc := ⟨.vmem, 61, rfl⟩
abbrev cc4_stg10_0 : Ref sig .tc := ⟨.vmem, 62, rfl⟩
abbrev cc4_stg10_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem12_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem6_0 : DmaSem sig := 41
abbrev cc3_sem7_0 : DmaSem sig := 42
abbrev cc3_sem7_1 : DmaSem sig := 43
abbrev cc3_sem8_0 : DmaSem sig := 44
abbrev cc3_sem9_0 : DmaSem sig := 45
abbrev cc3_sem10_0 : DmaSem sig := 46
abbrev cc3_sem11_0 : DmaSem sig := 47
abbrev cc3_sem12_0 : DmaSem sig := 48
abbrev cc3_sem12_1 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem8_0 : DmaSem sig := 59
abbrev cc4_sem9_0 : DmaSem sig := 60
abbrev cc4_sem9_1 : DmaSem sig := 61
abbrev cc4_sem10_0 : DmaSem sig := 62
abbrev cc4_sem10_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S256x384 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x384 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S4096x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S256x384 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x384 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x384 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x384 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S4096x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S32x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S32x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S32x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  shapeCasts_S256x128x128_S32768x128 : S256x128x128.ShapeCasts S32768x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S32768 : S_.BroadcastsInDim S32768 (![] : Fin 0 → Fin S32768.rank)
  bcast_S262144_S262144x1_0 : S262144.BroadcastsInDim S262144x1 (![0] : Fin 1 → Fin S262144x1.rank)
  bcast_S32768_S32768x1_0 : S32768.BroadcastsInDim S32768x1 (![0] : Fin 1 → Fin S32768x1.rank)
  slices_S2x256x256_S1x256x256_0_0_0 : S2x256x256.Slices ![0, 0, 0] S1x256x256
  shapeCasts_S1x256x256_S256x256 : S1x256x256.ShapeCasts S256x256
  slices_S256x256_S256x128_0_0 : S256x256.Slices ![0, 0] S256x128
  transposes_S256x128_S128x256_1_0 : S256x128.Transposes [1, 0] S128x256
  slices_S256x256_S256x128_0_128 : S256x256.Slices ![0, 128] S256x128
  concatenates_S128x256_S128x256_S128x256_S128x256_S128x1024_d1 : Shape.Concatenates [S128x256, S128x256, S128x256, S128x256] S128x1024 1
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S8192x1024_S8192x1024_0_0 : ∀ a, (![0, 0] : Fin 2 → Nat) a + S8192x1024.size a ≤ S8192x1024.size a
  h_S8192x1024 : 0 < S8192x1024.numel
  packedbf16_S8192x1024_S8192x1024_0_0 : (Rect.unit (s := S8192x1024) ![0, 0] S8192x1024.size inb_S8192x1024_S8192x1024_0_0).PackedRows (EltTy.packing .bf16)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  concatenates_S262144x256_S262144x256_S524288x256_d0 : Shape.Concatenates [S262144x256, S262144x256] S524288x256 0
  concatenates_S262144_S262144_S524288_d0 : Shape.Concatenates [S262144, S262144] S524288 0
  bcast_S_S32768x256 : S_.BroadcastsInDim S32768x256 (![] : Fin 0 → Fin S32768x256.rank)
  bcast_S524288_S524288x1_0 : S524288.BroadcastsInDim S524288x1 (![0] : Fin 1 → Fin S524288x1.rank)
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S2x256_S1x256_0_0 : S2x256.Slices ![0, 0] S1x256
  shapeCasts_S1x256_S256 : S1x256.ShapeCasts S256
  slices_S2x384_S1x384_0_0 : S2x384.Slices ![0, 0] S1x384
  shapeCasts_S1x384_S384 : S1x384.ShapeCasts S384
  shapeCasts_S256_S1x256 : S256.ShapeCasts S1x256
  shapeCasts_S384_S1x384 : S384.ShapeCasts S1x384
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  broadcasts_S4096x1_S4096x256 : S4096x1.Broadcasts S4096x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  slices_S2x256x256_S1x256x256_1_0_0 : S2x256x256.Slices ![1, 0, 0] S1x256x256
  slices_S2x384x256_S1x384x256_1_0_0 : S2x384x256.Slices ![1, 0, 0] S1x384x256
  slices_S2x384x128_S1x384x128_1_0_0 : S2x384x128.Slices ![1, 0, 0] S1x384x128
  slices_S2x256_S1x256_1_0 : S2x256.Slices ![1, 0] S1x256
  slices_S2x384_S1x384_1_0 : S2x384.Slices ![1, 0] S1x384
  reduces_S4096x128_S4096 : S4096x128.Reduces [1] S4096
  shapeCasts_S4096_S4096x1 : S4096.ShapeCasts S4096x1
  broadcasts_S4096x1_S4096x128 : S4096x1.Broadcasts S4096x128
  shapeCasts_S32768x128_S256x128x128 : S32768x128.ShapeCasts S256x128x128
  transposes_S128x128_S128x128_1_0 : S128x128.Transposes [1, 0] S128x128
  shapeCasts_S128_S1x128 : S128.ShapeCasts S1x128
  shapeCasts_S1_S1x1 : S1.ShapeCasts S1x1
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  shapeCasts_S32x128x128_S4096x128 : S32x128x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x128_S32x128x128 : S4096x128.ShapeCasts S32x128x128
  reduces_S32x128x128_S32x128 : S32x128x128.Reduces [1] S32x128
  reduces_S32x128_S32 : S32x128.Reduces [1] S32
  shapeCasts_S32_S32x1 : S32.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  scatter_S32768_S262144x1_S262144_n_0_0_1_wf : ScatterDims.WF S32768 S262144x1 S262144 [] [0] [0] 1
  dot_S8192x128_S128x1024_S8192x1024_1_0_0_1_n_n_wf : DotDims.WF S8192x128 S128x1024 S8192x1024 [1] [0] [0] [1] [] []
  gather_S32768x256_S262144x1_S262144x256_1_0_n_n_0_1_1256_wf : GatherDims.WF S32768x256 S262144x1 S262144x256 [1] [0] [] [0] [] 1 ![1, 256]
  scatter_S32768x256_S524288x1_S524288x256_1_0_0_1_wf : ScatterDims.WF S32768x256 S524288x1 S524288x256 [1] [0] [0] 1
  dot_S4096x256_S256x384_S4096x384_1_0_0_1_n_n_wf : DotDims.WF S4096x256 S256x384 S4096x384 [1] [0] [0] [1] [] []
  dot_S4096x128_S128x384_S4096x384_1_0_0_1_n_n_wf : DotDims.WF S4096x128 S128x384 S4096x384 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S32768x128.size a
  hwx0_0 : ∀ i : grid0.Coords, EltTy.bits .f32 = 32 ∨ (Rect.block (s := S32768x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1024.size a ≤ S32768x1024.size a
  hwx0_2 : ∀ i : grid0.Coords, EltTy.bits .bf16 = 32 ∨ (Rect.block (s := S32768x1024) S8192x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S32768x256.size a
  hwx1_0 : ∀ i : grid1.Coords, EltTy.bits .f32 = 32 ∨ (Rect.block (s := S32768x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S32768x256.size a
  hwx1_1 : ∀ i : grid1.Coords, EltTy.bits .f32 = 32 ∨ (Rect.block (s := S32768x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S32768x256.size a
  hwx1_2 : ∀ i : grid1.Coords, EltTy.bits .f32 = 32 ∨ (Rect.block (s := S32768x256) S4096x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S32768x1.size a
  hwx1_3 : ∀ i : grid1.Coords, EltTy.bits .f32 = 32 ∨ (Rect.block (s := S32768x1) S4096x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x1.size a ≤ S32768x1.size a
  hwx1_4 : ∀ i : grid1.Coords, EltTy.bits .f32 = 32 ∨ (Rect.block (s := S32768x1) S4096x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x128.size a ≤ S32768x128.size a
  hwx1_7 : ∀ i : grid1.Coords, EltTy.bits .f32 = 32 ∨ (Rect.block (s := S32768x128) S4096x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x384.size a ≤ S256x384.size a
  hwx1_8 : ∀ i : grid1.Coords, EltTy.bits .bf16 = 32 ∨ (Rect.block (s := S256x384) S256x384.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x384.size a ≤ S128x384.size a
  hwx1_9 : ∀ i : grid1.Coords, EltTy.bits .bf16 = 32 ∨ (Rect.block (s := S128x384) S128x384.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x384.size a ≤ S1x384.size a
  hwx1_10 : ∀ i : grid1.Coords, EltTy.bits .f32 = 32 ∨ (Rect.block (s := S1x384) S1x384.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x384.size a ≤ S1x384.size a
  hwx1_11 : ∀ i : grid1.Coords, EltTy.bits .f32 = 32 ∨ (Rect.block (s := S1x384) S1x384.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S4096x128.size a ≤ S32768x128.size a
  hwx1_12 : ∀ i : grid1.Coords, EltTy.bits .f32 = 32 ∨ (Rect.block (s := S32768x128) S4096x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S32768x128.size a
  hwx2_0 : ∀ i : grid2.Coords, EltTy.bits .f32 = 32 ∨ (Rect.block (s := S32768x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S128x1024.size a
  hwx2_1 : ∀ i : grid2.Coords, EltTy.bits .bf16 = 32 ∨ (Rect.block (s := S128x1024) S128x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x1024.size a ≤ S32768x1024.size a
  hwx2_2 : ∀ i : grid2.Coords, EltTy.bits .bf16 = 32 ∨ (Rect.block (s := S32768x1024) S8192x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S32768x256.size a
  hwx3_0 : ∀ i : grid3.Coords, EltTy.bits .f32 = 32 ∨ (Rect.block (s := S32768x256) S4096x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x256.size a ≤ S32768x256.size a
  hwx3_1 : ∀ i : grid3.Coords, EltTy.bits .f32 = 32 ∨ (Rect.block (s := S32768x256) S4096x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S32768x256.size a
  hwx3_2 : ∀ i : grid3.Coords, EltTy.bits .f32 = 32 ∨ (Rect.block (s := S32768x256) S4096x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x1.size a ≤ S32768x1.size a
  hwx3_3 : ∀ i : grid3.Coords, EltTy.bits .f32 = 32 ∨ (Rect.block (s := S32768x1) S4096x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x1.size a ≤ S32768x1.size a
  hwx3_4 : ∀ i : grid3.Coords, EltTy.bits .f32 = 32 ∨ (Rect.block (s := S32768x1) S4096x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x128.size a ≤ S32768x128.size a
  hwx3_7 : ∀ i : grid3.Coords, EltTy.bits .f32 = 32 ∨ (Rect.block (s := S32768x128) S4096x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x384.size a ≤ S256x384.size a
  hwx3_8 : ∀ i : grid3.Coords, EltTy.bits .bf16 = 32 ∨ (Rect.block (s := S256x384) S256x384.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x384.size a ≤ S128x384.size a
  hwx3_9 : ∀ i : grid3.Coords, EltTy.bits .bf16 = 32 ∨ (Rect.block (s := S128x384) S128x384.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x384.size a ≤ S1x384.size a
  hwx3_10 : ∀ i : grid3.Coords, EltTy.bits .f32 = 32 ∨ (Rect.block (s := S1x384) S1x384.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x384.size a ≤ S1x384.size a
  hwx3_11 : ∀ i : grid3.Coords, EltTy.bits .f32 = 32 ∨ (Rect.block (s := S1x384) S1x384.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S4096x128.size a ≤ S32768x128.size a
  hwx3_12 : ∀ i : grid3.Coords, EltTy.bits .f32 = 32 ∨ (Rect.block (s := S32768x128) S4096x128.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x128x128.size a ≤ S256x128x128.size a
  hwx4_0 : ∀ i : grid4.Coords, EltTy.bits .f32 = 32 ∨ (Rect.block (s := S256x128x128) S32x128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .bf16 = 32 ∨ (Rect.block (s := S1x128) S1x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .bf16 = 32 ∨ (Rect.block (s := S128x128) S128x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .bf16 = 32 ∨ (Rect.block (s := S1x128) S1x128.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S32x128.size a ≤ S256x128.size a
  hwx4_9 : ∀ i : grid4.Coords, EltTy.bits .f32 = 32 ∨ (Rect.block (s := S256x128) S32x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S32x128.size a ≤ S256x128.size a
  hwx4_10 : ∀ i : grid4.Coords, EltTy.bits .f32 = 32 ∨ (Rect.block (s := S256x128) S32x128.size (cc4_transform_10 i) (hinb4_10 i)).WholeWords (EltTy.packing .f32)

variable [Facts₀]

def scatter_S32768_S262144x1_S262144_n_0_0_1 : ScatterDims S32768 S262144x1 S262144 where
  updateWindowDims := []
  insertedWindowDims := [0]
  scatterDimsToOperandDims := [0]
  indexVectorDim := 1
  wf := scatter_S32768_S262144x1_S262144_n_0_0_1_wf
def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def gather_S32768x256_S262144x1_S262144x256_1_0_n_n_0_1_1256 : GatherDims S32768x256 S262144x1 S262144x256 where
  offsetDims := [1]
  collapsedSliceDims := [0]
  operandBatchingDims := []
  startIndicesBatchingDims := []
  startIndexMap := [0]
  indexVectorDim := 1
  sliceSizes := ![1, 256]
  wf := gather_S32768x256_S262144x1_S262144x256_1_0_n_n_0_1_1256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S8192x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4096x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S4096x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v73) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S4096x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v77) S256x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v78) S128x384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v75) S1x384.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v76) S1x384.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v79) S4096x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v79) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v97) S128x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v98) S8192x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v122) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v123) S4096x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v124) S4096x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S4096x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S4096x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v139) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v140) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v79) S4096x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v143) S256x384.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v144) S128x384.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v141) S1x384.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v142) S1x384.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v145) S4096x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v146) S32x128x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v148) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v153) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v149) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v154) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v151) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v155) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v152) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v156) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v157_0) S32x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v157_1) S32x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S32768x128 : Shape := ⟨2, ![32768, 128]⟩
abbrev S1x262144 : Shape := ⟨2, ![1, 262144]⟩
abbrev S262144 : Shape := ⟨1, ![262144]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S262144x256 : Shape := ⟨2, ![262144, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S32768x256 : Shape := ⟨2, ![32768, 256]⟩
abbrev S1x384x256 : Shape := ⟨3, ![1, 384, 256]⟩
abbrev S384x256 : Shape := ⟨2, ![384, 256]⟩
abbrev S256x384 : Shape := ⟨2, ![256, 384]⟩
abbrev S32768x384 : Shape := ⟨2, ![32768, 384]⟩
abbrev S1x384 : Shape := ⟨2, ![1, 384]⟩
abbrev S384 : Shape := ⟨1, ![384]⟩
abbrev S1x384x128 : Shape := ⟨3, ![1, 384, 128]⟩
abbrev S384x128 : Shape := ⟨2, ![384, 128]⟩
abbrev S128x384 : Shape := ⟨2, ![128, 384]⟩
abbrev S32768 : Shape := ⟨1, ![32768]⟩
abbrev S32768x1 : Shape := ⟨2, ![32768, 1]⟩
abbrev S128x1 : Shape := ⟨2, ![128, 1]⟩
abbrev S1x1 : Shape := ⟨2, ![1, 1]⟩
abbrev S256x128 : Shape := ⟨2, ![256, 128]⟩
abbrev S256x1 : Shape := ⟨2, ![256, 1]⟩

abbrev nBuf : Space → Nat
  | .hbm => 296
  | .vmem => 0
  | .smem => 0
  | _ => 0

abbrev hbmTy0_0 (i : Nat) : BufTy := match i % 128 with
  | 0 => ⟨S256x128x128, .f32⟩
  | 1 => ⟨S2x262144, .i32⟩
  | 2 => ⟨S2x256x256, .f32⟩
  | 3 => ⟨S2x256, .f32⟩
  | 4 => ⟨S2x256x256, .f32⟩
  | 5 => ⟨S2x256, .f32⟩
  | 6 => ⟨S2x384x256, .f32⟩
  | 7 => ⟨S2x384x128, .f32⟩
  | 8 => ⟨S2x384, .f32⟩
  | 9 => ⟨S2x384, .f32⟩
  | 10 => ⟨S128x128, .f32⟩
  | 11 => ⟨S128, .f32⟩
  | 12 => ⟨S1x128, .f32⟩
  | 13 => ⟨S1, .f32⟩
  | 14 => ⟨S128x128, .f32⟩
  | 15 => ⟨S128, .f32⟩
  | 16 => ⟨S1x128, .f32⟩
  | 17 => ⟨S1, .f32⟩
  | 18 => ⟨S32768x128, .f32⟩
  | 19 => ⟨S1x262144, .i32⟩
  | 20 => ⟨S262144, .i32⟩
  | 21 => ⟨S1x262144, .i32⟩
  | 22 => ⟨S262144, .i32⟩
  | 23 => ⟨S524288, .i32⟩
  | 24 => ⟨S1x262144, .i32⟩
  | 25 => ⟨S262144, .i32⟩
  | 26 => ⟨S1x262144, .i32⟩
  | 27 => ⟨S262144, .i32⟩
  | 28 => ⟨S524288, .i32⟩
  | 29 => ⟨S_, .i32⟩
  | 30 => ⟨S524288, .i32⟩
  | 31 => ⟨S524288, .i1⟩
  | 32 => ⟨S_, .i32⟩
  | 33 => ⟨S524288, .i32⟩
  | 34 => ⟨S524288, .i32⟩
  | 35 => ⟨S524288, .i32⟩
  | 36 => ⟨S524288x1, .i32⟩
  | 37 => ⟨S524288x128, .f32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S524288x1, .i32⟩
  | 46 => ⟨S524288x128, .f32⟩
  | 47 => ⟨S524288x256, .f32⟩
  | 48 => ⟨S262144x256, .f32⟩
  | 49 => ⟨S1x256x256, .f32⟩
  | 50 => ⟨S256x256, .f32⟩
  | 51 => ⟨S256x256, .f32⟩
  | 52 => ⟨S262144x256, .f32⟩
  | 53 => ⟨S1x256, .f32⟩
  | 54 => ⟨S256, .f32⟩
  | 55 => ⟨S1x256, .f32⟩
  | 56 => ⟨S262144x256, .f32⟩
  | 57 => ⟨S262144x256, .f32⟩
  | 58 => ⟨S262144x256, .f32⟩
  | 59 => ⟨S1x256x256, .f32⟩
  | 60 => ⟨S256x256, .f32⟩
  | 61 => ⟨S256x256, .f32⟩
  | 62 => ⟨S262144x256, .f32⟩
  | 63 => ⟨S1x256, .f32⟩
  | 64 => ⟨S256, .f32⟩
  | 65 => ⟨S1x256, .f32⟩
  | 66 => ⟨S262144x256, .f32⟩
  | 67 => ⟨S262144x256, .f32⟩
  | 68 => ⟨S524288x256, .f32⟩
  | 69 => ⟨S_, .f32⟩
  | 70 => ⟨S32768x256, .f32⟩
  | 71 => ⟨S524288x1, .i32⟩
  | 72 => ⟨S32768x256, .f32⟩
  | 73 => ⟨S1x384x256, .f32⟩
  | 74 => ⟨S384x256, .f32⟩
  | 75 => ⟨S256x384, .f32⟩
  | 76 => ⟨S32768x384, .f32⟩
  | 77 => ⟨S1x384, .f32⟩
  | 78 => ⟨S384, .f32⟩
  | 79 => ⟨S1x384, .f32⟩
  | 80 => ⟨S32768x384, .f32⟩
  | 81 => ⟨S32768x384, .f32⟩
  | 82 => ⟨S1x384x128, .f32⟩
  | 83 => ⟨S384x128, .f32⟩
  | 84 => ⟨S128x384, .f32⟩
  | 85 => ⟨S32768x384, .f32⟩
  | 86 => ⟨S1x384, .f32⟩
  | 87 => ⟨S384, .f32⟩
  | 88 => ⟨S1x384, .f32⟩
  | 89 => ⟨S32768x384, .f32⟩
  | 90 => ⟨S32768x384, .f32⟩
  | 91 => ⟨S32768x128, .f32⟩
  | 92 => ⟨S32768x128, .f32⟩
  | 93 => ⟨S32768x128, .f32⟩
  | 94 => ⟨S32768x128, .f32⟩
  | 95 => ⟨S32768x128, .f32⟩
  | 96 => ⟨S32768x128, .f32⟩
  | 97 => ⟨S32768x128, .f32⟩
  | 98 => ⟨S32768x128, .f32⟩
  | 99 => ⟨S32768x128, .f32⟩
  | 100 => ⟨S_, .f32⟩
  | 101 => ⟨S32768x128, .f32⟩
  | 102 => ⟨S32768x128, .f32⟩
  | 103 => ⟨S_, .f32⟩
  | 104 => ⟨S32768x128, .f32⟩
  | 105 => ⟨S32768x128, .f32⟩
  | 106 => ⟨S32768x128, .f32⟩
  | 107 => ⟨S32768x128, .f32⟩
  | 108 => ⟨S32768x128, .f32⟩
  | 109 => ⟨S_, .f32⟩
  | 110 => ⟨S32768x128, .f32⟩
  | 111 => ⟨S32768x128, .f32⟩
  | 112 => ⟨S_, .f32⟩
  | 113 => ⟨S32768x128, .f32⟩
  | 114 => ⟨S32768x128, .f32⟩
  | 115 => ⟨S32768x128, .f32⟩
  | 116 => ⟨S32768x128, .f32⟩
  | 117 => ⟨S32768x128, .f32⟩
  | 118 => ⟨S_, .f32⟩
  | 119 => ⟨S32768x128, .f32⟩
  | 120 => ⟨S32768x128, .f32⟩
  | 121 => ⟨S32768x128, .f32⟩
  | 122 => ⟨S32768x128, .f32⟩
  | 123 => ⟨S32768x128, .f32⟩
  | 124 => ⟨S_, .i32⟩
  | 125 => ⟨S524288, .i32⟩
  | 126 => ⟨S524288, .i1⟩
  | 127 => ⟨S_, .i32⟩
  | _ => ⟨S256x128x128, .f32⟩

abbrev hbmTy0_1 (i : Nat) : BufTy := match i % 128 with
  | 0 => ⟨S524288, .i32⟩
  | 1 => ⟨S524288, .i32⟩
  | 2 => ⟨S524288, .i32⟩
  | 3 => ⟨S524288x1, .i32⟩
  | 4 => ⟨S524288x128, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S524288x128, .f32⟩
  | 14 => ⟨S524288x256, .f32⟩
  | 15 => ⟨S262144x256, .f32⟩
  | 16 => ⟨S1x256x256, .f32⟩
  | 17 => ⟨S256x256, .f32⟩
  | 18 => ⟨S256x256, .f32⟩
  | 19 => ⟨S262144x256, .f32⟩
  | 20 => ⟨S1x256, .f32⟩
  | 21 => ⟨S256, .f32⟩
  | 22 => ⟨S1x256, .f32⟩
  | 23 => ⟨S262144x256, .f32⟩
  | 24 => ⟨S262144x256, .f32⟩
  | 25 => ⟨S262144x256, .f32⟩
  | 26 => ⟨S1x256x256, .f32⟩
  | 27 => ⟨S256x256, .f32⟩
  | 28 => ⟨S256x256, .f32⟩
  | 29 => ⟨S262144x256, .f32⟩
  | 30 => ⟨S1x256, .f32⟩
  | 31 => ⟨S256, .f32⟩
  | 32 => ⟨S1x256, .f32⟩
  | 33 => ⟨S262144x256, .f32⟩
  | 34 => ⟨S262144x256, .f32⟩
  | 35 => ⟨S524288x256, .f32⟩
  | 36 => ⟨S_, .f32⟩
  | 37 => ⟨S32768x256, .f32⟩
  | 38 => ⟨S524288x1, .i32⟩
  | 39 => ⟨S32768x256, .f32⟩
  | 40 => ⟨S1x384x256, .f32⟩
  | 41 => ⟨S384x256, .f32⟩
  | 42 => ⟨S256x384, .f32⟩
  | 43 => ⟨S32768x384, .f32⟩
  | 44 => ⟨S1x384, .f32⟩
  | 45 => ⟨S384, .f32⟩
  | 46 => ⟨S1x384, .f32⟩
  | 47 => ⟨S32768x384, .f32⟩
  | 48 => ⟨S32768x384, .f32⟩
  | 49 => ⟨S1x384x128, .f32⟩
  | 50 => ⟨S384x128, .f32⟩
  | 51 => ⟨S128x384, .f32⟩
  | 52 => ⟨S32768x384, .f32⟩
  | 53 => ⟨S1x384, .f32⟩
  | 54 => ⟨S384, .f32⟩
  | 55 => ⟨S1x384, .f32⟩
  | 56 => ⟨S32768x384, .f32⟩
  | 57 => ⟨S32768x384, .f32⟩
  | 58 => ⟨S32768x128, .f32⟩
  | 59 => ⟨S32768x128, .f32⟩
  | 60 => ⟨S32768x128, .f32⟩
  | 61 => ⟨S32768x128, .f32⟩
  | 62 => ⟨S32768x128, .f32⟩
  | 63 => ⟨S32768x128, .f32⟩
  | 64 => ⟨S32768x128, .f32⟩
  | 65 => ⟨S32768x128, .f32⟩
  | 66 => ⟨S32768x128, .f32⟩
  | 67 => ⟨S_, .f32⟩
  | 68 => ⟨S32768x128, .f32⟩
  | 69 => ⟨S32768x128, .f32⟩
  | 70 => ⟨S_, .f32⟩
  | 71 => ⟨S32768x128, .f32⟩
  | 72 => ⟨S32768x128, .f32⟩
  | 73 => ⟨S32768x128, .f32⟩
  | 74 => ⟨S32768x128, .f32⟩
  | 75 => ⟨S32768x128, .f32⟩
  | 76 => ⟨S_, .f32⟩
  | 77 => ⟨S32768x128, .f32⟩
  | 78 => ⟨S32768x128, .f32⟩
  | 79 => ⟨S_, .f32⟩
  | 80 => ⟨S32768x128, .f32⟩
  | 81 => ⟨S32768x128, .f32⟩
  | 82 => ⟨S32768x128, .f32⟩
  | 83 => ⟨S32768x128, .f32⟩
  | 84 => ⟨S32768x128, .f32⟩
  | 85 => ⟨S_, .f32⟩
  | 86 => ⟨S32768x128, .f32⟩
  | 87 => ⟨S32768x128, .f32⟩
  | 88 => ⟨S32768x128, .f32⟩
  | 89 => ⟨S32768x128, .f32⟩
  | 90 => ⟨S32768x128, .f32⟩
  | 91 => ⟨S32768x128, .f32⟩
  | 92 => ⟨S_, .f32⟩
  | 93 => ⟨S32768, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S32768x128, .f32⟩
  | 100 => ⟨S32768x128, .f32⟩
  | 101 => ⟨S128x128, .f32⟩
  | 102 => ⟨S32768x128, .f32⟩
  | 103 => ⟨S1x128, .f32⟩
  | 104 => ⟨S32768x128, .f32⟩
  | 105 => ⟨S32768x128, .f32⟩
  | 106 => ⟨S128x1, .f32⟩
  | 107 => ⟨S32768x1, .f32⟩
  | 108 => ⟨S1x1, .f32⟩
  | 109 => ⟨S32768x1, .f32⟩
  | 110 => ⟨S32768x1, .f32⟩
  | 111 => ⟨S32768x1, .f32⟩
  | 112 => ⟨S32768x1, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x128, .f32⟩
  | 120 => ⟨S32768x128, .f32⟩
  | 121 => ⟨S256x128x128, .f32⟩
  | 122 => ⟨S_, .f32⟩
  | 123 => ⟨S256x128, .f32⟩
  | 124 => ⟨S256x128, .f32⟩
  | 125 => ⟨S_, .f32⟩
  | 126 => ⟨S256, .f32⟩
  | 127 => ⟨S256x1, .f32⟩
  | _ => ⟨S256x128x128, .f32⟩

abbrev hbmTy0_2 (i : Nat) : BufTy := match i % 128 with
  | 0 => ⟨S256x1, .f32⟩
  | 1 => ⟨S_, .f32⟩
  | 2 => ⟨S256x1, .f32⟩
  | 3 => ⟨S256x1, .f32⟩
  | 4 => ⟨S256x128, .f32⟩
  | 5 => ⟨S256x128, .f32⟩
  | 6 => ⟨S128x128, .f32⟩
  | 7 => ⟨S32768x128, .f32⟩
  | 8 => ⟨S1x128, .f32⟩
  | 9 => ⟨S32768x128, .f32⟩
  | 10 => ⟨S32768x128, .f32⟩
  | 11 => ⟨S128x1, .f32⟩
  | 12 => ⟨S32768x1, .f32⟩
  | 13 => ⟨S1x1, .f32⟩
  | 14 => ⟨S32768x1, .f32⟩
  | 15 => ⟨S32768x1, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x128, .f32⟩
  | 25 => ⟨S32768x128, .f32⟩
  | 26 => ⟨S256x128x128, .f32⟩
  | 27 => ⟨S_, .f32⟩
  | 28 => ⟨S256x128, .f32⟩
  | 29 => ⟨S256x128, .f32⟩
  | 30 => ⟨S_, .f32⟩
  | 31 => ⟨S256, .f32⟩
  | 32 => ⟨S256x1, .f32⟩
  | 33 => ⟨S256x1, .f32⟩
  | 34 => ⟨S_, .f32⟩
  | 35 => ⟨S256x1, .f32⟩
  | 36 => ⟨S256x1, .f32⟩
  | 37 => ⟨S256x128, .f32⟩
  | 38 => ⟨S256x128, .f32⟩
  | 39 => ⟨S256x128x128, .f32⟩
  | _ => ⟨S256x128x128, .f32⟩

abbrev hbmTy (i : Nat) : BufTy := match i / 128 with
  | 0 => hbmTy0_0 i
  | 1 => hbmTy0_1 i
  | 2 => hbmTy0_2 i
  | _ => ⟨S256x128x128, .f32⟩

abbrev bufTy : (tb : Table) → Fin (tcTables nBuf tb) → BufTy
  | .hbm, ⟨i, _⟩ => hbmTy i
  | _, _ => ⟨S256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_3 : Ref sig .tc := ⟨.hbm, 100, rfl⟩
abbrev main_v77 : Ref sig .tc := ⟨.hbm, 101, rfl⟩
abbrev main_v78 : Ref sig .tc := ⟨.hbm, 102, rfl⟩
abbrev main_cst_4 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_5 : Ref sig .tc := ⟨.hbm, 109, rfl⟩
abbrev main_v84 : Ref sig .tc := ⟨.hbm, 110, rfl⟩
abbrev main_v85 : Ref sig .tc := ⟨.hbm, 111, rfl⟩
abbrev main_cst_6 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_7 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_8 : Ref sig .tc := ⟨.hbm, 124, rfl⟩
abbrev main_v96 : Ref sig .tc := ⟨.hbm, 125, rfl⟩
abbrev main_v97 : Ref sig .tc := ⟨.hbm, 126, rfl⟩
abbrev main_c_9 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_c_10 : Ref sig .tc := ⟨.hbm, 133, rfl⟩
abbrev main_v103 : Ref sig .tc := ⟨.hbm, 134, rfl⟩
abbrev main_v104 : Ref sig .tc := ⟨.hbm, 135, rfl⟩
abbrev main_c_11 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_12 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_13 : Ref sig .tc := ⟨.hbm, 195, rfl⟩
abbrev main_v162 : Ref sig .tc := ⟨.hbm, 196, rfl⟩
abbrev main_v163 : Ref sig .tc := ⟨.hbm, 197, rfl⟩
abbrev main_cst_14 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_cst_15 : Ref sig .tc := ⟨.hbm, 204, rfl⟩
abbrev main_v169 : Ref sig .tc := ⟨.hbm, 205, rfl⟩
abbrev main_v170 : Ref sig .tc := ⟨.hbm, 206, rfl⟩
abbrev main_cst_16 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_17 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_call0_v0 : Ref sig .tc := ⟨.hbm, 219, rfl⟩
abbrev main_call0_cst : Ref sig .tc := ⟨.hbm, 220, rfl⟩
abbrev main_call0_v1 : Ref sig .tc := ⟨.hbm, 221, rfl⟩
abbrev main_call0_v2 : Ref sig .tc := ⟨.hbm, 222, rfl⟩
abbrev main_v181 : Ref sig .tc := ⟨.hbm, 223, rfl⟩
abbrev main_cst_18 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_cst_19 : Ref sig .tc := ⟨.hbm, 241, rfl⟩
abbrev main_v198 : Ref sig .tc := ⟨.hbm, 242, rfl⟩
abbrev main_v199 : Ref sig .tc := ⟨.hbm, 243, rfl⟩
abbrev main_cst_20 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_cst_21 : Ref sig .tc := ⟨.hbm, 250, rfl⟩
abbrev main_v205 : Ref sig .tc := ⟨.hbm, 251, rfl⟩
abbrev main_call1_v0 : Ref sig .tc := ⟨.hbm, 252, rfl⟩
abbrev main_call1_cst : Ref sig .tc := ⟨.hbm, 253, rfl⟩
abbrev main_call1_v1 : Ref sig .tc := ⟨.hbm, 254, rfl⟩
abbrev main_call1_v2 : Ref sig .tc := ⟨.hbm, 255, rfl⟩
abbrev main_v206 : Ref sig .tc := ⟨.hbm, 256, rfl⟩
abbrev main_cst_22 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_cst_23 : Ref sig .tc := ⟨.hbm, 274, rfl⟩
abbrev main_v223 : Ref sig .tc := ⟨.hbm, 275, rfl⟩
abbrev main_v224 : Ref sig .tc := ⟨.hbm, 276, rfl⟩
abbrev main_cst_24 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_25 : Ref sig .tc := ⟨.hbm, 283, rfl⟩
abbrev main_v230 : Ref sig .tc := ⟨.hbm, 284, rfl⟩
abbrev main_call2_v0 : Ref sig .tc := ⟨.hbm, 285, rfl⟩
abbrev main_call2_cst : Ref sig .tc := ⟨.hbm, 286, rfl⟩
abbrev main_call2_v1 : Ref sig .tc := ⟨.hbm, 287, rfl⟩
abbrev main_call2_v2 : Ref sig .tc := ⟨.hbm, 288, rfl⟩
abbrev main_v231 : Ref sig .tc := ⟨.hbm, 289, rfl⟩
abbrev main_cst_26 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩

abbrev nD : Nat := 1
abbrev τ : Topo := Topo.v7x

variable {F : FTy → Type} [FloatOps F]

class Facts₀ : Prop where
  shapeCasts_S256x128x128_S32768x128 : S256x128x128.ShapeCasts S32768x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S262144_S524288_d0 : Shape.Concatenates [S262144, S262144] S524288 0
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  slices_S524288x256_S262144x256_0_0 : S524288x256.Slices ![0, 0] S262144x256
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S524288x256_S262144x256_262144_0 : S524288x256.Slices ![262144, 0] S262144x256
  concatenates_S262144x256_S262144x256_S524288x256_d0 : Shape.Concatenates [S262144x256, S262144x256] S524288x256 0
  bcast_S_S32768x256 : S_.BroadcastsInDim S32768x256 (![] : Fin 0 → Fin S32768x256.rank)
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S32768x384_0_1 : S1x384.BroadcastsInDim S32768x384 (![0, 1] : Fin 2 → Fin S32768x384.rank)
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S32768x384_S32768x128_0_0 : S32768x384.Slices ![0, 0] S32768x128
  slices_S32768x384_S32768x128_0_128 : S32768x384.Slices ![0, 128] S32768x128
  slices_S32768x384_S32768x128_0_256 : S32768x384.Slices ![0, 256] S32768x128
  bcast_S_S32768x128 : S_.BroadcastsInDim S32768x128 (![] : Fin 0 → Fin S32768x128.rank)
  slices_S2x256x256_S1x256x256_1_0_0 : S2x256x256.Slices ![1, 0, 0] S1x256x256
  slices_S2x256_S1x256_1_0 : S2x256.Slices ![1, 0] S1x256
  slices_S2x384x256_S1x384x256_1_0_0 : S2x384x256.Slices ![1, 0, 0] S1x384x256
  slices_S2x384_S1x384_1_0 : S2x384.Slices ![1, 0] S1x384
  slices_S2x384x128_S1x384x128_1_0_0 : S2x384x128.Slices ![1, 0, 0] S1x384x128
  reducesTo_S32768x128_S32768_d1 : S32768x128.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x128_0_1 : S32768x1.BroadcastsInDim S32768x128 (![0, 1] : Fin 2 → Fin S32768x128.rank)
  transposes_S128x128_S128x128_1_0 : S128x128.Transposes [1, 0] S128x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  transposes_S1x128_S128x1_1_0 : S1x128.Transposes [1, 0] S128x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x128_S256x128x128 : S32768x128.ShapeCasts S256x128x128
  reducesTo_S256x128x128_S256x128_d1 : S256x128x128.ReducesTo [1] S256x128
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  gather_S32768x128_S524288x1_S524288x128_1_0_n_n_0_1_1128_wf : GatherDims.WF S32768x128 S524288x1 S524288x128 [1] [0] [] [0] [] 1 ![1, 128]
  dot_S262144x256_S256x256_S262144x256_1_0_0_1_n_n_wf : DotDims.WF S262144x256 S256x256 S262144x256 [1] [0] [0] [1] [] []
  scatter_S32768x256_S524288x1_S524288x256_1_0_0_1_wf : ScatterDims.WF S32768x256 S524288x1 S524288x256 [1] [0] [0] 1
  dot_S32768x256_S256x384_S32768x384_1_0_0_1_n_n_wf : DotDims.WF S32768x256 S256x384 S32768x384 [1] [0] [0] [1] [] []
  dot_S32768x128_S128x384_S32768x384_1_0_0_1_n_n_wf : DotDims.WF S32768x128 S128x384 S32768x384 [1] [0] [0] [1] [] []
  dot_S32768x128_S128x128_S32768x128_1_0_0_1_n_n_wf : DotDims.WF S32768x128 S128x128 S32768x128 [1] [0] [0] [1] [] []
  dot_S32768x128_S128x1_S32768x1_1_0_0_1_n_n_wf : DotDims.WF S32768x128 S128x1 S32768x1 [1] [0] [0] [1] [] []

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S32768x256_S256x384_S32768x384_1_0_0_1_n_n : DotDims S32768x256 S256x384 S32768x384 where
  lhsContracting := [1]
  rhsContracting := [0]
  lhsNonContracting := [0]
  rhsNonContracting := [1]
  lhsBatch := []
  rhsBatch := []
  wf := dot_S32768x256_S256x384_S32768x384_1_0_0_1_n_n_wf
def dot_S32768x128_S128x384_S32768x384_1_0_0_1_n_n : DotDims S32768x128 S128x384 S32768x384 where
  lhsContracting := [1]
  rhsContracting := [0]
  lhsNonContracting := [0]
  rhsNonContracting := [1]
  lhsBatch := []
  rhsBatch := []
  wf := dot_S32768x128_S128x384_S32768x384_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x128_S128x1_S32768x1_1_0_0_1_n_n : DotDims S32768x128 S128x1 S32768x1 where
  lhsContracting := [1]
  rhsContracting := [0]
  lhsNonContracting := [0]
  rhsNonContracting := [1]
  lhsBatch := []
  rhsBatch := []
  wf := dot_S32768x128_S128x1_S32768x1_1_0_0_1_n_n_wf

class Facts : Prop extends Facts₀ where

variable [Facts]
-- ==== Proof.K.Reg0.lean ====
/- The frame of region 0 of @main: custom_call 0, `cc0__project_kernel` (pipeline 0), stated at a parameter
   `V`, the TensorCore's buffer contents when the region is entered, and at any float model `F`.

   The kernel projects a row block: it reads the whole 8192x128 f32 block of window 0 and the whole 128x1024 bf16
   matrix of window 1, and writes the 8192x1024 bf16 product over the whole block of window 2 in one store. Before
   that store it also loads window 2's buffer; the loaded value is never used, so what the buffer held does not
   matter. Window 1's block index is constant over the grid, so the pipeline fetches it only at the first point of
   each run of four; at the other points its buffer still holds the same block, because the body leaves it in place.

   Here: each window's block at a point (`iblk0`), what the body leaves in the output buffer (`out0_2`), the body's
   triple (`sound_kernel0`), the proof data (`dat0`) and the pipeline's body obligation (`body_obligation0`). -/
import proofs.«163521_j41618233098847_2_alg».proof.Proof.Gen.Kernel.Launch
import proofs.«163521_j41618233098847_2_alg».proof.Proof.Gen.Kernel.Skeleton
import proofs.«163521_j41618233098847_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the buffers here have axes of 8192 and 1024 coordinates
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rows of its array, as the region finds it, that the window's index
    map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the 8192x128 row block, fetched at every point) has its block in its current staging buffer when
    the body is called, for any proof data over the entry contents whose body leaves that block where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the 128x1024 matrix) is fetched only where `t % 4 = 0`. Its block index is the same at every point,
    so at a point where it is not fetched the buffer holds the previous point's block, which the body left in place
    and which is this point's block too: the same conclusion as for a window fetched everywhere. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S8192x128 := Rect.unit (s := S8192x128) ![0, 0] S8192x128.size inb_S8192x128_S8192x128_0_0
abbrev r0_1 : Rect S128x1024 := Rect.unit (s := S128x1024) ![0, 0] S128x1024.size inb_S128x1024_S128x1024_0_0
abbrev r0_2 : Rect S8192x1024 := Rect.unit (s := S8192x1024) ![0, 0] S8192x1024.size inb_S8192x1024_S8192x1024_0_0

/-! ## What the body leaves in the output window's buffer -/

/-- Window 2's staging buffer after the body, as a function of the two input blocks: the single store of the
    projected block `k0_pay1` (both inputs rounded to bf16, multiplied with f32 accumulation, rounded to bf16)
    over the whole buffer. -/
def out0_2 (x0 : Vec F S8192x128 .f32) (x1 : Vec F S128x1024 .bf16) : Vec F S8192x1024 .bf16 :=
  View.canon [⟨r0_2, k0_pay1 (View.ld x0 r0_0) (View.ld x1 r0_1)⟩]

/-- The one store is the whole 8192x1024 buffer, so it covers every index of it. -/
theorem cover0_2 (p0 : Vec F S8192x1024 .bf16) (y : S8192x1024.Idx) :
    ∃ pc ∈ ([⟨r0_2, p0⟩] : List (View.Piece (Elt F) S8192x1024 .bf16)), y ∈ pc.1.set :=
  View.cover_of_tiled [⟨r0_2, p0⟩] S8192x1024.size (by rfl) y

/-! ## The body's triple -/

set_option maxHeartbeats 1000000 in
/-- The kernel body on whole staging memrefs, the inputs' reading `x0` and `x1` and the output's holding anything,
    runs without fault and ends with the inputs' unchanged and the output's reading `out0_2 x0 x1`. The load of the
    output buffer ahead of the store reads whatever is there and its result is dropped; the store then overwrites
    every index, so the earlier contents leave no trace. The grid coordinate `i` is not used by the body. -/
theorem sound_kernel0 (c : Dev nD) (E : Set ℕ) (i : grid0.Coords)
    (arg1 : Memref sig .tc .vmem S8192x128 .f32) (harg1 : arg1.IsWhole)
    (arg2 : Memref sig .tc .vmem S128x1024 .bf16) (harg2 : arg2.IsWhole)
    (arg3 : Memref sig .tc .vmem S8192x1024 .bf16) (harg3 : arg3.IsWhole)
    (x0 : Vec F S8192x128 .f32) (x1 : Vec F S128x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`. The arrays are the entry contents `V`. After the body at point `t`
    each input window's buffer still holds its block, and the output window's holds `out0_2` of the two input
    blocks. The invariant carried between points is the untouched rest (the scoped buffers outside the pipeline and
    the generator register); every share is full and no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debts, and each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks (`before0_0`, `before0_1`) and the output
    buffer holds something, which is all `sound_kernel0` asks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
import proofs.«163521_j41618233098847_2_alg».proof.Proof.Gen.Kernel.Launch
import proofs.«163521_j41618233098847_2_alg».proof.Proof.Gen.Kernel.Skeleton
import proofs.«163521_j41618233098847_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (custom_call 1, the first gated-recurrent update), at a parameter `V`

The TensorCore's buffer contents when the region is entered are a parameter `V`. The region is a pipeline of
13 windows over a grid of 8 row blocks of 4096 rows: twelve inputs (three 4096x256 message blocks, two 4096x1
inverse-degree columns, two 1x256 bias rows, the 4096x128 hidden state, the 256x384 and 128x384 weights, two
1x384 bias rows) and one output, the 4096x128 block of the new hidden state. The body reads every input buffer
whole and stores the output buffer whole once; so after the body the output buffer holds the one payload
`k1_pay1` of the values loaded, whatever it held before, and every input buffer holds its block still.
The weights and bias rows have a block index that does not move: they are fetched at the first point only, and
at every later point their buffers hold the same block, which is that point's. -/

-- membership in a rectangle of production extents (`View.cover_of_tiled`): the elaborator's structural look
-- recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, and the buffer still holds the previous point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, and the buffer still holds the previous point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, and the buffer still holds the previous point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is not
    fetched its block index has not moved, and the buffer still holds the previous point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): where the window is not
    fetched its block index has not moved, and the buffer still holds the previous point's block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): where the window is not
    fetched its block index has not moved, and the buffer still holds the previous point's block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): where the window is not
    fetched its block index has not moved, and the buffer still holds the previous point's block. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): where the window is not
    fetched its block index has not moved, and the buffer still holds the previous point's block. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for any proof
    data whose array is `V`'s (`hA`) and whose body leaves the block in place (`hafter`): where the window is not
    fetched its block index has not moved, and the buffer still holds the previous point's block. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for any proof
    data whose array is `V`'s (`hA`) and whose body leaves the block in place (`hafter`): where the window is not
    fetched its block index has not moved, and the buffer still holds the previous point's block. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for any proof
    data whose array is `V`'s (`hA`) and whose body leaves the block in place (`hafter`): where the window is not
    fetched its block index has not moved, and the buffer still holds the previous point's block. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for any proof
    data whose array is `V`'s (`hA`) and whose body leaves the block in place (`hafter`): where the window is not
    fetched its block index has not moved, and the buffer still holds the previous point's block. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one the whole of its buffer -/

abbrev r1_0 : Rect S4096x128 := Rect.unit (s := S4096x128) ![0, 0] S4096x128.size inb_S4096x128_S4096x128_0_0
abbrev r1_1 : Rect S4096x256 := Rect.unit (s := S4096x256) ![0, 0] S4096x256.size inb_S4096x256_S4096x256_0_0
abbrev r1_2 : Rect S4096x1 := Rect.unit (s := S4096x1) ![0, 0] S4096x1.size inb_S4096x1_S4096x1_0_0
abbrev r1_3 : Rect S1x256 := Rect.unit (s := S1x256) ![0, 0] S1x256.size inb_S1x256_S1x256_0_0
abbrev r1_4 : Rect S256x384 := Rect.unit (s := S256x384) ![0, 0] S256x384.size inb_S256x384_S256x384_0_0
abbrev r1_5 : Rect S1x384 := Rect.unit (s := S1x384) ![0, 0] S1x384.size inb_S1x384_S1x384_0_0
abbrev r1_6 : Rect S128x384 := Rect.unit (s := S128x384) ![0, 0] S128x384.size inb_S128x384_S128x384_0_0

/-! ## What the body leaves in the output window's buffer -/

/-- Window 12's staging buffer after the body, from the input windows' blocks: its one store, of the payload
    `k1_pay1` at the values the body loaded (the hidden state through `k1_pay2` and `k1_pay3`, the messages,
    inverse degrees, first-layer biases and weights through `k1_pay4`). -/
def out1_12 (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) : Vec F S4096x128 .f32 :=
  View.canon [⟨r1_0, k1_pay1 (k1_pay2 (View.ld x7 r1_0)) (k1_pay3 (View.ld x7 r1_0)) (k1_pay4 (View.ld x0 r1_1) (View.ld x3 r1_2) (View.ld x1 r1_1) (View.ld x5 r1_3) (View.ld x4 r1_2) (View.ld x2 r1_1) (View.ld x6 r1_3) (View.ld x8 r1_4) (View.ld x10 r1_5)) (View.ld x9 r1_6) (View.ld x11 r1_5)⟩]

/-- Its store is the whole buffer, so it covers it. -/
theorem cover1_12 (p0 : Vec F S4096x128 .f32) (y : S4096x128.Idx) :
    ∃ pc ∈ ([⟨r1_0, p0⟩] : List (View.Piece (Elt F) S4096x128 .f32)), y ∈ pc.1.set :=
  View.cover_of_tiled [⟨r1_0, p0⟩] S4096x128.size (by rfl) y

/-! ## The body's triple -/

set_option maxHeartbeats 4000000 in
/-- The kernel body on whole staging memrefs, the inputs' at read contents `xW` and the output's at anything, runs to
    the continuation holding the inputs' as they were and the output's at `out1_12` of the inputs': the printed
    functions are their skeletons, run operation by operation through the part call. -/
theorem sound_kernel1 (c : Dev nD) (E : Set ℕ) (i : grid1.Coords) (arg0 : Memref sig .tc .vmem S4096x256 .f32) (harg0 : arg0.IsWhole) (arg1 : Memref sig .tc .vmem S4096x256 .f32) (harg1 : arg1.IsWhole) (arg2 : Memref sig .tc .vmem S4096x256 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S4096x128 .f32) (harg7 : arg7.IsWhole) (arg8 : Memref sig .tc .vmem S256x384 .bf16) (harg8 : arg8.IsWhole) (arg9 : Memref sig .tc .vmem S128x384 .bf16) (harg9 : arg9.IsWhole) (arg10 : Memref sig .tc .vmem S1x384 .f32) (harg10 : arg10.IsWhole) (arg11 : Memref sig .tc .vmem S1x384 .f32) (harg11 : arg11.IsWhole) (arg12 : Memref sig .tc .vmem S4096x128 .f32) (harg12 : arg12.IsWhole)
    (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out1_12 x0 x1 x2 x3 x4 x5 x6 x7 x8 x9 x10 x11)) -∗ K ⟨⟩))
      ⊢ wp frame (wpE (defs₀ (F := F)) Variants.none c none) E (cc1_kernel i arg0 harg0 arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover1_12 _)

/-! ## The pipeline's proof data -/

/-- The proof data of pipeline 1 on core `c`: the arrays as the region finds them (`V`); after the body at
    point `t` each input's buffer at its block and the output's at `out1_12` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
/-- The body at any point: the inputs' memrefs hold their blocks (`before1_w`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/- The frame of region 2 of @main: custom_call 2, `cc2__project_kernel` (pipeline 2), stated at a parameter
   `V`, the TensorCore's buffer contents when the region is entered, and at any float model `F`.

   The kernel projects a row block: it reads the whole 8192x128 f32 block of window 0 and the whole 128x1024 bf16
   matrix of window 1, and writes the 8192x1024 bf16 product over the whole block of window 2 in one store. Before
   that store it also loads window 2's buffer; the loaded value is never used, so what the buffer held does not
   matter. Window 1's block index is constant over the grid, so the pipeline fetches it only at the first point of
   each run of four; at the other points its buffer still holds the same block, because the body leaves it in place.

   Here: each window's block at a point (`iblk2`), what the body leaves in the output buffer (`out2_2`), the body's
   triple (`sound_kernel2`), the proof data (`dat2`) and the pipeline's body obligation (`body_obligation2`). -/
import proofs.«163521_j41618233098847_2_alg».proof.Proof.Gen.Kernel.Launch
import proofs.«163521_j41618233098847_2_alg».proof.Proof.Gen.Kernel.Skeleton
import proofs.«163521_j41618233098847_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the buffers here have axes of 8192 and 1024 coordinates
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rows of its array, as the region finds it, that the window's index
    map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the 8192x128 row block, fetched at every point) has its block in its current staging buffer when
    the body is called, for any proof data over the entry contents whose body leaves that block where it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the 128x1024 matrix) is fetched only where `t % 4 = 0`. Its block index is the same at every point,
    so at a point where it is not fetched the buffer holds the previous point's block, which the body left in place
    and which is this point's block too: the same conclusion as for a window fetched everywhere. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S8192x128 := Rect.unit (s := S8192x128) ![0, 0] S8192x128.size inb_S8192x128_S8192x128_0_0
abbrev r2_1 : Rect S128x1024 := Rect.unit (s := S128x1024) ![0, 0] S128x1024.size inb_S128x1024_S128x1024_0_0
abbrev r2_2 : Rect S8192x1024 := Rect.unit (s := S8192x1024) ![0, 0] S8192x1024.size inb_S8192x1024_S8192x1024_0_0

/-! ## What the body leaves in the output window's buffer -/

/-- Window 2's staging buffer after the body, as a function of the two input blocks: the single store of the
    projected block `k2_pay1` (both inputs rounded to bf16, multiplied with f32 accumulation, rounded to bf16)
    over the whole buffer. -/
def out2_2 (x0 : Vec F S8192x128 .f32) (x1 : Vec F S128x1024 .bf16) : Vec F S8192x1024 .bf16 :=
  View.canon [⟨r2_2, k2_pay1 (View.ld x0 r2_0) (View.ld x1 r2_1)⟩]

/-- The one store is the whole 8192x1024 buffer, so it covers every index of it. -/
theorem cover2_2 (p0 : Vec F S8192x1024 .bf16) (y : S8192x1024.Idx) :
    ∃ pc ∈ ([⟨r2_2, p0⟩] : List (View.Piece (Elt F) S8192x1024 .bf16)), y ∈ pc.1.set :=
  View.cover_of_tiled [⟨r2_2, p0⟩] S8192x1024.size (by rfl) y

/-! ## The body's triple -/

set_option maxHeartbeats 1000000 in
/-- The kernel body on whole staging memrefs, the inputs' reading `x0` and `x1` and the output's holding anything,
    runs without fault and ends with the inputs' unchanged and the output's reading `out2_2 x0 x1`. The load of the
    output buffer ahead of the store reads whatever is there and its result is dropped; the store then overwrites
    every index, so the earlier contents leave no trace. The grid coordinate `i` is not used by the body. -/
theorem sound_kernel2 (c : Dev nD) (E : Set ℕ) (i : grid2.Coords)
    (arg1 : Memref sig .tc .vmem S8192x128 .f32) (harg1 : arg1.IsWhole)
    (arg2 : Memref sig .tc .vmem S128x1024 .bf16) (harg2 : arg2.IsWhole)
    (arg3 : Memref sig .tc .vmem S8192x1024 .bf16) (harg3 : arg3.IsWhole)
    (x0 : Vec F S8192x128 .f32) (x1 : Vec F S128x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__project_kernel i arg1 harg1 arg2 harg2 arg3 harg3) K := by
  simp only [cc2__project_kernel_eq_skeleton]; unfold cc2__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`. The arrays are the entry contents `V`. After the body at point `t`
    each input window's buffer still holds its block, and the output window's holds `out2_2` of the two input
    blocks. The invariant carried between points is the untouched rest (the scoped buffers outside the pipeline and
    the generator register); every share is full and no core owes another anything. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input window's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debts, and each window's current staging
    buffer at what the pipeline put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns: the same invariant and debts, and each buffer at what the proof data say the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two input buffers hold their blocks (`before2_0`, `before2_1`) and the output
    buffer holds something, which is all `sound_kernel2` asks; the invariant and the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3.lean ====
import proofs.«163521_j41618233098847_2_alg».proof.Proof.Gen.Kernel.Launch
import proofs.«163521_j41618233098847_2_alg».proof.Proof.Gen.Kernel.Skeleton
import proofs.«163521_j41618233098847_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (custom_call 3, the second gated-recurrent update, which also normalizes each row), at a parameter `V`

The TensorCore's buffer contents when the region is entered are a parameter `V`. The region is a pipeline of
13 windows over a grid of 8 row blocks of 4096 rows: twelve inputs (three 4096x256 message blocks, two 4096x1
inverse-degree columns, two 1x256 bias rows, the 4096x128 hidden state, the 256x384 and 128x384 weights, two
1x384 bias rows) and one output, the 4096x128 block of the new hidden state, each row divided by its norm. The body reads every input buffer
whole and stores the output buffer whole once; so after the body the output buffer holds the one payload
`k3_pay1` of the values loaded, whatever it held before, and every input buffer holds its block still.
The weights and bias rows have a block index that does not move: they are fetched at the first point only, and
at every later point their buffers hold the same block, which is that point's. -/

-- membership in a rectangle of production extents (`View.cover_of_tiled`): the elaborator's structural look
-- recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, and the buffer still holds the previous point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, and the buffer still holds the previous point's block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, and the buffer still holds the previous point's block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): where the window is not
    fetched its block index has not moved, and the buffer still holds the previous point's block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): where the window is not
    fetched its block index has not moved, and the buffer still holds the previous point's block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): where the window is not
    fetched its block index has not moved, and the buffer still holds the previous point's block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): where the window is not
    fetched its block index has not moved, and the buffer still holds the previous point's block. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof
    data whose array is `V`'s (`hA`) and whose body leaves the block in place (`hafter`): where the window is not
    fetched its block index has not moved, and the buffer still holds the previous point's block. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for any proof
    data whose array is `V`'s (`hA`) and whose body leaves the block in place (`hafter`): where the window is not
    fetched its block index has not moved, and the buffer still holds the previous point's block. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for any proof
    data whose array is `V`'s (`hA`) and whose body leaves the block in place (`hafter`): where the window is not
    fetched its block index has not moved, and the buffer still holds the previous point's block. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for any proof
    data whose array is `V`'s (`hA`) and whose body leaves the block in place (`hafter`): where the window is not
    fetched its block index has not moved, and the buffer still holds the previous point's block. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
/-- Input window 11's current staging buffer holds its block at every point, fetched there or not, for any proof
    data whose array is `V`'s (`hA`) and whose body leaves the block in place (`hafter`): where the window is not
    fetched its block index has not moved, and the buffer still holds the previous point's block. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one the whole of its buffer -/

abbrev r3_0 : Rect S4096x128 := Rect.unit (s := S4096x128) ![0, 0] S4096x128.size inb_S4096x128_S4096x128_0_0
abbrev r3_1 : Rect S4096x256 := Rect.unit (s := S4096x256) ![0, 0] S4096x256.size inb_S4096x256_S4096x256_0_0
abbrev r3_2 : Rect S4096x1 := Rect.unit (s := S4096x1) ![0, 0] S4096x1.size inb_S4096x1_S4096x1_0_0
abbrev r3_3 : Rect S1x256 := Rect.unit (s := S1x256) ![0, 0] S1x256.size inb_S1x256_S1x256_0_0
abbrev r3_4 : Rect S256x384 := Rect.unit (s := S256x384) ![0, 0] S256x384.size inb_S256x384_S256x384_0_0
abbrev r3_5 : Rect S1x384 := Rect.unit (s := S1x384) ![0, 0] S1x384.size inb_S1x384_S1x384_0_0
abbrev r3_6 : Rect S128x384 := Rect.unit (s := S128x384) ![0, 0] S128x384.size inb_S128x384_S128x384_0_0

/-! ## What the body leaves in the output window's buffer -/

/-- Window 12's staging buffer after the body, from the input windows' blocks: its one store, of the payload
    `k3_pay1` at the values the body loaded (the hidden state through `k3_pay2` and `k3_pay3`, the messages,
    inverse degrees, first-layer biases and weights through `k3_pay4`). -/
def out3_12 (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) : Vec F S4096x128 .f32 :=
  View.canon [⟨r3_0, k3_pay1 (k3_pay2 (View.ld x7 r3_0)) (k3_pay3 (View.ld x7 r3_0)) (k3_pay4 (View.ld x0 r3_1) (View.ld x3 r3_2) (View.ld x1 r3_1) (View.ld x5 r3_3) (View.ld x4 r3_2) (View.ld x2 r3_1) (View.ld x6 r3_3) (View.ld x8 r3_4) (View.ld x10 r3_5)) (View.ld x9 r3_6) (View.ld x11 r3_5)⟩]

/-- Its store is the whole buffer, so it covers it. -/
theorem cover3_12 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y

/-! ## The body's triple -/

set_option maxHeartbeats 4000000 in
/-- The kernel body on whole staging memrefs, the inputs' at read contents `xW` and the output's at anything, runs to
    the continuation holding the inputs' as they were and the output's at `out3_12` of the inputs': the printed
    functions are their skeletons, run operation by operation through the part call. -/
theorem sound_kernel3 (c : Dev nD) (E : Set ℕ) (i : grid3.Coords) (arg0 : Memref sig .tc .vmem S4096x256 .f32) (harg0 : arg0.IsWhole) (arg1 : Memref sig .tc .vmem S4096x256 .f32) (harg1 : arg1.IsWhole) (arg2 : Memref sig .tc .vmem S4096x256 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S4096x128 .f32) (harg7 : arg7.IsWhole) (arg8 : Memref sig .tc .vmem S256x384 .bf16) (harg8 : arg8.IsWhole) (arg9 : Memref sig .tc .vmem S128x384 .bf16) (harg9 : arg9.IsWhole) (arg10 : Memref sig .tc .vmem S1x384 .f32) (harg10 : arg10.IsWhole) (arg11 : Memref sig .tc .vmem S1x384 .f32) (harg11 : arg11.IsWhole) (arg12 : Memref sig .tc .vmem S4096x128 .f32) (harg12 : arg12.IsWhole)
    (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out3_12 x0 x1 x2 x3 x4 x5 x6 x7 x8 x9 x10 x11)) -∗ K ⟨⟩))
      ⊢ wp frame (wpE (defs₀ (F := F)) Variants.none c none) E (cc3_kernel i arg0 harg0 arg1 harg1 arg2 harg2 arg3 harg3 arg4 harg4 arg5 harg5 arg6 harg6 arg7 harg7 arg8 harg8 arg9 harg9 arg10 harg10 arg11 harg11 arg12 harg12) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover3_12 _)

/-! ## The pipeline's proof data -/

/-- The proof data of pipeline 3 on core `c`: the arrays as the region finds them (`V`); after the body at
    point `t` each input's buffer at its block and the output's at `out3_12` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t))

set_option maxHeartbeats 1000000 in
/-- The body at any point: the inputs' memrefs hold their blocks (`before3_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel3 c Set.univ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Reg4.lean ====
/- The frame of region 4 of @main: custom_call 4, `cc4__readout_kernel` (pipeline 4), stated at a parameter
   `V`, the TensorCore's buffer contents when the region is entered, and at any float model `F`.

   The kernel is a gated readout with two heads over a block of 32 graphs of 128 nodes with 128 features each.
   Per head it multiplies the 4096x128 flattened block (rounded to bf16) by a 128x128 matrix and adds a bias row;
   weights each row by the logistic of its inner product with a gate row plus a gate bias; sums the 128 node rows
   of every graph; and divides each 128-vector by the larger of its Euclidean norm and 1e-12. Head one (windows
   1 to 4) fills window 9's 32x128 block and head two (windows 5 to 8) window 10's, each in one whole-block store.
   Before each of the two stores the kernel also loads the output buffer it is about to overwrite; the loaded value
   is used nowhere, so what the buffer held does not matter.

   Window 0's block index is the grid coordinate, so it is fetched at each of the 8 points. Windows 1 to 8 are whole
   arrays with a constant block index: the pipeline fetches them at the first point only, and at the other seven
   points their buffers still hold the same blocks because the body leaves every input buffer as it found it.
   Windows 9 and 10 are written back at every point.

   Here: each window's block at a point (`iblk4`), what the body leaves in the two output buffers (`out4_9`,
   `out4_10`), the body's triple (`sound_kernel4`), the proof data (`dat4`) and the pipeline's body obligation
   (`body_obligation4`). -/
import proofs.«163521_j41618233098847_2_alg».proof.Proof.Gen.Kernel.Launch
import proofs.«163521_j41618233098847_2_alg».proof.Proof.Gen.Kernel.Skeleton
import proofs.«163521_j41618233098847_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have extents in the hundreds and thousands
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it, that the window's
    index map selects at `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 (the 32x128x128 f32 block of node features, fetched at every point; fetched at every point) has its block in its current staging
    buffer whenever the body is called, for any proof data over the entry contents whose body leaves that block in
    place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Window 1 (the first head's 128x128 bf16 weight matrix; fetched at the first point only; its block index never moves, so an unfetched point finds the block the point before left) has its block in its current staging
    buffer whenever the body is called, for any proof data over the entry contents whose body leaves that block in
    place: the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Window 2 (the first head's 1x128 f32 bias row; fetched at the first point only; its block index never moves, so an unfetched point finds the block the point before left) has its block in its current staging
    buffer whenever the body is called, for any proof data over the entry contents whose body leaves that block in
    place: the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Window 3 (the first head's 1x128 bf16 gate row; fetched at the first point only; its block index never moves, so an unfetched point finds the block the point before left) has its block in its current staging
    buffer whenever the body is called, for any proof data over the entry contents whose body leaves that block in
    place: the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Window 4 (the first head's 1x1 f32 gate bias; fetched at the first point only; its block index never moves, so an unfetched point finds the block the point before left) has its block in its current staging
    buffer whenever the body is called, for any proof data over the entry contents whose body leaves that block in
    place: the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Window 5 (the second head's 128x128 bf16 weight matrix; fetched at the first point only; its block index never moves, so an unfetched point finds the block the point before left) has its block in its current staging
    buffer whenever the body is called, for any proof data over the entry contents whose body leaves that block in
    place: the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Window 6 (the second head's 1x128 f32 bias row; fetched at the first point only; its block index never moves, so an unfetched point finds the block the point before left) has its block in its current staging
    buffer whenever the body is called, for any proof data over the entry contents whose body leaves that block in
    place: the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Window 7 (the second head's 1x128 bf16 gate row; fetched at the first point only; its block index never moves, so an unfetched point finds the block the point before left) has its block in its current staging
    buffer whenever the body is called, for any proof data over the entry contents whose body leaves that block in
    place: the window is uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Window 8 (the second head's 1x1 f32 gate bias; fetched at the first point only; its block index never moves, so an unfetched point finds the block the point before left) has its block in its current staging
    buffer whenever the body is called, for any proof data over the entry contents whose body leaves that block in
    place: the window is uncut and never idle. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S32x128x128 := Rect.unit (s := S32x128x128) ![0, 0, 0] S32x128x128.size inb_S32x128x128_S32x128x128_0_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S1x1 := Rect.unit (s := S1x1) ![0, 0] S1x1.size inb_S1x1_S1x1_0_0
abbrev r4_4 : Rect S32x128 := Rect.unit (s := S32x128) ![0, 0] S32x128.size inb_S32x128_S32x128_0_0

/-! ## What the body leaves in each output window's buffer -/

/-- Window 9's staging buffer after the body: its one store, of head one's normalized readout computed from the
    feature block `x0` and head one's matrix, bias row, gate row and gate bias `x1 … x4`, as a single piece over
    the whole 32x128 buffer. -/
def out4_9 (x0 : Vec F S32x128x128 .f32) (x1 : Vec F S128x128 .bf16) (x2 : Vec F S1x128 .f32) (x3 : Vec F S1x128 .bf16) (x4 : Vec F S1x1 .f32) : Vec F S32x128 .f32 :=
  View.canon [⟨r4_4, k4_pay4 (View.ld x0 r4_0) (View.ld x1 r4_1) (View.ld x2 r4_2) (View.ld x3 r4_2) (View.ld x4 r4_3)⟩]

/-- Window 10's staging buffer after the body: its one store, of head two's normalized readout computed from the
    same feature block `x0` (flattened, and flattened then rounded to bf16) and head two's matrix, bias row, gate row
    and gate bias `x5 … x8`, as a single piece over the whole 32x128 buffer. -/
def out4_10 (x0 : Vec F S32x128x128 .f32) (x5 : Vec F S128x128 .bf16) (x6 : Vec F S1x128 .f32) (x7 : Vec F S1x128 .bf16) (x8 : Vec F S1x1 .f32) : Vec F S32x128 .f32 :=
  View.canon [⟨r4_4, k4_pay1 (k4_pay2 (View.ld x0 r4_0)) (k4_pay3 (View.ld x0 r4_0)) (k4_pay5 (View.ld x5 r4_1)) (View.ld x6 r4_2) (View.ld x7 r4_2) (View.ld x8 r4_3)⟩]

/-- One store over the whole buffer tiles it (checked by evaluation), so it covers it: window 9, -/
theorem cover4_9 (p0 : Vec F S32x128 .f32) (y : S32x128.Idx) :
    ∃ pc ∈ ([⟨r4_4, p0⟩] : List (View.Piece (Elt F) S32x128 .f32)), y ∈ pc.1.set :=
  View.cover_of_tiled [⟨r4_4, p0⟩] S32x128.size (by rfl) y

/-- and window 10. -/
theorem cover4_10 (p0 : Vec F S32x128 .f32) (y : S32x128.Idx) :
    ∃ pc ∈ ([⟨r4_4, p0⟩] : List (View.Piece (Elt F) S32x128 .f32)), y ∈ pc.1.set :=
  View.cover_of_tiled [⟨r4_4, p0⟩] S32x128.size (by rfl) y

/-! ## The body's triple -/

set_option maxHeartbeats 4000000 in
/-- The kernel body on whole staging memrefs, the nine inputs' at read contents `x0 … x8` and the two outputs' at
    anything, runs to the continuation holding the inputs' as they were, window 9's at `out4_9` and window 10's at
    `out4_10` of the inputs': the printed function and its part are their skeletons, a straight line of whole-buffer
    loads and two whole-buffer stores, which is run symbolically; the two loads of the output buffers read whatever
    is there and feed nothing. -/
theorem sound_kernel4 (c : Dev nD) (E : Set ℕ) (i : grid4.Coords) (arg1 : Memref sig .tc .vmem S32x128x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .bf16) (harg4 : arg4.IsWhole) (arg5 : Memref sig .tc .vmem S1x1 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1 .f32) (harg9 : arg9.IsWhole) (arg10 : Memref sig .tc .vmem S32x128 .f32) (harg10 : arg10.IsWhole) (arg11 : Memref sig .tc .vmem S32x128 .f32) (harg11 : arg11.IsWhole)
    (x0 : Vec F S32x128x128 .f32) (x1 : Vec F S128x128 .bf16) (x2 : Vec F S1x128 .f32) (x3 : Vec F S1x128 .bf16) (x4 : Vec F S1x1 .f32) (x5 : Vec F S128x128 .bf16) (x6 : Vec F S1x128 .f32) (x7 : Vec F S1x128 .bf16) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out4_9 x0 x1 x2 x3 x4) ∗ owns (c : Thread nD τ) arg11 fullShare (out4_10 x0 x5 x6 x7 x8)) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9 arg10 harg10 arg11 harg11) K := by
  simp only [cc4__readout_kernel_eq_skeleton]; unfold cc4__readout_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover4_9 _)
  iexists _; isplitr
  swap; · iexact H10
  ipureintro
  try dsimp only
  exact View.read_writes_eq_canon _ _ _ (cover4_10 _)

/-! ## The pipeline's proof data -/

/-- The proof data of pipeline 4 on core `c`: the arrays as the region finds them (`V`); after the body at point
    `t` each input's buffer at its block, window 9's at `out4_9` and window 10's at `out4_10` of the input blocks; as
    invariant the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t)
    | ⟨10, _⟩ => out4_10 (iblk4 V c 0 t) (iblk4 V c 5 t) (iblk4 V c 6 t) (iblk4 V c 7 t) (iblk4 V c 8 t)
  Φ _ := Pipeline.ΦA spec4 c
  q _ := fullShare
  owed _ := 0

/-- The proof data's arrays are the region-entry contents (the definition projected; `V` is never unfolded). -/
theorem A_eq4 (c : Dev nD) (w : Fin cfg4.W) : (dat4 V c).A w = V c (Pipeline.arrRef spec4 w) := by
  dsimp only [dat4]

/-- What the body leaves, window by window (the proof data's case split reduced at each numeral). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) := by dsimp only [dat4]
theorem after4_10 (c : Dev nD) (t : Fin cfg4.N) : (dat4 V c).after 10 t = out4_10 (iblk4 V c 0 t) (iblk4 V c 5 t) (iblk4 V c 6 t) (iblk4 V c 7 t) (iblk4 V c 8 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`: the invariant, the core's debts, and each window's current staging
    buffer at what the pipeline has put there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns: the same with each buffer at what the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

set_option maxHeartbeats 4000000 in
/-- The body at any point: the inputs' memrefs hold their blocks (`before4_w`), so `sound_kernel4` applies at those
    blocks; the invariant and the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Run.lean ====
/- The run of @main through its five kernel regions, at any float model `F`.

   @main is ten items in order: a stretch of host operations, then a kernel region, five times over. Between two items
   a core holds every unscoped buffer whole; the contents are named by a fold from the launch memory: a host stretch
   takes the contents `W` to `StableHlo.after ops W`; a region takes them to the same contents with its windows' arrays
   replaced by what its pipeline leaves in them (an input window's array as entered, an output window's with every
   write-back folded in). `W0` is the launch memory and `W10` the contents when @main returns.

   Each region is a segment entered from the buffers at the contents before it and left at the contents after it,
   its proof data taken at its own entry contents; the generator register and the core's empty debt ride along
   through every item. The launch over the ten segments gives `run_all`: every weakly fair execution terminates and
   the final memory holds `W10` at every unscoped buffer. An argument array is written by no host operation and is no
   window's array of any region, so `W10` at an argument walks back through the fold to the launch memory
   (`W10_main_argJ`), which gives the frame claim `frame`. -/
import proofs.«163521_j41618233098847_2_alg».proof.Proof.Gen.Kernel.Launch
import proofs.«163521_j41618233098847_2_alg».proof.Proof.Gen.Kernel.Regions
import proofs.«163521_j41618233098847_2_alg».proof.Proof.K.Reg0
import proofs.«163521_j41618233098847_2_alg».proof.Proof.K.Reg1
import proofs.«163521_j41618233098847_2_alg».proof.Proof.K.Reg2
import proofs.«163521_j41618233098847_2_alg».proof.Proof.K.Reg3
import proofs.«163521_j41618233098847_2_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's fifty written references, or none of a region's thirteen arrays,
-- recurses past the default depth
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (an input's as entered, an output's with every
    write-back folded in: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (an input's as entered, an output's with every
    write-back folded in: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (an input's as entered, an output's with every
    write-back folded in: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (an input's as entered, an output's with every
    write-back folded in: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (an input's as entered, an output's with every
    write-back folded in: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ### A buffer nothing touches ends as launched

A reference that no host operation writes and that is no window's array of any region is carried unchanged across all
ten items, so the fold at it walks back to the launch memory. Every argument array is such a reference. -/

theorem W10_of_untouched (c : Dev nD) (r : Ref sig .tc)
    (h0 : r ∉ hostOps0_W) (k0 : ∀ w, Pipeline.arrRef spec0 w ≠ r)
    (h1 : r ∉ hostOps1_W) (k1 : ∀ w, Pipeline.arrRef spec1 w ≠ r)
    (h2 : r ∉ hostOps2_W) (k2 : ∀ w, Pipeline.arrRef spec2 w ≠ r)
    (h3 : r ∉ hostOps3_W) (k3 : ∀ w, Pipeline.arrRef spec3 w ≠ r)
    (h4 : r ∉ hostOps4_W) (k4 : ∀ w, Pipeline.arrRef spec4 w ≠ r) :
    W10 m ρ c (Proc.devRef .tc r) = m ((c : Thread nD τ).loc r) :=
  calc W10 m ρ c (Proc.devRef .tc r)
    _ = W9 m ρ c (Proc.devRef .tc r) := W10_of_ne m ρ c r k4
    _ = W8 m ρ c (Proc.devRef .tc r) := StableHlo.after_of_writes_sub hostOps4 _ hostOps4_writes h4
    _ = W7 m ρ c (Proc.devRef .tc r) := W8_of_ne m ρ c r k3
    _ = W6 m ρ c (Proc.devRef .tc r) := StableHlo.after_of_writes_sub hostOps3 _ hostOps3_writes h3
    _ = W5 m ρ c (Proc.devRef .tc r) := W6_of_ne m ρ c r k2
    _ = W4 m ρ c (Proc.devRef .tc r) := StableHlo.after_of_writes_sub hostOps2 _ hostOps2_writes h2
    _ = W3 m ρ c (Proc.devRef .tc r) := W4_of_ne m ρ c r k1
    _ = W2 m ρ c (Proc.devRef .tc r) := StableHlo.after_of_writes_sub hostOps1 _ hostOps1_writes h1
    _ = W1 m ρ c (Proc.devRef .tc r) := W2_of_ne m ρ c r k0
    _ = W0 m ρ c (Proc.devRef .tc r) := StableHlo.after_of_writes_sub hostOps0 _ hostOps0_writes h0
    _ = m ((c : Thread nD τ).loc r) := rfl

theorem W10_main_arg0 (c : Dev nD) : W10 m ρ c (Proc.devRef .tc main_arg0) = m ((c : Thread nD τ).loc main_arg0) :=
  W10_of_untouched m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_of_untouched m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_of_untouched m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_of_untouched m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_of_untouched m ρ c main_arg4 (by decide) (by decide) (by decide) (by decide) (by decide) (by decide) (by decide) (by decide) (by decide) (by decide)
theorem W10_main_arg5 (c : Dev nD) : W10 m ρ c (Proc.devRef .tc main_arg5) = m ((c : Thread nD τ).loc main_arg5) :=
  W10_of_untouched m ρ c main_arg5 (by decide) (by decide) (by decide) (by decide) (by decide) (by decide) (by decide) (by decide) (by decide) (by decide)
theorem W10_main_arg6 (c : Dev nD) : W10 m ρ c (Proc.devRef .tc main_arg6) = m ((c : Thread nD τ).loc main_arg6) :=
  W10_of_untouched m ρ c main_arg6 (by decide) (by decide) (by decide) (by decide) (by decide) (by decide) (by decide) (by decide) (by decide) (by decide)
theorem W10_main_arg7 (c : Dev nD) : W10 m ρ c (Proc.devRef .tc main_arg7) = m ((c : Thread nD τ).loc main_arg7) :=
  W10_of_untouched m ρ c main_arg7 (by decide) (by decide) (by decide) (by decide) (by decide) (by decide) (by decide) (by decide) (by decide) (by decide)
theorem W10_main_arg8 (c : Dev nD) : W10 m ρ c (Proc.devRef .tc main_arg8) = m ((c : Thread nD τ).loc main_arg8) :=
  W10_of_untouched m ρ c main_arg8 (by decide) (by decide) (by decide) (by decide) (by decide) (by decide) (by decide) (by decide) (by decide) (by decide)
theorem W10_main_arg9 (c : Dev nD) : W10 m ρ c (Proc.devRef .tc main_arg9) = m ((c : Thread nD τ).loc main_arg9) :=
  W10_of_untouched m ρ c main_arg9 (by decide) (by decide) (by decide) (by decide) (by decide) (by decide) (by decide) (by decide) (by decide) (by decide)
theorem W10_main_arg10 (c : Dev nD) : W10 m ρ c (Proc.devRef .tc main_arg10) = m ((c : Thread nD τ).loc main_arg10) :=
  W10_of_untouched m ρ c main_arg10 (by decide) (by decide) (by decide) (by decide) (by decide) (by decide) (by decide) (by decide) (by decide) (by decide)
theorem W10_main_arg11 (c : Dev nD) : W10 m ρ c (Proc.devRef .tc main_arg11) = m ((c : Thread nD τ).loc main_arg11) :=
  W10_of_untouched m ρ c main_arg11 (by decide) (by decide) (by decide) (by decide) (by decide) (by decide) (by decide) (by decide) (by decide) (by decide)
theorem W10_main_arg12 (c : Dev nD) : W10 m ρ c (Proc.devRef .tc main_arg12) = m ((c : Thread nD τ).loc main_arg12) :=
  W10_of_untouched m ρ c main_arg12 (by decide) (by decide) (by decide) (by decide) (by decide) (by decide) (by decide) (by decide) (by decide) (by decide)
theorem W10_main_arg13 (c : Dev nD) : W10 m ρ c (Proc.devRef .tc main_arg13) = m ((c : Thread nD τ).loc main_arg13) :=
  W10_of_untouched m ρ c main_arg13 (by decide) (by decide) (by decide) (by decide) (by decide) (by decide) (by decide) (by decide) (by decide) (by decide)
theorem W10_main_arg14 (c : Dev nD) : W10 m ρ c (Proc.devRef .tc main_arg14) = m ((c : Thread nD τ).loc main_arg14) :=
  W10_of_untouched m ρ c main_arg14 (by decide) (by decide) (by decide) (by decide) (by decide) (by decide) (by decide) (by decide) (by decide) (by decide)
theorem W10_main_arg15 (c : Dev nD) : W10 m ρ c (Proc.devRef .tc main_arg15) = m ((c : Thread nD τ).loc main_arg15) :=
  W10_of_untouched m ρ c main_arg15 (by decide) (by decide) (by decide) (by decide) (by decide) (by decide) (by decide) (by decide) (by decide) (by decide)
theorem W10_main_arg16 (c : Dev nD) : W10 m ρ c (Proc.devRef .tc main_arg16) = m ((c : Thread nD τ).loc main_arg16) :=
  W10_of_untouched m ρ c main_arg16 (by decide) (by decide) (by decide) (by decide) (by decide) (by decide) (by decide) (by decide) (by decide) (by decide)
theorem W10_main_arg17 (c : Dev nD) : W10 m ρ c (Proc.devRef .tc main_arg17) = m ((c : Thread nD τ).loc main_arg17) :=
  W10_of_untouched m ρ c main_arg17 (by decide) (by decide) (by decide) (by decide) (by decide) (by decide) (by decide) (by decide) (by decide) (by decide)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents: a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class
    invariant takes it in and gives it back) and its debt, which is empty. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt (the launch's chain ends at it beside the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

/-! ## The regions as segments -/

-- a library lemma stated over `pin pcs a p` meets the pinned configuration only when unification may unfold plain
-- definitions in a metavariable's type
set_option backward.isDefEq.respectTransparency.types false in
/-- REGION 0 (custom_call 0, the first projection (pipeline 0)) over the thread state: entered from every unscoped buffer
    at `W1`, left at `W2`, which the next host stretch starts from. Its arrays are split out of the
    unscoped buffers at entry and put back at the exit contents; the generator register goes into the class invariant and
    comes out again; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 1 (custom_call 1, the first gated recurrent update (pipeline 1)) over the thread state: entered from every unscoped buffer
    at `W3`, left at `W4`, which the next host stretch starts from. Its arrays are split out of the
    unscoped buffers at entry and put back at the exit contents; the generator register goes into the class invariant and
    comes out again; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 2 (custom_call 2, the second projection (pipeline 2)) over the thread state: entered from every unscoped buffer
    at `W5`, left at `W6`, which the next host stretch starts from. Its arrays are split out of the
    unscoped buffers at entry and put back at the exit contents; the generator register goes into the class invariant and
    comes out again; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 3 (custom_call 3, the second gated recurrent update with the rows' normalization (pipeline 3)) over the thread state: entered from every unscoped buffer
    at `W7`, left at `W8`, which the next host stretch starts from. Its arrays are split out of the
    unscoped buffers at entry and put back at the exit contents; the generator register goes into the class invariant and
    comes out again; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 4 (custom_call 4, the read-out (pipeline 4)) over the thread state: entered from every unscoped buffer
    at `W9`, left at `W10`, the last boundary's contents, beside the core owing nothing. Its arrays are split out of the
    unscoped buffers at entry and put back at the exit contents; the generator register goes into the class invariant and
    comes out again; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main IS the run of the segments: @main is the chain of its ten items, and the segments' run unfolds to the same
    chain. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: from any memory with zero counters, every weakly fair execution of @main on the TensorCores terminates,
    nothing faulting, and every final state holds, at every unscoped buffer of every core, the last boundary's
    contents `W10`: the launch over the ten segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

/-- THE FRAME, at any `F`: every weakly fair execution of @main terminates and every final state has the eighteen
    argument arrays as launched: `run_all`, each argument's buffer read off `W10` and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c),
    (h c _ (mem_uc main_arg15 (by decide))).trans (W10_main_arg15 m ρ c),
    (h c _ (mem_uc main_arg16 (by decide))).trans (W10_main_arg16 m ρ c),
    (h c _ (mem_uc main_arg17 (by decide))).trans (W10_main_arg17 m ρ c)⟩) (run_all m ρ)

/-- info: 'Cert.Kernel.Fr.frame' depends on axioms: [propext, Classical.choice, Quot.sound] -/
#guard_msgs in #print axioms frame

end Cert.Kernel.Fr

end
-- ==== Proof.KI.Reg0.lean ====
/- The frame of region 0 of @main: custom_call 0, `cc0__project_kernel` (pipeline 0), stated at a parameter
   `V`, the TensorCore's buffer contents when the region is entered, and at any float model `F`.

   The kernel projects a row block: it reads the whole 8192x128 f32 block of window 0 and the whole 128x1024 bf16
   matrix of window 1, and writes the 8192x1024 bf16 product over the whole block of window 2 in one store. Before
   that store it also loads window 2's buffer; the loaded value is never used, so what the buffer held does not
   matter. Window 1's block index is constant over the grid, so the pipeline fetches it only at the first point of
   each run of four; at the other points its buffer still holds the same block, because the body leaves it in place.

   Here: each window's block at a point (`iblk0`), what the body leaves in the output buffer (`out0_2`), the body's
   triple (`sound_kernel0`), the proof data (`dat0`) and the pipeline's body obligation (`body_obligation0`). -/
import proofs.«163521_j41618233098847_2_alg».proof.Proof.Gen.KernelIdeal.Launch
import proofs.«163521_j41618233098847_2_alg».proof.Proof.Gen.KernelIdeal.Skeleton
import proofs.«163521_j41618233098847_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the buffers here have axes of 8192 and 1024 coordinates
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rows of its array, as the region finds it, that the window's index
    map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the 8192x128 row block, fetched at every point) has its block in its current staging buffer when
    the body is called, for any proof data over the entry contents whose body leaves that block where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the 128x1024 matrix) is fetched only where `t % 4 = 0`. Its block index is the same at every point,
    so at a point where it is not fetched the buffer holds the previous point's block, which the body left in place
    and which is this point's block too: the same conclusion as for a window fetched everywhere. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S8192x128 := Rect.unit (s := S8192x128) ![0, 0] S8192x128.size inb_S8192x128_S8192x128_0_0
abbrev r0_1 : Rect S128x1024 := Rect.unit (s := S128x1024) ![0, 0] S128x1024.size inb_S128x1024_S128x1024_0_0
abbrev r0_2 : Rect S8192x1024 := Rect.unit (s := S8192x1024) ![0, 0] S8192x1024.size inb_S8192x1024_S8192x1024_0_0

/-! ## What the body leaves in the output window's buffer -/

/-- Window 2's staging buffer after the body, as a function of the two input blocks: the single store of the
    projected block `k0_pay1` (both inputs rounded to bf16, multiplied with f32 accumulation, rounded to bf16)
    over the whole buffer. -/
def out0_2 (x0 : Vec F S8192x128 .f32) (x1 : Vec F S128x1024 .bf16) : Vec F S8192x1024 .bf16 :=
  View.canon [⟨r0_2, k0_pay1 (View.ld x0 r0_0) (View.ld x1 r0_1)⟩]

/-- The one store is the whole 8192x1024 buffer, so it covers every index of it. -/
theorem cover0_2 (p0 : Vec F S8192x1024 .bf16) (y : S8192x1024.Idx) :
    ∃ pc ∈ ([⟨r0_2, p0⟩] : List (View.Piece (Elt F) S8192x1024 .bf16)), y ∈ pc.1.set :=
  View.cover_of_tiled [⟨r0_2, p0⟩] S8192x1024.size (by rfl) y

/-! ## The body's triple -/

set_option maxHeartbeats 1000000 in
/-- The kernel body on whole staging memrefs, the inputs' reading `x0` and `x1` and the output's holding anything,
    runs without fault and ends with the inputs' unchanged and the output's reading `out0_2 x0 x1`. The load of the
    output buffer ahead of the store reads whatever is there and its result is dropped; the store then overwrites
    every index, so the earlier contents leave no trace. The grid coordinate `i` is not used by the body. -/
theorem sound_kernel0 (c : Dev nD) (E : Set ℕ) (i : grid0.Coords)
    (arg1 : Memref sig .tc .vmem S8192x128 .f32) (harg1 : arg1.IsWhole)
    (arg2 : Memref sig .tc .vmem S128x1024 .bf16) (harg2 : arg2.IsWhole)
    (arg3 : Memref sig .tc .vmem S8192x1024 .bf16) (harg3 : arg3.IsWhole)
    (x0 : Vec F S8192x128 .f32) (x1 : Vec F S128x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`. The arrays are the entry contents `V`. After the body at point `t`
    each input window's buffer still holds its block, and the output window's holds `out0_2` of the two input
    blocks. The invariant carried between points is the untouched rest (the scoped buffers outside the pipeline and
    the generator register); every share is full and no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debts, and each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks (`before0_0`, `before0_1`) and the output
    buffer holds something, which is all `sound_kernel0` asks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«163521_j41618233098847_2_alg».proof.Proof.Gen.KernelIdeal.Launch
import proofs.«163521_j41618233098847_2_alg».proof.Proof.Gen.KernelIdeal.Skeleton
import proofs.«163521_j41618233098847_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (custom_call 1, the first gated-recurrent update), at a parameter `V`

The TensorCore's buffer contents when the region is entered are a parameter `V`. The region is a pipeline of
13 windows over a grid of 8 row blocks of 4096 rows: twelve inputs (three 4096x256 message blocks, two 4096x1
inverse-degree columns, two 1x256 bias rows, the 4096x128 hidden state, the 256x384 and 128x384 weights, two
1x384 bias rows) and one output, the 4096x128 block of the new hidden state. The body reads every input buffer
whole and stores the output buffer whole once; so after the body the output buffer holds the one payload
`k1_pay1` of the values loaded, whatever it held before, and every input buffer holds its block still.
The weights and bias rows have a block index that does not move: they are fetched at the first point only, and
at every later point their buffers hold the same block, which is that point's. -/

-- membership in a rectangle of production extents (`View.cover_of_tiled`): the elaborator's structural look
-- recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, and the buffer still holds the previous point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, and the buffer still holds the previous point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, and the buffer still holds the previous point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is not
    fetched its block index has not moved, and the buffer still holds the previous point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): where the window is not
    fetched its block index has not moved, and the buffer still holds the previous point's block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): where the window is not
    fetched its block index has not moved, and the buffer still holds the previous point's block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): where the window is not
    fetched its block index has not moved, and the buffer still holds the previous point's block. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): where the window is not
    fetched its block index has not moved, and the buffer still holds the previous point's block. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for any proof
    data whose array is `V`'s (`hA`) and whose body leaves the block in place (`hafter`): where the window is not
    fetched its block index has not moved, and the buffer still holds the previous point's block. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for any proof
    data whose array is `V`'s (`hA`) and whose body leaves the block in place (`hafter`): where the window is not
    fetched its block index has not moved, and the buffer still holds the previous point's block. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for any proof
    data whose array is `V`'s (`hA`) and whose body leaves the block in place (`hafter`): where the window is not
    fetched its block index has not moved, and the buffer still holds the previous point's block. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for any proof
    data whose array is `V`'s (`hA`) and whose body leaves the block in place (`hafter`): where the window is not
    fetched its block index has not moved, and the buffer still holds the previous point's block. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one the whole of its buffer -/

abbrev r1_0 : Rect S4096x128 := Rect.unit (s := S4096x128) ![0, 0] S4096x128.size inb_S4096x128_S4096x128_0_0
abbrev r1_1 : Rect S4096x256 := Rect.unit (s := S4096x256) ![0, 0] S4096x256.size inb_S4096x256_S4096x256_0_0
abbrev r1_2 : Rect S4096x1 := Rect.unit (s := S4096x1) ![0, 0] S4096x1.size inb_S4096x1_S4096x1_0_0
abbrev r1_3 : Rect S1x256 := Rect.unit (s := S1x256) ![0, 0] S1x256.size inb_S1x256_S1x256_0_0
abbrev r1_4 : Rect S256x384 := Rect.unit (s := S256x384) ![0, 0] S256x384.size inb_S256x384_S256x384_0_0
abbrev r1_5 : Rect S1x384 := Rect.unit (s := S1x384) ![0, 0] S1x384.size inb_S1x384_S1x384_0_0
abbrev r1_6 : Rect S128x384 := Rect.unit (s := S128x384) ![0, 0] S128x384.size inb_S128x384_S128x384_0_0

/-! ## What the body leaves in the output window's buffer -/

/-- Window 12's staging buffer after the body, from the input windows' blocks: its one store, of the payload
    `k1_pay1` at the values the body loaded (the hidden state through `k1_pay2` and `k1_pay3`, the messages,
    inverse degrees, first-layer biases and weights through `k1_pay4`). -/
def out1_12 (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) : Vec F S4096x128 .f32 :=
  View.canon [⟨r1_0, k1_pay1 (k1_pay2 (View.ld x7 r1_0)) (k1_pay3 (View.ld x7 r1_0)) (k1_pay4 (View.ld x0 r1_1) (View.ld x3 r1_2) (View.ld x1 r1_1) (View.ld x5 r1_3) (View.ld x4 r1_2) (View.ld x2 r1_1) (View.ld x6 r1_3) (View.ld x8 r1_4) (View.ld x10 r1_5)) (View.ld x9 r1_6) (View.ld x11 r1_5)⟩]

/-- Its store is the whole buffer, so it covers it. -/
theorem cover1_12 (p0 : Vec F S4096x128 .f32) (y : S4096x128.Idx) :
    ∃ pc ∈ ([⟨r1_0, p0⟩] : List (View.Piece (Elt F) S4096x128 .f32)), y ∈ pc.1.set :=
  View.cover_of_tiled [⟨r1_0, p0⟩] S4096x128.size (by rfl) y

/-! ## The body's triple -/

set_option maxHeartbeats 4000000 in
/-- The kernel body on whole staging memrefs, the inputs' at read contents `xW` and the output's at anything, runs to
    the continuation holding the inputs' as they were and the output's at `out1_12` of the inputs': the printed
    functions are their skeletons, run operation by operation through the part call. -/
theorem sound_kernel1 (c : Dev nD) (E : Set ℕ) (i : grid1.Coords) (arg0 : Memref sig .tc .vmem S4096x256 .f32) (harg0 : arg0.IsWhole) (arg1 : Memref sig .tc .vmem S4096x256 .f32) (harg1 : arg1.IsWhole) (arg2 : Memref sig .tc .vmem S4096x256 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S4096x128 .f32) (harg7 : arg7.IsWhole) (arg8 : Memref sig .tc .vmem S256x384 .bf16) (harg8 : arg8.IsWhole) (arg9 : Memref sig .tc .vmem S128x384 .bf16) (harg9 : arg9.IsWhole) (arg10 : Memref sig .tc .vmem S1x384 .f32) (harg10 : arg10.IsWhole) (arg11 : Memref sig .tc .vmem S1x384 .f32) (harg11 : arg11.IsWhole) (arg12 : Memref sig .tc .vmem S4096x128 .f32) (harg12 : arg12.IsWhole)
    (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out1_12 x0 x1 x2 x3 x4 x5 x6 x7 x8 x9 x10 x11)) -∗ K ⟨⟩))
      ⊢ wp frame (wpE (defs₀ (F := F)) Variants.none c none) E (cc1_kernel i arg0 harg0 arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover1_12 _)

/-! ## The pipeline's proof data -/

/-- The proof data of pipeline 1 on core `c`: the arrays as the region finds them (`V`); after the body at
    point `t` each input's buffer at its block and the output's at `out1_12` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
/-- The body at any point: the inputs' memrefs hold their blocks (`before1_w`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/- The frame of region 2 of @main: custom_call 2, `cc2__project_kernel` (pipeline 2), stated at a parameter
   `V`, the TensorCore's buffer contents when the region is entered, and at any float model `F`.

   The kernel projects a row block: it reads the whole 8192x128 f32 block of window 0 and the whole 128x1024 bf16
   matrix of window 1, and writes the 8192x1024 bf16 product over the whole block of window 2 in one store. Before
   that store it also loads window 2's buffer; the loaded value is never used, so what the buffer held does not
   matter. Window 1's block index is constant over the grid, so the pipeline fetches it only at the first point of
   each run of four; at the other points its buffer still holds the same block, because the body leaves it in place.

   Here: each window's block at a point (`iblk2`), what the body leaves in the output buffer (`out2_2`), the body's
   triple (`sound_kernel2`), the proof data (`dat2`) and the pipeline's body obligation (`body_obligation2`). -/
import proofs.«163521_j41618233098847_2_alg».proof.Proof.Gen.KernelIdeal.Launch
import proofs.«163521_j41618233098847_2_alg».proof.Proof.Gen.KernelIdeal.Skeleton
import proofs.«163521_j41618233098847_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the buffers here have axes of 8192 and 1024 coordinates
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rows of its array, as the region finds it, that the window's index
    map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the 8192x128 row block, fetched at every point) has its block in its current staging buffer when
    the body is called, for any proof data over the entry contents whose body leaves that block where it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the 128x1024 matrix) is fetched only where `t % 4 = 0`. Its block index is the same at every point,
    so at a point where it is not fetched the buffer holds the previous point's block, which the body left in place
    and which is this point's block too: the same conclusion as for a window fetched everywhere. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S8192x128 := Rect.unit (s := S8192x128) ![0, 0] S8192x128.size inb_S8192x128_S8192x128_0_0
abbrev r2_1 : Rect S128x1024 := Rect.unit (s := S128x1024) ![0, 0] S128x1024.size inb_S128x1024_S128x1024_0_0
abbrev r2_2 : Rect S8192x1024 := Rect.unit (s := S8192x1024) ![0, 0] S8192x1024.size inb_S8192x1024_S8192x1024_0_0

/-! ## What the body leaves in the output window's buffer -/

/-- Window 2's staging buffer after the body, as a function of the two input blocks: the single store of the
    projected block `k2_pay1` (both inputs rounded to bf16, multiplied with f32 accumulation, rounded to bf16)
    over the whole buffer. -/
def out2_2 (x0 : Vec F S8192x128 .f32) (x1 : Vec F S128x1024 .bf16) : Vec F S8192x1024 .bf16 :=
  View.canon [⟨r2_2, k2_pay1 (View.ld x0 r2_0) (View.ld x1 r2_1)⟩]

/-- The one store is the whole 8192x1024 buffer, so it covers every index of it. -/
theorem cover2_2 (p0 : Vec F S8192x1024 .bf16) (y : S8192x1024.Idx) :
    ∃ pc ∈ ([⟨r2_2, p0⟩] : List (View.Piece (Elt F) S8192x1024 .bf16)), y ∈ pc.1.set :=
  View.cover_of_tiled [⟨r2_2, p0⟩] S8192x1024.size (by rfl) y

/-! ## The body's triple -/

set_option maxHeartbeats 1000000 in
/-- The kernel body on whole staging memrefs, the inputs' reading `x0` and `x1` and the output's holding anything,
    runs without fault and ends with the inputs' unchanged and the output's reading `out2_2 x0 x1`. The load of the
    output buffer ahead of the store reads whatever is there and its result is dropped; the store then overwrites
    every index, so the earlier contents leave no trace. The grid coordinate `i` is not used by the body. -/
theorem sound_kernel2 (c : Dev nD) (E : Set ℕ) (i : grid2.Coords)
    (arg1 : Memref sig .tc .vmem S8192x128 .f32) (harg1 : arg1.IsWhole)
    (arg2 : Memref sig .tc .vmem S128x1024 .bf16) (harg2 : arg2.IsWhole)
    (arg3 : Memref sig .tc .vmem S8192x1024 .bf16) (harg3 : arg3.IsWhole)
    (x0 : Vec F S8192x128 .f32) (x1 : Vec F S128x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__project_kernel i arg1 harg1 arg2 harg2 arg3 harg3) K := by
  simp only [cc2__project_kernel_eq_skeleton]; unfold cc2__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`. The arrays are the entry contents `V`. After the body at point `t`
    each input window's buffer still holds its block, and the output window's holds `out2_2` of the two input
    blocks. The invariant carried between points is the untouched rest (the scoped buffers outside the pipeline and
    the generator register); every share is full and no core owes another anything. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input window's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debts, and each window's current staging
    buffer at what the pipeline put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns: the same invariant and debts, and each buffer at what the proof data say the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two input buffers hold their blocks (`before2_0`, `before2_1`) and the output
    buffer holds something, which is all `sound_kernel2` asks; the invariant and the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
import proofs.«163521_j41618233098847_2_alg».proof.Proof.Gen.KernelIdeal.Launch
import proofs.«163521_j41618233098847_2_alg».proof.Proof.Gen.KernelIdeal.Skeleton
import proofs.«163521_j41618233098847_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (custom_call 3, the second gated-recurrent update, which also normalizes each row), at a parameter `V`

The TensorCore's buffer contents when the region is entered are a parameter `V`. The region is a pipeline of
13 windows over a grid of 8 row blocks of 4096 rows: twelve inputs (three 4096x256 message blocks, two 4096x1
inverse-degree columns, two 1x256 bias rows, the 4096x128 hidden state, the 256x384 and 128x384 weights, two
1x384 bias rows) and one output, the 4096x128 block of the new hidden state, each row divided by its norm. The body reads every input buffer
whole and stores the output buffer whole once; so after the body the output buffer holds the one payload
`k3_pay1` of the values loaded, whatever it held before, and every input buffer holds its block still.
The weights and bias rows have a block index that does not move: they are fetched at the first point only, and
at every later point their buffers hold the same block, which is that point's. -/

-- membership in a rectangle of production extents (`View.cover_of_tiled`): the elaborator's structural look
-- recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, and the buffer still holds the previous point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, and the buffer still holds the previous point's block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, and the buffer still holds the previous point's block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): where the window is not
    fetched its block index has not moved, and the buffer still holds the previous point's block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): where the window is not
    fetched its block index has not moved, and the buffer still holds the previous point's block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): where the window is not
    fetched its block index has not moved, and the buffer still holds the previous point's block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): where the window is not
    fetched its block index has not moved, and the buffer still holds the previous point's block. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof
    data whose array is `V`'s (`hA`) and whose body leaves the block in place (`hafter`): where the window is not
    fetched its block index has not moved, and the buffer still holds the previous point's block. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for any proof
    data whose array is `V`'s (`hA`) and whose body leaves the block in place (`hafter`): where the window is not
    fetched its block index has not moved, and the buffer still holds the previous point's block. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for any proof
    data whose array is `V`'s (`hA`) and whose body leaves the block in place (`hafter`): where the window is not
    fetched its block index has not moved, and the buffer still holds the previous point's block. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for any proof
    data whose array is `V`'s (`hA`) and whose body leaves the block in place (`hafter`): where the window is not
    fetched its block index has not moved, and the buffer still holds the previous point's block. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
/-- Input window 11's current staging buffer holds its block at every point, fetched there or not, for any proof
    data whose array is `V`'s (`hA`) and whose body leaves the block in place (`hafter`): where the window is not
    fetched its block index has not moved, and the buffer still holds the previous point's block. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one the whole of its buffer -/

abbrev r3_0 : Rect S4096x128 := Rect.unit (s := S4096x128) ![0, 0] S4096x128.size inb_S4096x128_S4096x128_0_0
abbrev r3_1 : Rect S4096x256 := Rect.unit (s := S4096x256) ![0, 0] S4096x256.size inb_S4096x256_S4096x256_0_0
abbrev r3_2 : Rect S4096x1 := Rect.unit (s := S4096x1) ![0, 0] S4096x1.size inb_S4096x1_S4096x1_0_0
abbrev r3_3 : Rect S1x256 := Rect.unit (s := S1x256) ![0, 0] S1x256.size inb_S1x256_S1x256_0_0
abbrev r3_4 : Rect S256x384 := Rect.unit (s := S256x384) ![0, 0] S256x384.size inb_S256x384_S256x384_0_0
abbrev r3_5 : Rect S1x384 := Rect.unit (s := S1x384) ![0, 0] S1x384.size inb_S1x384_S1x384_0_0
abbrev r3_6 : Rect S128x384 := Rect.unit (s := S128x384) ![0, 0] S128x384.size inb_S128x384_S128x384_0_0

/-! ## What the body leaves in the output window's buffer -/

/-- Window 12's staging buffer after the body, from the input windows' blocks: its one store, of the payload
    `k3_pay1` at the values the body loaded (the hidden state through `k3_pay2` and `k3_pay3`, the messages,
    inverse degrees, first-layer biases and weights through `k3_pay4`). -/
def out3_12 (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) : Vec F S4096x128 .f32 :=
  View.canon [⟨r3_0, k3_pay1 (k3_pay2 (View.ld x7 r3_0)) (k3_pay3 (View.ld x7 r3_0)) (k3_pay4 (View.ld x0 r3_1) (View.ld x3 r3_2) (View.ld x1 r3_1) (View.ld x5 r3_3) (View.ld x4 r3_2) (View.ld x2 r3_1) (View.ld x6 r3_3) (View.ld x8 r3_4) (View.ld x10 r3_5)) (View.ld x9 r3_6) (View.ld x11 r3_5)⟩]

/-- Its store is the whole buffer, so it covers it. -/
theorem cover3_12 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y

/-! ## The body's triple -/

set_option maxHeartbeats 4000000 in
/-- The kernel body on whole staging memrefs, the inputs' at read contents `xW` and the output's at anything, runs to
    the continuation holding the inputs' as they were and the output's at `out3_12` of the inputs': the printed
    functions are their skeletons, run operation by operation through the part call. -/
theorem sound_kernel3 (c : Dev nD) (E : Set ℕ) (i : grid3.Coords) (arg0 : Memref sig .tc .vmem S4096x256 .f32) (harg0 : arg0.IsWhole) (arg1 : Memref sig .tc .vmem S4096x256 .f32) (harg1 : arg1.IsWhole) (arg2 : Memref sig .tc .vmem S4096x256 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S4096x128 .f32) (harg7 : arg7.IsWhole) (arg8 : Memref sig .tc .vmem S256x384 .bf16) (harg8 : arg8.IsWhole) (arg9 : Memref sig .tc .vmem S128x384 .bf16) (harg9 : arg9.IsWhole) (arg10 : Memref sig .tc .vmem S1x384 .f32) (harg10 : arg10.IsWhole) (arg11 : Memref sig .tc .vmem S1x384 .f32) (harg11 : arg11.IsWhole) (arg12 : Memref sig .tc .vmem S4096x128 .f32) (harg12 : arg12.IsWhole)
    (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out3_12 x0 x1 x2 x3 x4 x5 x6 x7 x8 x9 x10 x11)) -∗ K ⟨⟩))
      ⊢ wp frame (wpE (defs₀ (F := F)) Variants.none c none) E (cc3_kernel i arg0 harg0 arg1 harg1 arg2 harg2 arg3 harg3 arg4 harg4 arg5 harg5 arg6 harg6 arg7 harg7 arg8 harg8 arg9 harg9 arg10 harg10 arg11 harg11 arg12 harg12) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover3_12 _)

/-! ## The pipeline's proof data -/

/-- The proof data of pipeline 3 on core `c`: the arrays as the region finds them (`V`); after the body at
    point `t` each input's buffer at its block and the output's at `out3_12` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t))

set_option maxHeartbeats 1000000 in
/-- The body at any point: the inputs' memrefs hold their blocks (`before3_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel3 c Set.univ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Reg4.lean ====
/- The frame of region 4 of @main: custom_call 4, `cc4__readout_kernel` (pipeline 4), stated at a parameter
   `V`, the TensorCore's buffer contents when the region is entered, and at any float model `F`.

   The kernel is a gated readout with two heads over a block of 32 graphs of 128 nodes with 128 features each.
   Per head it multiplies the 4096x128 flattened block (rounded to bf16) by a 128x128 matrix and adds a bias row;
   weights each row by the logistic of its inner product with a gate row plus a gate bias; sums the 128 node rows
   of every graph; and divides each 128-vector by the larger of its Euclidean norm and 1e-12. Head one (windows
   1 to 4) fills window 9's 32x128 block and head two (windows 5 to 8) window 10's, each in one whole-block store.
   Before each of the two stores the kernel also loads the output buffer it is about to overwrite; the loaded value
   is used nowhere, so what the buffer held does not matter.

   Window 0's block index is the grid coordinate, so it is fetched at each of the 8 points. Windows 1 to 8 are whole
   arrays with a constant block index: the pipeline fetches them at the first point only, and at the other seven
   points their buffers still hold the same blocks because the body leaves every input buffer as it found it.
   Windows 9 and 10 are written back at every point.

   Here: each window's block at a point (`iblk4`), what the body leaves in the two output buffers (`out4_9`,
   `out4_10`), the body's triple (`sound_kernel4`), the proof data (`dat4`) and the pipeline's body obligation
   (`body_obligation4`). -/
import proofs.«163521_j41618233098847_2_alg».proof.Proof.Gen.KernelIdeal.Launch
import proofs.«163521_j41618233098847_2_alg».proof.Proof.Gen.KernelIdeal.Skeleton
import proofs.«163521_j41618233098847_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have extents in the hundreds and thousands
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it, that the window's
    index map selects at `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 (the 32x128x128 f32 block of node features, fetched at every point; fetched at every point) has its block in its current staging
    buffer whenever the body is called, for any proof data over the entry contents whose body leaves that block in
    place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Window 1 (the first head's 128x128 bf16 weight matrix; fetched at the first point only; its block index never moves, so an unfetched point finds the block the point before left) has its block in its current staging
    buffer whenever the body is called, for any proof data over the entry contents whose body leaves that block in
    place: the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Window 2 (the first head's 1x128 f32 bias row; fetched at the first point only; its block index never moves, so an unfetched point finds the block the point before left) has its block in its current staging
    buffer whenever the body is called, for any proof data over the entry contents whose body leaves that block in
    place: the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Window 3 (the first head's 1x128 bf16 gate row; fetched at the first point only; its block index never moves, so an unfetched point finds the block the point before left) has its block in its current staging
    buffer whenever the body is called, for any proof data over the entry contents whose body leaves that block in
    place: the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Window 4 (the first head's 1x1 f32 gate bias; fetched at the first point only; its block index never moves, so an unfetched point finds the block the point before left) has its block in its current staging
    buffer whenever the body is called, for any proof data over the entry contents whose body leaves that block in
    place: the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Window 5 (the second head's 128x128 bf16 weight matrix; fetched at the first point only; its block index never moves, so an unfetched point finds the block the point before left) has its block in its current staging
    buffer whenever the body is called, for any proof data over the entry contents whose body leaves that block in
    place: the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Window 6 (the second head's 1x128 f32 bias row; fetched at the first point only; its block index never moves, so an unfetched point finds the block the point before left) has its block in its current staging
    buffer whenever the body is called, for any proof data over the entry contents whose body leaves that block in
    place: the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Window 7 (the second head's 1x128 bf16 gate row; fetched at the first point only; its block index never moves, so an unfetched point finds the block the point before left) has its block in its current staging
    buffer whenever the body is called, for any proof data over the entry contents whose body leaves that block in
    place: the window is uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Window 8 (the second head's 1x1 f32 gate bias; fetched at the first point only; its block index never moves, so an unfetched point finds the block the point before left) has its block in its current staging
    buffer whenever the body is called, for any proof data over the entry contents whose body leaves that block in
    place: the window is uncut and never idle. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S32x128x128 := Rect.unit (s := S32x128x128) ![0, 0, 0] S32x128x128.size inb_S32x128x128_S32x128x128_0_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S1x1 := Rect.unit (s := S1x1) ![0, 0] S1x1.size inb_S1x1_S1x1_0_0
abbrev r4_4 : Rect S32x128 := Rect.unit (s := S32x128) ![0, 0] S32x128.size inb_S32x128_S32x128_0_0

/-! ## What the body leaves in each output window's buffer -/

/-- Window 9's staging buffer after the body: its one store, of head one's normalized readout computed from the
    feature block `x0` and head one's matrix, bias row, gate row and gate bias `x1 … x4`, as a single piece over
    the whole 32x128 buffer. -/
def out4_9 (x0 : Vec F S32x128x128 .f32) (x1 : Vec F S128x128 .bf16) (x2 : Vec F S1x128 .f32) (x3 : Vec F S1x128 .bf16) (x4 : Vec F S1x1 .f32) : Vec F S32x128 .f32 :=
  View.canon [⟨r4_4, k4_pay4 (View.ld x0 r4_0) (View.ld x1 r4_1) (View.ld x2 r4_2) (View.ld x3 r4_2) (View.ld x4 r4_3)⟩]

/-- Window 10's staging buffer after the body: its one store, of head two's normalized readout computed from the
    same feature block `x0` (flattened, and flattened then rounded to bf16) and head two's matrix, bias row, gate row
    and gate bias `x5 … x8`, as a single piece over the whole 32x128 buffer. -/
def out4_10 (x0 : Vec F S32x128x128 .f32) (x5 : Vec F S128x128 .bf16) (x6 : Vec F S1x128 .f32) (x7 : Vec F S1x128 .bf16) (x8 : Vec F S1x1 .f32) : Vec F S32x128 .f32 :=
  View.canon [⟨r4_4, k4_pay1 (k4_pay2 (View.ld x0 r4_0)) (k4_pay3 (View.ld x0 r4_0)) (k4_pay5 (View.ld x5 r4_1)) (View.ld x6 r4_2) (View.ld x7 r4_2) (View.ld x8 r4_3)⟩]

/-- One store over the whole buffer tiles it (checked by evaluation), so it covers it: window 9, -/
theorem cover4_9 (p0 : Vec F S32x128 .f32) (y : S32x128.Idx) :
    ∃ pc ∈ ([⟨r4_4, p0⟩] : List (View.Piece (Elt F) S32x128 .f32)), y ∈ pc.1.set :=
  View.cover_of_tiled [⟨r4_4, p0⟩] S32x128.size (by rfl) y

/-- and window 10. -/
theorem cover4_10 (p0 : Vec F S32x128 .f32) (y : S32x128.Idx) :
    ∃ pc ∈ ([⟨r4_4, p0⟩] : List (View.Piece (Elt F) S32x128 .f32)), y ∈ pc.1.set :=
  View.cover_of_tiled [⟨r4_4, p0⟩] S32x128.size (by rfl) y

/-! ## The body's triple -/

set_option maxHeartbeats 4000000 in
/-- The kernel body on whole staging memrefs, the nine inputs' at read contents `x0 … x8` and the two outputs' at
    anything, runs to the continuation holding the inputs' as they were, window 9's at `out4_9` and window 10's at
    `out4_10` of the inputs': the printed function and its part are their skeletons, a straight line of whole-buffer
    loads and two whole-buffer stores, which is run symbolically; the two loads of the output buffers read whatever
    is there and feed nothing. -/
theorem sound_kernel4 (c : Dev nD) (E : Set ℕ) (i : grid4.Coords) (arg1 : Memref sig .tc .vmem S32x128x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .bf16) (harg4 : arg4.IsWhole) (arg5 : Memref sig .tc .vmem S1x1 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1 .f32) (harg9 : arg9.IsWhole) (arg10 : Memref sig .tc .vmem S32x128 .f32) (harg10 : arg10.IsWhole) (arg11 : Memref sig .tc .vmem S32x128 .f32) (harg11 : arg11.IsWhole)
    (x0 : Vec F S32x128x128 .f32) (x1 : Vec F S128x128 .bf16) (x2 : Vec F S1x128 .f32) (x3 : Vec F S1x128 .bf16) (x4 : Vec F S1x1 .f32) (x5 : Vec F S128x128 .bf16) (x6 : Vec F S1x128 .f32) (x7 : Vec F S1x128 .bf16) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out4_9 x0 x1 x2 x3 x4) ∗ owns (c : Thread nD τ) arg11 fullShare (out4_10 x0 x5 x6 x7 x8)) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9 arg10 harg10 arg11 harg11) K := by
  simp only [cc4__readout_kernel_eq_skeleton]; unfold cc4__readout_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover4_9 _)
  iexists _; isplitr
  swap; · iexact H10
  ipureintro
  try dsimp only
  exact View.read_writes_eq_canon _ _ _ (cover4_10 _)

/-! ## The pipeline's proof data -/

/-- The proof data of pipeline 4 on core `c`: the arrays as the region finds them (`V`); after the body at point
    `t` each input's buffer at its block, window 9's at `out4_9` and window 10's at `out4_10` of the input blocks; as
    invariant the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t)
    | ⟨10, _⟩ => out4_10 (iblk4 V c 0 t) (iblk4 V c 5 t) (iblk4 V c 6 t) (iblk4 V c 7 t) (iblk4 V c 8 t)
  Φ _ := Pipeline.ΦA spec4 c
  q _ := fullShare
  owed _ := 0

/-- The proof data's arrays are the region-entry contents (the definition projected; `V` is never unfolded). -/
theorem A_eq4 (c : Dev nD) (w : Fin cfg4.W) : (dat4 V c).A w = V c (Pipeline.arrRef spec4 w) := by
  dsimp only [dat4]

/-- What the body leaves, window by window (the proof data's case split reduced at each numeral). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) := by dsimp only [dat4]
theorem after4_10 (c : Dev nD) (t : Fin cfg4.N) : (dat4 V c).after 10 t = out4_10 (iblk4 V c 0 t) (iblk4 V c 5 t) (iblk4 V c 6 t) (iblk4 V c 7 t) (iblk4 V c 8 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`: the invariant, the core's debts, and each window's current staging
    buffer at what the pipeline has put there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns: the same with each buffer at what the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

set_option maxHeartbeats 4000000 in
/-- The body at any point: the inputs' memrefs hold their blocks (`before4_w`), so `sound_kernel4` applies at those
    blocks; the invariant and the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Run.lean ====
/- The run of @main through its five kernel regions, at any float model `F`.

   @main is ten items in order: a stretch of host operations, then a kernel region, five times over. Between two items
   a core holds every unscoped buffer whole; the contents are named by a fold from the launch memory: a host stretch
   takes the contents `W` to `StableHlo.after ops W`; a region takes them to the same contents with its windows' arrays
   replaced by what its pipeline leaves in them (an input window's array as entered, an output window's with every
   write-back folded in). `W0` is the launch memory and `W10` the contents when @main returns.

   Each region is a segment entered from the buffers at the contents before it and left at the contents after it,
   its proof data taken at its own entry contents; the generator register and the core's empty debt ride along
   through every item. The launch over the ten segments gives `run_all`: every weakly fair execution terminates and
   the final memory holds `W10` at every unscoped buffer. An argument array is written by no host operation and is no
   window's array of any region, so `W10` at an argument walks back through the fold to the launch memory
   (`W10_main_argJ`), which gives the frame claim `frame`. -/
import proofs.«163521_j41618233098847_2_alg».proof.Proof.Gen.KernelIdeal.Launch
import proofs.«163521_j41618233098847_2_alg».proof.Proof.Gen.KernelIdeal.Regions
import proofs.«163521_j41618233098847_2_alg».proof.Proof.KI.Reg0
import proofs.«163521_j41618233098847_2_alg».proof.Proof.KI.Reg1
import proofs.«163521_j41618233098847_2_alg».proof.Proof.KI.Reg2
import proofs.«163521_j41618233098847_2_alg».proof.Proof.KI.Reg3
import proofs.«163521_j41618233098847_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's fifty written references, or none of a region's thirteen arrays,
-- recurses past the default depth
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (an input's as entered, an output's with every
    write-back folded in: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (an input's as entered, an output's with every
    write-back folded in: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (an input's as entered, an output's with every
    write-back folded in: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (an input's as entered, an output's with every
    write-back folded in: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (an input's as entered, an output's with every
    write-back folded in: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ### A buffer nothing touches ends as launched

A reference that no host operation writes and that is no window's array of any region is carried unchanged across all
ten items, so the fold at it walks back to the launch memory. Every argument array is such a reference. -/

theorem W10_of_untouched (c : Dev nD) (r : Ref sig .tc)
    (h0 : r ∉ hostOps0_W) (k0 : ∀ w, Pipeline.arrRef spec0 w ≠ r)
    (h1 : r ∉ hostOps1_W) (k1 : ∀ w, Pipeline.arrRef spec1 w ≠ r)
    (h2 : r ∉ hostOps2_W) (k2 : ∀ w, Pipeline.arrRef spec2 w ≠ r)
    (h3 : r ∉ hostOps3_W) (k3 : ∀ w, Pipeline.arrRef spec3 w ≠ r)
    (h4 : r ∉ hostOps4_W) (k4 : ∀ w, Pipeline.arrRef spec4 w ≠ r) :
    W10 m ρ c (Proc.devRef .tc r) = m ((c : Thread nD τ).loc r) :=
  calc W10 m ρ c (Proc.devRef .tc r)
    _ = W9 m ρ c (Proc.devRef .tc r) := W10_of_ne m ρ c r k4
    _ = W8 m ρ c (Proc.devRef .tc r) := StableHlo.after_of_writes_sub hostOps4 _ hostOps4_writes h4
    _ = W7 m ρ c (Proc.devRef .tc r) := W8_of_ne m ρ c r k3
    _ = W6 m ρ c (Proc.devRef .tc r) := StableHlo.after_of_writes_sub hostOps3 _ hostOps3_writes h3
    _ = W5 m ρ c (Proc.devRef .tc r) := W6_of_ne m ρ c r k2
    _ = W4 m ρ c (Proc.devRef .tc r) := StableHlo.after_of_writes_sub hostOps2 _ hostOps2_writes h2
    _ = W3 m ρ c (Proc.devRef .tc r) := W4_of_ne m ρ c r k1
    _ = W2 m ρ c (Proc.devRef .tc r) := StableHlo.after_of_writes_sub hostOps1 _ hostOps1_writes h1
    _ = W1 m ρ c (Proc.devRef .tc r) := W2_of_ne m ρ c r k0
    _ = W0 m ρ c (Proc.devRef .tc r) := StableHlo.after_of_writes_sub hostOps0 _ hostOps0_writes h0
    _ = m ((c : Thread nD τ).loc r) := rfl

theorem W10_main_arg0 (c : Dev nD) : W10 m ρ c (Proc.devRef .tc main_arg0) = m ((c : Thread nD τ).loc main_arg0) :=
  W10_of_untouched m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_of_untouched m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_of_untouched m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_of_untouched m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_of_untouched m ρ c main_arg4 (by decide) (by decide) (by decide) (by decide) (by decide) (by decide) (by decide) (by decide) (by decide) (by decide)
theorem W10_main_arg5 (c : Dev nD) : W10 m ρ c (Proc.devRef .tc main_arg5) = m ((c : Thread nD τ).loc main_arg5) :=
  W10_of_untouched m ρ c main_arg5 (by decide) (by decide) (by decide) (by decide) (by decide) (by decide) (by decide) (by decide) (by decide) (by decide)
theorem W10_main_arg6 (c : Dev nD) : W10 m ρ c (Proc.devRef .tc main_arg6) = m ((c : Thread nD τ).loc main_arg6) :=
  W10_of_untouched m ρ c main_arg6 (by decide) (by decide) (by decide) (by decide) (by decide) (by decide) (by decide) (by decide) (by decide) (by decide)
theorem W10_main_arg7 (c : Dev nD) : W10 m ρ c (Proc.devRef .tc main_arg7) = m ((c : Thread nD τ).loc main_arg7) :=
  W10_of_untouched m ρ c main_arg7 (by decide) (by decide) (by decide) (by decide) (by decide) (by decide) (by decide) (by decide) (by decide) (by decide)
theorem W10_main_arg8 (c : Dev nD) : W10 m ρ c (Proc.devRef .tc main_arg8) = m ((c : Thread nD τ).loc main_arg8) :=
  W10_of_untouched m ρ c main_arg8 (by decide) (by decide) (by decide) (by decide) (by decide) (by decide) (by decide) (by decide) (by decide) (by decide)
theorem W10_main_arg9 (c : Dev nD) : W10 m ρ c (Proc.devRef .tc main_arg9) = m ((c : Thread nD τ).loc main_arg9) :=
  W10_of_untouched m ρ c main_arg9 (by decide) (by decide) (by decide) (by decide) (by decide) (by decide) (by decide) (by decide) (by decide) (by decide)
theorem W10_main_arg10 (c : Dev nD) : W10 m ρ c (Proc.devRef .tc main_arg10) = m ((c : Thread nD τ).loc main_arg10) :=
  W10_of_untouched m ρ c main_arg10 (by decide) (by decide) (by decide) (by decide) (by decide) (by decide) (by decide) (by decide) (by decide) (by decide)
theorem W10_main_arg11 (c : Dev nD) : W10 m ρ c (Proc.devRef .tc main_arg11) = m ((c : Thread nD τ).loc main_arg11) :=
  W10_of_untouched m ρ c main_arg11 (by decide) (by decide) (by decide) (by decide) (by decide) (by decide) (by decide) (by decide) (by decide) (by decide)
theorem W10_main_arg12 (c : Dev nD) : W10 m ρ c (Proc.devRef .tc main_arg12) = m ((c : Thread nD τ).loc main_arg12) :=
  W10_of_untouched m ρ c main_arg12 (by decide) (by decide) (by decide) (by decide) (by decide) (by decide) (by decide) (by decide) (by decide) (by decide)
theorem W10_main_arg13 (c : Dev nD) : W10 m ρ c (Proc.devRef .tc main_arg13) = m ((c : Thread nD τ).loc main_arg13) :=
  W10_of_untouched m ρ c main_arg13 (by decide) (by decide) (by decide) (by decide) (by decide) (by decide) (by decide) (by decide) (by decide) (by decide)
theorem W10_main_arg14 (c : Dev nD) : W10 m ρ c (Proc.devRef .tc main_arg14) = m ((c : Thread nD τ).loc main_arg14) :=
  W10_of_untouched m ρ c main_arg14 (by decide) (by decide) (by decide) (by decide) (by decide) (by decide) (by decide) (by decide) (by decide) (by decide)
theorem W10_main_arg15 (c : Dev nD) : W10 m ρ c (Proc.devRef .tc main_arg15) = m ((c : Thread nD τ).loc main_arg15) :=
  W10_of_untouched m ρ c main_arg15 (by decide) (by decide) (by decide) (by decide) (by decide) (by decide) (by decide) (by decide) (by decide) (by decide)
theorem W10_main_arg16 (c : Dev nD) : W10 m ρ c (Proc.devRef .tc main_arg16) = m ((c : Thread nD τ).loc main_arg16) :=
  W10_of_untouched m ρ c main_arg16 (by decide) (by decide) (by decide) (by decide) (by decide) (by decide) (by decide) (by decide) (by decide) (by decide)
theorem W10_main_arg17 (c : Dev nD) : W10 m ρ c (Proc.devRef .tc main_arg17) = m ((c : Thread nD τ).loc main_arg17) :=
  W10_of_untouched m ρ c main_arg17 (by decide) (by decide) (by decide) (by decide) (by decide) (by decide) (by decide) (by decide) (by decide) (by decide)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents: a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class
    invariant takes it in and gives it back) and its debt, which is empty. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt (the launch's chain ends at it beside the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

/-! ## The regions as segments -/

-- a library lemma stated over `pin pcs a p` meets the pinned configuration only when unification may unfold plain
-- definitions in a metavariable's type
set_option backward.isDefEq.respectTransparency.types false in
/-- REGION 0 (custom_call 0, the first projection (pipeline 0)) over the thread state: entered from every unscoped buffer
    at `W1`, left at `W2`, which the next host stretch starts from. Its arrays are split out of the
    unscoped buffers at entry and put back at the exit contents; the generator register goes into the class invariant and
    comes out again; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 1 (custom_call 1, the first gated recurrent update (pipeline 1)) over the thread state: entered from every unscoped buffer
    at `W3`, left at `W4`, which the next host stretch starts from. Its arrays are split out of the
    unscoped buffers at entry and put back at the exit contents; the generator register goes into the class invariant and
    comes out again; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 2 (custom_call 2, the second projection (pipeline 2)) over the thread state: entered from every unscoped buffer
    at `W5`, left at `W6`, which the next host stretch starts from. Its arrays are split out of the
    unscoped buffers at entry and put back at the exit contents; the generator register goes into the class invariant and
    comes out again; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 3 (custom_call 3, the second gated recurrent update with the rows' normalization (pipeline 3)) over the thread state: entered from every unscoped buffer
    at `W7`, left at `W8`, which the next host stretch starts from. Its arrays are split out of the
    unscoped buffers at entry and put back at the exit contents; the generator register goes into the class invariant and
    comes out again; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 4 (custom_call 4, the read-out (pipeline 4)) over the thread state: entered from every unscoped buffer
    at `W9`, left at `W10`, the last boundary's contents, beside the core owing nothing. Its arrays are split out of the
    unscoped buffers at entry and put back at the exit contents; the generator register goes into the class invariant and
    comes out again; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main IS the run of the segments: @main is the chain of its ten items, and the segments' run unfolds to the same
    chain. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: from any memory with zero counters, every weakly fair execution of @main on the TensorCores terminates,
    nothing faulting, and every final state holds, at every unscoped buffer of every core, the last boundary's
    contents `W10`: the launch over the ten segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

/-- THE FRAME, at any `F`: every weakly fair execution of @main terminates and every final state has the eighteen
    argument arrays as launched: `run_all`, each argument's buffer read off `W10` and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c),
    (h c _ (mem_uc main_arg15 (by decide))).trans (W10_main_arg15 m ρ c),
    (h c _ (mem_uc main_arg16 (by decide))).trans (W10_main_arg16 m ρ c),
    (h c _ (mem_uc main_arg17 (by decide))).trans (W10_main_arg17 m ρ c)⟩) (run_all m ρ)

/-- info: 'Cert.KernelIdeal.Fr.frame' depends on axioms: [propext, Classical.choice, Quot.sound] -/
#guard_msgs in #print axioms frame

end Cert.KernelIdeal.Fr

end
-- ==== Proof.Spec.lean ====
/-
  The mathematics both programs compute, written once over the extended reals, index by index.
  Nodes are rows `Fin 32768`, node features `Fin 128`, edges `Fin 262144`; an edge list is a pair of
  index words per edge. One layer sends along every edge (and along its reverse) an affine image of the pair of
  end-point feature rows, adds the messages arriving at each node, and updates the node's row by a gated recurrent
  cell; after the last layer every row is divided by its Euclidean length (floored at a small literal); the read-out
  sums gated affine images of the 128 rows of each of the 256 graphs and normalizes the sums the same way.
-/
import Idealize.ShloMosaic.PureOps.Ideal
import Idealize.ShloMosaic.Lib.ValueIdx

noncomputable section

open scoped BigOperators

namespace Cert.Spec

open Idealize.ShloMosaic

/-- The two float literals of both programs other than zero: `1.0` and the floor `9.99999996e-13` of a length. -/
abbrev one : EReal := Ideal.ofBits .f32 0x3F800000#32
abbrev tiny : EReal := Ideal.ofBits .f32 0x2B8CBCCC#32

/-- The row a gather reads for the index word `w`: a negative word is first raised by the number of rows (numpy's
    wrap-around), then the start index, read signed, is clamped into the array. -/
def gat (w : BitVec 32) : Fin 32768 :=
  ⟨min ((if w.slt 0#32 then w + 32768#32 else w).toInt.toNat) 32767, by omega⟩

/-- A message: the pair of rows `(hf s, hf t)`, as one row of 256 features, against row `c` of the weights, plus the bias. -/
def msg (hf : Fin 32768 → Fin 128 → EReal) (W : Fin 256 → Fin 256 → EReal) (b : Fin 256 → EReal)
    (s t : Fin 32768) (c : Fin 256) : EReal :=
  (∑ j : Fin 256, (if h : j.val < 128 then hf s ⟨j.val, h⟩ else hf t ⟨j.val - 128, by omega⟩) * W c j) + b c

/-- What arrives at node `v`: the forward messages of the edges whose second end is `v` (a scatter-add drops an index
    word that is not a row, and lands the others where they say, unwrapped) and the reverse messages of the edges whose
    first end is `v`. -/
def agg (hf : Fin 32768 → Fin 128 → EReal) (e0 e1 : Fin 262144 → BitVec 32)
    (Wm : Fin 256 → Fin 256 → EReal) (bm : Fin 256 → EReal) (Wr : Fin 256 → Fin 256 → EReal) (br : Fin 256 → EReal)
    (v : Fin 32768) (c : Fin 256) : EReal :=
  (∑ k : Fin 262144, if (e1 k).toInt = (v.val : Int) then msg hf Wm bm (gat (e0 k)) (gat (e1 k)) c else 0)
    + (∑ k : Fin 262144, if (e0 k).toInt = (v.val : Int) then msg hf Wr br (gat (e1 k)) (gat (e0 k)) c else 0)

/-- The cell's two affine maps: of the aggregate (256 features) and of the node's own row (128 features), to 384 gates. -/
def gateIn (a : Fin 32768 → Fin 256 → EReal) (Wih : Fin 384 → Fin 256 → EReal) (bih : Fin 384 → EReal)
    (v : Fin 32768) (g : Fin 384) : EReal := (∑ k : Fin 256, a v k * Wih g k) + bih g
def gateHid (hf : Fin 32768 → Fin 128 → EReal) (Whh : Fin 384 → Fin 128 → EReal) (bhh : Fin 384 → EReal)
    (v : Fin 32768) (g : Fin 384) : EReal := (∑ k : Fin 128, hf v k * Whh g k) + bhh g

/-- The gated recurrent cell on one feature of one row. -/
def cell (gi gh : Fin 32768 → Fin 384 → EReal) (hf : Fin 32768 → Fin 128 → EReal) (v : Fin 32768) (j : Fin 128) : EReal :=
  let r := Ideal.logistic (gi v ⟨j.val, by omega⟩ + gh v ⟨j.val, by omega⟩)
  let z := Ideal.logistic (gi v ⟨128 + j.val, by omega⟩ + gh v ⟨128 + j.val, by omega⟩)
  let n := Ideal.tanh (gi v ⟨256 + j.val, by omega⟩ + r * gh v ⟨256 + j.val, by omega⟩)
  (one - z) * n + z * hf v j

/-- One layer. -/
def layer (hf : Fin 32768 → Fin 128 → EReal) (e0 e1 : Fin 262144 → BitVec 32)
    (Wm : Fin 256 → Fin 256 → EReal) (bm : Fin 256 → EReal) (Wr : Fin 256 → Fin 256 → EReal) (br : Fin 256 → EReal)
    (Wih : Fin 384 → Fin 256 → EReal) (Whh : Fin 384 → Fin 128 → EReal) (bih bhh : Fin 384 → EReal) :
    Fin 32768 → Fin 128 → EReal :=
  cell (gateIn (agg hf e0 e1 Wm bm Wr br) Wih bih) (gateHid hf Whh bhh) hf

/-- A row over its Euclidean length, the length floored at `tiny`. -/
def unit {n : Nat} (x : Fin n → Fin 128 → EReal) (v : Fin n) (j : Fin 128) : EReal :=
  Ideal.div (x v j) (max (Ideal.sqrt (∑ k : Fin 128, x v k * x v k)) tiny)

/-- The read-out before normalizing: over the 128 rows of graph `g`, the sum of the affine image (`W`, `b`) of the row
    times the logistic gate of its affine functional (`u`, `d`). -/
def pooled (hf : Fin 32768 → Fin 128 → EReal) (W : Fin 128 → Fin 128 → EReal) (b : Fin 128 → EReal)
    (u : Fin 128 → EReal) (d : EReal) (g : Fin 256) (s : Fin 128) : EReal :=
  ∑ i : Fin 128,
    ((∑ k : Fin 128, hf ⟨g.val * 128 + i.val, by omega⟩ k * W s k) + b s)
      * Ideal.logistic ((∑ k : Fin 128, hf ⟨g.val * 128 + i.val, by omega⟩ k * u k) + d)

def readout (hf : Fin 32768 → Fin 128 → EReal) (W : Fin 128 → Fin 128 → EReal) (b : Fin 128 → EReal)
    (u : Fin 128 → EReal) (d : EReal) : Fin 256 → Fin 128 → EReal := unit (pooled hf W b u d)

/-! ## The whole program, as functions of the eighteen argument arrays

`a0` the node features `[256, 128, 128]`, `a1` the edge list `[2, 262144]` (index words), `a2 … a9` the two layers'
stacked weights (messages `a2`/`a3`, reverse messages `a4`/`a5`, the cell's `a6 … a9`), `a10 … a13` and `a14 … a17`
the two read-outs' weights. -/

open Idealize.ShloMosaic.ValueIdx

/-- The node features as rows: node `v` is row `v % 128` of graph `v / 128`. -/
def rows (a0 : (⟨3, ![256, 128, 128]⟩ : Shape).Idx → EReal) : Fin 32768 → Fin 128 → EReal :=
  fun v j => a0 (ix3 (⟨v.val / 128, by omega⟩ : Fin 256) (⟨v.val % 128, by omega⟩ : Fin 128) j)

/-- Layer `l` on rows `hf`: its weights are slice `l` of the stacked arrays. -/
def lay (l : Fin 2) (a1 : (⟨2, ![2, 262144]⟩ : Shape).Idx → BitVec 32)
    (a2 : (⟨3, ![2, 256, 256]⟩ : Shape).Idx → EReal) (a3 : (⟨2, ![2, 256]⟩ : Shape).Idx → EReal)
    (a4 : (⟨3, ![2, 256, 256]⟩ : Shape).Idx → EReal) (a5 : (⟨2, ![2, 256]⟩ : Shape).Idx → EReal)
    (a6 : (⟨3, ![2, 384, 256]⟩ : Shape).Idx → EReal) (a7 : (⟨3, ![2, 384, 128]⟩ : Shape).Idx → EReal)
    (a8 a9 : (⟨2, ![2, 384]⟩ : Shape).Idx → EReal) (hf : Fin 32768 → Fin 128 → EReal) : Fin 32768 → Fin 128 → EReal :=
  layer hf (fun k => a1 (ix2 (0 : Fin 2) k)) (fun k => a1 (ix2 (1 : Fin 2) k))
    (fun c j => a2 (ix3 l c j)) (fun c => a3 (ix2 l c)) (fun c j => a4 (ix3 l c j)) (fun c => a5 (ix2 l c))
    (fun g k => a6 (ix3 l g k)) (fun g k => a7 (ix3 l g k)) (fun g => a8 (ix2 l g)) (fun g => a9 (ix2 l g))

/-- The node rows after both layers, each normalized to unit length. -/
def nodes (a0 : (⟨3, ![256, 128, 128]⟩ : Shape).Idx → EReal) (a1 : (⟨2, ![2, 262144]⟩ : Shape).Idx → BitVec 32)
    (a2 : (⟨3, ![2, 256, 256]⟩ : Shape).Idx → EReal) (a3 : (⟨2, ![2, 256]⟩ : Shape).Idx → EReal)
    (a4 : (⟨3, ![2, 256, 256]⟩ : Shape).Idx → EReal) (a5 : (⟨2, ![2, 256]⟩ : Shape).Idx → EReal)
    (a6 : (⟨3, ![2, 384, 256]⟩ : Shape).Idx → EReal) (a7 : (⟨3, ![2, 384, 128]⟩ : Shape).Idx → EReal)
    (a8 a9 : (⟨2, ![2, 384]⟩ : Shape).Idx → EReal) : Fin 32768 → Fin 128 → EReal :=
  unit (lay 1 a1 a2 a3 a4 a5 a6 a7 a8 a9 (lay 0 a1 a2 a3 a4 a5 a6 a7 a8 a9 (rows a0)))

/-- First result: the normalized rows, graph by graph. -/
def res0 (H : Fin 32768 → Fin 128 → EReal) : (⟨3, ![256, 128, 128]⟩ : Shape).Idx → EReal :=
  fun i => H ⟨(i 0).val * 128 + (i 1).val, by have := (i 0).isLt; have := (i 1).isLt; simp only [Matrix.cons_val_zero, Matrix.cons_val_one] at *; omega⟩ (i 2)

/-- Second and third results: a read-out of the normalized rows with weights `W [128,128]`, `b [128]`, `u [1,128]`, `d [1]`. -/
def res12 (H : Fin 32768 → Fin 128 → EReal) (W : (⟨2, ![128, 128]⟩ : Shape).Idx → EReal) (b : (⟨1, ![128]⟩ : Shape).Idx → EReal)
    (u : (⟨2, ![1, 128]⟩ : Shape).Idx → EReal) (d : (⟨1, ![1]⟩ : Shape).Idx → EReal) : (⟨2, ![256, 128]⟩ : Shape).Idx → EReal :=
  fun i => readout H (fun s k => W (ix2 s k)) (fun s => b (ix1 s)) (fun k => u (ix2 (0 : Fin 1) k)) (d (ix1 (0 : Fin 1))) (i 0) (i 1)

/-! ## The kernel's arrangement of a layer's aggregate

The kernel projects every node row once (`P | Q | Pr | Qr`, 1024 columns), adds along the edges only the two projections
that depend on the far end, and accounts for the near end and the bias by the node's in- and out-degree. -/

/-- The aggregate as the kernel's update region computes it from the scattered far-end terms, the near-end
    projections, the degrees and the biases. -/
def aggK (term q qr : Fin 32768 → Fin 256 → EReal) (din dout : Fin 32768 → EReal) (mb mrb : Fin 256 → EReal)
    (v : Fin 32768) (c : Fin 256) : EReal :=
  term v c + din v * (q v c + mb c) + dout v * (qr v c + mrb c)

/-- The read-out's pooled sums over an array of graphs × rows × features. -/
def pooled3 (h3 : Fin 256 → Fin 128 → Fin 128 → EReal) (W : Fin 128 → Fin 128 → EReal) (b : Fin 128 → EReal)
    (u : Fin 128 → EReal) (d : EReal) (g : Fin 256) (s : Fin 128) : EReal :=
  ∑ i : Fin 128, ((∑ k : Fin 128, h3 g i k * W s k) + b s) * Ideal.logistic ((∑ k : Fin 128, h3 g i k * u k) + d)

theorem pooled_eq (hf : Fin 32768 → Fin 128 → EReal) (W : Fin 128 → Fin 128 → EReal) (b : Fin 128 → EReal)
    (u : Fin 128 → EReal) (d : EReal) :
    pooled hf W b u d = pooled3 (fun g i k => hf ⟨g.val * 128 + i.val, by omega⟩ k) W b u d := rfl

end Cert.Spec

end
-- ==== Proof.KV.Reg0Val.lean ====
/- What region 0 leaves in its output array, over the extended reals.

   Region 0 multiplies the node-feature rows (32768 x 128) by the concatenated weights (128 x 1024). Over the
   extended reals a change of float format is the identity and a matrix product into a zero accumulator is the plain
   sum of products, so entry (r, q) of the 32768 x 1024 result is the inner product of row r of the features with
   column q of the weights. The grid cuts the rows into four blocks of 8192; the weights are one block, the same at
   every point. Row p of point t's block is row t * 8192 + p of the array, so every row is in exactly the block of
   point r / 8192, and the four blocks written back fill the array. -/
import proofs.«163521_j41618233098847_2_alg».proof.Proof.KI.Reg0
import proofs.«163521_j41618233098847_2_alg».proof.Proof.Spec
import Idealize.ShloMosaic.Lib.Pipeline.Value
import Idealize.ShloMosaic.Lib.ValueIdx
import Idealize.ShloMosaic.PureOps.Ideal
import Idealize.ShloMosaic.PureOps.Ideal.Laws

-- the arrays here have axes of 32768, 8192 and 1024 coordinates
set_option maxRecDepth 16384

noncomputable section

open scoped BigOperators

namespace Cert.KernelIdeal.Val

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Fr

-- the TensorCore's buffer contents when the region is entered, at the extended reals
variable (V : (c : Dev nD) → (b : Ref sig .tc) → Buf (Elt Ideal) ((c : Thread nD τ).loc b))

/-! ## The two arrays the region reads, and the array it should leave -/

/-- The node-feature rows as the region finds them. -/
abbrev hfA0 (c : Dev nD) : FVec Ideal S32768x128 .f32 := V c main_v0
/-- The concatenated weights as the region finds them. -/
abbrev wcatA0 (c : Dev nD) : FVec Ideal S128x1024 .bf16 := V c main_v31

/-- The product of the two, index by index: entry `i` is row `i 0` of the features against column `i 1` of the
    weights. -/
def proj0 (c : Dev nD) : S32768x1024.Idx → EReal :=
  fun i => ∑ k : Fin 128, hfA0 V c (ix2 (i 0) k) * wcatA0 V c (ix2 k (i 1))

/-! ## The body's payload at an index -/

/-- The two whole-buffer rectangles start at the origin. -/
theorem zero_off0 : (![0, 0] : Fin 2 → Nat) = fun _ => 0 :=
  funext fun a => by match a with | ⟨0, _⟩ => rfl | ⟨1, _⟩ => rfl

/-- The payload is: both operands rounded to bf16, multiplied into a zero f32 accumulator, rounded to bf16. -/
theorem pay0_eq (x0 : FVec Ideal S8192x128 .f32) (x1 : FVec Ideal S128x1024 .bf16) :
    k0_pay1 (F := Ideal) x0 x1
      = truncf .bf16 (matmul dot_S8192x128_S128x1024_S8192x1024_1_0_0_1_n_n none
          (truncf .bf16 (shapeCast S8192x128 x0 shapeCasts_S8192x128_S8192x128) bitsLt_bf16_f32)
          (shapeCast S128x1024 x1 shapeCasts_S128x1024_S128x1024)
          (constant (F := Ideal) S8192x1024 .f32 0x00000000#32)) bitsLt_bf16_f32 := rfl

/-- The product's operand indices at output index `i` and contraction index `q`, axis by axis: the left operand is
    read at (row of `i`, `q`) and the right one at (`q`, column of `i`). -/
theorem lhs_proj0_0 (i : S8192x1024.Idx) (q : dot_S8192x128_S128x1024_S8192x1024_1_0_0_1_n_n.contr.Idx) :
    (dot_S8192x128_S128x1024_S8192x1024_1_0_0_1_n_n.lhsIdx i q 0).val = (i 0).val := by
  unfold DotDims.lhsIdx
  rw [dif_neg (show ¬(0 : Fin S8192x128.rank) ∈ dot_S8192x128_S128x1024_S8192x1024_1_0_0_1_n_n.lhsBatch by decide), dif_pos (show (0 : Fin S8192x128.rank) ∈ dot_S8192x128_S128x1024_S8192x1024_1_0_0_1_n_n.lhsNonContracting by decide)]
  rfl
theorem lhs_proj0_1 (i : S8192x1024.Idx) (q : dot_S8192x128_S128x1024_S8192x1024_1_0_0_1_n_n.contr.Idx) :
    (dot_S8192x128_S128x1024_S8192x1024_1_0_0_1_n_n.lhsIdx i q 1).val = (q ⟨0, by decide⟩).val :=
  dot_S8192x128_S128x1024_S8192x1024_1_0_0_1_n_n.lhsIdx_val_of_single rfl i q
theorem rhs_proj0_0 (i : S8192x1024.Idx) (q : dot_S8192x128_S128x1024_S8192x1024_1_0_0_1_n_n.contr.Idx) :
    (dot_S8192x128_S128x1024_S8192x1024_1_0_0_1_n_n.rhsIdx i q 0).val = (q ⟨0, by decide⟩).val :=
  dot_S8192x128_S128x1024_S8192x1024_1_0_0_1_n_n.rhsIdx_val_of_single rfl i q
theorem rhs_proj0_1 (i : S8192x1024.Idx) (q : dot_S8192x128_S128x1024_S8192x1024_1_0_0_1_n_n.contr.Idx) :
    (dot_S8192x128_S128x1024_S8192x1024_1_0_0_1_n_n.rhsIdx i q 1).val = (i 1).val := by
  unfold DotDims.rhsIdx
  rw [dif_neg (show ¬(1 : Fin S128x1024.rank) ∈ dot_S8192x128_S128x1024_S8192x1024_1_0_0_1_n_n.rhsBatch by decide), dif_pos (show (1 : Fin S128x1024.rank) ∈ dot_S8192x128_S128x1024_S8192x1024_1_0_0_1_n_n.rhsNonContracting by decide)]
  rfl

/-- Entry (p, q) of the payload is the inner product of row `p` of the first block with column `q` of the second:
    the roundings are the identity, the accumulator is zero, and the one contracted axis is re-indexed by its
    coordinate. -/
theorem pay0_apply (x0 : FVec Ideal S8192x128 .f32) (x1 : FVec Ideal S128x1024 .bf16) (p : Fin 8192) (q : Fin 1024) :
    k0_pay1 (F := Ideal) x0 x1 (ix2 p q) = ∑ k : Fin 128, x0 (ix2 p k) * x1 (ix2 k q) := by
  rw [pay0_eq, shapeCast_self, shapeCast_self]
  show FloatOps.matmul dot_S8192x128_S128x1024_S8192x1024_1_0_0_1_n_n none (truncf .bf16 x0 bitsLt_bf16_f32) x1 (constant (F := Ideal) S8192x1024 .f32 0x00000000#32) (ix2 p q) = _
  rw [Ideal.matmul_constant_zero_apply, ← Equiv.sum_comp (contrEquiv1 dot_S8192x128_S128x1024_S8192x1024_1_0_0_1_n_n 128 rfl rfl).symm]
  refine Finset.sum_congr rfl fun k _ => ?_
  show x0 (dot_S8192x128_S128x1024_S8192x1024_1_0_0_1_n_n.lhsIdx (ix2 p q) ((contrEquiv1 dot_S8192x128_S128x1024_S8192x1024_1_0_0_1_n_n 128 rfl rfl).symm k))
      * x1 (dot_S8192x128_S128x1024_S8192x1024_1_0_0_1_n_n.rhsIdx (ix2 p q) ((contrEquiv1 dot_S8192x128_S128x1024_S8192x1024_1_0_0_1_n_n 128 rfl rfl).symm k)) = x0 (ix2 p k) * x1 (ix2 k q)
  have hk := contrEquiv1_symm_val dot_S8192x128_S128x1024_S8192x1024_1_0_0_1_n_n 128 rfl rfl k
  have el : dot_S8192x128_S128x1024_S8192x1024_1_0_0_1_n_n.lhsIdx (ix2 p q) ((contrEquiv1 dot_S8192x128_S128x1024_S8192x1024_1_0_0_1_n_n 128 rfl rfl).symm k) = ix2 p k := funext fun a => Fin.ext (by
    match a with
    | ⟨0, _⟩ => exact lhs_proj0_0 _ _
    | ⟨1, _⟩ => exact (lhs_proj0_1 _ _).trans hk)
  have er : dot_S8192x128_S128x1024_S8192x1024_1_0_0_1_n_n.rhsIdx (ix2 p q) ((contrEquiv1 dot_S8192x128_S128x1024_S8192x1024_1_0_0_1_n_n 128 rfl rfl).symm k) = ix2 k q := funext fun a => Fin.ext (by
    match a with
    | ⟨0, _⟩ => exact (rhs_proj0_0 _ _).trans hk
    | ⟨1, _⟩ => exact rhs_proj0_1 _ _)
  rw [el, er]

/-! ## From the blocks to the array -/

/-- The windows' block indices over the grid: the feature rows and the result move together along the rows and sit
    at column block 0; the weights sit at block (0, 0) throughout; the row block index is at most 3. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every one of the four row blocks is some point's. -/
theorem idx_onto0 : ∀ q0 : Fin 4, ∃ t : Fin cfg0.N, win0_2.index t = ![q0.val, 0] :=
  (by decide +kernel : ∀ q0 : Fin 4, ∃ t : Fin grid0.N, win0_2.index t = ![q0.val, 0])

/-- What point `t` writes back is block `t` of `proj0`: a block's coordinate in the array is its block index times
    the block's extent plus the coordinate inside the block, so row `p` of the feature block and row `p` of the
    result block are the same row of their arrays, and the weights' block is the whole array. -/
theorem flushed0_eq (c : Dev nD) (t : Fin cfg0.N) :
    (dat0 V c).flushed 2 t = ((cfg0.win 2).blk t).view.read (Elt Ideal) (proj0 V c) := by
  show (cfg0.win 2).cut (grid0.coords t) ((dat0 V c).after 2 t) = _
  rw [after0_2]
  unfold out0_2
  rw [View.canon_unit_zero zero_off0]
  simp only [View.ld_unit_zero (S := S8192x128) zero_off0, View.ld_unit_zero (S := S128x1024) zero_off0]
  obtain ⟨e0, e1, e2, e3, e4, e5⟩ := idx_facts0 t
  funext j
  obtain ⟨p, q, rfl⟩ : ∃ (p : Fin 8192) (q : Fin 1024), j = ix2 p q := ⟨j 0, j 1, eq_ix2 j⟩
  show k0_pay1 (F := Ideal) (iblk0 V c 0 t) (iblk0 V c 1 t) (ix2 p q) = proj0 V c (((cfg0.win 2).blk t).view.emb (ix2 p q))
  refine (pay0_apply _ _ p q).trans ?_
  unfold proj0
  refine Finset.sum_congr rfl fun k _ => ?_
  show hfA0 V c (((cfg0.win 0).blk t).view.emb (ix2 p k)) * wcatA0 V c (((cfg0.win 1).blk t).view.emb (ix2 k q))
    = hfA0 V c (ix2 ((((cfg0.win 2).blk t).view.emb (ix2 p q)) 0) k) * wcatA0 V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 1024 + 1 * q.val = win0_2.index t (1 : Fin 2) * 1024 + 1 * q.val; omega
  rw [h0, h1]
  rfl

/-- An index of the result array is in point `t`'s block iff each coordinate is in the block's range on its axis. -/
theorem mem_blk0 (t : Fin cfg0.N) (i : S32768x1024.Idx) :
    i ∈ ((cfg0.win 2).blk t).view.set ↔ ∀ a : Fin 2, win0_2.index t a * S8192x1024.size a ≤ (i a).val ∧ (i a).val < win0_2.index t a * S8192x1024.size a + S8192x1024.size a := by
  show i ∈ ((View.whole main_v32).slice (win0_2.rect t)).set ↔ _
  rw [View.set_slice_whole, Rect.mem_set_unit]
  exact Iff.rfl

/-- Every index of the result array is in the block of the point whose row block is `(i 0) / 8192`, and every point
    writes its block back. -/
theorem cover0 (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, ht⟩ := idx_onto0 ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 1024 ≤ (i 1).val ∧ (i 1).val < win0_2.index t (1 : Fin 2) * 1024 + 1024; omega

/-- So after the region the result array is `proj0`. -/
theorem final0 (c : Dev nD) : (dat0 V c).arrAt 2 cfg0.N = proj0 V c :=
  (dat0 V c).arrAt_eq_of_cover 2 (proj0 V c) (fun t _ => flushed0_eq V c t) cover0

/-- Entry (r, q) of what region 0 leaves: row `r` of the features against column `q` of the weights. -/
theorem val0 (c : Dev nD) (r : Fin 32768) (q : Fin 1024) :
    (dat0 V c).arrAt 2 cfg0.N (ix2 r q) = ∑ k : Fin 128, hfA0 V c (ix2 r k) * wcatA0 V c (ix2 k q) :=
  congrFun (final0 V c) (ix2 r q)

end Cert.KernelIdeal.Val

end
-- ==== Proof.KV.Reg1Val.lean ====
import proofs.«163521_j41618233098847_2_alg».proof.Proof.KI.Reg1
import proofs.«163521_j41618233098847_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # What region 1 leaves in its output array, index by index, over the extended reals

Region 1 is the first gated-recurrent update. At the ideal values (a float is an extended real, narrowing and widening
are the identity, a product into a zero accumulator is the plain sum of products) the payload the body stores, read
at row `p` and feature `q` of a block, is the recurrent cell of two affine images of that row: of the 256 aggregated
message features (the far-end terms plus the in- and out-degree times the near-end projection and bias) and of the
row's own 128 features. The blocks at grid point `t` are rows `4096 t … 4096 t + 4095` of the row-indexed arrays
and the whole of the weight and bias arrays; the eight output blocks tile the output array, the block covering
row `r` being that of point `r / 4096`. So the output array ends holding, at `(r, j)`, the cell of row `r`. -/

set_option maxRecDepth 16384

noncomputable section

open scoped BigOperators

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx

namespace Gru

/-! ## Layout operations and the two products at an index -/

theorem hz : (![0, 0] : Fin 2 → Nat) = fun _ => 0 := funext fun a => by fin_cases a <;> rfl

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The three column slices of a 4096x384 block of gates, 128 columns each, at `(p, q)`. -/
theorem slice_lo (X : FVec Ideal S4096x384 .f32) (h : S4096x384.Slices ![0, 0] S4096x128) (p : Fin 4096) (q : Fin 128) :
    extractStridedSlice S4096x128 ![0, 0] X h (ix2 p q) = X (ix2 p (⟨q.val, by have := q.isLt; omega⟩ : Fin 384)) :=
  slice2_axis1_apply 0 X h p q ⟨q.val, by have := q.isLt; omega⟩ (Nat.zero_add _).symm
theorem slice_mid (X : FVec Ideal S4096x384 .f32) (h : S4096x384.Slices ![0, 128] S4096x128) (p : Fin 4096) (q : Fin 128) :
    extractStridedSlice S4096x128 ![0, 128] X h (ix2 p q) = X (ix2 p (⟨128 + q.val, by have := q.isLt; omega⟩ : Fin 384)) :=
  slice2_axis1_apply 128 X h p q ⟨128 + q.val, by have := q.isLt; omega⟩ rfl
theorem slice_hi (X : FVec Ideal S4096x384 .f32) (h : S4096x384.Slices ![0, 256] S4096x128) (p : Fin 4096) (q : Fin 128) :
    extractStridedSlice S4096x128 ![0, 256] X h (ix2 p q) = X (ix2 p (⟨256 + q.val, by have := q.isLt; omega⟩ : Fin 384)) :=
  slice2_axis1_apply 256 X h p q ⟨256 + q.val, by have := q.isLt; omega⟩ rfl

theorem logistic_apply {s : Shape} {φ : FTy} (x : FVec Ideal s φ) (i : s.Idx) : logistic x i = Ideal.logistic (x i) := rfl
theorem tanh_apply {s : Shape} {φ : FTy} (x : FVec Ideal s φ) (i : s.Idx) : Idealize.ShloMosaic.tanh x i = Ideal.tanh (x i) := rfl

theorem lhsA_0 (i : S4096x384.Idx) (q : dot_S4096x256_S256x384_S4096x384_1_0_0_1_n_n.contr.Idx) :
    (dot_S4096x256_S256x384_S4096x384_1_0_0_1_n_n.lhsIdx i q 0).val = (i 0).val := by
  unfold DotDims.lhsIdx
  rw [dif_neg (show ¬(0 : Fin S4096x256.rank) ∈ dot_S4096x256_S256x384_S4096x384_1_0_0_1_n_n.lhsBatch by decide), dif_pos (show (0 : Fin S4096x256.rank) ∈ dot_S4096x256_S256x384_S4096x384_1_0_0_1_n_n.lhsNonContracting by decide)]
  rfl
theorem lhsA_1 (i : S4096x384.Idx) (q : dot_S4096x256_S256x384_S4096x384_1_0_0_1_n_n.contr.Idx) :
    (dot_S4096x256_S256x384_S4096x384_1_0_0_1_n_n.lhsIdx i q 1).val = (q ⟨0, by decide⟩).val :=
  dot_S4096x256_S256x384_S4096x384_1_0_0_1_n_n.lhsIdx_val_of_single rfl i q
theorem rhsA_0 (i : S4096x384.Idx) (q : dot_S4096x256_S256x384_S4096x384_1_0_0_1_n_n.contr.Idx) :
    (dot_S4096x256_S256x384_S4096x384_1_0_0_1_n_n.rhsIdx i q 0).val = (q ⟨0, by decide⟩).val :=
  dot_S4096x256_S256x384_S4096x384_1_0_0_1_n_n.rhsIdx_val_of_single rfl i q
theorem rhsA_1 (i : S4096x384.Idx) (q : dot_S4096x256_S256x384_S4096x384_1_0_0_1_n_n.contr.Idx) :
    (dot_S4096x256_S256x384_S4096x384_1_0_0_1_n_n.rhsIdx i q 1).val = (i 1).val := by
  unfold DotDims.rhsIdx
  rw [dif_neg (show ¬(1 : Fin S256x384.rank) ∈ dot_S4096x256_S256x384_S4096x384_1_0_0_1_n_n.rhsBatch by decide), dif_pos (show (1 : Fin S256x384.rank) ∈ dot_S4096x256_S256x384_S4096x384_1_0_0_1_n_n.rhsNonContracting by decide)]
  rfl
/-- The product of a 4096x256 block and a 256x384 block into a zero accumulator, at row `p` and column `g`: the sum
    over the 256 inner coordinates of the products (the contraction index is its one coordinate). -/
theorem matmulA_apply {φ₁ φ₂ : FTy} (l : FVec Ideal S4096x256 φ₁) (r : FVec Ideal S256x384 φ₂) (p : Fin 4096) (g : Fin 384) :
    matmul dot_S4096x256_S256x384_S4096x384_1_0_0_1_n_n none l r (constant S4096x384 .f32 0x00000000#32) (ix2 p g) = ∑ k : Fin 256, l (ix2 p k) * r (ix2 k g) := by
  refine (Ideal.matmul_constant_zero_apply dot_S4096x256_S256x384_S4096x384_1_0_0_1_n_n none l r (ix2 p g)).trans ?_
  rw [← Equiv.sum_comp (ValueIdx.contrEquiv1 dot_S4096x256_S256x384_S4096x384_1_0_0_1_n_n 256 rfl rfl).symm]
  refine Finset.sum_congr rfl fun k _ => ?_
  have hk := ValueIdx.contrEquiv1_symm_val dot_S4096x256_S256x384_S4096x384_1_0_0_1_n_n 256 rfl rfl k
  have el : dot_S4096x256_S256x384_S4096x384_1_0_0_1_n_n.lhsIdx (ix2 p g) ((ValueIdx.contrEquiv1 dot_S4096x256_S256x384_S4096x384_1_0_0_1_n_n 256 rfl rfl).symm k) = ix2 p k := funext fun a => Fin.ext (by
    match a with
    | ⟨0, _⟩ => exact lhsA_0 _ _
    | ⟨1, _⟩ => exact (lhsA_1 _ _).trans hk)
  have er : dot_S4096x256_S256x384_S4096x384_1_0_0_1_n_n.rhsIdx (ix2 p g) ((ValueIdx.contrEquiv1 dot_S4096x256_S256x384_S4096x384_1_0_0_1_n_n 256 rfl rfl).symm k) = ix2 k g := funext fun a => Fin.ext (by
    match a with
    | ⟨0, _⟩ => exact (rhsA_0 _ _).trans hk
    | ⟨1, _⟩ => exact rhsA_1 _ _)
  rw [el, er]

theorem lhsB_0 (i : S4096x384.Idx) (q : dot_S4096x128_S128x384_S4096x384_1_0_0_1_n_n.contr.Idx) :
    (dot_S4096x128_S128x384_S4096x384_1_0_0_1_n_n.lhsIdx i q 0).val = (i 0).val := by
  unfold DotDims.lhsIdx
  rw [dif_neg (show ¬(0 : Fin S4096x128.rank) ∈ dot_S4096x128_S128x384_S4096x384_1_0_0_1_n_n.lhsBatch by decide), dif_pos (show (0 : Fin S4096x128.rank) ∈ dot_S4096x128_S128x384_S4096x384_1_0_0_1_n_n.lhsNonContracting by decide)]
  rfl
theorem lhsB_1 (i : S4096x384.Idx) (q : dot_S4096x128_S128x384_S4096x384_1_0_0_1_n_n.contr.Idx) :
    (dot_S4096x128_S128x384_S4096x384_1_0_0_1_n_n.lhsIdx i q 1).val = (q ⟨0, by decide⟩).val :=
  dot_S4096x128_S128x384_S4096x384_1_0_0_1_n_n.lhsIdx_val_of_single rfl i q
theorem rhsB_0 (i : S4096x384.Idx) (q : dot_S4096x128_S128x384_S4096x384_1_0_0_1_n_n.contr.Idx) :
    (dot_S4096x128_S128x384_S4096x384_1_0_0_1_n_n.rhsIdx i q 0).val = (q ⟨0, by decide⟩).val :=
  dot_S4096x128_S128x384_S4096x384_1_0_0_1_n_n.rhsIdx_val_of_single rfl i q
theorem rhsB_1 (i : S4096x384.Idx) (q : dot_S4096x128_S128x384_S4096x384_1_0_0_1_n_n.contr.Idx) :
    (dot_S4096x128_S128x384_S4096x384_1_0_0_1_n_n.rhsIdx i q 1).val = (i 1).val := by
  unfold DotDims.rhsIdx
  rw [dif_neg (show ¬(1 : Fin S128x384.rank) ∈ dot_S4096x128_S128x384_S4096x384_1_0_0_1_n_n.rhsBatch by decide), dif_pos (show (1 : Fin S128x384.rank) ∈ dot_S4096x128_S128x384_S4096x384_1_0_0_1_n_n.rhsNonContracting by decide)]
  rfl
/-- The product of a 4096x128 block and a 128x384 block into a zero accumulator, at row `p` and column `g`: the sum
    over the 128 inner coordinates of the products (the contraction index is its one coordinate). -/
theorem matmulB_apply {φ₁ φ₂ : FTy} (l : FVec Ideal S4096x128 φ₁) (r : FVec Ideal S128x384 φ₂) (p : Fin 4096) (g : Fin 384) :
    matmul dot_S4096x128_S128x384_S4096x384_1_0_0_1_n_n none l r (constant S4096x384 .f32 0x00000000#32) (ix2 p g) = ∑ k : Fin 128, l (ix2 p k) * r (ix2 k g) := by
  refine (Ideal.matmul_constant_zero_apply dot_S4096x128_S128x384_S4096x384_1_0_0_1_n_n none l r (ix2 p g)).trans ?_
  rw [← Equiv.sum_comp (ValueIdx.contrEquiv1 dot_S4096x128_S128x384_S4096x384_1_0_0_1_n_n 128 rfl rfl).symm]
  refine Finset.sum_congr rfl fun k _ => ?_
  have hk := ValueIdx.contrEquiv1_symm_val dot_S4096x128_S128x384_S4096x384_1_0_0_1_n_n 128 rfl rfl k
  have el : dot_S4096x128_S128x384_S4096x384_1_0_0_1_n_n.lhsIdx (ix2 p g) ((ValueIdx.contrEquiv1 dot_S4096x128_S128x384_S4096x384_1_0_0_1_n_n 128 rfl rfl).symm k) = ix2 p k := funext fun a => Fin.ext (by
    match a with
    | ⟨0, _⟩ => exact lhsB_0 _ _
    | ⟨1, _⟩ => exact (lhsB_1 _ _).trans hk)
  have er : dot_S4096x128_S128x384_S4096x384_1_0_0_1_n_n.rhsIdx (ix2 p g) ((ValueIdx.contrEquiv1 dot_S4096x128_S128x384_S4096x384_1_0_0_1_n_n 128 rfl rfl).symm k) = ix2 k g := funext fun a => Fin.ext (by
    match a with
    | ⟨0, _⟩ => exact (rhsB_0 _ _).trans hk
    | ⟨1, _⟩ => exact rhsB_1 _ _)
  rw [el, er]

/-! ## The payload at an index -/

/-- The recurrent cell on one row: `Spec.cell` reads its three arguments at one row only. -/
def cellRow (gi gh : Fin 384 → EReal) (h : Fin 128 → EReal) (j : Fin 128) : EReal :=
  Spec.cell (fun _ => gi) (fun _ => gh) (fun _ => h) (0 : Fin 32768) j
theorem cell_eq_cellRow (gi gh : Fin 32768 → Fin 384 → EReal) (hf : Fin 32768 → Fin 128 → EReal) (v : Fin 32768) (j : Fin 128) :
    Spec.cell gi gh hf v j = cellRow (gi v) (gh v) (hf v) j := rfl

/-- The affine image of row `p`'s aggregate (the far-end terms `x0`, the in-degree `x3` times the projection `x1` plus its
    bias `x5`, the out-degree `x4` times the reverse projection `x2` plus its bias `x6`), by the weights `x8` and bias `x10`. -/
def gin (x0 x1 x2 : FVec Ideal S4096x256 .f32) (x3 x4 : FVec Ideal S4096x1 .f32) (x5 x6 : FVec Ideal S1x256 .f32)
    (x8 : FVec Ideal S256x384 .bf16) (x10 : FVec Ideal S1x384 .f32) (p : Fin 4096) : Fin 384 → EReal := fun g =>
  (∑ k : Fin 256, (x0 (ix2 p k) + x3 (ix2 p (0 : Fin 1)) * (x1 (ix2 p k) + x5 (ix2 (0 : Fin 1) k))
      + x4 (ix2 p (0 : Fin 1)) * (x2 (ix2 p k) + x6 (ix2 (0 : Fin 1) k))) * x8 (ix2 k g)) + x10 (ix2 (0 : Fin 1) g)
/-- The affine image of row `p`'s own features `x7`, by the weights `x9` and bias `x11`. -/
def ghid (x7 : FVec Ideal S4096x128 .f32) (x9 : FVec Ideal S128x384 .bf16) (x11 : FVec Ideal S1x384 .f32) (p : Fin 4096) : Fin 384 → EReal := fun g =>
  (∑ k : Fin 128, x7 (ix2 p k) * x9 (ix2 k g)) + x11 (ix2 (0 : Fin 1) g)

/-- The first payload of the part, the 384 gates of the aggregate, at row `p` and gate `g`. -/
theorem pay4_apply (x0 x1 x2 : FVec Ideal S4096x256 .f32) (x3 x4 : FVec Ideal S4096x1 .f32) (x5 x6 : FVec Ideal S1x256 .f32)
    (x8 : FVec Ideal S256x384 .bf16) (x10 : FVec Ideal S1x384 .f32) (p : Fin 4096) (g : Fin 384) :
    k1_pay4 (F := Ideal) x0 x3 x1 x5 x4 x2 x6 x8 x10 (ix2 p g) = gin x0 x1 x2 x3 x4 x5 x6 x8 x10 p g := by
  unfold k1_pay4 gin
  simp only [shapeCast_self, addf_apply, mulf_apply, truncf_apply, matmulA_apply, broadcastTo_1b_ab_apply, broadcastTo_a1_ab_apply] <;> rfl

/-- What the body stores, as a function of the twelve blocks. -/
abbrev pay1 (x0 x1 x2 : FVec Ideal S4096x256 .f32) (x3 x4 : FVec Ideal S4096x1 .f32) (x5 x6 : FVec Ideal S1x256 .f32)
    (x7 : FVec Ideal S4096x128 .f32) (x8 : FVec Ideal S256x384 .bf16) (x9 : FVec Ideal S128x384 .bf16) (x10 x11 : FVec Ideal S1x384 .f32) : FVec Ideal S4096x128 .f32 :=
  k1_pay1 (k1_pay2 x7) (k1_pay3 x7) (k1_pay4 x0 x3 x1 x5 x4 x2 x6 x8 x10) x9 x11

/-- The stored payload at row `p` and feature `q`: the cell of the two affine images of row `p`. -/
theorem pay1_apply (x0 x1 x2 : FVec Ideal S4096x256 .f32) (x3 x4 : FVec Ideal S4096x1 .f32) (x5 x6 : FVec Ideal S1x256 .f32)
    (x7 : FVec Ideal S4096x128 .f32) (x8 : FVec Ideal S256x384 .bf16) (x9 : FVec Ideal S128x384 .bf16) (x10 x11 : FVec Ideal S1x384 .f32) (p : Fin 4096) (q : Fin 128) :
    pay1 x0 x1 x2 x3 x4 x5 x6 x7 x8 x9 x10 x11 (ix2 p q)
      = cellRow (gin x0 x1 x2 x3 x4 x5 x6 x8 x10 p) (ghid x7 x9 x11 p) (fun k => x7 (ix2 p k)) q := by
  unfold pay1 k1_pay1
  simp only [k1_pay3, k1_pay2, shapeCast_self, addf_apply, mulf_apply, subf_apply, broadcast_apply, logistic_apply, tanh_apply, truncf_apply,
    slice_lo, slice_mid, slice_hi, matmulB_apply, broadcastTo_1b_ab_apply, pay4_apply]
  rfl

end Gru

/-! ## The arrays region 1 reads, as the region finds them -/

variable (V : (c : Dev nD) → (b : Ref sig .tc) → Buf (Elt Ideal) ((c : Thread nD τ).loc b))

abbrev termA1 (c : Dev nD) : FVec Ideal S32768x256 .f32 := V c main_v56
abbrev qA1 (c : Dev nD) : FVec Ideal S32768x256 .f32 := V c main_v57
abbrev qrA1 (c : Dev nD) : FVec Ideal S32768x256 .f32 := V c main_v58
abbrev dinA1 (c : Dev nD) : FVec Ideal S32768x1 .f32 := V c main_v9
abbrev doutA1 (c : Dev nD) : FVec Ideal S32768x1 .f32 := V c main_v13
abbrev mbA1 (c : Dev nD) : FVec Ideal S1x256 .f32 := V c main_v73
abbrev mrbA1 (c : Dev nD) : FVec Ideal S1x256 .f32 := V c main_v74
abbrev hfA1 (c : Dev nD) : FVec Ideal S32768x128 .f32 := V c main_v0
abbrev wihA1 (c : Dev nD) : FVec Ideal S256x384 .bf16 := V c main_v77
abbrev whhA1 (c : Dev nD) : FVec Ideal S128x384 .bf16 := V c main_v78
abbrev bihA1 (c : Dev nD) : FVec Ideal S1x384 .f32 := V c main_v75
abbrev bhhA1 (c : Dev nD) : FVec Ideal S1x384 .f32 := V c main_v76

/-- Row `p` of the block of grid point `t` is row `4096 t + p` of a row-indexed array. -/
abbrev rowAt1 (t : Fin cfg1.N) (p : Fin 4096) : Fin 32768 :=
  ⟨t.val * 4096 + p.val, by have h : t.val < 8 := t.isLt; have := p.isLt; omega⟩

/-! ## The printed index maps, decided over the grid: a row-indexed window's block index is the point (and column
    block 0), a weight or bias window's is (0, 0) -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)

/-! ## Each input block read at an index of the block -/

theorem iblk1_0_apply (c : Dev nD) (t : Fin cfg1.N) (a : Fin 4096) (b : Fin 256) :
    (iblk1 V c 0 t : FVec Ideal S4096x256 .f32) (ix2 a b) = termA1 V c (ix2 (rowAt1 t a) b) := by
  obtain ⟨h0, h1⟩ := idx1_0 t
  unfold iblk1
  rw [View.read_apply]
  show V c main_v56 _ = V c main_v56 _
  congr 1
  funext ax
  apply Fin.ext
  match ax with
  | ⟨0, _⟩ => show win1_0.index t (0 : Fin 2) * 4096 + 1 * a.val = t.val * 4096 + a.val; rw [h0]; omega
  | ⟨1, _⟩ => show win1_0.index t (1 : Fin 2) * 256 + 1 * b.val = b.val; rw [h1]; omega
theorem iblk1_1_apply (c : Dev nD) (t : Fin cfg1.N) (a : Fin 4096) (b : Fin 256) :
    (iblk1 V c 1 t : FVec Ideal S4096x256 .f32) (ix2 a b) = qA1 V c (ix2 (rowAt1 t a) b) := by
  obtain ⟨h0, h1⟩ := idx1_1 t
  unfold iblk1
  rw [View.read_apply]
  show V c main_v57 _ = V c main_v57 _
  congr 1
  funext ax
  apply Fin.ext
  match ax with
  | ⟨0, _⟩ => show win1_1.index t (0 : Fin 2) * 4096 + 1 * a.val = t.val * 4096 + a.val; rw [h0]; omega
  | ⟨1, _⟩ => show win1_1.index t (1 : Fin 2) * 256 + 1 * b.val = b.val; rw [h1]; omega
theorem iblk1_2_apply (c : Dev nD) (t : Fin cfg1.N) (a : Fin 4096) (b : Fin 256) :
    (iblk1 V c 2 t : FVec Ideal S4096x256 .f32) (ix2 a b) = qrA1 V c (ix2 (rowAt1 t a) b) := by
  obtain ⟨h0, h1⟩ := idx1_2 t
  unfold iblk1
  rw [View.read_apply]
  show V c main_v58 _ = V c main_v58 _
  congr 1
  funext ax
  apply Fin.ext
  match ax with
  | ⟨0, _⟩ => show win1_2.index t (0 : Fin 2) * 4096 + 1 * a.val = t.val * 4096 + a.val; rw [h0]; omega
  | ⟨1, _⟩ => show win1_2.index t (1 : Fin 2) * 256 + 1 * b.val = b.val; rw [h1]; omega
theorem iblk1_3_apply (c : Dev nD) (t : Fin cfg1.N) (a : Fin 4096) (b : Fin 1) :
    (iblk1 V c 3 t : FVec Ideal S4096x1 .f32) (ix2 a b) = dinA1 V c (ix2 (rowAt1 t a) b) := by
  obtain ⟨h0, h1⟩ := idx1_3 t
  unfold iblk1
  rw [View.read_apply]
  show V c main_v9 _ = V c main_v9 _
  congr 1
  funext ax
  apply Fin.ext
  match ax with
  | ⟨0, _⟩ => show win1_3.index t (0 : Fin 2) * 4096 + 1 * a.val = t.val * 4096 + a.val; rw [h0]; omega
  | ⟨1, _⟩ => show win1_3.index t (1 : Fin 2) * 1 + 1 * b.val = b.val; rw [h1]; omega
theorem iblk1_4_apply (c : Dev nD) (t : Fin cfg1.N) (a : Fin 4096) (b : Fin 1) :
    (iblk1 V c 4 t : FVec Ideal S4096x1 .f32) (ix2 a b) = doutA1 V c (ix2 (rowAt1 t a) b) := by
  obtain ⟨h0, h1⟩ := idx1_4 t
  unfold iblk1
  rw [View.read_apply]
  show V c main_v13 _ = V c main_v13 _
  congr 1
  funext ax
  apply Fin.ext
  match ax with
  | ⟨0, _⟩ => show win1_4.index t (0 : Fin 2) * 4096 + 1 * a.val = t.val * 4096 + a.val; rw [h0]; omega
  | ⟨1, _⟩ => show win1_4.index t (1 : Fin 2) * 1 + 1 * b.val = b.val; rw [h1]; omega
theorem iblk1_5_apply (c : Dev nD) (t : Fin cfg1.N) (a : Fin 1) (b : Fin 256) :
    (iblk1 V c 5 t : FVec Ideal S1x256 .f32) (ix2 a b) = mbA1 V c (ix2 a b) := by
  obtain ⟨h0, h1⟩ := idx1_5 t
  unfold iblk1
  rw [View.read_apply]
  show V c main_v73 _ = V c main_v73 _
  congr 1
  funext ax
  apply Fin.ext
  match ax with
  | ⟨0, _⟩ => show win1_5.index t (0 : Fin 2) * 1 + 1 * a.val = a.val; rw [h0]; omega
  | ⟨1, _⟩ => show win1_5.index t (1 : Fin 2) * 256 + 1 * b.val = b.val; rw [h1]; omega
theorem iblk1_6_apply (c : Dev nD) (t : Fin cfg1.N) (a : Fin 1) (b : Fin 256) :
    (iblk1 V c 6 t : FVec Ideal S1x256 .f32) (ix2 a b) = mrbA1 V c (ix2 a b) := by
  obtain ⟨h0, h1⟩ := idx1_6 t
  unfold iblk1
  rw [View.read_apply]
  show V c main_v74 _ = V c main_v74 _
  congr 1
  funext ax
  apply Fin.ext
  match ax with
  | ⟨0, _⟩ => show win1_6.index t (0 : Fin 2) * 1 + 1 * a.val = a.val; rw [h0]; omega
  | ⟨1, _⟩ => show win1_6.index t (1 : Fin 2) * 256 + 1 * b.val = b.val; rw [h1]; omega
theorem iblk1_7_apply (c : Dev nD) (t : Fin cfg1.N) (a : Fin 4096) (b : Fin 128) :
    (iblk1 V c 7 t : FVec Ideal S4096x128 .f32) (ix2 a b) = hfA1 V c (ix2 (rowAt1 t a) b) := by
  obtain ⟨h0, h1⟩ := idx1_7 t
  unfold iblk1
  rw [View.read_apply]
  show V c main_v0 _ = V c main_v0 _
  congr 1
  funext ax
  apply Fin.ext
  match ax with
  | ⟨0, _⟩ => show win1_7.index t (0 : Fin 2) * 4096 + 1 * a.val = t.val * 4096 + a.val; rw [h0]; omega
  | ⟨1, _⟩ => show win1_7.index t (1 : Fin 2) * 128 + 1 * b.val = b.val; rw [h1]; omega
theorem iblk1_8_apply (c : Dev nD) (t : Fin cfg1.N) (a : Fin 256) (b : Fin 384) :
    (iblk1 V c 8 t : FVec Ideal S256x384 .bf16) (ix2 a b) = wihA1 V c (ix2 a b) := by
  obtain ⟨h0, h1⟩ := idx1_8 t
  unfold iblk1
  rw [View.read_apply]
  show V c main_v77 _ = V c main_v77 _
  congr 1
  funext ax
  apply Fin.ext
  match ax with
  | ⟨0, _⟩ => show win1_8.index t (0 : Fin 2) * 256 + 1 * a.val = a.val; rw [h0]; omega
  | ⟨1, _⟩ => show win1_8.index t (1 : Fin 2) * 384 + 1 * b.val = b.val; rw [h1]; omega
theorem iblk1_9_apply (c : Dev nD) (t : Fin cfg1.N) (a : Fin 128) (b : Fin 384) :
    (iblk1 V c 9 t : FVec Ideal S128x384 .bf16) (ix2 a b) = whhA1 V c (ix2 a b) := by
  obtain ⟨h0, h1⟩ := idx1_9 t
  unfold iblk1
  rw [View.read_apply]
  show V c main_v78 _ = V c main_v78 _
  congr 1
  funext ax
  apply Fin.ext
  match ax with
  | ⟨0, _⟩ => show win1_9.index t (0 : Fin 2) * 128 + 1 * a.val = a.val; rw [h0]; omega
  | ⟨1, _⟩ => show win1_9.index t (1 : Fin 2) * 384 + 1 * b.val = b.val; rw [h1]; omega
theorem iblk1_10_apply (c : Dev nD) (t : Fin cfg1.N) (a : Fin 1) (b : Fin 384) :
    (iblk1 V c 10 t : FVec Ideal S1x384 .f32) (ix2 a b) = bihA1 V c (ix2 a b) := by
  obtain ⟨h0, h1⟩ := idx1_10 t
  unfold iblk1
  rw [View.read_apply]
  show V c main_v75 _ = V c main_v75 _
  congr 1
  funext ax
  apply Fin.ext
  match ax with
  | ⟨0, _⟩ => show win1_10.index t (0 : Fin 2) * 1 + 1 * a.val = a.val; rw [h0]; omega
  | ⟨1, _⟩ => show win1_10.index t (1 : Fin 2) * 384 + 1 * b.val = b.val; rw [h1]; omega
theorem iblk1_11_apply (c : Dev nD) (t : Fin cfg1.N) (a : Fin 1) (b : Fin 384) :
    (iblk1 V c 11 t : FVec Ideal S1x384 .f32) (ix2 a b) = bhhA1 V c (ix2 a b) := by
  obtain ⟨h0, h1⟩ := idx1_11 t
  unfold iblk1
  rw [View.read_apply]
  show V c main_v76 _ = V c main_v76 _
  congr 1
  funext ax
  apply Fin.ext
  match ax with
  | ⟨0, _⟩ => show win1_11.index t (0 : Fin 2) * 1 + 1 * a.val = a.val; rw [h0]; omega
  | ⟨1, _⟩ => show win1_11.index t (1 : Fin 2) * 384 + 1 * b.val = b.val; rw [h1]; omega

/-! ## The output array as one function of the arrays -/

/-- The recurrent cell of every row, from the arrays the region finds. -/
abbrev cell1 (c : Dev nD) : Fin 32768 → Fin 128 → EReal :=
  Spec.cell (Spec.gateIn (Spec.aggK (fun v c' => termA1 V c (ix2 v c')) (fun v c' => qA1 V c (ix2 v c')) (fun v c' => qrA1 V c (ix2 v c'))
      (fun v => dinA1 V c (ix2 v (0 : Fin 1))) (fun v => doutA1 V c (ix2 v (0 : Fin 1))) (fun c' => mbA1 V c (ix2 (0 : Fin 1) c')) (fun c' => mrbA1 V c (ix2 (0 : Fin 1) c')))
      (fun g k => wihA1 V c (ix2 k g)) (fun g => bihA1 V c (ix2 (0 : Fin 1) g)))
    (Spec.gateHid (fun v k => hfA1 V c (ix2 v k)) (fun g k => whhA1 V c (ix2 k g)) (fun g => bhhA1 V c (ix2 (0 : Fin 1) g)))
    (fun v k => hfA1 V c (ix2 v k))

/-- What the output array ends holding: at `(r, j)` the cell of row `r`. -/
def G1 (c : Dev nD) : S32768x128.Idx → EReal := fun i => cell1 V c (i 0) (i 1)

/-- Row `p`, feature `q` of the output block of point `t` is row `4096 t + p`, feature `q` of the output array. -/
theorem emb1_12 (t : Fin cfg1.N) (p : Fin 4096) (q : Fin 128) :
    ((cfg1.win 12).blk t).view.emb (ix2 p q) = ix2 (rowAt1 t p) q := by
  obtain ⟨h0, h1⟩ := idx1_12 t
  funext ax
  apply Fin.ext
  match ax with
  | ⟨0, _⟩ => show win1_12.index t (0 : Fin 2) * 4096 + 1 * p.val = t.val * 4096 + p.val; rw [h0]; omega
  | ⟨1, _⟩ => show win1_12.index t (1 : Fin 2) * 128 + 1 * q.val = q.val; rw [h1]; omega

/-- What point `t` writes back is block `t` of `G1`. -/
theorem flushed1_eq (c : Dev nD) (t : Fin cfg1.N) :
    (dat1 V c).flushed 12 t = ((cfg1.win 12).blk t).view.read (Elt Ideal) (G1 V c) := by
  show (cfg1.win 12).cut (grid1.coords t) ((dat1 V c).after 12 t) = _
  rw [after1_12]
  unfold out1_12
  rw [View.canon_unit_zero Gru.hz]
  simp only [View.ld_unit_zero (S := S4096x256) Gru.hz, View.ld_unit_zero (S := S4096x1) Gru.hz, View.ld_unit_zero (S := S1x256) Gru.hz, View.ld_unit_zero (S := S4096x128) Gru.hz, View.ld_unit_zero (S := S256x384) Gru.hz, View.ld_unit_zero (S := S128x384) Gru.hz, View.ld_unit_zero (S := S1x384) Gru.hz]
  refine funext fun (y : S4096x128.Idx) => ?_
  show Gru.pay1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) y = G1 V c (((cfg1.win 12).blk t).view.emb y)
  obtain ⟨p, q, rfl⟩ : ∃ (p : Fin 4096) (q : Fin 128), y = ix2 p q := ⟨y 0, y 1, eq_ix2 y⟩
  rw [emb1_12]
  simp only [Gru.pay1_apply]
  unfold Gru.gin Gru.ghid
  simp only [iblk1_0_apply, iblk1_1_apply, iblk1_2_apply, iblk1_3_apply, iblk1_4_apply, iblk1_5_apply, iblk1_6_apply, iblk1_7_apply, iblk1_8_apply, iblk1_9_apply, iblk1_10_apply, iblk1_11_apply]
  rfl

/-- An index of the array is in point `t`'s block iff each coordinate is in the block's range on its axis. -/
theorem mem_blk1 (t : Fin cfg1.N) (i : S32768x128.Idx) :
    i ∈ ((cfg1.win 12).blk t).view.set ↔ ∀ a : Fin 2, win1_12.index t a * S4096x128.size a ≤ (i a).val ∧ (i a).val < win1_12.index t a * S4096x128.size a + S4096x128.size a := by
  show i ∈ ((View.whole main_v79).slice (win1_12.rect t)).set ↔ _
  rw [View.set_slice_whole, Rect.mem_set_unit]
  exact Iff.rfl

/-- Every index of the output array is in the block of the point its row falls to: row `r` in that of `r / 4096`. -/
theorem cover1 (i : S32768x128.Idx) :
    ∃ t : Fin cfg1.N, (cfg1.win 12).flush t = true ∧ i ∈ ((cfg1.win 12).blk t).view.set := by
  have hi0 : (i 0).val < 32768 := (i 0).isLt
  have hi1 : (i 1).val < 128 := (i 1).isLt
  obtain ⟨t, ht⟩ : ∃ t : Fin cfg1.N, t.val = (i 0).val / 4096 :=
    ⟨⟨(i 0).val / 4096, by show (i 0).val / 4096 < 8; omega⟩, rfl⟩
  obtain ⟨h0, h1⟩ := idx1_12 t
  refine ⟨t, flush1_12 t, ?_⟩
  rw [mem_blk1]
  intro a
  match a with
  | ⟨0, _⟩ => show win1_12.index t (0 : Fin 2) * 4096 ≤ (i 0).val ∧ (i 0).val < win1_12.index t (0 : Fin 2) * 4096 + 4096; rw [h0, ht]; omega
  | ⟨1, _⟩ => show win1_12.index t (1 : Fin 2) * 128 ≤ (i 1).val ∧ (i 1).val < win1_12.index t (1 : Fin 2) * 128 + 128; rw [h1]; omega

/-- The output array after the region: `G1`. -/
theorem final1 (c : Dev nD) : (dat1 V c).arrAt 12 cfg1.N = G1 V c :=
  (dat1 V c).arrAt_eq_of_cover 12 (G1 V c) (fun t _ => flushed1_eq V c t) cover1

/-- REGION 1's OUTPUT, index by index: at row `r` and feature `j` the recurrent cell of the affine image of row `r`'s
    aggregate and of the affine image of row `r` itself. -/
theorem val1 (c : Dev nD) (r : Fin 32768) (j : Fin 128) :
    (dat1 V c).arrAt 12 cfg1.N (ix2 r j) = Spec.cell (Spec.gateIn (Spec.aggK (fun v c' => termA1 V c (ix2 v c')) (fun v c' => qA1 V c (ix2 v c')) (fun v c' => qrA1 V c (ix2 v c')) (fun v => dinA1 V c (ix2 v (0 : Fin 1))) (fun v => doutA1 V c (ix2 v (0 : Fin 1))) (fun c' => mbA1 V c (ix2 (0 : Fin 1) c')) (fun c' => mrbA1 V c (ix2 (0 : Fin 1) c'))) (fun g k => wihA1 V c (ix2 k g)) (fun g => bihA1 V c (ix2 (0 : Fin 1) g))) (Spec.gateHid (fun v k => hfA1 V c (ix2 v k)) (fun g k => whhA1 V c (ix2 k g)) (fun g => bhhA1 V c (ix2 (0 : Fin 1) g))) (fun v k => hfA1 V c (ix2 v k)) r j :=
  congrFun (final1 V c) (ix2 r j)

end Cert.KernelIdeal.Val

end
-- ==== Proof.KV.Reg2Val.lean ====
/- What region 2 leaves in its output array, over the extended reals.

   Region 2 multiplies the node-feature rows (32768 x 128) by the concatenated weights (128 x 1024). Over the
   extended reals a change of float format is the identity and a matrix product into a zero accumulator is the plain
   sum of products, so entry (r, q) of the 32768 x 1024 result is the inner product of row r of the features with
   column q of the weights. The grid cuts the rows into four blocks of 8192; the weights are one block, the same at
   every point. Row p of point t's block is row t * 8192 + p of the array, so every row is in exactly the block of
   point r / 8192, and the four blocks written back fill the array. -/
import proofs.«163521_j41618233098847_2_alg».proof.Proof.KI.Reg2
import proofs.«163521_j41618233098847_2_alg».proof.Proof.Spec
import Idealize.ShloMosaic.Lib.Pipeline.Value
import Idealize.ShloMosaic.Lib.ValueIdx
import Idealize.ShloMosaic.PureOps.Ideal
import Idealize.ShloMosaic.PureOps.Ideal.Laws

-- the arrays here have axes of 32768, 8192 and 1024 coordinates
set_option maxRecDepth 16384

noncomputable section

open scoped BigOperators

namespace Cert.KernelIdeal.Val

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Fr

-- the TensorCore's buffer contents when the region is entered, at the extended reals
variable (V : (c : Dev nD) → (b : Ref sig .tc) → Buf (Elt Ideal) ((c : Thread nD τ).loc b))

/-! ## The two arrays the region reads, and the array it should leave -/

/-- The node-feature rows as the region finds them. -/
abbrev hfA2 (c : Dev nD) : FVec Ideal S32768x128 .f32 := V c main_v79
/-- The concatenated weights as the region finds them. -/
abbrev wcatA2 (c : Dev nD) : FVec Ideal S128x1024 .bf16 := V c main_v97

/-- The product of the two, index by index: entry `i` is row `i 0` of the features against column `i 1` of the
    weights. -/
def proj2 (c : Dev nD) : S32768x1024.Idx → EReal :=
  fun i => ∑ k : Fin 128, hfA2 V c (ix2 (i 0) k) * wcatA2 V c (ix2 k (i 1))

/-! ## The body's payload at an index -/

/-- The two whole-buffer rectangles start at the origin. -/
theorem zero_off2 : (![0, 0] : Fin 2 → Nat) = fun _ => 0 :=
  funext fun a => by match a with | ⟨0, _⟩ => rfl | ⟨1, _⟩ => rfl

/-- The payload is: both operands rounded to bf16, multiplied into a zero f32 accumulator, rounded to bf16. -/
theorem pay2_eq (x0 : FVec Ideal S8192x128 .f32) (x1 : FVec Ideal S128x1024 .bf16) :
    k2_pay1 (F := Ideal) x0 x1
      = truncf .bf16 (matmul dot_S8192x128_S128x1024_S8192x1024_1_0_0_1_n_n none
          (truncf .bf16 (shapeCast S8192x128 x0 shapeCasts_S8192x128_S8192x128) bitsLt_bf16_f32)
          (shapeCast S128x1024 x1 shapeCasts_S128x1024_S128x1024)
          (constant (F := Ideal) S8192x1024 .f32 0x00000000#32)) bitsLt_bf16_f32 := rfl

/-- The product's operand indices at output index `i` and contraction index `q`, axis by axis: the left operand is
    read at (row of `i`, `q`) and the right one at (`q`, column of `i`). -/
theorem lhs_proj2_0 (i : S8192x1024.Idx) (q : dot_S8192x128_S128x1024_S8192x1024_1_0_0_1_n_n.contr.Idx) :
    (dot_S8192x128_S128x1024_S8192x1024_1_0_0_1_n_n.lhsIdx i q 0).val = (i 0).val := by
  unfold DotDims.lhsIdx
  rw [dif_neg (show ¬(0 : Fin S8192x128.rank) ∈ dot_S8192x128_S128x1024_S8192x1024_1_0_0_1_n_n.lhsBatch by decide), dif_pos (show (0 : Fin S8192x128.rank) ∈ dot_S8192x128_S128x1024_S8192x1024_1_0_0_1_n_n.lhsNonContracting by decide)]
  rfl
theorem lhs_proj2_1 (i : S8192x1024.Idx) (q : dot_S8192x128_S128x1024_S8192x1024_1_0_0_1_n_n.contr.Idx) :
    (dot_S8192x128_S128x1024_S8192x1024_1_0_0_1_n_n.lhsIdx i q 1).val = (q ⟨0, by decide⟩).val :=
  dot_S8192x128_S128x1024_S8192x1024_1_0_0_1_n_n.lhsIdx_val_of_single rfl i q
theorem rhs_proj2_0 (i : S8192x1024.Idx) (q : dot_S8192x128_S128x1024_S8192x1024_1_0_0_1_n_n.contr.Idx) :
    (dot_S8192x128_S128x1024_S8192x1024_1_0_0_1_n_n.rhsIdx i q 0).val = (q ⟨0, by decide⟩).val :=
  dot_S8192x128_S128x1024_S8192x1024_1_0_0_1_n_n.rhsIdx_val_of_single rfl i q
theorem rhs_proj2_1 (i : S8192x1024.Idx) (q : dot_S8192x128_S128x1024_S8192x1024_1_0_0_1_n_n.contr.Idx) :
    (dot_S8192x128_S128x1024_S8192x1024_1_0_0_1_n_n.rhsIdx i q 1).val = (i 1).val := by
  unfold DotDims.rhsIdx
  rw [dif_neg (show ¬(1 : Fin S128x1024.rank) ∈ dot_S8192x128_S128x1024_S8192x1024_1_0_0_1_n_n.rhsBatch by decide), dif_pos (show (1 : Fin S128x1024.rank) ∈ dot_S8192x128_S128x1024_S8192x1024_1_0_0_1_n_n.rhsNonContracting by decide)]
  rfl

/-- Entry (p, q) of the payload is the inner product of row `p` of the first block with column `q` of the second:
    the roundings are the identity, the accumulator is zero, and the one contracted axis is re-indexed by its
    coordinate. -/
theorem pay2_apply (x0 : FVec Ideal S8192x128 .f32) (x1 : FVec Ideal S128x1024 .bf16) (p : Fin 8192) (q : Fin 1024) :
    k2_pay1 (F := Ideal) x0 x1 (ix2 p q) = ∑ k : Fin 128, x0 (ix2 p k) * x1 (ix2 k q) := by
  rw [pay2_eq, shapeCast_self, shapeCast_self]
  show FloatOps.matmul dot_S8192x128_S128x1024_S8192x1024_1_0_0_1_n_n none (truncf .bf16 x0 bitsLt_bf16_f32) x1 (constant (F := Ideal) S8192x1024 .f32 0x00000000#32) (ix2 p q) = _
  rw [Ideal.matmul_constant_zero_apply, ← Equiv.sum_comp (contrEquiv1 dot_S8192x128_S128x1024_S8192x1024_1_0_0_1_n_n 128 rfl rfl).symm]
  refine Finset.sum_congr rfl fun k _ => ?_
  show x0 (dot_S8192x128_S128x1024_S8192x1024_1_0_0_1_n_n.lhsIdx (ix2 p q) ((contrEquiv1 dot_S8192x128_S128x1024_S8192x1024_1_0_0_1_n_n 128 rfl rfl).symm k))
      * x1 (dot_S8192x128_S128x1024_S8192x1024_1_0_0_1_n_n.rhsIdx (ix2 p q) ((contrEquiv1 dot_S8192x128_S128x1024_S8192x1024_1_0_0_1_n_n 128 rfl rfl).symm k)) = x0 (ix2 p k) * x1 (ix2 k q)
  have hk := contrEquiv1_symm_val dot_S8192x128_S128x1024_S8192x1024_1_0_0_1_n_n 128 rfl rfl k
  have el : dot_S8192x128_S128x1024_S8192x1024_1_0_0_1_n_n.lhsIdx (ix2 p q) ((contrEquiv1 dot_S8192x128_S128x1024_S8192x1024_1_0_0_1_n_n 128 rfl rfl).symm k) = ix2 p k := funext fun a => Fin.ext (by
    match a with
    | ⟨0, _⟩ => exact lhs_proj2_0 _ _
    | ⟨1, _⟩ => exact (lhs_proj2_1 _ _).trans hk)
  have er : dot_S8192x128_S128x1024_S8192x1024_1_0_0_1_n_n.rhsIdx (ix2 p q) ((contrEquiv1 dot_S8192x128_S128x1024_S8192x1024_1_0_0_1_n_n 128 rfl rfl).symm k) = ix2 k q := funext fun a => Fin.ext (by
    match a with
    | ⟨0, _⟩ => exact (rhs_proj2_0 _ _).trans hk
    | ⟨1, _⟩ => exact rhs_proj2_1 _ _)
  rw [el, er]

/-! ## From the blocks to the array -/

/-- The windows' block indices over the grid: the feature rows and the result move together along the rows and sit
    at column block 0; the weights sit at block (0, 0) throughout; the row block index is at most 3. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 3 :=
  (by decide +kernel : ∀ t : Fin grid2.N, _)

/-- Every one of the four row blocks is some point's. -/
theorem idx_onto2 : ∀ q0 : Fin 4, ∃ t : Fin cfg2.N, win2_2.index t = ![q0.val, 0] :=
  (by decide +kernel : ∀ q0 : Fin 4, ∃ t : Fin grid2.N, win2_2.index t = ![q0.val, 0])

/-- What point `t` writes back is block `t` of `proj2`: a block's coordinate in the array is its block index times
    the block's extent plus the coordinate inside the block, so row `p` of the feature block and row `p` of the
    result block are the same row of their arrays, and the weights' block is the whole array. -/
theorem flushed2_eq (c : Dev nD) (t : Fin cfg2.N) :
    (dat2 V c).flushed 2 t = ((cfg2.win 2).blk t).view.read (Elt Ideal) (proj2 V c) := by
  show (cfg2.win 2).cut (grid2.coords t) ((dat2 V c).after 2 t) = _
  rw [after2_2]
  unfold out2_2
  rw [View.canon_unit_zero zero_off2]
  simp only [View.ld_unit_zero (S := S8192x128) zero_off2, View.ld_unit_zero (S := S128x1024) zero_off2]
  obtain ⟨e0, e1, e2, e3, e4, e5⟩ := idx_facts2 t
  funext j
  obtain ⟨p, q, rfl⟩ : ∃ (p : Fin 8192) (q : Fin 1024), j = ix2 p q := ⟨j 0, j 1, eq_ix2 j⟩
  show k2_pay1 (F := Ideal) (iblk2 V c 0 t) (iblk2 V c 1 t) (ix2 p q) = proj2 V c (((cfg2.win 2).blk t).view.emb (ix2 p q))
  refine (pay2_apply _ _ p q).trans ?_
  unfold proj2
  refine Finset.sum_congr rfl fun k _ => ?_
  show hfA2 V c (((cfg2.win 0).blk t).view.emb (ix2 p k)) * wcatA2 V c (((cfg2.win 1).blk t).view.emb (ix2 k q))
    = hfA2 V c (ix2 ((((cfg2.win 2).blk t).view.emb (ix2 p q)) 0) k) * wcatA2 V c (ix2 k ((((cfg2.win 2).blk t).view.emb (ix2 p q)) 1))
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 8192 + 1 * p.val = win2_2.index t (0 : Fin 2) * 8192 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 1024 + 1 * q.val = win2_2.index t (1 : Fin 2) * 1024 + 1 * q.val; omega
  rw [h0, h1]
  rfl

/-- An index of the result array is in point `t`'s block iff each coordinate is in the block's range on its axis. -/
theorem mem_blk2 (t : Fin cfg2.N) (i : S32768x1024.Idx) :
    i ∈ ((cfg2.win 2).blk t).view.set ↔ ∀ a : Fin 2, win2_2.index t a * S8192x1024.size a ≤ (i a).val ∧ (i a).val < win2_2.index t a * S8192x1024.size a + S8192x1024.size a := by
  show i ∈ ((View.whole main_v98).slice (win2_2.rect t)).set ↔ _
  rw [View.set_slice_whole, Rect.mem_set_unit]
  exact Iff.rfl

/-- Every index of the result array is in the block of the point whose row block is `(i 0) / 8192`, and every point
    writes its block back. -/
theorem cover2 (i : S32768x1024.Idx) :
    ∃ t : Fin cfg2.N, (cfg2.win 2).flush t = true ∧ i ∈ ((cfg2.win 2).blk t).view.set := by
  have hi0 : (i 0).val < 32768 := (i 0).isLt
  have hi1 : (i 1).val < 1024 := (i 1).isLt
  obtain ⟨t, ht⟩ := idx_onto2 ⟨(i 0).val / 8192, by omega⟩
  have q0 : win2_2.index t (0 : Fin 2) = (i 0).val / 8192 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 8192 ≤ (i 0).val ∧ (i 0).val < win2_2.index t (0 : Fin 2) * 8192 + 8192; omega
  | ⟨1, _⟩ => show win2_2.index t (1 : Fin 2) * 1024 ≤ (i 1).val ∧ (i 1).val < win2_2.index t (1 : Fin 2) * 1024 + 1024; omega

/-- So after the region the result array is `proj2`. -/
theorem final2 (c : Dev nD) : (dat2 V c).arrAt 2 cfg2.N = proj2 V c :=
  (dat2 V c).arrAt_eq_of_cover 2 (proj2 V c) (fun t _ => flushed2_eq V c t) cover2

/-- Entry (r, q) of what region 2 leaves: row `r` of the features against column `q` of the weights. -/
theorem val2 (c : Dev nD) (r : Fin 32768) (q : Fin 1024) :
    (dat2 V c).arrAt 2 cfg2.N (ix2 r q) = ∑ k : Fin 128, hfA2 V c (ix2 r k) * wcatA2 V c (ix2 k q) :=
  congrFun (final2 V c) (ix2 r q)

end Cert.KernelIdeal.Val

end
-- ==== Proof.KV.Reg3Val.lean ====
import proofs.«163521_j41618233098847_2_alg».proof.Proof.KI.Reg3
import proofs.«163521_j41618233098847_2_alg».proof.Proof.KV.Reg1Val

/-! # What region 3 leaves in its output array, index by index, over the extended reals

Region 3 is the second gated-recurrent update; its payload is region 1's followed by a normalization: every row of
the 4096x128 block is divided by its Euclidean length (the square root of the row's sum of squares), the length
floored at a small literal. A row of a block is a row of the array, so the sum of squares is over the 128 features
of that row of the updated array. The rest is as for region 1: the blocks at grid point `t` are rows
`4096 t … 4096 t + 4095`, the eight output blocks tile the output array. -/

set_option maxRecDepth 16384

noncomputable section

open scoped BigOperators

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx

namespace Gru

/-! ## The normalization at an index -/

/-- An `[a]` vector recast to a column `[a, 1]` reads, at `(p, z)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- Each row's sum of squares, -/
def rowSq (x : FVec Ideal S4096x128 .f32) : FVec Ideal S4096 .f32 :=
  multiReduction .add [1] S4096 (mulf x x) 0x00000000#32 reduces_S4096x128_S4096 (.inl rfl) rfl
/-- each row's length as a column, floored at the small literal, -/
def rowLen (x : FVec Ideal S4096x128 .f32) : FVec Ideal S4096x1 .f32 :=
  maximumf (Idealize.ShloMosaic.sqrt (shapeCast S4096x1 (rowSq x) shapeCasts_S4096_S4096x1)) (broadcast S4096x1 (Scalar.ofBits .f32 0x2B8CBCCC#32))
/-- and each row over its length: the tail of region 3's payload. -/
def normRows (x : FVec Ideal S4096x128 .f32) : FVec Ideal S4096x128 .f32 :=
  divf x (broadcastTo S4096x128 (rowLen x) broadcasts_S4096x1_S4096x128)

/-- Region 3's payloads are region 1's, the stored one followed by the normalization: the same operations in the
    same order over the same records. -/
theorem pay3_eq (v1 : FVec Ideal S4096x128 .f32) (v27 : FVec Ideal S4096x128 .bf16) (v34 : FVec Ideal S4096x384 .f32) (v35 : Vec Ideal S128x384 .bf16) (v38 : Vec Ideal S1x384 .f32) :
    k3_pay1 v1 v27 v34 v35 v38 = normRows (k1_pay1 v1 v27 v34 v35 v38) := rfl
theorem pay3_eq2 (v0 : Vec Ideal S4096x128 .f32) : k3_pay2 v0 = k1_pay2 v0 := rfl
theorem pay3_eq3 (v0 : Vec Ideal S4096x128 .f32) : k3_pay3 v0 = k1_pay3 v0 := rfl
theorem pay3_eq4 (v2 : Vec Ideal S4096x256 .f32) (v4 : Vec Ideal S4096x1 .f32) (v6 : Vec Ideal S4096x256 .f32) (v8 : Vec Ideal S1x256 .f32) (v15 : Vec Ideal S4096x1 .f32) (v17 : Vec Ideal S4096x256 .f32) (v19 : Vec Ideal S1x256 .f32) (v28 : Vec Ideal S256x384 .bf16) (v31 : Vec Ideal S1x384 .f32) :
    k3_pay4 v2 v4 v6 v8 v15 v17 v19 v28 v31 = k1_pay4 v2 v4 v6 v8 v15 v17 v19 v28 v31 := rfl

/-- A row's sum of squares at row `p`: the sum over the 128 features. -/
theorem rowSq_apply (x : FVec Ideal S4096x128 .f32) (p : Fin 4096) :
    rowSq x (ix1 p) = ∑ k : Fin 128, x (ix2 p k) * x (ix2 p k) := by
  unfold rowSq
  refine (Ideal.multiReduction_add_single (mulf x x) 0x00000000#32 reduces_S4096x128_S4096 (.inl rfl) rfl (ix1 p)).trans ?_
  refine Finset.sum_congr rfl fun (k : Fin 128) _ => ?_
  have e : reduces_S4096x128_S4096.lift (ix1 p) k = ix2 p k := funext fun ax => Fin.ext (by
    match ax with
    | ⟨0, _⟩ => rfl
    | ⟨1, _⟩ => rfl)
  show x (reduces_S4096x128_S4096.lift (ix1 p) k) * x (reduces_S4096x128_S4096.lift (ix1 p) k) = x (ix2 p k) * x (ix2 p k)
  rw [e]

/-- The normalized block at row `p` and feature `q`. -/
theorem normRows_apply (x : FVec Ideal S4096x128 .f32) (p : Fin 4096) (q : Fin 128) :
    normRows x (ix2 p q) = Ideal.div (x (ix2 p q)) (max (Ideal.sqrt (∑ k : Fin 128, x (ix2 p k) * x (ix2 p k))) Spec.tiny) := by
  have e1 : broadcastTo S4096x128 (rowLen x) broadcasts_S4096x1_S4096x128 (ix2 p q) = rowLen x (ix2 p (0 : Fin 1)) :=
    broadcastTo_a1_ab_apply (rowLen x) broadcasts_S4096x1_S4096x128 p q
  have e2 : shapeCast S4096x1 (rowSq x) shapeCasts_S4096_S4096x1 (ix2 p (0 : Fin 1)) = rowSq x (ix1 p) :=
    shapeCast_a_a1_apply (rowSq x) shapeCasts_S4096_S4096x1 p 0
  show Ideal.div (x (ix2 p q)) (broadcastTo S4096x128 (rowLen x) broadcasts_S4096x1_S4096x128 (ix2 p q)) = _
  rw [e1]
  show Ideal.div (x (ix2 p q)) (max (Ideal.sqrt (shapeCast S4096x1 (rowSq x) shapeCasts_S4096_S4096x1 (ix2 p (0 : Fin 1)))) Spec.tiny) = _
  rw [e2, rowSq_apply]

end Gru

/-! ## The arrays region 3 reads, as the region finds them -/

variable (V : (c : Dev nD) → (b : Ref sig .tc) → Buf (Elt Ideal) ((c : Thread nD τ).loc b))

abbrev termA3 (c : Dev nD) : FVec Ideal S32768x256 .f32 := V c main_v122
abbrev qA3 (c : Dev nD) : FVec Ideal S32768x256 .f32 := V c main_v123
abbrev qrA3 (c : Dev nD) : FVec Ideal S32768x256 .f32 := V c main_v124
abbrev dinA3 (c : Dev nD) : FVec Ideal S32768x1 .f32 := V c main_v9
abbrev doutA3 (c : Dev nD) : FVec Ideal S32768x1 .f32 := V c main_v13
abbrev mbA3 (c : Dev nD) : FVec Ideal S1x256 .f32 := V c main_v139
abbrev mrbA3 (c : Dev nD) : FVec Ideal S1x256 .f32 := V c main_v140
abbrev hfA3 (c : Dev nD) : FVec Ideal S32768x128 .f32 := V c main_v79
abbrev wihA3 (c : Dev nD) : FVec Ideal S256x384 .bf16 := V c main_v143
abbrev whhA3 (c : Dev nD) : FVec Ideal S128x384 .bf16 := V c main_v144
abbrev bihA3 (c : Dev nD) : FVec Ideal S1x384 .f32 := V c main_v141
abbrev bhhA3 (c : Dev nD) : FVec Ideal S1x384 .f32 := V c main_v142

/-- Row `p` of the block of grid point `t` is row `4096 t + p` of a row-indexed array. -/
abbrev rowAt3 (t : Fin cfg3.N) (p : Fin 4096) : Fin 32768 :=
  ⟨t.val * 4096 + p.val, by have h : t.val < 8 := t.isLt; have := p.isLt; omega⟩

/-! ## The printed index maps, decided over the grid: a row-indexed window's block index is the point (and column
    block 0), a weight or bias window's is (0, 0) -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = t.val ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)
theorem idx3_11 : ∀ t : Fin cfg3.N, win3_11.index t (0 : Fin 2) = 0 ∧ win3_11.index t (1 : Fin 2) = 0 :=
  (by decide +kernel : ∀ t : Fin grid3.N, _)
theorem idx3_12 : ∀ t : Fin cfg3.N, win3_12.index t (0 : Fin 2) = t.val ∧ win3_12.index t (1 : Fin 2) = 0 :=
  (by decide +kernel : ∀ t : Fin grid3.N, _)

/-! ## Each input block read at an index of the block -/

theorem iblk3_0_apply (c : Dev nD) (t : Fin cfg3.N) (a : Fin 4096) (b : Fin 256) :
    (iblk3 V c 0 t : FVec Ideal S4096x256 .f32) (ix2 a b) = termA3 V c (ix2 (rowAt3 t a) b) := by
  obtain ⟨h0, h1⟩ := idx3_0 t
  unfold iblk3
  rw [View.read_apply]
  show V c main_v122 _ = V c main_v122 _
  congr 1
  funext ax
  apply Fin.ext
  match ax with
  | ⟨0, _⟩ => show win3_0.index t (0 : Fin 2) * 4096 + 1 * a.val = t.val * 4096 + a.val; rw [h0]; omega
  | ⟨1, _⟩ => show win3_0.index t (1 : Fin 2) * 256 + 1 * b.val = b.val; rw [h1]; omega
theorem iblk3_1_apply (c : Dev nD) (t : Fin cfg3.N) (a : Fin 4096) (b : Fin 256) :
    (iblk3 V c 1 t : FVec Ideal S4096x256 .f32) (ix2 a b) = qA3 V c (ix2 (rowAt3 t a) b) := by
  obtain ⟨h0, h1⟩ := idx3_1 t
  unfold iblk3
  rw [View.read_apply]
  show V c main_v123 _ = V c main_v123 _
  congr 1
  funext ax
  apply Fin.ext
  match ax with
  | ⟨0, _⟩ => show win3_1.index t (0 : Fin 2) * 4096 + 1 * a.val = t.val * 4096 + a.val; rw [h0]; omega
  | ⟨1, _⟩ => show win3_1.index t (1 : Fin 2) * 256 + 1 * b.val = b.val; rw [h1]; omega
theorem iblk3_2_apply (c : Dev nD) (t : Fin cfg3.N) (a : Fin 4096) (b : Fin 256) :
    (iblk3 V c 2 t : FVec Ideal S4096x256 .f32) (ix2 a b) = qrA3 V c (ix2 (rowAt3 t a) b) := by
  obtain ⟨h0, h1⟩ := idx3_2 t
  unfold iblk3
  rw [View.read_apply]
  show V c main_v124 _ = V c main_v124 _
  congr 1
  funext ax
  apply Fin.ext
  match ax with
  | ⟨0, _⟩ => show win3_2.index t (0 : Fin 2) * 4096 + 1 * a.val = t.val * 4096 + a.val; rw [h0]; omega
  | ⟨1, _⟩ => show win3_2.index t (1 : Fin 2) * 256 + 1 * b.val = b.val; rw [h1]; omega
theorem iblk3_3_apply (c : Dev nD) (t : Fin cfg3.N) (a : Fin 4096) (b : Fin 1) :
    (iblk3 V c 3 t : FVec Ideal S4096x1 .f32) (ix2 a b) = dinA3 V c (ix2 (rowAt3 t a) b) := by
  obtain ⟨h0, h1⟩ := idx3_3 t
  unfold iblk3
  rw [View.read_apply]
  show V c main_v9 _ = V c main_v9 _
  congr 1
  funext ax
  apply Fin.ext
  match ax with
  | ⟨0, _⟩ => show win3_3.index t (0 : Fin 2) * 4096 + 1 * a.val = t.val * 4096 + a.val; rw [h0]; omega
  | ⟨1, _⟩ => show win3_3.index t (1 : Fin 2) * 1 + 1 * b.val = b.val; rw [h1]; omega
theorem iblk3_4_apply (c : Dev nD) (t : Fin cfg3.N) (a : Fin 4096) (b : Fin 1) :
    (iblk3 V c 4 t : FVec Ideal S4096x1 .f32) (ix2 a b) = doutA3 V c (ix2 (rowAt3 t a) b) := by
  obtain ⟨h0, h1⟩ := idx3_4 t
  unfold iblk3
  rw [View.read_apply]
  show V c main_v13 _ = V c main_v13 _
  congr 1
  funext ax
  apply Fin.ext
  match ax with
  | ⟨0, _⟩ => show win3_4.index t (0 : Fin 2) * 4096 + 1 * a.val = t.val * 4096 + a.val; rw [h0]; omega
  | ⟨1, _⟩ => show win3_4.index t (1 : Fin 2) * 1 + 1 * b.val = b.val; rw [h1]; omega
theorem iblk3_5_apply (c : Dev nD) (t : Fin cfg3.N) (a : Fin 1) (b : Fin 256) :
    (iblk3 V c 5 t : FVec Ideal S1x256 .f32) (ix2 a b) = mbA3 V c (ix2 a b) := by
  obtain ⟨h0, h1⟩ := idx3_5 t
  unfold iblk3
  rw [View.read_apply]
  show V c main_v139 _ = V c main_v139 _
  congr 1
  funext ax
  apply Fin.ext
  match ax with
  | ⟨0, _⟩ => show win3_5.index t (0 : Fin 2) * 1 + 1 * a.val = a.val; rw [h0]; omega
  | ⟨1, _⟩ => show win3_5.index t (1 : Fin 2) * 256 + 1 * b.val = b.val; rw [h1]; omega
theorem iblk3_6_apply (c : Dev nD) (t : Fin cfg3.N) (a : Fin 1) (b : Fin 256) :
    (iblk3 V c 6 t : FVec Ideal S1x256 .f32) (ix2 a b) = mrbA3 V c (ix2 a b) := by
  obtain ⟨h0, h1⟩ := idx3_6 t
  unfold iblk3
  rw [View.read_apply]
  show V c main_v140 _ = V c main_v140 _
  congr 1
  funext ax
  apply Fin.ext
  match ax with
  | ⟨0, _⟩ => show win3_6.index t (0 : Fin 2) * 1 + 1 * a.val = a.val; rw [h0]; omega
  | ⟨1, _⟩ => show win3_6.index t (1 : Fin 2) * 256 + 1 * b.val = b.val; rw [h1]; omega
theorem iblk3_7_apply (c : Dev nD) (t : Fin cfg3.N) (a : Fin 4096) (b : Fin 128) :
    (iblk3 V c 7 t : FVec Ideal S4096x128 .f32) (ix2 a b) = hfA3 V c (ix2 (rowAt3 t a) b) := by
  obtain ⟨h0, h1⟩ := idx3_7 t
  unfold iblk3
  rw [View.read_apply]
  show V c main_v79 _ = V c main_v79 _
  congr 1
  funext ax
  apply Fin.ext
  match ax with
  | ⟨0, _⟩ => show win3_7.index t (0 : Fin 2) * 4096 + 1 * a.val = t.val * 4096 + a.val; rw [h0]; omega
  | ⟨1, _⟩ => show win3_7.index t (1 : Fin 2) * 128 + 1 * b.val = b.val; rw [h1]; omega
theorem iblk3_8_apply (c : Dev nD) (t : Fin cfg3.N) (a : Fin 256) (b : Fin 384) :
    (iblk3 V c 8 t : FVec Ideal S256x384 .bf16) (ix2 a b) = wihA3 V c (ix2 a b) := by
  obtain ⟨h0, h1⟩ := idx3_8 t
  unfold iblk3
  rw [View.read_apply]
  show V c main_v143 _ = V c main_v143 _
  congr 1
  funext ax
  apply Fin.ext
  match ax with
  | ⟨0, _⟩ => show win3_8.index t (0 : Fin 2) * 256 + 1 * a.val = a.val; rw [h0]; omega
  | ⟨1, _⟩ => show win3_8.index t (1 : Fin 2) * 384 + 1 * b.val = b.val; rw [h1]; omega
theorem iblk3_9_apply (c : Dev nD) (t : Fin cfg3.N) (a : Fin 128) (b : Fin 384) :
    (iblk3 V c 9 t : FVec Ideal S128x384 .bf16) (ix2 a b) = whhA3 V c (ix2 a b) := by
  obtain ⟨h0, h1⟩ := idx3_9 t
  unfold iblk3
  rw [View.read_apply]
  show V c main_v144 _ = V c main_v144 _
  congr 1
  funext ax
  apply Fin.ext
  match ax with
  | ⟨0, _⟩ => show win3_9.index t (0 : Fin 2) * 128 + 1 * a.val = a.val; rw [h0]; omega
  | ⟨1, _⟩ => show win3_9.index t (1 : Fin 2) * 384 + 1 * b.val = b.val; rw [h1]; omega
theorem iblk3_10_apply (c : Dev nD) (t : Fin cfg3.N) (a : Fin 1) (b : Fin 384) :
    (iblk3 V c 10 t : FVec Ideal S1x384 .f32) (ix2 a b) = bihA3 V c (ix2 a b) := by
  obtain ⟨h0, h1⟩ := idx3_10 t
  unfold iblk3
  rw [View.read_apply]
  show V c main_v141 _ = V c main_v141 _
  congr 1
  funext ax
  apply Fin.ext
  match ax with
  | ⟨0, _⟩ => show win3_10.index t (0 : Fin 2) * 1 + 1 * a.val = a.val; rw [h0]; omega
  | ⟨1, _⟩ => show win3_10.index t (1 : Fin 2) * 384 + 1 * b.val = b.val; rw [h1]; omega
theorem iblk3_11_apply (c : Dev nD) (t : Fin cfg3.N) (a : Fin 1) (b : Fin 384) :
    (iblk3 V c 11 t : FVec Ideal S1x384 .f32) (ix2 a b) = bhhA3 V c (ix2 a b) := by
  obtain ⟨h0, h1⟩ := idx3_11 t
  unfold iblk3
  rw [View.read_apply]
  show V c main_v142 _ = V c main_v142 _
  congr 1
  funext ax
  apply Fin.ext
  match ax with
  | ⟨0, _⟩ => show win3_11.index t (0 : Fin 2) * 1 + 1 * a.val = a.val; rw [h0]; omega
  | ⟨1, _⟩ => show win3_11.index t (1 : Fin 2) * 384 + 1 * b.val = b.val; rw [h1]; omega

/-! ## The output array as one function of the arrays -/

/-- The recurrent cell of every row, from the arrays the region finds. -/
abbrev cell3 (c : Dev nD) : Fin 32768 → Fin 128 → EReal :=
  Spec.cell (Spec.gateIn (Spec.aggK (fun v c' => termA3 V c (ix2 v c')) (fun v c' => qA3 V c (ix2 v c')) (fun v c' => qrA3 V c (ix2 v c'))
      (fun v => dinA3 V c (ix2 v (0 : Fin 1))) (fun v => doutA3 V c (ix2 v (0 : Fin 1))) (fun c' => mbA3 V c (ix2 (0 : Fin 1) c')) (fun c' => mrbA3 V c (ix2 (0 : Fin 1) c')))
      (fun g k => wihA3 V c (ix2 k g)) (fun g => bihA3 V c (ix2 (0 : Fin 1) g)))
    (Spec.gateHid (fun v k => hfA3 V c (ix2 v k)) (fun g k => whhA3 V c (ix2 k g)) (fun g => bhhA3 V c (ix2 (0 : Fin 1) g)))
    (fun v k => hfA3 V c (ix2 v k))

/-- What the output array ends holding: at `(r, j)` the normalized cell of row `r`. -/
def G3 (c : Dev nD) : S32768x128.Idx → EReal := fun i => Spec.unit (cell3 V c) (i 0) (i 1)

/-- Row `p`, feature `q` of the output block of point `t` is row `4096 t + p`, feature `q` of the output array. -/
theorem emb3_12 (t : Fin cfg3.N) (p : Fin 4096) (q : Fin 128) :
    ((cfg3.win 12).blk t).view.emb (ix2 p q) = ix2 (rowAt3 t p) q := by
  obtain ⟨h0, h1⟩ := idx3_12 t
  funext ax
  apply Fin.ext
  match ax with
  | ⟨0, _⟩ => show win3_12.index t (0 : Fin 2) * 4096 + 1 * p.val = t.val * 4096 + p.val; rw [h0]; omega
  | ⟨1, _⟩ => show win3_12.index t (1 : Fin 2) * 128 + 1 * q.val = q.val; rw [h1]; omega

/-- What point `t` writes back is block `t` of `G3`. -/
theorem flushed3_eq (c : Dev nD) (t : Fin cfg3.N) :
    (dat3 V c).flushed 12 t = ((cfg3.win 12).blk t).view.read (Elt Ideal) (G3 V c) := by
  show (cfg3.win 12).cut (grid3.coords t) ((dat3 V c).after 12 t) = _
  rw [after3_12]
  unfold out3_12
  rw [View.canon_unit_zero Gru.hz]
  simp only [View.ld_unit_zero (S := S4096x256) Gru.hz, View.ld_unit_zero (S := S4096x1) Gru.hz, View.ld_unit_zero (S := S1x256) Gru.hz, View.ld_unit_zero (S := S4096x128) Gru.hz, View.ld_unit_zero (S := S256x384) Gru.hz, View.ld_unit_zero (S := S128x384) Gru.hz, View.ld_unit_zero (S := S1x384) Gru.hz]
  refine funext fun (y : S4096x128.Idx) => ?_
  show Gru.normRows (Gru.pay1 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)) y = G3 V c (((cfg3.win 12).blk t).view.emb y)
  obtain ⟨p, q, rfl⟩ : ∃ (p : Fin 4096) (q : Fin 128), y = ix2 p q := ⟨y 0, y 1, eq_ix2 y⟩
  rw [emb3_12, Gru.normRows_apply]
  simp only [Gru.pay1_apply]
  unfold Gru.gin Gru.ghid
  simp only [iblk3_0_apply, iblk3_1_apply, iblk3_2_apply, iblk3_3_apply, iblk3_4_apply, iblk3_5_apply, iblk3_6_apply, iblk3_7_apply, iblk3_8_apply, iblk3_9_apply, iblk3_10_apply, iblk3_11_apply]
  rfl

/-- An index of the array is in point `t`'s block iff each coordinate is in the block's range on its axis. -/
theorem mem_blk3 (t : Fin cfg3.N) (i : S32768x128.Idx) :
    i ∈ ((cfg3.win 12).blk t).view.set ↔ ∀ a : Fin 2, win3_12.index t a * S4096x128.size a ≤ (i a).val ∧ (i a).val < win3_12.index t a * S4096x128.size a + S4096x128.size a := by
  show i ∈ ((View.whole main_v145).slice (win3_12.rect t)).set ↔ _
  rw [View.set_slice_whole, Rect.mem_set_unit]
  exact Iff.rfl

/-- Every index of the output array is in the block of the point its row falls to: row `r` in that of `r / 4096`. -/
theorem cover3 (i : S32768x128.Idx) :
    ∃ t : Fin cfg3.N, (cfg3.win 12).flush t = true ∧ i ∈ ((cfg3.win 12).blk t).view.set := by
  have hi0 : (i 0).val < 32768 := (i 0).isLt
  have hi1 : (i 1).val < 128 := (i 1).isLt
  obtain ⟨t, ht⟩ : ∃ t : Fin cfg3.N, t.val = (i 0).val / 4096 :=
    ⟨⟨(i 0).val / 4096, by show (i 0).val / 4096 < 8; omega⟩, rfl⟩
  obtain ⟨h0, h1⟩ := idx3_12 t
  refine ⟨t, flush3_12 t, ?_⟩
  rw [mem_blk3]
  intro a
  match a with
  | ⟨0, _⟩ => show win3_12.index t (0 : Fin 2) * 4096 ≤ (i 0).val ∧ (i 0).val < win3_12.index t (0 : Fin 2) * 4096 + 4096; rw [h0, ht]; omega
  | ⟨1, _⟩ => show win3_12.index t (1 : Fin 2) * 128 ≤ (i 1).val ∧ (i 1).val < win3_12.index t (1 : Fin 2) * 128 + 128; rw [h1]; omega

/-- The output array after the region: `G3`. -/
theorem final3 (c : Dev nD) : (dat3 V c).arrAt 12 cfg3.N = G3 V c :=
  (dat3 V c).arrAt_eq_of_cover 12 (G3 V c) (fun t _ => flushed3_eq V c t) cover3

/-- REGION 3's OUTPUT, index by index: at row `r` and feature `j` the recurrent cell of row `r` (of the affine image of
    its aggregate and of its own affine image), divided by the length of the row of cells, floored at the small literal. -/
theorem val3 (c : Dev nD) (r : Fin 32768) (j : Fin 128) :
    (dat3 V c).arrAt 12 cfg3.N (ix2 r j) = Spec.unit (Spec.cell (Spec.gateIn (Spec.aggK (fun v c' => termA3 V c (ix2 v c')) (fun v c' => qA3 V c (ix2 v c')) (fun v c' => qrA3 V c (ix2 v c')) (fun v => dinA3 V c (ix2 v (0 : Fin 1))) (fun v => doutA3 V c (ix2 v (0 : Fin 1))) (fun c' => mbA3 V c (ix2 (0 : Fin 1) c')) (fun c' => mrbA3 V c (ix2 (0 : Fin 1) c'))) (fun g k => wihA3 V c (ix2 k g)) (fun g => bihA3 V c (ix2 (0 : Fin 1) g))) (Spec.gateHid (fun v k => hfA3 V c (ix2 v k)) (fun g k => whhA3 V c (ix2 k g)) (fun g => bhhA3 V c (ix2 (0 : Fin 1) g))) (fun v k => hfA3 V c (ix2 v k))) r j :=
  congrFun (final3 V c) (ix2 r j)

end Cert.KernelIdeal.Val

end
-- ==== Proof.KV.Reg4Val.lean ====
/- What region 4 of @main leaves in its two output arrays, index by index, over the extended reals.

   A block of the kernel is 32 graphs of 128 nodes with 128 features. For one head (a 128x128 matrix `W`, a bias
   row `b`, a gate row `u`, a gate bias `d`) the body computes, for graph `p` and feature `s`,
     pooled p s = ∑ i, ((∑ k, x p i k * W k s) + b s) * logistic ((∑ k, x p i k * u k) + d)
   and stores pooled p s / max (sqrt (∑ k, (pooled p k)²)) 1e-12. At the ideal values rounding to bf16 and widening
   back are the identity, a matrix product into a zero accumulator is the plain sum of products, and a sum along an
   axis from the zero word is the plain sum. Grid point `t` holds graphs `32 t … 32 t + 31`, the eight points
   cover the 256 graphs, so each output array ends as that formula of the whole input arrays. -/
import proofs.«163521_j41618233098847_2_alg».proof.Proof.KI.Reg4
import proofs.«163521_j41618233098847_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

/-! ## Layout operations at an index -/

section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p * 128 + i` of the 4096 flattened rows is node `i` of graph `p`. -/
abbrev row (p : Fin 32) (i : Fin 128) : Fin 4096 := ⟨p.val * 128 + i.val, by have := p.isLt; have := i.isLt; omega⟩

/-- The 32x128x128 block flattened to 4096 rows, read at row `p * 128 + i`. -/
theorem flatten_apply (x : S32x128x128.Idx → α) (h : S32x128x128.ShapeCasts S4096x128) (p : Fin 32) (i k : Fin 128) :
    shapeCast S4096x128 x h (ix2 (row p i) k) = x (ix3 p i k) :=
  shapeCast_apply x h _ _ (by
    rw [Shape.rowMajor_val_three, Shape.rowMajor_val_two]
    show (p.val * 128 + i.val) * 128 + k.val = (p.val * 128 + i.val) * 128 + k.val
    rfl)

/-- 4096 rows arranged back by graph, read at `(p, i, q)`. -/
theorem unflatten_apply (y : S4096x128.Idx → α) (h : S4096x128.ShapeCasts S32x128x128) (p : Fin 32) (i q : Fin 128) :
    shapeCast S32x128x128 y h (ix3 p i q) = y (ix2 (row p i) q) :=
  shapeCast_apply y h _ _ (by
    rw [Shape.rowMajor_val_three, Shape.rowMajor_val_two]
    show (p.val * 128 + i.val) * 128 + q.val = (p.val * 128 + i.val) * 128 + q.val
    rfl)

end Layout

/-! ## The elementwise maps not yet read at an index -/

theorem logistic_apply {s : Shape} {φ : FTy} (a : FVec Ideal s φ) (i : s.Idx) : logistic a i = Ideal.logistic (a i) := rfl
theorem sqrt_apply {s : Shape} {φ : FTy} (a : FVec Ideal s φ) (i : s.Idx) : sqrt a i = Ideal.sqrt (a i) := rfl

/-! ## Sums along one axis -/

/-- The sum along the features of a 4096x128 array, at row `r`. -/
theorem sum_rows4096 (y : FVec Ideal S4096x128 .f32) (h : S4096x128.Reduces [1] S4096) (hφ : FKind.Formats .f32)
    (hacc : (0x00000000#32 : BitVec 32) = FKind.add.neutral .f32 hφ) (r : Fin 4096) :
    multiReduction (F := Ideal) .add [1] S4096 y 0x00000000#32 h hφ hacc (ix1 r) = ∑ k : Fin 128, y (ix2 r k) := by
  refine (Ideal.multiReduction_add_single y _ h hφ hacc (ix1 r)).trans ?_
  refine Finset.sum_congr rfl fun k _ => congrArg y ?_
  funext a; apply Fin.ext
  match a with
  | ⟨0, _⟩ => rfl
  | ⟨1, _⟩ => rfl

/-- The sum over the 128 nodes of each graph of a 32x128x128 array, at `(p, q)`. -/
theorem sum_nodes (y : FVec Ideal S32x128x128 .f32) (h : S32x128x128.Reduces [1] S32x128) (hφ : FKind.Formats .f32)
    (hacc : (0x00000000#32 : BitVec 32) = FKind.add.neutral .f32 hφ) (p : Fin 32) (q : Fin 128) :
    multiReduction (F := Ideal) .add [1] S32x128 y 0x00000000#32 h hφ hacc (ix2 p q) = ∑ i : Fin 128, y (ix3 p i q) := by
  refine (Ideal.multiReduction_add_single y _ h hφ hacc (ix2 p q)).trans ?_
  refine Finset.sum_congr rfl fun i _ => congrArg y ?_
  funext a; apply Fin.ext
  match a with
  | ⟨0, _⟩ => rfl
  | ⟨1, _⟩ => rfl
  | ⟨2, _⟩ => rfl

/-- The sum along the features of a 32x128 array, at row `p`. -/
theorem sum_lanes32 (y : FVec Ideal S32x128 .f32) (h : S32x128.Reduces [1] S32) (hφ : FKind.Formats .f32)
    (hacc : (0x00000000#32 : BitVec 32) = FKind.add.neutral .f32 hφ) (p : Fin 32) :
    multiReduction (F := Ideal) .add [1] S32 y 0x00000000#32 h hφ hacc (ix1 p) = ∑ k : Fin 128, y (ix2 p k) := by
  refine (Ideal.multiReduction_add_single y _ h hφ hacc (ix1 p)).trans ?_
  refine Finset.sum_congr rfl fun k _ => congrArg y ?_
  funext a; apply Fin.ext
  match a with
  | ⟨0, _⟩ => rfl
  | ⟨1, _⟩ => rfl

/-! ## The matrix product at an index -/

theorem lhs_mm_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_mm_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_mm_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_mm_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- 4096 rows against a 128x128 matrix into a zero accumulator: at `(r, q)` the sum over `k` of row `r` at `k` times
    the matrix at `(k, q)`. -/
theorem mm_apply (L : FVec Ideal S4096x128 .bf16) (R : FVec Ideal S128x128 .bf16) (r : Fin 4096) (q : Fin 128) :
    matmul dot_S4096x128_S128x128_S4096x128_1_0_0_1_n_n none L R (constant (F := Ideal) S4096x128 .f32 0x00000000#32) (ix2 r q)
      = ∑ k : Fin 128, (L (ix2 r k) : EReal) * (R (ix2 k q) : EReal) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r q) ((ValueIdx.contrEquiv1 dot_S4096x128_S128x128_S4096x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S4096x128_S128x128_S4096x128_1_0_0_1_n_n.rhsIdx (ix2 r q) ((ValueIdx.contrEquiv1 dot_S4096x128_S128x128_S4096x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## One head of the body, stage by stage

`X2` is the feature block flattened to 4096 rows, `X3` the same rounded to bf16, `Wm` the head's matrix, `bb` its
bias row, `uu` its gate row, `dd` its gate bias. -/

section Head
variable (X2 : FVec Ideal S4096x128 .f32) (X3 : FVec Ideal S4096x128 .bf16) (Wm : FVec Ideal S128x128 .bf16)
  (bb : FVec Ideal S1x128 .f32) (uu : FVec Ideal S1x128 .bf16) (dd : FVec Ideal S1x1 .f32)

/-- Each row's affine image: the row against the matrix, plus the bias row. -/
def hLin : FVec Ideal S4096x128 .f32 :=
  addf (matmul dot_S4096x128_S128x128_S4096x128_1_0_0_1_n_n none X3 Wm (constant (F := Ideal) S4096x128 .f32 0x00000000#32))
    (broadcastTo S4096x128 (shapeCast S1x128 bb shapeCasts_S1x128_S1x128) broadcasts_S1x128_S4096x128)

theorem hLin_apply (r : Fin 4096) (q : Fin 128) :
    hLin X3 Wm bb (ix2 r q) = (∑ k : Fin 128, (X3 (ix2 r k) : EReal) * (Wm (ix2 k q) : EReal)) + bb (ix2 (0 : Fin 1) q) := by
  unfold hLin
  rw [addf_apply, mm_apply, broadcastTo_1b_ab_apply, shapeCast_self]

/-- Each row against the gate row. -/
def hScore : FVec Ideal S4096 .f32 :=
  multiReduction (F := Ideal) .add [1] S4096
    (mulf X2 (broadcastTo S4096x128 (extf .f32 (shapeCast S1x128 uu shapeCasts_S1x128_S1x128) bitsLt_bf16_f32) broadcasts_S1x128_S4096x128))
    0x00000000#32 reduces_S4096x128_S4096 (.inl rfl) rfl

theorem hScore_apply (r : Fin 4096) :
    hScore X2 uu (ix1 r) = ∑ k : Fin 128, (X2 (ix2 r k) : EReal) * (uu (ix2 (0 : Fin 1) k) : EReal) := by
  unfold hScore
  refine (sum_rows4096 _ _ _ _ r).trans (Finset.sum_congr rfl fun k _ => ?_)
  rw [mulf_apply, broadcastTo_1b_ab_apply, extf_apply, shapeCast_self]

/-- Each row's gate: the logistic of its score plus the gate bias, as a column. -/
def hGate : FVec Ideal S4096x1 .f32 :=
  logistic (addf (shapeCast S4096x1 (hScore X2 uu) shapeCasts_S4096_S4096x1)
    (broadcastTo S4096x1 (shapeCast S1x1 dd shapeCasts_S1x1_S1x1) broadcasts_S1x1_S4096x1))

theorem hGate_apply (r : Fin 4096) :
    hGate X2 uu dd (ix2 r (0 : Fin 1)) = Ideal.logistic (hScore X2 uu (ix1 r) + dd (ix2 (0 : Fin 1) (0 : Fin 1))) := by
  unfold hGate
  rw [logistic_apply, addf_apply, shapeCast_a_a1_apply, broadcastTo_1b_ab_apply, shapeCast_self]

/-- Each row's affine image times its gate, arranged by graph. -/
def hWeighted : FVec Ideal S32x128x128 .f32 :=
  shapeCast S32x128x128 (mulf (hLin X3 Wm bb) (broadcastTo S4096x128 (hGate X2 uu dd) broadcasts_S4096x1_S4096x128))
    shapeCasts_S4096x128_S32x128x128

theorem hWeighted_apply (p : Fin 32) (i q : Fin 128) :
    hWeighted X2 X3 Wm bb uu dd (ix3 p i q)
      = hLin X3 Wm bb (ix2 (row p i) q) * hGate X2 uu dd (ix2 (row p i) (0 : Fin 1)) := by
  unfold hWeighted
  rw [unflatten_apply, mulf_apply, broadcastTo_a1_ab_apply]

/-- The sum over each graph's nodes. -/
def hPool : FVec Ideal S32x128 .f32 :=
  multiReduction (F := Ideal) .add [1] S32x128 (hWeighted X2 X3 Wm bb uu dd) 0x00000000#32 reduces_S32x128x128_S32x128 (.inl rfl) rfl

theorem hPool_apply (p : Fin 32) (q : Fin 128) :
    hPool X2 X3 Wm bb uu dd (ix2 p q) = ∑ i : Fin 128, hWeighted X2 X3 Wm bb uu dd (ix3 p i q) := by
  unfold hPool
  exact sum_nodes _ _ _ _ p q

/-- Each graph's squared length. -/
def hSq : FVec Ideal S32 .f32 :=
  multiReduction (F := Ideal) .add [1] S32 (mulf (hPool X2 X3 Wm bb uu dd) (hPool X2 X3 Wm bb uu dd)) 0x00000000#32
    reduces_S32x128_S32 (.inl rfl) rfl

theorem hSq_apply (p : Fin 32) :
    hSq X2 X3 Wm bb uu dd (ix1 p) = ∑ k : Fin 128, hPool X2 X3 Wm bb uu dd (ix2 p k) * hPool X2 X3 Wm bb uu dd (ix2 p k) := by
  unfold hSq
  exact (sum_lanes32 _ _ _ _ p).trans (Finset.sum_congr rfl fun k _ => rfl)

/-- Each graph's length, floored at the small literal, as a column. -/
def hLen : FVec Ideal S32x1 .f32 :=
  maximumf (sqrt (shapeCast S32x1 (hSq X2 X3 Wm bb uu dd) shapeCasts_S32_S32x1))
    (broadcast S32x1 (Scalar.ofBits (F := Ideal) .f32 0x2B8CBCCC#32))

theorem hLen_apply (p : Fin 32) (z : Fin 1) :
    hLen X2 X3 Wm bb uu dd (ix2 p z) = max (Ideal.sqrt (hSq X2 X3 Wm bb uu dd (ix1 p))) Spec.tiny := by
  unfold hLen
  rw [maximumf_apply, sqrt_apply, broadcast_apply, shapeCast_a_a1_apply]
  all_goals rfl

/-- The head: each graph's pooled row over its floored length. -/
def hHead : FVec Ideal S32x128 .f32 :=
  divf (hPool X2 X3 Wm bb uu dd) (broadcastTo S32x128 (hLen X2 X3 Wm bb uu dd) broadcasts_S32x1_S32x128)

theorem hHead_apply (p : Fin 32) (q : Fin 128) :
    hHead X2 X3 Wm bb uu dd (ix2 p q)
      = Ideal.div (hPool X2 X3 Wm bb uu dd (ix2 p q)) (hLen X2 X3 Wm bb uu dd (ix2 p (0 : Fin 1))) := by
  unfold hHead
  rw [divf_apply, broadcastTo_a1_ab_apply]

/-- The second output's payload is the head (the stages above are its bindings, in order). -/
theorem pay1_eq : k4_pay1 (F := Ideal) X2 X3 Wm bb uu dd = hHead X2 X3 Wm bb uu dd := rfl

end Head

/-! ## The head of a block in closed form -/

/-- The read-out's pooled sums over any number of graphs (`Spec.pooled3` is this at 256 graphs). -/
def pooledN {n : Nat} (h3 : Fin n → Fin 128 → Fin 128 → EReal) (W : Fin 128 → Fin 128 → EReal) (b : Fin 128 → EReal)
    (u : Fin 128 → EReal) (d : EReal) (g : Fin n) (s : Fin 128) : EReal :=
  ∑ i : Fin 128, ((∑ k : Fin 128, h3 g i k * W s k) + b s) * Ideal.logistic ((∑ k : Fin 128, h3 g i k * u k) + d)

/-- Normalizing a row reads only that row. -/
theorem unit_row {n m : Nat} (x : Fin n → Fin 128 → EReal) (y : Fin m → Fin 128 → EReal) (v : Fin n) (v' : Fin m) (j : Fin 128)
    (h : ∀ s, x v s = y v' s) : Spec.unit x v j = Spec.unit y v' j := by
  unfold Spec.unit
  have hs : (∑ k : Fin 128, x v k * x v k) = ∑ k : Fin 128, y v' k * y v' k :=
    Finset.sum_congr rfl fun k _ => by rw [h k]
  rw [h j, hs]

/-- The head over a feature block `x0` and a head's four weight blocks, at graph `p` of the block and feature `q`:
    the normalized pooled sums of the block. -/
theorem head_block (x0 : FVec Ideal S32x128x128 .f32) (w : FVec Ideal S128x128 .bf16) (bb : FVec Ideal S1x128 .f32)
    (uu : FVec Ideal S1x128 .bf16) (dd : FVec Ideal S1x1 .f32) (p : Fin 32) (q : Fin 128) :
    hHead (k4_pay2 x0) (k4_pay3 x0) (k4_pay5 w) bb uu dd (ix2 p q)
      = Spec.unit (pooledN (fun p i k => x0 (ix3 p i k)) (fun s k => w (ix2 k s)) (fun s => bb (ix2 (0 : Fin 1) s)) (fun k => uu (ix2 (0 : Fin 1) k)) (dd (ix2 (0 : Fin 1) (0 : Fin 1)))) p q := by
  have hX2 : ∀ (p : Fin 32) (i k : Fin 128), k4_pay2 (F := Ideal) x0 (ix2 (row p i) k) = x0 (ix3 p i k) := fun p i k => by
    show shapeCast S4096x128 (shapeCast S32x128x128 x0 shapeCasts_S32x128x128_S32x128x128) shapeCasts_S32x128x128_S4096x128 (ix2 (row p i) k) = _
    rw [flatten_apply, shapeCast_self]
  have hX3 : ∀ (p : Fin 32) (i k : Fin 128), (k4_pay3 (F := Ideal) x0 (ix2 (row p i) k) : EReal) = (x0 (ix3 p i k) : EReal) := fun p i k => hX2 p i k
  have hW : ∀ (k s : Fin 128), k4_pay5 (F := Ideal) w (ix2 k s) = w (ix2 k s) := fun k s => by
    show shapeCast S128x128 w shapeCasts_S128x128_S128x128 (ix2 k s) = _
    rw [shapeCast_self]
  have hpool : ∀ s : Fin 128, hPool (k4_pay2 x0) (k4_pay3 x0) (k4_pay5 w) bb uu dd (ix2 p s)
      = pooledN (fun p i k => x0 (ix3 p i k)) (fun s k => w (ix2 k s)) (fun s => bb (ix2 (0 : Fin 1) s)) (fun k => uu (ix2 (0 : Fin 1) k)) (dd (ix2 (0 : Fin 1) (0 : Fin 1))) p s := fun s => by
    rw [hPool_apply]
    unfold pooledN
    refine Finset.sum_congr rfl fun i _ => ?_
    rw [hWeighted_apply, hLin_apply, hGate_apply, hScore_apply]
    simp only [hX2, hX3, hW]
  rw [hHead_apply, hLen_apply, hSq_apply]
  unfold Spec.unit
  simp only [hpool]

/-- The second output's payload at an index of the block. -/
theorem pay1_at (x0 : Vec Ideal S32x128x128 .f32) (w : Vec Ideal S128x128 .bf16) (bb : Vec Ideal S1x128 .f32)
    (uu : Vec Ideal S1x128 .bf16) (dd : Vec Ideal S1x1 .f32) (j : S32x128.Idx) :
    k4_pay1 (F := Ideal) (k4_pay2 x0) (k4_pay3 x0) (k4_pay5 w) bb uu dd j
      = Spec.unit (pooledN (fun p i k => x0 (ix3 p i k)) (fun s k => w (ix2 k s)) (fun s => bb (ix2 (0 : Fin 1) s)) (fun k => uu (ix2 (0 : Fin 1) k)) (dd (ix2 (0 : Fin 1) (0 : Fin 1)))) (j 0) (j 1) := by
  obtain ⟨p, q, rfl⟩ : ∃ (p : Fin 32) (q : Fin 128), j = ix2 p q := ⟨j 0, j 1, eq_ix2 j⟩
  exact (congrFun (pay1_eq (k4_pay2 x0) (k4_pay3 x0) (k4_pay5 w) bb uu dd) (ix2 p q)).trans (head_block x0 w bb uu dd p q)

/-- The first output's payload is the same head of its own weight blocks (its bindings are the second's, with the
    flattened block and the matrix bound inside). -/
theorem pay4_at (x0 : Vec Ideal S32x128x128 .f32) (w : Vec Ideal S128x128 .bf16) (bb : Vec Ideal S1x128 .f32)
    (uu : Vec Ideal S1x128 .bf16) (dd : Vec Ideal S1x1 .f32) (j : S32x128.Idx) :
    k4_pay4 (F := Ideal) x0 w bb uu dd j
      = Spec.unit (pooledN (fun p i k => x0 (ix3 p i k)) (fun s k => w (ix2 k s)) (fun s => bb (ix2 (0 : Fin 1) s)) (fun k => uu (ix2 (0 : Fin 1) k)) (dd (ix2 (0 : Fin 1) (0 : Fin 1)))) (j 0) (j 1) :=
  pay1_at x0 w bb uu dd j

/-! ## The arrays of the region, as it finds them -/

section Region
variable (V : (c : Dev nD) → (b : Ref sig .tc) → Buf (Elt Ideal) ((c : Thread nD τ).loc b))

/-- The node features `[256, 128, 128]`, and per head its matrix `[128, 128]` (entry `(k, s)`), bias row `[1, 128]`,
    gate row `[1, 128]` and gate bias `[1, 1]`. -/
abbrev h3A (c : Dev nD) : FVec Ideal S256x128x128 .f32 := V c main_v146
abbrev w1A (c : Dev nD) : FVec Ideal S128x128 .bf16 := V c main_v148
abbrev b1A (c : Dev nD) : FVec Ideal S1x128 .f32 := V c main_v153
abbrev u1A (c : Dev nD) : FVec Ideal S1x128 .bf16 := V c main_v149
abbrev d1A (c : Dev nD) : FVec Ideal S1x1 .f32 := V c main_v154
abbrev w2A (c : Dev nD) : FVec Ideal S128x128 .bf16 := V c main_v151
abbrev b2A (c : Dev nD) : FVec Ideal S1x128 .f32 := V c main_v155
abbrev u2A (c : Dev nD) : FVec Ideal S1x128 .bf16 := V c main_v152
abbrev d2A (c : Dev nD) : FVec Ideal S1x1 .f32 := V c main_v156

/-- The array a head's output window ends holding: the normalized pooled sums of all 256 graphs. -/
def G4 (h3 : FVec Ideal S256x128x128 .f32) (W : FVec Ideal S128x128 .bf16) (b : FVec Ideal S1x128 .f32)
    (u : FVec Ideal S1x128 .bf16) (d : FVec Ideal S1x1 .f32) : FVec Ideal S256x128 .f32 :=
  fun i => Spec.unit (Spec.pooled3 (fun g i k => h3 (ix3 g i k)) (fun s k => W (ix2 k s)) (fun s => b (ix2 (0 : Fin 1) s))
    (fun k => u (ix2 (0 : Fin 1) k)) (d (ix2 (0 : Fin 1) (0 : Fin 1)))) (i 0) (i 1)

/-! ## The printed index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- The feature window and both output windows move together along the graphs, one block of 32 per grid point, and
    stay at block 0 on the other axes; there are 8 blocks. -/
theorem idx4_move : ∀ t : Fin cfg4.N, win4_0.index t (0 : Fin 3) = win4_9.index t (0 : Fin 2)
    ∧ win4_0.index t (1 : Fin 3) = 0 ∧ win4_0.index t (2 : Fin 3) = 0
    ∧ win4_9.index t (0 : Fin 2) ≤ 7 ∧ win4_9.index t (1 : Fin 2) = 0
    ∧ win4_10.index t (0 : Fin 2) = win4_9.index t (0 : Fin 2) ∧ win4_10.index t (1 : Fin 2) = 0 :=
  (by decide +kernel : ∀ t : Fin grid4.N, _)

/-- The eight weight windows stay at block 0. -/
theorem idx4_const : ∀ t : Fin cfg4.N, win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Every block of graphs is some point's, for either output window. -/
theorem idx9_onto : ∀ q0 : Fin 8, ∃ t : Fin cfg4.N, win4_9.index t = ![q0.val, 0] :=
  (by decide +kernel : ∀ q0 : Fin 8, ∃ t : Fin grid4.N, win4_9.index t = ![q0.val, 0])
theorem idx10_onto : ∀ q0 : Fin 8, ∃ t : Fin cfg4.N, win4_10.index t = ![q0.val, 0] :=
  (by decide +kernel : ∀ q0 : Fin 8, ∃ t : Fin grid4.N, win4_10.index t = ![q0.val, 0])

/-- The graph that row `p` of point `t`'s block is. -/
def gOf (t : Fin cfg4.N) (p : Fin 32) : Fin 256 :=
  ⟨win4_9.index t (0 : Fin 2) * 32 + p.val, by
    obtain ⟨_, _, _, h, _⟩ := idx4_move t
    have := p.isLt
    omega⟩

/-! ## Each input window's block as a part of its array -/

/-- The feature block at point `t`: graphs `32 t … 32 t + 31` of the array. -/
theorem blk0_apply (c : Dev nD) (t : Fin cfg4.N) (p : Fin 32) (i k : Fin 128) :
    (iblk4 V c 0 t : FVec Ideal S32x128x128 .f32) (ix3 p i k) = h3A V c (ix3 (gOf t p) i k) := by
  obtain ⟨e0, e1, e2, -⟩ := idx4_move t
  unfold iblk4
  rw [View.read_apply]
  show V c main_v146 _ = V c main_v146 _
  congr 1
  funext a
  apply Fin.ext
  match a with
  | ⟨0, _⟩ => show win4_0.index t (0 : Fin 3) * 32 + 1 * p.val = win4_9.index t (0 : Fin 2) * 32 + p.val; rw [e0]; omega
  | ⟨1, _⟩ => show win4_0.index t (1 : Fin 3) * 128 + 1 * i.val = i.val; rw [e1]; omega
  | ⟨2, _⟩ => show win4_0.index t (2 : Fin 3) * 128 + 1 * k.val = k.val; rw [e2]; omega

/-- Window 1's block at every point is its whole array. -/
theorem blk1_apply (c : Dev nD) (t : Fin cfg4.N) (a : Fin 128) (b : Fin 128) :
    (iblk4 V c 1 t : FVec Ideal S128x128 .bf16) (ix2 a b) = w1A V c (ix2 a b) := by
  obtain ⟨e0, e1, _, _, _, _, _, _, _, _, _, _, _, _, _, _⟩ := idx4_const t
  unfold iblk4
  rw [View.read_apply]
  show V c main_v148 _ = V c main_v148 _
  congr 1
  funext ax
  apply Fin.ext
  match ax with
  | ⟨0, _⟩ => show win4_1.index t (0 : Fin 2) * 128 + 1 * a.val = a.val; rw [e0]; omega
  | ⟨1, _⟩ => show win4_1.index t (1 : Fin 2) * 128 + 1 * b.val = b.val; rw [e1]; omega

/-- Window 2's block at every point is its whole array. -/
theorem blk2_apply (c : Dev nD) (t : Fin cfg4.N) (a : Fin 1) (b : Fin 128) :
    (iblk4 V c 2 t : FVec Ideal S1x128 .f32) (ix2 a b) = b1A V c (ix2 a b) := by
  obtain ⟨_, _, e0, e1, _, _, _, _, _, _, _, _, _, _, _, _⟩ := idx4_const t
  unfold iblk4
  rw [View.read_apply]
  show V c main_v153 _ = V c main_v153 _
  congr 1
  funext ax
  apply Fin.ext
  match ax with
  | ⟨0, _⟩ => show win4_2.index t (0 : Fin 2) * 1 + 1 * a.val = a.val; rw [e0]; omega
  | ⟨1, _⟩ => show win4_2.index t (1 : Fin 2) * 128 + 1 * b.val = b.val; rw [e1]; omega

/-- Window 3's block at every point is its whole array. -/
theorem blk3_apply (c : Dev nD) (t : Fin cfg4.N) (a : Fin 1) (b : Fin 128) :
    (iblk4 V c 3 t : FVec Ideal S1x128 .bf16) (ix2 a b) = u1A V c (ix2 a b) := by
  obtain ⟨_, _, _, _, e0, e1, _, _, _, _, _, _, _, _, _, _⟩ := idx4_const t
  unfold iblk4
  rw [View.read_apply]
  show V c main_v149 _ = V c main_v149 _
  congr 1
  funext ax
  apply Fin.ext
  match ax with
  | ⟨0, _⟩ => show win4_3.index t (0 : Fin 2) * 1 + 1 * a.val = a.val; rw [e0]; omega
  | ⟨1, _⟩ => show win4_3.index t (1 : Fin 2) * 128 + 1 * b.val = b.val; rw [e1]; omega

/-- Window 4's block at every point is its whole array. -/
theorem blk4_apply (c : Dev nD) (t : Fin cfg4.N) (a : Fin 1) (b : Fin 1) :
    (iblk4 V c 4 t : FVec Ideal S1x1 .f32) (ix2 a b) = d1A V c (ix2 a b) := by
  obtain ⟨_, _, _, _, _, _, e0, e1, _, _, _, _, _, _, _, _⟩ := idx4_const t
  unfold iblk4
  rw [View.read_apply]
  show V c main_v154 _ = V c main_v154 _
  congr 1
  funext ax
  apply Fin.ext
  match ax with
  | ⟨0, _⟩ => show win4_4.index t (0 : Fin 2) * 1 + 1 * a.val = a.val; rw [e0]; omega
  | ⟨1, _⟩ => show win4_4.index t (1 : Fin 2) * 1 + 1 * b.val = b.val; rw [e1]; omega

/-- Window 5's block at every point is its whole array. -/
theorem blk5_apply (c : Dev nD) (t : Fin cfg4.N) (a : Fin 128) (b : Fin 128) :
    (iblk4 V c 5 t : FVec Ideal S128x128 .bf16) (ix2 a b) = w2A V c (ix2 a b) := by
  obtain ⟨_, _, _, _, _, _, _, _, e0, e1, _, _, _, _, _, _⟩ := idx4_const t
  unfold iblk4
  rw [View.read_apply]
  show V c main_v151 _ = V c main_v151 _
  congr 1
  funext ax
  apply Fin.ext
  match ax with
  | ⟨0, _⟩ => show win4_5.index t (0 : Fin 2) * 128 + 1 * a.val = a.val; rw [e0]; omega
  | ⟨1, _⟩ => show win4_5.index t (1 : Fin 2) * 128 + 1 * b.val = b.val; rw [e1]; omega

/-- Window 6's block at every point is its whole array. -/
theorem blk6_apply (c : Dev nD) (t : Fin cfg4.N) (a : Fin 1) (b : Fin 128) :
    (iblk4 V c 6 t : FVec Ideal S1x128 .f32) (ix2 a b) = b2A V c (ix2 a b) := by
  obtain ⟨_, _, _, _, _, _, _, _, _, _, e0, e1, _, _, _, _⟩ := idx4_const t
  unfold iblk4
  rw [View.read_apply]
  show V c main_v155 _ = V c main_v155 _
  congr 1
  funext ax
  apply Fin.ext
  match ax with
  | ⟨0, _⟩ => show win4_6.index t (0 : Fin 2) * 1 + 1 * a.val = a.val; rw [e0]; omega
  | ⟨1, _⟩ => show win4_6.index t (1 : Fin 2) * 128 + 1 * b.val = b.val; rw [e1]; omega

/-- Window 7's block at every point is its whole array. -/
theorem blk7_apply (c : Dev nD) (t : Fin cfg4.N) (a : Fin 1) (b : Fin 128) :
    (iblk4 V c 7 t : FVec Ideal S1x128 .bf16) (ix2 a b) = u2A V c (ix2 a b) := by
  obtain ⟨_, _, _, _, _, _, _, _, _, _, _, _, e0, e1, _, _⟩ := idx4_const t
  unfold iblk4
  rw [View.read_apply]
  show V c main_v152 _ = V c main_v152 _
  congr 1
  funext ax
  apply Fin.ext
  match ax with
  | ⟨0, _⟩ => show win4_7.index t (0 : Fin 2) * 1 + 1 * a.val = a.val; rw [e0]; omega
  | ⟨1, _⟩ => show win4_7.index t (1 : Fin 2) * 128 + 1 * b.val = b.val; rw [e1]; omega

/-- Window 8's block at every point is its whole array. -/
theorem blk8_apply (c : Dev nD) (t : Fin cfg4.N) (a : Fin 1) (b : Fin 1) :
    (iblk4 V c 8 t : FVec Ideal S1x1 .f32) (ix2 a b) = d2A V c (ix2 a b) := by
  obtain ⟨_, _, _, _, _, _, _, _, _, _, _, _, _, _, e0, e1⟩ := idx4_const t
  unfold iblk4
  rw [View.read_apply]
  show V c main_v156 _ = V c main_v156 _
  congr 1
  funext ax
  apply Fin.ext
  match ax with
  | ⟨0, _⟩ => show win4_8.index t (0 : Fin 2) * 1 + 1 * a.val = a.val; rw [e0]; omega
  | ⟨1, _⟩ => show win4_8.index t (1 : Fin 2) * 1 + 1 * b.val = b.val; rw [e1]; omega

/-! ## Output window 9 -/

/-- What point `t` writes back to window 9's array is block `t` of the normalized pooled sums of the whole arrays. -/
theorem flushed9_eq (c : Dev nD) (t : Fin cfg4.N) :
    (dat4 V c).flushed 9 t = ((cfg4.win 9).blk t).view.read (Elt Ideal) (G4 (h3A V c) (w1A V c) (b1A V c) (u1A V c) (d1A V c)) := by
  show (cfg4.win 9).cut (grid4.coords t) ((dat4 V c).after 9 t) = _
  rw [after4_9]
  unfold out4_9
  rw [View.canon_unit_zero hz2]
  simp only [View.ld_unit_zero (S := S32x128x128) hz3, View.ld_unit_zero (S := S128x128) hz2,
    View.ld_unit_zero (S := S1x128) hz2, View.ld_unit_zero (S := S1x1) hz2]
  funext j
  rw [View.read_apply]
  refine (pay4_at (iblk4 V c 0 t) (iblk4 V c 1 t) (iblk4 V c 2 t) (iblk4 V c 3 t) (iblk4 V c 4 t) j).trans ?_
  simp only [blk0_apply V c t, blk1_apply V c t, blk2_apply V c t, blk3_apply V c t, blk4_apply V c t]
  obtain ⟨-, -, -, -, e91, e100, e101⟩ := idx4_move t
  have hE : ((cfg4.win 9).blk t).view.emb j = (ix2 (gOf t (j 0)) (j 1) : S256x128.Idx) := by
    funext a
    apply Fin.ext
    match a with
    | ⟨0, _⟩ => show win4_9.index t (0 : Fin 2) * 32 + 1 * (j 0).val = win4_9.index t (0 : Fin 2) * 32 + (j 0).val; omega
    | ⟨1, _⟩ => show win4_9.index t (1 : Fin 2) * 128 + 1 * (j 1).val = (j 1).val; rw [e91]; omega
  rw [hE]
  exact unit_row _ _ _ _ _ (fun s => rfl)

/-- An index of the array is in point `t`'s block iff each coordinate is in the block's range on its axis. -/
theorem mem_blk9 (t : Fin cfg4.N) (i : S256x128.Idx) :
    i ∈ ((cfg4.win 9).blk t).view.set ↔ ∀ a : Fin 2, win4_9.index t a * S32x128.size a ≤ (i a).val ∧ (i a).val < win4_9.index t a * S32x128.size a + S32x128.size a := by
  show i ∈ ((View.whole main_v157_0).slice (win4_9.rect t)).set ↔ _
  rw [View.set_slice_whole, Rect.mem_set_unit]
  exact Iff.rfl

/-- Graph `g` is in the block of the point whose block index is `g / 32`: the eight blocks cover the array. -/
theorem cover9 (i : S256x128.Idx) : ∃ t : Fin cfg4.N, (cfg4.win 9).flush t = true ∧ i ∈ ((cfg4.win 9).blk t).view.set := by
  have hi0 : (i 0).val < 256 := (i 0).isLt
  have hi1 : (i 1).val < 128 := (i 1).isLt
  obtain ⟨t, ht⟩ := idx9_onto ⟨(i 0).val / 32, by omega⟩
  have q0 : win4_9.index t (0 : Fin 2) = (i 0).val / 32 := congrFun ht 0
  have q1 : win4_9.index t (1 : Fin 2) = 0 := congrFun ht 1
  refine ⟨t, flush4_9 t, ?_⟩
  rw [mem_blk9]
  intro a
  match a with
  | ⟨0, _⟩ => show win4_9.index t (0 : Fin 2) * 32 ≤ (i 0).val ∧ (i 0).val < win4_9.index t (0 : Fin 2) * 32 + 32; omega
  | ⟨1, _⟩ => show win4_9.index t (1 : Fin 2) * 128 ≤ (i 1).val ∧ (i 1).val < win4_9.index t (1 : Fin 2) * 128 + 128; omega

/-- Window 9's array after the region: the normalized pooled sums of the whole arrays. -/
theorem final9 (c : Dev nD) : (dat4 V c).arrAt 9 cfg4.N = (G4 (h3A V c) (w1A V c) (b1A V c) (u1A V c) (d1A V c)) :=
  (dat4 V c).arrAt_eq_of_cover 9 (G4 (h3A V c) (w1A V c) (b1A V c) (u1A V c) (d1A V c)) (fun t _ => flushed9_eq V c t) cover9

/-- The same, index by index: graph `g`, feature `s`. -/
theorem val4_9 (c : Dev nD) (g : Fin 256) (s : Fin 128) :
    (dat4 V c).arrAt 9 cfg4.N (ix2 g s)
      = Spec.unit (Spec.pooled3 (fun g i k => h3A V c (ix3 g i k)) (fun s k => w1A V c (ix2 k s)) (fun s => b1A V c (ix2 (0 : Fin 1) s))
          (fun k => u1A V c (ix2 (0 : Fin 1) k)) (d1A V c (ix2 (0 : Fin 1) (0 : Fin 1)))) g s :=
  congrFun (final9 V c) (ix2 g s)

/-! ## Output window 10 -/

/-- What point `t` writes back to window 10's array is block `t` of the normalized pooled sums of the whole arrays. -/
theorem flushed10_eq (c : Dev nD) (t : Fin cfg4.N) :
    (dat4 V c).flushed 10 t = ((cfg4.win 10).blk t).view.read (Elt Ideal) (G4 (h3A V c) (w2A V c) (b2A V c) (u2A V c) (d2A V c)) := by
  show (cfg4.win 10).cut (grid4.coords t) ((dat4 V c).after 10 t) = _
  rw [after4_10]
  unfold out4_10
  rw [View.canon_unit_zero hz2]
  simp only [View.ld_unit_zero (S := S32x128x128) hz3, View.ld_unit_zero (S := S128x128) hz2,
    View.ld_unit_zero (S := S1x128) hz2, View.ld_unit_zero (S := S1x1) hz2]
  funext j
  rw [View.read_apply]
  refine (pay1_at (iblk4 V c 0 t) (iblk4 V c 5 t) (iblk4 V c 6 t) (iblk4 V c 7 t) (iblk4 V c 8 t) j).trans ?_
  simp only [blk0_apply V c t, blk5_apply V c t, blk6_apply V c t, blk7_apply V c t, blk8_apply V c t]
  obtain ⟨-, -, -, -, e91, e100, e101⟩ := idx4_move t
  have hE : ((cfg4.win 10).blk t).view.emb j = (ix2 (gOf t (j 0)) (j 1) : S256x128.Idx) := by
    funext a
    apply Fin.ext
    match a with
    | ⟨0, _⟩ => show win4_10.index t (0 : Fin 2) * 32 + 1 * (j 0).val = win4_9.index t (0 : Fin 2) * 32 + (j 0).val; rw [e100]; omega
    | ⟨1, _⟩ => show win4_10.index t (1 : Fin 2) * 128 + 1 * (j 1).val = (j 1).val; rw [e101]; omega
  rw [hE]
  exact unit_row _ _ _ _ _ (fun s => rfl)

/-- An index of the array is in point `t`'s block iff each coordinate is in the block's range on its axis. -/
theorem mem_blk10 (t : Fin cfg4.N) (i : S256x128.Idx) :
    i ∈ ((cfg4.win 10).blk t).view.set ↔ ∀ a : Fin 2, win4_10.index t a * S32x128.size a ≤ (i a).val ∧ (i a).val < win4_10.index t a * S32x128.size a + S32x128.size a := by
  show i ∈ ((View.whole main_v157_1).slice (win4_10.rect t)).set ↔ _
  rw [View.set_slice_whole, Rect.mem_set_unit]
  exact Iff.rfl

/-- Graph `g` is in the block of the point whose block index is `g / 32`: the eight blocks cover the array. -/
theorem cover10 (i : S256x128.Idx) : ∃ t : Fin cfg4.N, (cfg4.win 10).flush t = true ∧ i ∈ ((cfg4.win 10).blk t).view.set := by
  have hi0 : (i 0).val < 256 := (i 0).isLt
  have hi1 : (i 1).val < 128 := (i 1).isLt
  obtain ⟨t, ht⟩ := idx10_onto ⟨(i 0).val / 32, by omega⟩
  have q0 : win4_10.index t (0 : Fin 2) = (i 0).val / 32 := congrFun ht 0
  have q1 : win4_10.index t (1 : Fin 2) = 0 := congrFun ht 1
  refine ⟨t, flush4_10 t, ?_⟩
  rw [mem_blk10]
  intro a
  match a with
  | ⟨0, _⟩ => show win4_10.index t (0 : Fin 2) * 32 ≤ (i 0).val ∧ (i 0).val < win4_10.index t (0 : Fin 2) * 32 + 32; omega
  | ⟨1, _⟩ => show win4_10.index t (1 : Fin 2) * 128 ≤ (i 1).val ∧ (i 1).val < win4_10.index t (1 : Fin 2) * 128 + 128; omega

/-- Window 10's array after the region: the normalized pooled sums of the whole arrays. -/
theorem final10 (c : Dev nD) : (dat4 V c).arrAt 10 cfg4.N = (G4 (h3A V c) (w2A V c) (b2A V c) (u2A V c) (d2A V c)) :=
  (dat4 V c).arrAt_eq_of_cover 10 (G4 (h3A V c) (w2A V c) (b2A V c) (u2A V c) (d2A V c)) (fun t _ => flushed10_eq V c t) cover10

/-- The same, index by index: graph `g`, feature `s`. -/
theorem val4_10 (c : Dev nD) (g : Fin 256) (s : Fin 128) :
    (dat4 V c).arrAt 10 cfg4.N (ix2 g s)
      = Spec.unit (Spec.pooled3 (fun g i k => h3A V c (ix3 g i k)) (fun s k => w2A V c (ix2 k s)) (fun s => b2A V c (ix2 (0 : Fin 1) s))
          (fun k => u2A V c (ix2 (0 : Fin 1) k)) (d2A V c (ix2 (0 : Fin 1) (0 : Fin 1)))) g s :=
  congrFun (final10 V c) (ix2 g s)

end Region

end Cert.KernelIdeal.Val

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.KV.Host.lean ====
/-
  The host stretches of the kernel's program, read element by element over the extended reals.

  Between its five kernel regions the program rearranges arrays on the host. It reshapes the node features to rows,
  splits the edge list into its two rows of index words, counts every node's in- and out-degree by scatter-adding
  ones, cuts each layer's two message weight matrices into transposed halves laid side by side, gathers the projected
  rows at the far end of every edge and scatter-adds them at the near end, and transposes or reshapes the cell's and the
  read-outs' weights. Over the extended reals a change of float format is the identity, so each of these arrays is,
  element by element, an element of an argument array or of an earlier result, or an exact finite sum of such elements.
  The lemmas below say which, for arbitrary contents at the start of a stretch; the lemmas 'keep_…' say that a
  reference a stretch does not write keeps its contents.
-/
import proofs.«163521_j41618233098847_2_alg».proof.Proof.Gen.KernelIdeal.Launch
import proofs.«163521_j41618233098847_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«163521_j41618233098847_2_alg».proof.Proof.LibIndex
import proofs.«163521_j41618233098847_2_alg».proof.Proof.Spec
import Mathlib.Algebra.BigOperators.Fin

-- telling two of the program's 254 references apart is decided by recursion over their table
set_option maxRecDepth 4096

noncomputable section

open scoped BigOperators

namespace Cert.KernelIdeal.HostV

open Idealize.ShloMosaic Idealize.ShloMosaic.TcCoe Idealize.ShloMosaic.ValueIdx
open Cert.KernelIdeal.Gen

/-! ## The operations' terms, read at an index -/

section Pure
variable {α : Type}

/-- A vector broadcast to a one-column matrix reads, at row 'k', the vector at 'k'. -/
theorem bcast_col_apply {n : Nat} (hn : n ≠ 1)
    (h : (⟨1, ![n]⟩ : Shape).BroadcastsInDim ⟨2, ![n, 1]⟩ (![0] : Fin 1 → Fin 2))
    (x : (⟨1, ![n]⟩ : Shape).Idx → α) (k : Fin n) (u : Fin 1) :
    broadcastInDim ⟨2, ![n, 1]⟩ (![0] : Fin 1 → Fin 2) h x (ix2 k u) = x (ix1 k) :=
  broadcastInDim_apply _ h x _ _ fun a => by
    match a with
    | ⟨0, _⟩ =>
      show k.val = if n = 1 then 0 else k.val
      rw [if_neg hn]

/-- A rank-3 array cut along axis 0 from 'o' reads, at '(j, b, e)', the source at '(k, b, e)' with 'k = o + j'. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Row 'r' of the edge list, as a vector of index words. -/
abbrev edgeRow (r : Nat) (a1 : S2x262144.Idx → α) (h : S2x262144.Slices ![r, 0] S1x262144) : S262144.Idx → α :=
  shapeCast S262144 (extractStridedSlice S1x262144 ![r, 0] a1 h) shapeCasts_S1x262144_S262144

theorem edgeRow_apply (r : Nat) (a1 : S2x262144.Idx → α) (h : S2x262144.Slices ![r, 0] S1x262144)
    (rf : Fin 2) (hr : rf.val = r) (k : Fin 262144) : edgeRow r a1 h (ix1 k) = a1 (ix2 rf k) :=
  (shapeCast_1a_a_apply _ _ k).trans
    (slice2_axis0_apply r a1 h (0 : Fin 1) k rf (show rf.val = r + 0 from hr))

/-- The number of edges whose index word in 'idx', read signed, is the node 'v': ones scatter-added into zeros, then
    made a column. -/
abbrev degree (idx : S262144.Idx → BitVec 32) : S32768x1.Idx → EReal :=
  broadcastInDim S32768x1 ![0] bcast_S32768_S32768x1_0
    (Host.scatterAdd (F := Ideal) (φ := .f32) scatter_S32768_S262144x1_S262144_n_0_0_1
      (broadcastInDim S32768 ![] bcast_S_S32768 (constant (F := Ideal) S_ .f32 0x00000000#32))
      (broadcastInDim S262144x1 ![0] bcast_S262144_S262144x1_0 idx)
      (broadcastInDim S262144 ![] bcast_S_S262144 (constant (F := Ideal) S_ .f32 0x3F800000#32)))

theorem degree_apply (idx : S262144.Idx → BitVec 32) (v : Fin 32768) (u : Fin 1) :
    degree idx (ix2 v u)
      = 0 + ∑ k : Fin 262144, if (idx (ix1 k)).toInt = (v.val : Int) then Ideal.ofBits .f32 0x3F800000#32 else 0 := by
  refine (bcast_col_apply (by decide) _ _ v u).trans ?_
  refine (LibIndex.scatterAdd_vec_apply_of _ rfl rfl rfl rfl _ _ _ v).trans ?_
  refine congrArg₂ (· + ·) Ideal.ofBits_zero_f32 (Finset.sum_congr rfl fun k _ => ?_)
  exact if_congr (Iff.of_eq (congrArg (fun w : BitVec 32 => w.toInt = (v.val : Int))
    (bcast_col_apply (by decide) _ idx k (0 : Fin 1)))) rfl rfl

/-- Slice 'l' of a stack of two 256 × 256 matrices, its columns from 'o' on (128 of them), transposed. -/
abbrev wq (l o : Nat) (A : S2x256x256.Idx → α) (h1 : S2x256x256.Slices ![l, 0, 0] S1x256x256)
    (h2 : S256x256.Slices ![0, o] S256x128) : S128x256.Idx → α :=
  transpose S128x256 [1, 0]
    (extractStridedSlice S256x128 ![0, o]
      (shapeCast S256x256 (extractStridedSlice S1x256x256 ![l, 0, 0] A h1) shapeCasts_S1x256x256_S256x256) h2)
    transposes_S256x128_S128x256_1_0

theorem wq_apply (l o : Nat) (A : S2x256x256.Idx → α) (h1 : S2x256x256.Slices ![l, 0, 0] S1x256x256)
    (h2 : S256x256.Slices ![0, o] S256x128) (lf : Fin 2) (hl : lf.val = l) (k : Fin 128) (q : Fin 256)
    (kk : Fin 256) (hk : kk.val = o + k.val) : wq l o A h1 h2 (ix2 k q) = A (ix3 lf q kk) :=
  (transpose_ix2_apply _ _ k q).trans
    ((slice2_axis1_apply o _ h2 q k kk hk).trans
      ((shapeCast_1ab_ab_apply _ _ q kk).trans
        (slice3_axis0_apply l A h1 (0 : Fin 1) q kk lf (show lf.val = l + 0 from hl))))

/-- The four quarters side by side: the two halves of 'A', then the two halves of 'B'. -/
abbrev wcat (l : Nat) (A B : S2x256x256.Idx → α) (h1 : S2x256x256.Slices ![l, 0, 0] S1x256x256) : S128x1024.Idx → α :=
  concatenate S128x1024 1
    [⟨S128x256, wq l 0 A h1 slices_S256x256_S256x128_0_0⟩, ⟨S128x256, wq l 128 A h1 slices_S256x256_S256x128_0_128⟩,
     ⟨S128x256, wq l 0 B h1 slices_S256x256_S256x128_0_0⟩, ⟨S128x256, wq l 128 B h1 slices_S256x256_S256x128_0_128⟩]
    concatenates_S128x256_S128x256_S128x256_S128x256_S128x1024_d1

theorem wcat_apply0 (l : Nat) (A B : S2x256x256.Idx → α) (h1 : S2x256x256.Slices ![l, 0, 0] S1x256x256)
    (lf : Fin 2) (hl : lf.val = l) (k : Fin 128) (q : Fin 1024) (hq : q.val < 256) :
    wcat l A B h1 (ix2 k q) = A (ix3 lf (⟨q.val, hq⟩ : Fin 256) (⟨k.val, by omega⟩ : Fin 256)) := by
  refine Eq.trans (concatenate_apply_piece (1 : Fin S128x1024.rank) _ _ (ix2 k q) 0 (by simp) S128x256 _ rfl rfl 0 rfl
    (ix2 k (⟨q.val, hq⟩ : Fin 256)) (fun b hb => ?_) ?_)
    (wq_apply l 0 A h1 _ lf hl k ⟨q.val, hq⟩ ⟨k.val, by omega⟩ (Nat.zero_add _).symm)
  · have hb1 : b.val ≠ 1 := fun h1 => hb (Fin.ext h1)
    have hb2 : b.val < 2 := b.isLt
    have hb0 : b = ⟨0, by decide⟩ := Fin.ext (show b.val = 0 by omega)
    subst hb0
    rfl
  · exact Nat.zero_add _

theorem wcat_apply1 (l : Nat) (A B : S2x256x256.Idx → α) (h1 : S2x256x256.Slices ![l, 0, 0] S1x256x256)
    (lf : Fin 2) (hl : lf.val = l) (k : Fin 128) (q : Fin 1024) (hq1 : 256 ≤ q.val) (hq2 : q.val < 512) :
    wcat l A B h1 (ix2 k q) = A (ix3 lf (⟨q.val - 256, by omega⟩ : Fin 256) (⟨128 + k.val, by omega⟩ : Fin 256)) := by
  refine Eq.trans (concatenate_apply_piece (1 : Fin S128x1024.rank) _ _ (ix2 k q) 1 (by simp) S128x256 _ rfl rfl 256 rfl
    (ix2 k (⟨q.val - 256, by omega⟩ : Fin 256)) (fun b hb => ?_) ?_)
    (wq_apply l 128 A h1 _ lf hl k ⟨q.val - 256, by omega⟩ ⟨128 + k.val, by omega⟩ rfl)
  · have hb1 : b.val ≠ 1 := fun h1 => hb (Fin.ext h1)
    have hb2 : b.val < 2 := b.isLt
    have hb0 : b = ⟨0, by decide⟩ := Fin.ext (show b.val = 0 by omega)
    subst hb0
    rfl
  · show 256 + (q.val - 256) = q.val
    omega

theorem wcat_apply2 (l : Nat) (A B : S2x256x256.Idx → α) (h1 : S2x256x256.Slices ![l, 0, 0] S1x256x256)
    (lf : Fin 2) (hl : lf.val = l) (k : Fin 128) (q : Fin 1024) (hq1 : 512 ≤ q.val) (hq2 : q.val < 768) :
    wcat l A B h1 (ix2 k q) = B (ix3 lf (⟨q.val - 512, by omega⟩ : Fin 256) (⟨k.val, by omega⟩ : Fin 256)) := by
  refine Eq.trans (concatenate_apply_piece (1 : Fin S128x1024.rank) _ _ (ix2 k q) 2 (by simp) S128x256 _ rfl rfl 512 rfl
    (ix2 k (⟨q.val - 512, by omega⟩ : Fin 256)) (fun b hb => ?_) ?_)
    (wq_apply l 0 B h1 _ lf hl k ⟨q.val - 512, by omega⟩ ⟨k.val, by omega⟩ (Nat.zero_add _).symm)
  · have hb1 : b.val ≠ 1 := fun h1 => hb (Fin.ext h1)
    have hb2 : b.val < 2 := b.isLt
    have hb0 : b = ⟨0, by decide⟩ := Fin.ext (show b.val = 0 by omega)
    subst hb0
    rfl
  · show 512 + (q.val - 512) = q.val
    omega

theorem wcat_apply3 (l : Nat) (A B : S2x256x256.Idx → α) (h1 : S2x256x256.Slices ![l, 0, 0] S1x256x256)
    (lf : Fin 2) (hl : lf.val = l) (k : Fin 128) (q : Fin 1024) (hq1 : 768 ≤ q.val) :
    wcat l A B h1 (ix2 k q) = B (ix3 lf (⟨q.val - 768, by omega⟩ : Fin 256) (⟨128 + k.val, by omega⟩ : Fin 256)) := by
  refine Eq.trans (concatenate_apply_piece (1 : Fin S128x1024.rank) _ _ (ix2 k q) 3 (by simp) S128x256 _ rfl rfl 768 rfl
    (ix2 k (⟨q.val - 768, by omega⟩ : Fin 256)) (fun b hb => ?_) ?_)
    (wq_apply l 128 B h1 _ lf hl k ⟨q.val - 768, by omega⟩ ⟨128 + k.val, by omega⟩ rfl)
  · have hb1 : b.val ≠ 1 := fun h1 => hb (Fin.ext h1)
    have hb2 : b.val < 2 := b.isLt
    have hb0 : b = ⟨0, by decide⟩ := Fin.ext (show b.val = 0 by omega)
    subst hb0
    rfl
  · show 768 + (q.val - 768) = q.val
    omega

/-- Slice 'l' of a stack of two 'a × b' matrices, transposed: at '(k, g)' the stack at '(l, g, k)'. -/
theorem stackT_apply {a b : Nat} (l : Nat) (A : (⟨3, ![2, a, b]⟩ : Shape).Idx → α)
    (h1 : (⟨3, ![2, a, b]⟩ : Shape).Slices ![l, 0, 0] ⟨3, ![1, a, b]⟩)
    (h2 : (⟨3, ![1, a, b]⟩ : Shape).ShapeCasts ⟨2, ![a, b]⟩)
    (h3 : (⟨2, ![a, b]⟩ : Shape).Transposes [1, 0] ⟨2, ![b, a]⟩)
    (lf : Fin 2) (hl : lf.val = l) (k : Fin b) (g : Fin a) :
    transpose ⟨2, ![b, a]⟩ [1, 0] (shapeCast ⟨2, ![a, b]⟩ (extractStridedSlice ⟨3, ![1, a, b]⟩ ![l, 0, 0] A h1) h2) h3 (ix2 k g)
      = A (ix3 lf g k) :=
  (transpose_ix2_apply _ h3 k g).trans
    ((shapeCast_1ab_ab_apply _ h2 g k).trans
      (slice3_axis0_apply l A h1 (0 : Fin 1) g k lf (show lf.val = l + 0 from hl)))

/-- Row 'l' of a stack of two vectors, as a one-row matrix: at '(0, c)' the stack at '(l, c)'. -/
theorem stackRow_apply {n : Nat} (l : Nat) (A : (⟨2, ![2, n]⟩ : Shape).Idx → α)
    (h1 : (⟨2, ![2, n]⟩ : Shape).Slices ![l, 0] ⟨2, ![1, n]⟩)
    (h2 : (⟨2, ![1, n]⟩ : Shape).ShapeCasts ⟨1, ![n]⟩) (h3 : (⟨1, ![n]⟩ : Shape).ShapeCasts ⟨2, ![1, n]⟩)
    (lf : Fin 2) (hl : lf.val = l) (u : Fin 1) (c : Fin n) :
    shapeCast ⟨2, ![1, n]⟩ (shapeCast ⟨1, ![n]⟩ (extractStridedSlice ⟨2, ![1, n]⟩ ![l, 0] A h1) h2) h3 (ix2 u c)
      = A (ix2 lf c) :=
  (shapeCast_a_1a_apply _ h3 u c).trans
    ((shapeCast_1a_a_apply _ h2 c).trans
      (slice2_axis0_apply l A h1 (0 : Fin 1) c lf (show lf.val = l + 0 from hl)))

/-- The index word a gather reads for the word 'w': a negative word raised by the number of rows. -/
theorem wrap_word (w : BitVec 32) :
    Scalar.select (IntOp.cmpi .slt w 0#32) (IntOp.addi w 32768#32) w = if w.slt 0#32 then w + 32768#32 else w := by
  show (if BitVec.ofBool (w.slt 0#32) = 1#1 then w + 32768#32 else w) = _
  cases w.slt 0#32
  · rfl
  · rfl

/-- The index words of a gather of rows: each word below zero raised by 32768. -/
abbrev wrapWords (e : S262144.Idx → BitVec 32) : S262144.Idx → BitVec 32 :=
  select (cmpi .slt e (broadcastInDim S262144 ![] bcast_S_S262144 (constantI S_ 32 0#32)))
    (addi e (broadcastInDim S262144 ![] bcast_S_S262144 (constantI S_ 32 32768#32))) e

theorem wrapWords_apply (e : S262144.Idx → BitVec 32) (i : S262144.Idx) :
    wrapWords e i = if (e i).slt 0#32 then e i + 32768#32 else e i :=
  wrap_word (e i)

/-- The gather of rows at the wrapped index words reads, at '(k, c)', the row 'Spec.gat' names for edge 'k''s word. -/
theorem gather_wrap_apply (x : S32768x256.Idx → α) (e : S262144.Idx → BitVec 32) (k : Fin 262144) (c : Fin 256) :
    Host.gather gather_S32768x256_S262144x1_S262144x256_1_0_n_n_0_1_1256 x
        (broadcastInDim S262144x1 ![0] bcast_S262144_S262144x1_0 (wrapWords e)) (ix2 k c)
      = x (ix2 (Spec.gat (e (ix1 k))) c) := by
  refine (LibIndex.gather_row_apply_of (N := 32768) (C := 256) (R := 262144) (by decide) _ rfl rfl rfl rfl rfl rfl rfl
    x _ k c).trans ?_
  refine congrArg (fun r => x (ix2 r c)) (Fin.ext ?_)
  refine congrArg (fun w : BitVec 32 => min w.toInt.toNat 32767) ?_
  exact (bcast_col_apply (by decide) _ (wrapWords e) k (0 : Fin 1)).trans (wrapWords_apply e (ix1 k))

/-- A sum over the 524288 concatenated rows is the sum over the first 262144 plus the sum over the last. -/
theorem sum_halves (f : Fin 524288 → EReal) :
    ∑ K : Fin 524288, f K
      = (∑ k : Fin 262144, f ⟨k.val, by omega⟩) + ∑ k : Fin 262144, f ⟨262144 + k.val, by omega⟩ :=
  Fin.sum_univ_add (a := 262144) (b := 262144) f

/-- What the edges bring to every node: the far-end projections, gathered edge by edge (forward edges read the first
    column block at the first end, reverse edges the third block at the second end) and scatter-added at the near end. -/
abbrev aggTerm (P : S32768x1024.Idx → EReal) (e0 e1 : S262144.Idx → BitVec 32) : S32768x256.Idx → EReal :=
  Host.scatterAdd (F := Ideal) (φ := .f32) scatter_S32768x256_S524288x1_S524288x256_1_0_0_1
    (broadcastInDim S32768x256 ![] bcast_S_S32768x256 (constant (F := Ideal) S_ .f32 0x00000000#32))
    (broadcastInDim S524288x1 ![0] bcast_S524288_S524288x1_0
      (concatenate S524288 0 [⟨S262144, e1⟩, ⟨S262144, e0⟩] concatenates_S262144_S262144_S524288_d0))
    (concatenate S524288x256 0
        [⟨S262144x256, Host.gather gather_S32768x256_S262144x1_S262144x256_1_0_n_n_0_1_1256
            (extractStridedSlice S32768x256 ![0, 0] P slices_S32768x1024_S32768x256_0_0)
            (broadcastInDim S262144x1 ![0] bcast_S262144_S262144x1_0 (wrapWords e0))⟩,
         ⟨S262144x256, Host.gather gather_S32768x256_S262144x1_S262144x256_1_0_n_n_0_1_1256
            (extractStridedSlice S32768x256 ![0, 512] P slices_S32768x1024_S32768x256_0_512)
            (broadcastInDim S262144x1 ![0] bcast_S262144_S262144x1_0 (wrapWords e1))⟩]
        concatenates_S262144x256_S262144x256_S524288x256_d0)

theorem aggTerm_apply (P : S32768x1024.Idx → EReal) (e0 e1 : S262144.Idx → BitVec 32) (v : Fin 32768) (c : Fin 256) :
    aggTerm P e0 e1 (ix2 v c)
      = 0 + (∑ k : Fin 262144, if (e1 (ix1 k)).toInt = (v.val : Int)
                then P (ix2 (Spec.gat (e0 (ix1 k))) (⟨c.val, by omega⟩ : Fin 1024)) else 0)
          + (∑ k : Fin 262144, if (e0 (ix1 k)).toInt = (v.val : Int)
                then P (ix2 (Spec.gat (e1 (ix1 k))) (⟨512 + c.val, by omega⟩ : Fin 1024)) else 0) := by
  refine (LibIndex.scatterAdd_row_apply_of (N := 32768) (C := 256) (R := 524288) _ rfl rfl rfl rfl _ _ _ v c).trans ?_
  refine Eq.trans ?_ (add_assoc _ _ _).symm
  refine congrArg₂ (· + ·) Ideal.ofBits_zero_f32 ?_
  refine (sum_halves _).trans (congrArg₂ (· + ·) (Finset.sum_congr rfl fun k _ => ?_) (Finset.sum_congr rfl fun k _ => ?_))
  · refine if_congr (Iff.of_eq (congrArg (fun w : BitVec 32 => w.toInt = (v.val : Int)) ?_)) ?_ rfl
    · refine (bcast_col_apply (by decide) _ _ _ _).trans ?_
      exact concatenate_pair_apply_left (0 : Fin S524288.rank) e1 e0 _ (ix1 (⟨k.val, by omega⟩ : Fin 524288)) rfl (ix1 k)
        (fun b => by match b with | ⟨0, _⟩ => rfl)
    · refine (concatenate_pair_apply_left (s₁ := S262144x256) (s₂ := S262144x256) (0 : Fin S524288x256.rank) _ _ _ (ix2 (⟨k.val, by omega⟩ : Fin 524288) c) rfl (ix2 k c)
        (fun b => by match b with | ⟨0, _⟩ => rfl | ⟨1, _⟩ => rfl)).trans ?_
      exact (gather_wrap_apply _ e0 k c).trans (slice2_axis1_apply 0 P _ _ c _ (Nat.zero_add _).symm)
  · refine if_congr (Iff.of_eq (congrArg (fun w : BitVec 32 => w.toInt = (v.val : Int)) ?_)) ?_ rfl
    · refine (bcast_col_apply (by decide) _ _ _ _).trans ?_
      exact concatenate_pair_apply_right (0 : Fin S524288.rank) e1 e0 _ (ix1 (⟨262144 + k.val, by omega⟩ : Fin 524288)) rfl rfl (ix1 k)
        (fun b hb => by
          have hb0 : b.val ≠ 0 := fun h0 => hb (Fin.ext h0)
          have hb1 : b.val < 1 := b.isLt
          omega)
        (by exact Nat.add_comm _ _)
    · refine (concatenate_pair_apply_right (s₁ := S262144x256) (s₂ := S262144x256) (0 : Fin S524288x256.rank) _ _ _ (ix2 (⟨262144 + k.val, by omega⟩ : Fin 524288) c) rfl rfl (ix2 k c)
        (fun b hb => by
          have hb0 : b.val ≠ 0 := fun h0 => hb (Fin.ext h0)
          have hb2 : b.val < 2 := b.isLt
          have hb1 : b = ⟨1, by decide⟩ := Fin.ext (show b.val = 1 by omega)
          subst hb1
          rfl)
        (by exact Nat.add_comm _ _)).trans ?_
      exact (gather_wrap_apply _ e1 k c).trans (slice2_axis1_apply 512 P _ _ c _ rfl)

end Pure

/-! ## Layer 0: the message weights, and the stretch between the projection and the update -/

section Layer
variable (W : Valuation τ sig (Elt Ideal))

/-- The projection's weight matrix is the four quarters side by side. -/
theorem main_v31_eq :
    (StableHlo.after hostOps0 W (Proc.devRef .tc main_v31) : S128x1024.Idx → EReal)
      = wcat 0 (W (Proc.devRef .tc main_arg2) : S2x256x256.Idx → EReal) (W (Proc.devRef .tc main_arg4) : S2x256x256.Idx → EReal)
          slices_S2x256x256_S1x256x256_0_0_0 := by
  after_results <;> rfl

theorem main_v31_at0 (k : Fin 128) (q : Fin 1024) (hq : q.val < 256) :
    (StableHlo.after hostOps0 W (Proc.devRef .tc main_v31) : S128x1024.Idx → EReal) (ix2 k q)
      = (W (Proc.devRef .tc main_arg2) : S2x256x256.Idx → EReal) (ix3 (0 : Fin 2) (⟨q.val, hq⟩ : Fin 256) (⟨k.val, by omega⟩ : Fin 256)) :=
  (congrFun (main_v31_eq W) _).trans (wcat_apply0 0 _ _ _ (0 : Fin 2) rfl k q hq)

theorem main_v31_at1 (k : Fin 128) (q : Fin 1024) (hq1 : 256 ≤ q.val) (hq2 : q.val < 512) :
    (StableHlo.after hostOps0 W (Proc.devRef .tc main_v31) : S128x1024.Idx → EReal) (ix2 k q)
      = (W (Proc.devRef .tc main_arg2) : S2x256x256.Idx → EReal) (ix3 (0 : Fin 2) (⟨q.val - 256, by omega⟩ : Fin 256) (⟨128 + k.val, by omega⟩ : Fin 256)) :=
  (congrFun (main_v31_eq W) _).trans (wcat_apply1 0 _ _ _ (0 : Fin 2) rfl k q hq1 hq2)

theorem main_v31_at2 (k : Fin 128) (q : Fin 1024) (hq1 : 512 ≤ q.val) (hq2 : q.val < 768) :
    (StableHlo.after hostOps0 W (Proc.devRef .tc main_v31) : S128x1024.Idx → EReal) (ix2 k q)
      = (W (Proc.devRef .tc main_arg4) : S2x256x256.Idx → EReal) (ix3 (0 : Fin 2) (⟨q.val - 512, by omega⟩ : Fin 256) (⟨k.val, by omega⟩ : Fin 256)) :=
  (congrFun (main_v31_eq W) _).trans (wcat_apply2 0 _ _ _ (0 : Fin 2) rfl k q hq1 hq2)

theorem main_v31_at3 (k : Fin 128) (q : Fin 1024) (hq1 : 768 ≤ q.val) :
    (StableHlo.after hostOps0 W (Proc.devRef .tc main_v31) : S128x1024.Idx → EReal) (ix2 k q)
      = (W (Proc.devRef .tc main_arg4) : S2x256x256.Idx → EReal) (ix3 (0 : Fin 2) (⟨q.val - 768, by omega⟩ : Fin 256) (⟨128 + k.val, by omega⟩ : Fin 256)) :=
  (congrFun (main_v31_eq W) _).trans (wcat_apply3 0 _ _ _ (0 : Fin 2) rfl k q hq1)

/-- The near-end projections: the second and the fourth column block of the projected rows. -/
theorem main_v57_at (v : Fin 32768) (c : Fin 256) :
    (StableHlo.after hostOps1 W (Proc.devRef .tc main_v57) : S32768x256.Idx → EReal) (ix2 v c)
      = (W (Proc.devRef .tc main_v32) : S32768x1024.Idx → EReal) (ix2 v (⟨256 + c.val, by omega⟩ : Fin 1024)) := by
  have e : (StableHlo.after hostOps1 W (Proc.devRef .tc main_v57) : S32768x256.Idx → EReal)
      = extractStridedSlice S32768x256 ![0, 256] (W (Proc.devRef .tc main_v32) : S32768x1024.Idx → EReal)
          slices_S32768x1024_S32768x256_0_256 := by
    after_results <;> rfl
  exact (congrFun e _).trans (slice2_axis1_apply 256 _ _ v c _ rfl)

theorem main_v58_at (v : Fin 32768) (c : Fin 256) :
    (StableHlo.after hostOps1 W (Proc.devRef .tc main_v58) : S32768x256.Idx → EReal) (ix2 v c)
      = (W (Proc.devRef .tc main_v32) : S32768x1024.Idx → EReal) (ix2 v (⟨768 + c.val, by omega⟩ : Fin 1024)) := by
  have e : (StableHlo.after hostOps1 W (Proc.devRef .tc main_v58) : S32768x256.Idx → EReal)
      = extractStridedSlice S32768x256 ![0, 768] (W (Proc.devRef .tc main_v32) : S32768x1024.Idx → EReal)
          slices_S32768x1024_S32768x256_0_768 := by
    after_results <;> rfl
  exact (congrFun e _).trans (slice2_axis1_apply 768 _ _ v c _ rfl)

set_option maxHeartbeats 4000000 in
/-- What the edges bring: the far-end projections scatter-added at the near end. -/
theorem main_v56_eq :
    (StableHlo.after hostOps1 W (Proc.devRef .tc main_v56) : S32768x256.Idx → EReal)
      = aggTerm (W (Proc.devRef .tc main_v32) : S32768x1024.Idx → EReal) (W (Proc.devRef .tc main_v2) : S262144.Idx → BitVec 32)
          (W (Proc.devRef .tc main_v4) : S262144.Idx → BitVec 32) := by
  after_results_simp <;> rfl

theorem main_v56_at (P : S32768x1024.Idx → EReal) (e0 e1 : S262144.Idx → BitVec 32)
    (hP : W (Proc.devRef .tc main_v32) = P) (h0 : W (Proc.devRef .tc main_v2) = e0) (h1 : W (Proc.devRef .tc main_v4) = e1)
    (v : Fin 32768) (c : Fin 256) :
    (StableHlo.after hostOps1 W (Proc.devRef .tc main_v56) : S32768x256.Idx → EReal) (ix2 v c)
      = 0 + (∑ k : Fin 262144, if (e1 (ix1 k)).toInt = (v.val : Int)
                then P (ix2 (Spec.gat (e0 (ix1 k))) (⟨c.val, by omega⟩ : Fin 1024)) else 0)
          + (∑ k : Fin 262144, if (e0 (ix1 k)).toInt = (v.val : Int)
                then P (ix2 (Spec.gat (e1 (ix1 k))) (⟨512 + c.val, by omega⟩ : Fin 1024)) else 0) := by
  subst hP h0 h1
  exact (congrFun (main_v56_eq W) _).trans (aggTerm_apply _ _ _ v c)

/-- The biases, each a one-row matrix: row 0 of its stack. -/
theorem main_v73_at (u : Fin 1) (c : Fin 256) :
    (StableHlo.after hostOps1 W (Proc.devRef .tc main_v73) : S1x256.Idx → EReal) (ix2 u c)
      = (W (Proc.devRef .tc main_arg3) : S2x256.Idx → EReal) (ix2 (0 : Fin 2) c) := by
  have e : (StableHlo.after hostOps1 W (Proc.devRef .tc main_v73) : S1x256.Idx → EReal)
      = shapeCast S1x256 (shapeCast S256 (extractStridedSlice S1x256 ![0, 0] (W (Proc.devRef .tc main_arg3) : S2x256.Idx → EReal)
          slices_S2x256_S1x256_0_0) shapeCasts_S1x256_S256) shapeCasts_S256_S1x256 := by
    after_results <;> rfl
  exact (congrFun e _).trans (stackRow_apply 0 _ _ _ _ (0 : Fin 2) rfl u c)

theorem main_v74_at (u : Fin 1) (c : Fin 256) :
    (StableHlo.after hostOps1 W (Proc.devRef .tc main_v74) : S1x256.Idx → EReal) (ix2 u c)
      = (W (Proc.devRef .tc main_arg5) : S2x256.Idx → EReal) (ix2 (0 : Fin 2) c) := by
  have e : (StableHlo.after hostOps1 W (Proc.devRef .tc main_v74) : S1x256.Idx → EReal)
      = shapeCast S1x256 (shapeCast S256 (extractStridedSlice S1x256 ![0, 0] (W (Proc.devRef .tc main_arg5) : S2x256.Idx → EReal)
          slices_S2x256_S1x256_0_0) shapeCasts_S1x256_S256) shapeCasts_S256_S1x256 := by
    after_results <;> rfl
  exact (congrFun e _).trans (stackRow_apply 0 _ _ _ _ (0 : Fin 2) rfl u c)

theorem main_v75_at (u : Fin 1) (g : Fin 384) :
    (StableHlo.after hostOps1 W (Proc.devRef .tc main_v75) : S1x384.Idx → EReal) (ix2 u g)
      = (W (Proc.devRef .tc main_arg8) : S2x384.Idx → EReal) (ix2 (0 : Fin 2) g) := by
  have e : (StableHlo.after hostOps1 W (Proc.devRef .tc main_v75) : S1x384.Idx → EReal)
      = shapeCast S1x384 (shapeCast S384 (extractStridedSlice S1x384 ![0, 0] (W (Proc.devRef .tc main_arg8) : S2x384.Idx → EReal)
          slices_S2x384_S1x384_0_0) shapeCasts_S1x384_S384) shapeCasts_S384_S1x384 := by
    after_results <;> rfl
  exact (congrFun e _).trans (stackRow_apply 0 _ _ _ _ (0 : Fin 2) rfl u g)

theorem main_v76_at (u : Fin 1) (g : Fin 384) :
    (StableHlo.after hostOps1 W (Proc.devRef .tc main_v76) : S1x384.Idx → EReal) (ix2 u g)
      = (W (Proc.devRef .tc main_arg9) : S2x384.Idx → EReal) (ix2 (0 : Fin 2) g) := by
  have e : (StableHlo.after hostOps1 W (Proc.devRef .tc main_v76) : S1x384.Idx → EReal)
      = shapeCast S1x384 (shapeCast S384 (extractStridedSlice S1x384 ![0, 0] (W (Proc.devRef .tc main_arg9) : S2x384.Idx → EReal)
          slices_S2x384_S1x384_0_0) shapeCasts_S1x384_S384) shapeCasts_S384_S1x384 := by
    after_results <;> rfl
  exact (congrFun e _).trans (stackRow_apply 0 _ _ _ _ (0 : Fin 2) rfl u g)

/-- The cell's two weight matrices, transposed: slice 0 of each stack. -/
theorem main_v77_at (k : Fin 256) (g : Fin 384) :
    (StableHlo.after hostOps1 W (Proc.devRef .tc main_v77) : S256x384.Idx → EReal) (ix2 k g)
      = (W (Proc.devRef .tc main_arg6) : S2x384x256.Idx → EReal) (ix3 (0 : Fin 2) g k) := by
  have e : (StableHlo.after hostOps1 W (Proc.devRef .tc main_v77) : S256x384.Idx → EReal)
      = transpose S256x384 [1, 0] (shapeCast S384x256 (extractStridedSlice S1x384x256 ![0, 0, 0]
            (W (Proc.devRef .tc main_arg6) : S2x384x256.Idx → EReal) slices_S2x384x256_S1x384x256_0_0_0) shapeCasts_S1x384x256_S384x256)
            transposes_S384x256_S256x384_1_0 := by
    after_results <;> rfl
  exact (congrFun e _).trans (stackT_apply 0 _ _ _ _ (0 : Fin 2) rfl k g)

theorem main_v78_at (k : Fin 128) (g : Fin 384) :
    (StableHlo.after hostOps1 W (Proc.devRef .tc main_v78) : S128x384.Idx → EReal) (ix2 k g)
      = (W (Proc.devRef .tc main_arg7) : S2x384x128.Idx → EReal) (ix3 (0 : Fin 2) g k) := by
  have e : (StableHlo.after hostOps1 W (Proc.devRef .tc main_v78) : S128x384.Idx → EReal)
      = transpose S128x384 [1, 0] (shapeCast S384x128 (extractStridedSlice S1x384x128 ![0, 0, 0]
            (W (Proc.devRef .tc main_arg7) : S2x384x128.Idx → EReal) slices_S2x384x128_S1x384x128_0_0_0) shapeCasts_S1x384x128_S384x128)
            transposes_S384x128_S128x384_1_0 := by
    after_results <;> rfl
  exact (congrFun e _).trans (stackT_apply 0 _ _ _ _ (0 : Fin 2) rfl k g)

/-- A reference a stretch does not write keeps its contents. -/
theorem keep_hostOps0 (r : Ref sig .tc) (h : r ∉ hostOps0_W) :
    StableHlo.after hostOps0 W (Proc.devRef .tc r) = W (Proc.devRef .tc r) :=
  StableHlo.after_of_writes_sub hostOps0 _ hostOps0_writes h

theorem keep_hostOps1 (r : Ref sig .tc) (h : r ∉ hostOps1_W) :
    StableHlo.after hostOps1 W (Proc.devRef .tc r) = W (Proc.devRef .tc r) :=
  StableHlo.after_of_writes_sub hostOps1 _ hostOps1_writes h

end Layer

/-! ## The first stretch: the node rows, the edge list's two rows, the degrees -/

section Ends
variable (W : Valuation τ sig (Elt Ideal))

/-- The node features as rows: row 'v' is row 'v % 128' of graph 'v / 128'. -/
theorem main_v0_at (v : Fin 32768) (j : Fin 128) :
    (StableHlo.after hostOps0 W (Proc.devRef .tc main_v0) : S32768x128.Idx → EReal) (ix2 v j)
      = (W (Proc.devRef .tc main_arg0) : S256x128x128.Idx → EReal)
          (ix3 (⟨v.val / 128, by omega⟩ : Fin 256) (⟨v.val % 128, by omega⟩ : Fin 128) j) := by
  have e : (StableHlo.after hostOps0 W (Proc.devRef .tc main_v0) : S32768x128.Idx → EReal)
      = shapeCast S32768x128 (W (Proc.devRef .tc main_arg0) : S256x128x128.Idx → EReal) shapeCasts_S256x128x128_S32768x128 := by
    after_results <;> rfl
  refine (congrFun e _).trans (shapeCast_apply _ _ _ _ ?_)
  show ((⟨3, ![256, 128, 128]⟩ : Shape).rowMajor (ix3 (⟨v.val / 128, by omega⟩ : Fin 256) (⟨v.val % 128, by omega⟩ : Fin 128) j)).val
    = ((⟨2, ![32768, 128]⟩ : Shape).rowMajor (ix2 v j)).val
  rw [Shape.rowMajor_val_three, Shape.rowMajor_val_two]
  show (v.val / 128 * 128 + v.val % 128) * 128 + j.val = v.val * 128 + j.val
  omega

/-- The edge list's two rows of index words. -/
theorem main_v2_eq :
    (StableHlo.after hostOps0 W (Proc.devRef .tc main_v2) : S262144.Idx → BitVec 32)
      = edgeRow 0 (W (Proc.devRef .tc main_arg1) : S2x262144.Idx → BitVec 32) slices_S2x262144_S1x262144_0_0 := by
  after_results <;> rfl

theorem main_v4_eq :
    (StableHlo.after hostOps0 W (Proc.devRef .tc main_v4) : S262144.Idx → BitVec 32)
      = edgeRow 1 (W (Proc.devRef .tc main_arg1) : S2x262144.Idx → BitVec 32) slices_S2x262144_S1x262144_1_0 := by
  after_results <;> rfl

theorem main_v2_at (k : Fin 262144) :
    (StableHlo.after hostOps0 W (Proc.devRef .tc main_v2) : S262144.Idx → BitVec 32) (ix1 k)
      = (W (Proc.devRef .tc main_arg1) : S2x262144.Idx → BitVec 32) (ix2 (0 : Fin 2) k) :=
  (congrFun (main_v2_eq W) _).trans (edgeRow_apply 0 _ _ (0 : Fin 2) rfl k)

theorem main_v4_at (k : Fin 262144) :
    (StableHlo.after hostOps0 W (Proc.devRef .tc main_v4) : S262144.Idx → BitVec 32) (ix1 k)
      = (W (Proc.devRef .tc main_arg1) : S2x262144.Idx → BitVec 32) (ix2 (1 : Fin 2) k) :=
  (congrFun (main_v4_eq W) _).trans (edgeRow_apply 1 _ _ (1 : Fin 2) rfl k)

/-- The in-degree: the number of edges whose second index word, read signed, is 'v'; and the out-degree, with the first. -/
theorem main_v9_at (a1 : S2x262144.Idx → BitVec 32) (h1 : W (Proc.devRef .tc main_arg1) = a1) (v : Fin 32768) (u : Fin 1) :
    (StableHlo.after hostOps0 W (Proc.devRef .tc main_v9) : S32768x1.Idx → EReal) (ix2 v u)
      = 0 + ∑ k : Fin 262144, if (a1 (ix2 (1 : Fin 2) k)).toInt = (v.val : Int)
              then Ideal.ofBits .f32 0x3F800000#32 else 0 := by
  subst h1
  have e : (StableHlo.after hostOps0 W (Proc.devRef .tc main_v9) : S32768x1.Idx → EReal)
      = degree (edgeRow 1 (W (Proc.devRef .tc main_arg1) : S2x262144.Idx → BitVec 32) slices_S2x262144_S1x262144_1_0) := by
    after_results <;> rfl
  refine (congrFun e _).trans ((degree_apply _ v u).trans ?_)
  refine congrArg (fun s : EReal => 0 + s) (Finset.sum_congr rfl fun k _ => ?_)
  exact if_congr (Iff.of_eq (congrArg (fun w : BitVec 32 => w.toInt = (v.val : Int))
    (edgeRow_apply 1 _ _ (1 : Fin 2) rfl k))) rfl rfl

theorem main_v13_at (a1 : S2x262144.Idx → BitVec 32) (h1 : W (Proc.devRef .tc main_arg1) = a1) (v : Fin 32768) (u : Fin 1) :
    (StableHlo.after hostOps0 W (Proc.devRef .tc main_v13) : S32768x1.Idx → EReal) (ix2 v u)
      = 0 + ∑ k : Fin 262144, if (a1 (ix2 (0 : Fin 2) k)).toInt = (v.val : Int)
              then Ideal.ofBits .f32 0x3F800000#32 else 0 := by
  subst h1
  have e : (StableHlo.after hostOps0 W (Proc.devRef .tc main_v13) : S32768x1.Idx → EReal)
      = degree (edgeRow 0 (W (Proc.devRef .tc main_arg1) : S2x262144.Idx → BitVec 32) slices_S2x262144_S1x262144_0_0) := by
    after_results <;> rfl
  refine (congrFun e _).trans ((degree_apply _ v u).trans ?_)
  refine congrArg (fun s : EReal => 0 + s) (Finset.sum_congr rfl fun k _ => ?_)
  exact if_congr (Iff.of_eq (congrArg (fun w : BitVec 32 => w.toInt = (v.val : Int))
    (edgeRow_apply 0 _ _ (0 : Fin 2) rfl k))) rfl rfl

/-! ## The last stretch: the normalized rows graph by graph, the read-outs' weights -/

/-- The rows regrouped graph by graph: row 'i' of graph 'g' is row 'g * 128 + i'. -/
theorem main_v146_at (g : Fin 256) (i j : Fin 128) :
    (StableHlo.after hostOps4 W (Proc.devRef .tc main_v146) : S256x128x128.Idx → EReal) (ix3 g i j)
      = (W (Proc.devRef .tc main_v145) : S32768x128.Idx → EReal) (ix2 (⟨g.val * 128 + i.val, by omega⟩ : Fin 32768) j) := by
  have e : (StableHlo.after hostOps4 W (Proc.devRef .tc main_v146) : S256x128x128.Idx → EReal)
      = shapeCast S256x128x128 (W (Proc.devRef .tc main_v145) : S32768x128.Idx → EReal) shapeCasts_S32768x128_S256x128x128 := by
    after_results <;> rfl
  refine (congrFun e _).trans (shapeCast_apply _ _ _ _ ?_)
  show ((⟨2, ![32768, 128]⟩ : Shape).rowMajor (ix2 (⟨g.val * 128 + i.val, by omega⟩ : Fin 32768) j)).val
    = ((⟨3, ![256, 128, 128]⟩ : Shape).rowMajor (ix3 g i j)).val
  rw [Shape.rowMajor_val_two, Shape.rowMajor_val_three]
  rfl

/-- The read-outs' square weights, transposed. -/
theorem main_v148_at (k s : Fin 128) :
    (StableHlo.after hostOps4 W (Proc.devRef .tc main_v148) : S128x128.Idx → EReal) (ix2 k s)
      = (W (Proc.devRef .tc main_arg10) : S128x128.Idx → EReal) (ix2 s k) := by
  have e : (StableHlo.after hostOps4 W (Proc.devRef .tc main_v148) : S128x128.Idx → EReal)
      = transpose S128x128 [1, 0] (W (Proc.devRef .tc main_arg10) : S128x128.Idx → EReal) transposes_S128x128_S128x128_1_0 := by
    after_results <;> rfl
  exact (congrFun e _).trans (transpose_ix2_apply _ _ k s)

theorem main_v151_at (k s : Fin 128) :
    (StableHlo.after hostOps4 W (Proc.devRef .tc main_v151) : S128x128.Idx → EReal) (ix2 k s)
      = (W (Proc.devRef .tc main_arg14) : S128x128.Idx → EReal) (ix2 s k) := by
  have e : (StableHlo.after hostOps4 W (Proc.devRef .tc main_v151) : S128x128.Idx → EReal)
      = transpose S128x128 [1, 0] (W (Proc.devRef .tc main_arg14) : S128x128.Idx → EReal) transposes_S128x128_S128x128_1_0 := by
    after_results <;> rfl
  exact (congrFun e _).trans (transpose_ix2_apply _ _ k s)

/-- The gates' weight rows, unchanged. -/
theorem main_v149_eq :
    (StableHlo.after hostOps4 W (Proc.devRef .tc main_v149) : S1x128.Idx → EReal) = (W (Proc.devRef .tc main_arg12) : S1x128.Idx → EReal) := by
  after_results <;> rfl

theorem main_v152_eq :
    (StableHlo.after hostOps4 W (Proc.devRef .tc main_v152) : S1x128.Idx → EReal) = (W (Proc.devRef .tc main_arg16) : S1x128.Idx → EReal) := by
  after_results <;> rfl

/-- The read-outs' biases as one-row matrices, and the gates' biases as one-element matrices. -/
theorem main_v153_at (u : Fin 1) (s : Fin 128) :
    (StableHlo.after hostOps4 W (Proc.devRef .tc main_v153) : S1x128.Idx → EReal) (ix2 u s)
      = (W (Proc.devRef .tc main_arg11) : S128.Idx → EReal) (ix1 s) := by
  have e : (StableHlo.after hostOps4 W (Proc.devRef .tc main_v153) : S1x128.Idx → EReal)
      = shapeCast S1x128 (W (Proc.devRef .tc main_arg11) : S128.Idx → EReal) shapeCasts_S128_S1x128 := by
    after_results <;> rfl
  exact (congrFun e _).trans (shapeCast_a_1a_apply _ _ u s)

theorem main_v155_at (u : Fin 1) (s : Fin 128) :
    (StableHlo.after hostOps4 W (Proc.devRef .tc main_v155) : S1x128.Idx → EReal) (ix2 u s)
      = (W (Proc.devRef .tc main_arg15) : S128.Idx → EReal) (ix1 s) := by
  have e : (StableHlo.after hostOps4 W (Proc.devRef .tc main_v155) : S1x128.Idx → EReal)
      = shapeCast S1x128 (W (Proc.devRef .tc main_arg15) : S128.Idx → EReal) shapeCasts_S128_S1x128 := by
    after_results <;> rfl
  exact (congrFun e _).trans (shapeCast_a_1a_apply _ _ u s)

theorem main_v154_at (u s : Fin 1) :
    (StableHlo.after hostOps4 W (Proc.devRef .tc main_v154) : S1x1.Idx → EReal) (ix2 u s)
      = (W (Proc.devRef .tc main_arg13) : S1.Idx → EReal) (ix1 s) := by
  have e : (StableHlo.after hostOps4 W (Proc.devRef .tc main_v154) : S1x1.Idx → EReal)
      = shapeCast S1x1 (W (Proc.devRef .tc main_arg13) : S1.Idx → EReal) shapeCasts_S1_S1x1 := by
    after_results <;> rfl
  exact (congrFun e _).trans (shapeCast_a_1a_apply _ _ u s)

theorem main_v156_at (u s : Fin 1) :
    (StableHlo.after hostOps4 W (Proc.devRef .tc main_v156) : S1x1.Idx → EReal) (ix2 u s)
      = (W (Proc.devRef .tc main_arg17) : S1.Idx → EReal) (ix1 s) := by
  have e : (StableHlo.after hostOps4 W (Proc.devRef .tc main_v156) : S1x1.Idx → EReal)
      = shapeCast S1x1 (W (Proc.devRef .tc main_arg17) : S1.Idx → EReal) shapeCasts_S1_S1x1 := by
    after_results <;> rfl
  exact (congrFun e _).trans (shapeCast_a_1a_apply _ _ u s)

/-- A reference the last stretch does not write keeps its contents. -/
theorem keep_hostOps4 (r : Ref sig .tc) (h : r ∉ hostOps4_W) :
    StableHlo.after hostOps4 W (Proc.devRef .tc r) = W (Proc.devRef .tc r) :=
  StableHlo.after_of_writes_sub hostOps4 _ hostOps4_writes h

end Ends

end Cert.KernelIdeal.HostV

end
-- ==== Proof.KV.Host2.lean ====
/-
  The second layer's host stretches of the kernel's program, read element by element over the extended reals: the
  same operations as the first layer's, on slice 1 of the stacked weight arrays.
-/
import proofs.«163521_j41618233098847_2_alg».proof.Proof.KV.Host

-- telling two of the program's 254 references apart is decided by recursion over their table
set_option maxRecDepth 4096

noncomputable section

open scoped BigOperators

namespace Cert.KernelIdeal.HostV

open Idealize.ShloMosaic Idealize.ShloMosaic.TcCoe Idealize.ShloMosaic.ValueIdx Idealize.ShloMosaic.StableHlo
open Cert.KernelIdeal.Gen
/-! ## Layer 1: the message weights, and the stretch between the projection and the update -/

section Layer
variable (W : Valuation τ sig (Elt Ideal))

/-- The projection's weight matrix is the four quarters side by side. -/
theorem main_v97_eq :
    (StableHlo.after hostOps2 W (Proc.devRef .tc main_v97) : S128x1024.Idx → EReal)
      = wcat 1 (W (Proc.devRef .tc main_arg2) : S2x256x256.Idx → EReal) (W (Proc.devRef .tc main_arg4) : S2x256x256.Idx → EReal)
          slices_S2x256x256_S1x256x256_1_0_0 := by
  after_results <;> rfl

theorem main_v97_at0 (k : Fin 128) (q : Fin 1024) (hq : q.val < 256) :
    (StableHlo.after hostOps2 W (Proc.devRef .tc main_v97) : S128x1024.Idx → EReal) (ix2 k q)
      = (W (Proc.devRef .tc main_arg2) : S2x256x256.Idx → EReal) (ix3 (1 : Fin 2) (⟨q.val, hq⟩ : Fin 256) (⟨k.val, by omega⟩ : Fin 256)) :=
  (congrFun (main_v97_eq W) _).trans (wcat_apply0 1 _ _ _ (1 : Fin 2) rfl k q hq)

theorem main_v97_at1 (k : Fin 128) (q : Fin 1024) (hq1 : 256 ≤ q.val) (hq2 : q.val < 512) :
    (StableHlo.after hostOps2 W (Proc.devRef .tc main_v97) : S128x1024.Idx → EReal) (ix2 k q)
      = (W (Proc.devRef .tc main_arg2) : S2x256x256.Idx → EReal) (ix3 (1 : Fin 2) (⟨q.val - 256, by omega⟩ : Fin 256) (⟨128 + k.val, by omega⟩ : Fin 256)) :=
  (congrFun (main_v97_eq W) _).trans (wcat_apply1 1 _ _ _ (1 : Fin 2) rfl k q hq1 hq2)

theorem main_v97_at2 (k : Fin 128) (q : Fin 1024) (hq1 : 512 ≤ q.val) (hq2 : q.val < 768) :
    (StableHlo.after hostOps2 W (Proc.devRef .tc main_v97) : S128x1024.Idx → EReal) (ix2 k q)
      = (W (Proc.devRef .tc main_arg4) : S2x256x256.Idx → EReal) (ix3 (1 : Fin 2) (⟨q.val - 512, by omega⟩ : Fin 256) (⟨k.val, by omega⟩ : Fin 256)) :=
  (congrFun (main_v97_eq W) _).trans (wcat_apply2 1 _ _ _ (1 : Fin 2) rfl k q hq1 hq2)

theorem main_v97_at3 (k : Fin 128) (q : Fin 1024) (hq1 : 768 ≤ q.val) :
    (StableHlo.after hostOps2 W (Proc.devRef .tc main_v97) : S128x1024.Idx → EReal) (ix2 k q)
      = (W (Proc.devRef .tc main_arg4) : S2x256x256.Idx → EReal) (ix3 (1 : Fin 2) (⟨q.val - 768, by omega⟩ : Fin 256) (⟨128 + k.val, by omega⟩ : Fin 256)) :=
  (congrFun (main_v97_eq W) _).trans (wcat_apply3 1 _ _ _ (1 : Fin 2) rfl k q hq1)

/-- The near-end projections: the second and the fourth column block of the projected rows. -/
theorem main_v123_at (v : Fin 32768) (c : Fin 256) :
    (StableHlo.after hostOps3 W (Proc.devRef .tc main_v123) : S32768x256.Idx → EReal) (ix2 v c)
      = (W (Proc.devRef .tc main_v98) : S32768x1024.Idx → EReal) (ix2 v (⟨256 + c.val, by omega⟩ : Fin 1024)) := by
  have e : (StableHlo.after hostOps3 W (Proc.devRef .tc main_v123) : S32768x256.Idx → EReal)
      = extractStridedSlice S32768x256 ![0, 256] (W (Proc.devRef .tc main_v98) : S32768x1024.Idx → EReal)
          slices_S32768x1024_S32768x256_0_256 := by
    after_results <;> rfl
  exact (congrFun e _).trans (slice2_axis1_apply 256 _ _ v c _ rfl)

theorem main_v124_at (v : Fin 32768) (c : Fin 256) :
    (StableHlo.after hostOps3 W (Proc.devRef .tc main_v124) : S32768x256.Idx → EReal) (ix2 v c)
      = (W (Proc.devRef .tc main_v98) : S32768x1024.Idx → EReal) (ix2 v (⟨768 + c.val, by omega⟩ : Fin 1024)) := by
  have e : (StableHlo.after hostOps3 W (Proc.devRef .tc main_v124) : S32768x256.Idx → EReal)
      = extractStridedSlice S32768x256 ![0, 768] (W (Proc.devRef .tc main_v98) : S32768x1024.Idx → EReal)
          slices_S32768x1024_S32768x256_0_768 := by
    after_results <;> rfl
  exact (congrFun e _).trans (slice2_axis1_apply 768 _ _ v c _ rfl)

set_option maxHeartbeats 4000000 in
/-- What the edges bring: the far-end projections scatter-added at the near end. -/
theorem main_v122_eq :
    (StableHlo.after hostOps3 W (Proc.devRef .tc main_v122) : S32768x256.Idx → EReal)
      = aggTerm (W (Proc.devRef .tc main_v98) : S32768x1024.Idx → EReal) (W (Proc.devRef .tc main_v2) : S262144.Idx → BitVec 32)
          (W (Proc.devRef .tc main_v4) : S262144.Idx → BitVec 32) := by
  after_results_simp <;> rfl

theorem main_v122_at (P : S32768x1024.Idx → EReal) (e0 e1 : S262144.Idx → BitVec 32)
    (hP : W (Proc.devRef .tc main_v98) = P) (h0 : W (Proc.devRef .tc main_v2) = e0) (h1 : W (Proc.devRef .tc main_v4) = e1)
    (v : Fin 32768) (c : Fin 256) :
    (StableHlo.after hostOps3 W (Proc.devRef .tc main_v122) : S32768x256.Idx → EReal) (ix2 v c)
      = 0 + (∑ k : Fin 262144, if (e1 (ix1 k)).toInt = (v.val : Int)
                then P (ix2 (Spec.gat (e0 (ix1 k))) (⟨c.val, by omega⟩ : Fin 1024)) else 0)
          + (∑ k : Fin 262144, if (e0 (ix1 k)).toInt = (v.val : Int)
                then P (ix2 (Spec.gat (e1 (ix1 k))) (⟨512 + c.val, by omega⟩ : Fin 1024)) else 0) := by
  subst hP h0 h1
  exact (congrFun (main_v122_eq W) _).trans (aggTerm_apply _ _ _ v c)

/-- The biases, each a one-row matrix: row 1 of its stack. -/
theorem main_v139_at (u : Fin 1) (c : Fin 256) :
    (StableHlo.after hostOps3 W (Proc.devRef .tc main_v139) : S1x256.Idx → EReal) (ix2 u c)
      = (W (Proc.devRef .tc main_arg3) : S2x256.Idx → EReal) (ix2 (1 : Fin 2) c) := by
  have e : (StableHlo.after hostOps3 W (Proc.devRef .tc main_v139) : S1x256.Idx → EReal)
      = shapeCast S1x256 (shapeCast S256 (extractStridedSlice S1x256 ![1, 0] (W (Proc.devRef .tc main_arg3) : S2x256.Idx → EReal)
          slices_S2x256_S1x256_1_0) shapeCasts_S1x256_S256) shapeCasts_S256_S1x256 := by
    after_results <;> rfl
  exact (congrFun e _).trans (stackRow_apply 1 _ _ _ _ (1 : Fin 2) rfl u c)

theorem main_v140_at (u : Fin 1) (c : Fin 256) :
    (StableHlo.after hostOps3 W (Proc.devRef .tc main_v140) : S1x256.Idx → EReal) (ix2 u c)
      = (W (Proc.devRef .tc main_arg5) : S2x256.Idx → EReal) (ix2 (1 : Fin 2) c) := by
  have e : (StableHlo.after hostOps3 W (Proc.devRef .tc main_v140) : S1x256.Idx → EReal)
      = shapeCast S1x256 (shapeCast S256 (extractStridedSlice S1x256 ![1, 0] (W (Proc.devRef .tc main_arg5) : S2x256.Idx → EReal)
          slices_S2x256_S1x256_1_0) shapeCasts_S1x256_S256) shapeCasts_S256_S1x256 := by
    after_results <;> rfl
  exact (congrFun e _).trans (stackRow_apply 1 _ _ _ _ (1 : Fin 2) rfl u c)

theorem main_v141_at (u : Fin 1) (g : Fin 384) :
    (StableHlo.after hostOps3 W (Proc.devRef .tc main_v141) : S1x384.Idx → EReal) (ix2 u g)
      = (W (Proc.devRef .tc main_arg8) : S2x384.Idx → EReal) (ix2 (1 : Fin 2) g) := by
  have e : (StableHlo.after hostOps3 W (Proc.devRef .tc main_v141) : S1x384.Idx → EReal)
      = shapeCast S1x384 (shapeCast S384 (extractStridedSlice S1x384 ![1, 0] (W (Proc.devRef .tc main_arg8) : S2x384.Idx → EReal)
          slices_S2x384_S1x384_1_0) shapeCasts_S1x384_S384) shapeCasts_S384_S1x384 := by
    after_results <;> rfl
  exact (congrFun e _).trans (stackRow_apply 1 _ _ _ _ (1 : Fin 2) rfl u g)

theorem main_v142_at (u : Fin 1) (g : Fin 384) :
    (StableHlo.after hostOps3 W (Proc.devRef .tc main_v142) : S1x384.Idx → EReal) (ix2 u g)
      = (W (Proc.devRef .tc main_arg9) : S2x384.Idx → EReal) (ix2 (1 : Fin 2) g) := by
  have e : (StableHlo.after hostOps3 W (Proc.devRef .tc main_v142) : S1x384.Idx → EReal)
      = shapeCast S1x384 (shapeCast S384 (extractStridedSlice S1x384 ![1, 0] (W (Proc.devRef .tc main_arg9) : S2x384.Idx → EReal)
          slices_S2x384_S1x384_1_0) shapeCasts_S1x384_S384) shapeCasts_S384_S1x384 := by
    after_results <;> rfl
  exact (congrFun e _).trans (stackRow_apply 1 _ _ _ _ (1 : Fin 2) rfl u g)

/-- The cell's two weight matrices, transposed: slice 1 of each stack. -/
theorem main_v143_at (k : Fin 256) (g : Fin 384) :
    (StableHlo.after hostOps3 W (Proc.devRef .tc main_v143) : S256x384.Idx → EReal) (ix2 k g)
      = (W (Proc.devRef .tc main_arg6) : S2x384x256.Idx → EReal) (ix3 (1 : Fin 2) g k) := by
  have e : (StableHlo.after hostOps3 W (Proc.devRef .tc main_v143) : S256x384.Idx → EReal)
      = transpose S256x384 [1, 0] (shapeCast S384x256 (extractStridedSlice S1x384x256 ![1, 0, 0]
            (W (Proc.devRef .tc main_arg6) : S2x384x256.Idx → EReal) slices_S2x384x256_S1x384x256_1_0_0) shapeCasts_S1x384x256_S384x256)
            transposes_S384x256_S256x384_1_0 := by
    after_results <;> rfl
  exact (congrFun e _).trans (stackT_apply 1 _ _ _ _ (1 : Fin 2) rfl k g)

theorem main_v144_at (k : Fin 128) (g : Fin 384) :
    (StableHlo.after hostOps3 W (Proc.devRef .tc main_v144) : S128x384.Idx → EReal) (ix2 k g)
      = (W (Proc.devRef .tc main_arg7) : S2x384x128.Idx → EReal) (ix3 (1 : Fin 2) g k) := by
  have e : (StableHlo.after hostOps3 W (Proc.devRef .tc main_v144) : S128x384.Idx → EReal)
      = transpose S128x384 [1, 0] (shapeCast S384x128 (extractStridedSlice S1x384x128 ![1, 0, 0]
            (W (Proc.devRef .tc main_arg7) : S2x384x128.Idx → EReal) slices_S2x384x128_S1x384x128_1_0_0) shapeCasts_S1x384x128_S384x128)
            transposes_S384x128_S128x384_1_0 := by
    after_results <;> rfl
  exact (congrFun e _).trans (stackT_apply 1 _ _ _ _ (1 : Fin 2) rfl k g)

/-- A reference a stretch does not write keeps its contents. -/
theorem keep_hostOps2 (r : Ref sig .tc) (h : r ∉ hostOps2_W) :
    StableHlo.after hostOps2 W (Proc.devRef .tc r) = W (Proc.devRef .tc r) :=
  StableHlo.after_of_writes_sub hostOps2 _ hostOps2_writes h

theorem keep_hostOps3 (r : Ref sig .tc) (h : r ∉ hostOps3_W) :
    StableHlo.after hostOps3 W (Proc.devRef .tc r) = W (Proc.devRef .tc r) :=
  StableHlo.after_of_writes_sub hostOps3 _ hostOps3_writes h

end Layer

end Cert.KernelIdeal.HostV

end
-- ==== Proof.AggMath.lean ====
/-
  The aggregate of one layer, rearranged.

  A message along an edge is an affine image of the pair of end-point rows. Splitting the 256 input features into the
  two rows' halves writes it as a projection of the far end plus a projection of the near end plus the bias; every
  message that arrives at a node has that node as its near end, so the near-end projection and the bias are added once
  per arriving edge: the node's degree times them. The four projections are the four blocks of 256 columns of one
  product of the node rows with a 128 × 1024 matrix.
-/
import proofs.«163521_j41618233098847_2_alg».proof.Proof.Spec
import proofs.«163521_j41618233098847_2_alg».proof.Proof.LibIndex
import Mathlib.Algebra.BigOperators.Fin
import Mathlib.Data.EReal.Operations

noncomputable section

open scoped BigOperators

namespace Cert.AggMath

open Idealize.ShloMosaic Cert

/-! ## Sums over a concatenation -/

/-- A sum over `Fin (m + n)` of a function that is `g` on the first `m` indices and `g'` on the last `n` is the
    sum of `g` plus the sum of `g'`. -/
theorem sum_fin_add_halves {M : Type*} [AddCommMonoid M] {m n : Nat} (F : Fin (m + n) → M) (g : Fin m → M)
    (g' : Fin n → M) (h1 : ∀ k : Fin m, F ⟨k.val, by omega⟩ = g k) (h2 : ∀ k : Fin n, F ⟨m + k.val, by omega⟩ = g' k) :
    ∑ k, F k = (∑ k, g k) + ∑ k, g' k := by
  rw [Fin.sum_univ_add]
  congr 1
  · exact Finset.sum_congr rfl fun k _ => h1 k
  · exact Finset.sum_congr rfl fun k _ => h2 k

/-- The same for a function given by cases on `k < m`. -/
theorem sum_fin_add_dite {M : Type*} [AddCommMonoid M] {m n : Nat} (g : Fin m → M) (g' : Fin n → M) :
    ∑ k : Fin (m + n), (if h : k.val < m then g ⟨k.val, h⟩ else g' ⟨k.val - m, by omega⟩)
      = (∑ k, g k) + ∑ k, g' k := by
  refine sum_fin_add_halves _ g g' (fun k => ?_) (fun k => ?_)
  · exact dif_pos k.isLt
  · have hn : ¬ (m + k.val < m) := by omega
    show (if h : m + k.val < m then g ⟨m + k.val, h⟩ else g' ⟨m + k.val - m, by omega⟩) = g' k
    rw [dif_neg hn]
    exact congrArg g' (Fin.ext (Nat.add_sub_cancel_left _ _))

/-! ## The literal one, and an index word that is a row number -/

/-- The f32 literal `1.0` is the extended real `1`. -/
theorem ofBits_one_f32 : Ideal.ofBits .f32 0x3F800000#32 = 1 := by
  have h1 : ((0x3F800000#32 : BitVec 32).extractLsb' (8 + 23) 1 == 1#1) = false := by decide
  have h1' : ((0x3F800000#32 : BitVec 32).extractLsb' 31 1 == 1#1) = false := by decide
  have h2 : ((0x3F800000#32 : BitVec 32).extractLsb' 23 8).toNat = 127 := by decide
  have h3 : ((0x3F800000#32 : BitVec 32).extractLsb' 0 23).toNat = 0 := by decide
  show Ideal.ieee 8 23 (0x3F800000#32 : BitVec 32) = 1
  unfold Ideal.ieee
  simp only [h1, h1', h2, h3]
  norm_num

/-- So is its name in the specification. -/
theorem one_eq : Spec.one = 1 := ofBits_one_f32

/-- An index word whose signed value is the row number `v` gathers row `v`: it is not negative, so it is not
    wrapped, and it is in range, so it is not clamped. -/
theorem gat_of_toInt_eq (w : BitVec 32) (v : Fin 32768) (h : w.toInt = (v.val : Int)) : Spec.gat w = v := by
  have hv := v.isLt
  have hs : w.slt 0#32 = false := by
    rw [BitVec.slt_eq_decide, BitVec.toInt_zero, h]
    exact decide_eq_false (by omega)
  unfold Spec.gat
  refine Fin.ext ?_
  show min ((if w.slt 0#32 then w + 32768#32 else w).toInt.toNat) 32767 = v.val
  rw [hs, if_neg Bool.false_ne_true, h]
  omega

/-! ## A message as two projections and a bias -/

/-- A message splits at feature 128: the first row against the first 128 columns of the weights' row, the second row
    against the last 128, plus the bias. -/
theorem msg_eq_halves (hf : Fin 32768 → Fin 128 → EReal) (W : Fin 256 → Fin 256 → EReal) (b : Fin 256 → EReal)
    (s t : Fin 32768) (c : Fin 256) :
    Spec.msg hf W b s t c
      = (∑ k : Fin 128, hf s k * W c ⟨k.val, by omega⟩) + (∑ k : Fin 128, hf t k * W c ⟨128 + k.val, by omega⟩) + b c := by
  unfold Spec.msg
  congr 1
  refine sum_fin_add_halves (m := 128) (n := 128)
    (fun j : Fin 256 => (if h : j.val < 128 then hf s ⟨j.val, h⟩ else hf t ⟨j.val - 128, by omega⟩) * W c j)
    (fun k : Fin 128 => hf s k * W c ⟨k.val, by omega⟩) (fun k : Fin 128 => hf t k * W c ⟨128 + k.val, by omega⟩)
    (fun k => ?_) (fun k => ?_)
  · show (if h : k.val < 128 then hf s ⟨k.val, h⟩ else hf t ⟨k.val - 128, by omega⟩) * W c ⟨k.val, by omega⟩
      = hf s k * W c ⟨k.val, by omega⟩
    rw [dif_pos k.isLt]
  · have hn : ¬ (128 + k.val < 128) := by omega
    show (if h : 128 + k.val < 128 then hf s ⟨128 + k.val, h⟩ else hf t ⟨128 + k.val - 128, by omega⟩)
        * W c ⟨128 + k.val, by omega⟩ = hf t k * W c ⟨128 + k.val, by omega⟩
    rw [dif_neg hn]
    have e : (⟨128 + k.val - 128, by omega⟩ : Fin 128) = k := Fin.ext (Nat.add_sub_cancel_left _ _)
    rw [e]

/-- The 128 × 1024 matrix of the node projection: four blocks of 256 columns, the transposed first and last 128
    columns of the message weights, then those of the reverse-message weights. -/
def wcat (Wm Wr : Fin 256 → Fin 256 → EReal) (k : Fin 128) (q : Fin 1024) : EReal :=
  if h1 : q.val < 256 then Wm ⟨q.val, h1⟩ ⟨k.val, by omega⟩
  else if h2 : q.val < 512 then Wm ⟨q.val - 256, by omega⟩ ⟨128 + k.val, by omega⟩
  else if h3 : q.val < 768 then Wr ⟨q.val - 512, by omega⟩ ⟨k.val, by omega⟩
  else Wr ⟨q.val - 768, by omega⟩ ⟨128 + k.val, by omega⟩

/-- Column `c` of the first block. -/
theorem wcat_block0 (Wm Wr : Fin 256 → Fin 256 → EReal) (k : Fin 128) (c : Fin 256) :
    wcat Wm Wr k ⟨c.val, by omega⟩ = Wm c ⟨k.val, by omega⟩ := by
  unfold wcat
  show (if h1 : c.val < 256 then Wm ⟨c.val, h1⟩ ⟨k.val, by omega⟩ else _) = _
  rw [dif_pos c.isLt]

/-- Column `c` of the second block. -/
theorem wcat_block1 (Wm Wr : Fin 256 → Fin 256 → EReal) (k : Fin 128) (c : Fin 256) :
    wcat Wm Wr k ⟨256 + c.val, by omega⟩ = Wm c ⟨128 + k.val, by omega⟩ := by
  have hc := c.isLt
  have n1 : ¬ (256 + c.val < 256) := by omega
  have p2 : 256 + c.val < 512 := by omega
  unfold wcat
  show (if h1 : 256 + c.val < 256 then Wm ⟨256 + c.val, h1⟩ ⟨k.val, by omega⟩
    else if h2 : 256 + c.val < 512 then Wm ⟨256 + c.val - 256, by omega⟩ ⟨128 + k.val, by omega⟩ else _) = _
  rw [dif_neg n1, dif_pos p2]
  have e : (⟨256 + c.val - 256, by omega⟩ : Fin 256) = c := Fin.ext (Nat.add_sub_cancel_left _ _)
  rw [e]

/-- Column `c` of the third block. -/
theorem wcat_block2 (Wm Wr : Fin 256 → Fin 256 → EReal) (k : Fin 128) (c : Fin 256) :
    wcat Wm Wr k ⟨512 + c.val, by omega⟩ = Wr c ⟨k.val, by omega⟩ := by
  have hc := c.isLt
  have n1 : ¬ (512 + c.val < 256) := by omega
  have n2 : ¬ (512 + c.val < 512) := by omega
  have p3 : 512 + c.val < 768 := by omega
  unfold wcat
  show (if h1 : 512 + c.val < 256 then Wm ⟨512 + c.val, h1⟩ ⟨k.val, by omega⟩
    else if h2 : 512 + c.val < 512 then Wm ⟨512 + c.val - 256, by omega⟩ ⟨128 + k.val, by omega⟩
    else if h3 : 512 + c.val < 768 then Wr ⟨512 + c.val - 512, by omega⟩ ⟨k.val, by omega⟩ else _) = _
  rw [dif_neg n1, dif_neg n2, dif_pos p3]
  have e : (⟨512 + c.val - 512, by omega⟩ : Fin 256) = c := Fin.ext (Nat.add_sub_cancel_left _ _)
  rw [e]

/-- Column `c` of the fourth block. -/
theorem wcat_block3 (Wm Wr : Fin 256 → Fin 256 → EReal) (k : Fin 128) (c : Fin 256) :
    wcat Wm Wr k ⟨768 + c.val, by omega⟩ = Wr c ⟨128 + k.val, by omega⟩ := by
  have hc := c.isLt
  have n1 : ¬ (768 + c.val < 256) := by omega
  have n2 : ¬ (768 + c.val < 512) := by omega
  have n3 : ¬ (768 + c.val < 768) := by omega
  unfold wcat
  show (if h1 : 768 + c.val < 256 then Wm ⟨768 + c.val, h1⟩ ⟨k.val, by omega⟩
    else if h2 : 768 + c.val < 512 then Wm ⟨768 + c.val - 256, by omega⟩ ⟨128 + k.val, by omega⟩
    else if h3 : 768 + c.val < 768 then Wr ⟨768 + c.val - 512, by omega⟩ ⟨k.val, by omega⟩
    else Wr ⟨768 + c.val - 768, by omega⟩ ⟨128 + k.val, by omega⟩) = _
  rw [dif_neg n1, dif_neg n2, dif_neg n3]
  have e : (⟨768 + c.val - 768, by omega⟩ : Fin 256) = c := Fin.ext (Nat.add_sub_cancel_left _ _)
  rw [e]

section Projection

variable {hf : Fin 32768 → Fin 128 → EReal} {Wm Wr : Fin 256 → Fin 256 → EReal}
  {P : Fin 32768 → Fin 1024 → EReal}

/-- A forward message is the far end's first projection plus the near end's second projection plus the bias. -/
theorem msg_fwd (hP : ∀ v (q : Fin 1024), P v q = ∑ k : Fin 128, hf v k * wcat Wm Wr k q) (bm : Fin 256 → EReal)
    (s t : Fin 32768) (c : Fin 256) :
    Spec.msg hf Wm bm s t c = P s ⟨c.val, by omega⟩ + P t ⟨256 + c.val, by omega⟩ + bm c := by
  rw [msg_eq_halves, hP s, hP t]
  simp only [wcat_block0, wcat_block1]

/-- A reverse message is the far end's third projection plus the near end's fourth projection plus the bias. -/
theorem msg_rev (hP : ∀ v (q : Fin 1024), P v q = ∑ k : Fin 128, hf v k * wcat Wm Wr k q) (br : Fin 256 → EReal)
    (s t : Fin 32768) (c : Fin 256) :
    Spec.msg hf Wr br s t c = P s ⟨512 + c.val, by omega⟩ + P t ⟨768 + c.val, by omega⟩ + br c := by
  rw [msg_eq_halves, hP s, hP t]
  simp only [wcat_block2, wcat_block3]

/-- THE AGGREGATE, REARRANGED: the far-end projections added along the arriving edges, plus the in-degree times the
    near-end projection and bias of the forward messages, plus the out-degree times those of the reverse messages, is
    the sum of the arriving messages. Only commutativity and associativity of the sum are used, and that a count (a
    sum of ones) distributes over a sum. -/
theorem aggK_eq_of (hP : ∀ v (q : Fin 1024), P v q = ∑ k : Fin 128, hf v k * wcat Wm Wr k q)
    (e0 e1 : Fin 262144 → BitVec 32) (bm br : Fin 256 → EReal)
    (term : Fin 32768 → Fin 256 → EReal) (din dout : Fin 32768 → EReal)
    (hterm : ∀ v c, term v c
      = (∑ k : Fin 262144, if (e1 k).toInt = (v.val : Int) then P (Spec.gat (e0 k)) ⟨c.val, by omega⟩ else 0)
        + (∑ k : Fin 262144, if (e0 k).toInt = (v.val : Int) then P (Spec.gat (e1 k)) ⟨512 + c.val, by omega⟩ else 0))
    (hdin : ∀ v, din v = ∑ k : Fin 262144, if (e1 k).toInt = (v.val : Int) then (1 : EReal) else 0)
    (hdout : ∀ v, dout v = ∑ k : Fin 262144, if (e0 k).toInt = (v.val : Int) then (1 : EReal) else 0)
    (v : Fin 32768) (c : Fin 256) :
    Spec.aggK term (fun v c => P v ⟨256 + c.val, by omega⟩) (fun v c => P v ⟨768 + c.val, by omega⟩) din dout bm br v c
      = Spec.agg hf e0 e1 Wm bm Wr br v c := by
  have h1 : (∑ k : Fin 262144, if (e1 k).toInt = (v.val : Int)
        then Spec.msg hf Wm bm (Spec.gat (e0 k)) (Spec.gat (e1 k)) c else 0)
      = ∑ k : Fin 262144, if (e1 k).toInt = (v.val : Int)
        then P (Spec.gat (e0 k)) ⟨c.val, by omega⟩ + (P v ⟨256 + c.val, by omega⟩ + bm c) else 0 := by
    refine Finset.sum_congr rfl fun k _ => ?_
    by_cases h : (e1 k).toInt = (v.val : Int)
    · rw [if_pos h, if_pos h, msg_fwd hP, gat_of_toInt_eq _ _ h, add_assoc]
    · rw [if_neg h, if_neg h]
  have h2 : (∑ k : Fin 262144, if (e0 k).toInt = (v.val : Int)
        then Spec.msg hf Wr br (Spec.gat (e1 k)) (Spec.gat (e0 k)) c else 0)
      = ∑ k : Fin 262144, if (e0 k).toInt = (v.val : Int)
        then P (Spec.gat (e1 k)) ⟨512 + c.val, by omega⟩ + (P v ⟨768 + c.val, by omega⟩ + br c) else 0 := by
    refine Finset.sum_congr rfl fun k _ => ?_
    by_cases h : (e0 k).toInt = (v.val : Int)
    · rw [if_pos h, if_pos h, msg_rev hP, gat_of_toInt_eq _ _ h, add_assoc]
    · rw [if_neg h, if_neg h]
  unfold Spec.agg Spec.aggK
  rw [h1, h2, LibIndex.sum_ite_add_const, LibIndex.sum_ite_add_const, hterm, hdin, hdout]
  rw [add_add_add_comm]
  exact add_assoc _ _ _

/-- The same with the scattered terms and the degrees spelled as the host computes them: each scatter-add starts from
    the zero array, and a degree adds the literal one along every arriving edge. -/
theorem aggK_eq (hP : ∀ v (q : Fin 1024), P v q = ∑ k : Fin 128, hf v k * wcat Wm Wr k q)
    (e0 e1 : Fin 262144 → BitVec 32) (bm br : Fin 256 → EReal) (v : Fin 32768) (c : Fin 256) :
    Spec.aggK
        (fun v c => 0 + ((∑ k : Fin 262144, if (e1 k).toInt = (v.val : Int) then P (Spec.gat (e0 k)) ⟨c.val, by omega⟩ else 0)
          + (∑ k : Fin 262144, if (e0 k).toInt = (v.val : Int) then P (Spec.gat (e1 k)) ⟨512 + c.val, by omega⟩ else 0)))
        (fun v c => P v ⟨256 + c.val, by omega⟩) (fun v c => P v ⟨768 + c.val, by omega⟩)
        (fun v => 0 + ∑ k : Fin 262144, if (e1 k).toInt = (v.val : Int) then Spec.one else 0)
        (fun v => 0 + ∑ k : Fin 262144, if (e0 k).toInt = (v.val : Int) then Spec.one else 0)
        bm br v c
      = Spec.agg hf e0 e1 Wm bm Wr br v c := by
  refine aggK_eq_of hP e0 e1 bm br _ _ _ (fun v c => ?_) (fun v => ?_) (fun v => ?_) v c
  · exact zero_add _
  · show 0 + (∑ k : Fin 262144, if (e1 k).toInt = (v.val : Int) then Spec.one else 0) = _
    rw [zero_add, one_eq]
  · show 0 + (∑ k : Fin 262144, if (e0 k).toInt = (v.val : Int) then Spec.one else 0) = _
    rw [zero_add, one_eq]

end Projection

end Cert.AggMath

end
-- ==== Proof.KV.Comp.lean ====
/- The values the kernel program leaves, composed over its ten items.

   The run of @main names the buffers' contents at the eleven boundaries between its items (W0 at launch, W10 at the
   return). Here each boundary is read at the few arrays the next item needs, one small step at a time: a host stretch
   by what its operations compute index by index, a kernel region by what its pipeline leaves in its output array, and
   an array a step does not write by carrying it across.

   The mathematics. Region 0 multiplies the node rows by a 128 x 1024 matrix whose four blocks of 256 columns are the
   transposed halves of the two message weights, so its result holds, for every node, the four projections of the
   node's row. The host adds the far-end projections along the edges; the update region adds the near-end projections
   and the biases once per arriving edge (the degrees) and runs the gated cell. That aggregate is the sum of the
   arriving messages, so the region's output is one layer of the specification. The second layer is the same on the
   first layer's rows, followed by the division of every row by its length; the read-out region pools the rows of
   each graph. -/
import proofs.«163521_j41618233098847_2_alg».proof.Proof.KI.Run
import proofs.«163521_j41618233098847_2_alg».proof.Proof.KV.Reg0Val
import proofs.«163521_j41618233098847_2_alg».proof.Proof.KV.Reg1Val
import proofs.«163521_j41618233098847_2_alg».proof.Proof.KV.Reg2Val
import proofs.«163521_j41618233098847_2_alg».proof.Proof.KV.Reg3Val
import proofs.«163521_j41618233098847_2_alg».proof.Proof.KV.Reg4Val
import proofs.«163521_j41618233098847_2_alg».proof.Proof.KV.Host
import proofs.«163521_j41618233098847_2_alg».proof.Proof.KV.Host2
import proofs.«163521_j41618233098847_2_alg».proof.Proof.AggMath
import proofs.«163521_j41618233098847_2_alg».proof.Proof.Spec
import Idealize.ShloMosaic.Lib.ValueIdx
import Idealize.ShloMosaic.PureOps.Ideal

-- deciding that a reference is none of a stretch's fifty written references, or none of a region's thirteen arrays,
-- recurses past the default depth
set_option maxRecDepth 16384

noncomputable section

open scoped BigOperators

namespace Cert.KernelIdeal.Comp

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Fr

/-! ## Pure mathematics: equal ingredients give equal layers -/

/-- The kernel's arrangement of the aggregate, from ingredients given index by index: the scattered far-end
    projections, the two near-end projections, the degrees and the biases. -/
theorem aggK_pointwise {hf : Fin 32768 → Fin 128 → EReal} {Wm Wr : Fin 256 → Fin 256 → EReal}
    {P : Fin 32768 → Fin 1024 → EReal}
    (hP : ∀ v (q : Fin 1024), P v q = ∑ k : Fin 128, hf v k * AggMath.wcat Wm Wr k q)
    (e0 e1 : Fin 262144 → BitVec 32) (bm br : Fin 256 → EReal)
    (T Q Qr : Fin 32768 → Fin 256 → EReal) (din dout : Fin 32768 → EReal) (mb mrb : Fin 256 → EReal)
    (hT : ∀ v c, T v c
      = 0 + (∑ k : Fin 262144, if (e1 k).toInt = (v.val : Int) then P (Spec.gat (e0 k)) ⟨c.val, by omega⟩ else 0)
        + (∑ k : Fin 262144, if (e0 k).toInt = (v.val : Int) then P (Spec.gat (e1 k)) ⟨512 + c.val, by omega⟩ else 0))
    (hQ : ∀ v c, Q v c = P v ⟨256 + c.val, by omega⟩) (hQr : ∀ v c, Qr v c = P v ⟨768 + c.val, by omega⟩)
    (hdin : ∀ v, din v = 0 + ∑ k : Fin 262144, if (e1 k).toInt = (v.val : Int) then Spec.one else 0)
    (hdout : ∀ v, dout v = 0 + ∑ k : Fin 262144, if (e0 k).toInt = (v.val : Int) then Spec.one else 0)
    (hmb : ∀ c, mb c = bm c) (hmrb : ∀ c, mrb c = br c) (v : Fin 32768) (c : Fin 256) :
    Spec.aggK T Q Qr din dout mb mrb v c = Spec.agg hf e0 e1 Wm bm Wr br v c := by
  have eQ : Q = fun v c => P v ⟨256 + c.val, by omega⟩ := funext fun v => funext fun c => hQ v c
  have eQr : Qr = fun v c => P v ⟨768 + c.val, by omega⟩ := funext fun v => funext fun c => hQr v c
  have emb : mb = bm := funext hmb
  have emrb : mrb = br := funext hmrb
  rw [eQ, eQr, emb, emrb]
  refine AggMath.aggK_eq_of hP e0 e1 bm br T din dout (fun v c => ?_) (fun v => ?_) (fun v => ?_) v c
  · rw [hT, zero_add]
  · rw [hdin, zero_add, AggMath.one_eq]
  · rw [hdout, zero_add, AggMath.one_eq]

/-- The update region's cell on ingredients that are, index by index, those of a layer of the specification. -/
theorem cell_layer (A : Fin 32768 → Fin 256 → EReal) (wih : Fin 384 → Fin 256 → EReal) (bih : Fin 384 → EReal)
    (hk : Fin 32768 → Fin 128 → EReal) (whh : Fin 384 → Fin 128 → EReal) (bhh : Fin 384 → EReal)
    (hf : Fin 32768 → Fin 128 → EReal) (e0 e1 : Fin 262144 → BitVec 32)
    (Wm : Fin 256 → Fin 256 → EReal) (bm : Fin 256 → EReal) (Wr : Fin 256 → Fin 256 → EReal) (br : Fin 256 → EReal)
    (Wih : Fin 384 → Fin 256 → EReal) (Whh : Fin 384 → Fin 128 → EReal) (bih' bhh' : Fin 384 → EReal)
    (hA : ∀ v c, A v c = Spec.agg hf e0 e1 Wm bm Wr br v c)
    (hhf : ∀ v k, hk v k = hf v k) (hwih : ∀ g k, wih g k = Wih g k) (hbih : ∀ g, bih g = bih' g)
    (hwhh : ∀ g k, whh g k = Whh g k) (hbhh : ∀ g, bhh g = bhh' g) (v : Fin 32768) (j : Fin 128) :
    Spec.cell (Spec.gateIn A wih bih) (Spec.gateHid hk whh bhh) hk v j
      = Spec.layer hf e0 e1 Wm bm Wr br Wih Whh bih' bhh' v j := by
  have h1 : A = Spec.agg hf e0 e1 Wm bm Wr br := funext fun v => funext fun c => hA v c
  have h2 : hk = hf := funext fun v => funext fun k => hhf v k
  have h3 : wih = Wih := funext fun g => funext fun k => hwih g k
  have h4 : bih = bih' := funext hbih
  have h5 : whh = Whh := funext fun g => funext fun k => hwhh g k
  have h6 : bhh = bhh' := funext hbhh
  rw [h1, h2, h3, h4, h5, h6]
  rfl

/-- Rows equal index by index have equal normalized rows. -/
theorem unit_congr {n : Nat} (x y : Fin n → Fin 128 → EReal) (h : ∀ v j, x v j = y v j) (v : Fin n) (j : Fin 128) :
    Spec.unit x v j = Spec.unit y v j := by
  have e : x = y := funext fun v => funext fun j => h v j
  rw [e]

/-- The pooled sums on ingredients equal index by index. -/
theorem pooled3_congr (h3 h3' : Fin 256 → Fin 128 → Fin 128 → EReal) (W W' : Fin 128 → Fin 128 → EReal)
    (b b' u u' : Fin 128 → EReal) (d d' : EReal)
    (e1 : ∀ g i k, h3 g i k = h3' g i k) (e2 : ∀ s k, W s k = W' s k) (e3 : ∀ s, b s = b' s) (e4 : ∀ k, u k = u' k)
    (e5 : d = d') (g : Fin 256) (s : Fin 128) :
    Spec.pooled3 h3 W b u d g s = Spec.pooled3 h3' W' b' u' d' g s := by
  have f1 : h3 = h3' := funext fun g => funext fun i => funext fun k => e1 g i k
  have f2 : W = W' := funext fun s => funext fun k => e2 s k
  have f3 : b = b' := funext e3
  have f4 : u = u' := funext e4
  rw [f1, f2, f3, f4, e5]

/-! ## The launch memory and what each item leaves alone -/

variable (m : (ℓ : Loc nD τ sig) → Buf (Elt Ideal) ℓ) (ρ : Dev nD → PrngReg)

/-- The eighteen argument arrays as launched, each at its literal array type. -/
abbrev a0 (c : Dev nD) : S256x128x128.Idx → EReal := m ((c : Thread nD τ).loc main_arg0)
abbrev a1 (c : Dev nD) : S2x262144.Idx → BitVec 32 := m ((c : Thread nD τ).loc main_arg1)
abbrev a2 (c : Dev nD) : S2x256x256.Idx → EReal := m ((c : Thread nD τ).loc main_arg2)
abbrev a3 (c : Dev nD) : S2x256.Idx → EReal := m ((c : Thread nD τ).loc main_arg3)
abbrev a4 (c : Dev nD) : S2x256x256.Idx → EReal := m ((c : Thread nD τ).loc main_arg4)
abbrev a5 (c : Dev nD) : S2x256.Idx → EReal := m ((c : Thread nD τ).loc main_arg5)
abbrev a6 (c : Dev nD) : S2x384x256.Idx → EReal := m ((c : Thread nD τ).loc main_arg6)
abbrev a7 (c : Dev nD) : S2x384x128.Idx → EReal := m ((c : Thread nD τ).loc main_arg7)
abbrev a8 (c : Dev nD) : S2x384.Idx → EReal := m ((c : Thread nD τ).loc main_arg8)
abbrev a9 (c : Dev nD) : S2x384.Idx → EReal := m ((c : Thread nD τ).loc main_arg9)
abbrev a10 (c : Dev nD) : S128x128.Idx → EReal := m ((c : Thread nD τ).loc main_arg10)
abbrev a11 (c : Dev nD) : S128.Idx → EReal := m ((c : Thread nD τ).loc main_arg11)
abbrev a12 (c : Dev nD) : S1x128.Idx → EReal := m ((c : Thread nD τ).loc main_arg12)
abbrev a13 (c : Dev nD) : S1.Idx → EReal := m ((c : Thread nD τ).loc main_arg13)
abbrev a14 (c : Dev nD) : S128x128.Idx → EReal := m ((c : Thread nD τ).loc main_arg14)
abbrev a15 (c : Dev nD) : S128.Idx → EReal := m ((c : Thread nD τ).loc main_arg15)
abbrev a16 (c : Dev nD) : S1x128.Idx → EReal := m ((c : Thread nD τ).loc main_arg16)
abbrev a17 (c : Dev nD) : S1.Idx → EReal := m ((c : Thread nD τ).loc main_arg17)

/-- A host stretch leaves a reference it does not write as it was. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h

/-- A region leaves the array of an input window as it was: nothing is written back to it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (Fr.V1 m ρ) c).arrAt_in w hin _).trans (A_eq0 (Fr.V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (Fr.V3 m ρ) c).arrAt_in w hin _).trans (A_eq1 (Fr.V3 m ρ) c w))
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (Fr.V5 m ρ) c).arrAt_in w hin _).trans (A_eq2 (Fr.V5 m ρ) c w))
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (Fr.V7 m ρ) c).arrAt_in w hin _).trans (A_eq3 (Fr.V7 m ρ) c w))
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (Fr.V9 m ρ) c).arrAt_in w hin _).trans (A_eq4 (Fr.V9 m ρ) c w))

/-- A reference that no host stretch writes and that is no window's array of any region so far still holds its launch
    contents at each region's exit. Every argument array is such a reference. -/
theorem W2_untouched (c : Dev nD) (r : Ref sig .tc)
    (h0 : r ∉ hostOps0_W) (k0 : ∀ w, Pipeline.arrRef spec0 w ≠ r) :
    W2 m ρ c (Proc.devRef .tc r) = m ((c : Thread nD τ).loc r) :=
  (W2_of_ne m ρ c r k0).trans ((W1_keep m ρ c r h0).trans rfl)
theorem W4_untouched (c : Dev nD) (r : Ref sig .tc)
    (h0 : r ∉ hostOps0_W) (k0 : ∀ w, Pipeline.arrRef spec0 w ≠ r)
    (h1 : r ∉ hostOps1_W) (k1 : ∀ w, Pipeline.arrRef spec1 w ≠ r) :
    W4 m ρ c (Proc.devRef .tc r) = m ((c : Thread nD τ).loc r) :=
  (W4_of_ne m ρ c r k1).trans ((W3_keep m ρ c r h1).trans (W2_untouched m ρ c r h0 k0))
theorem W6_untouched (c : Dev nD) (r : Ref sig .tc)
    (h0 : r ∉ hostOps0_W) (k0 : ∀ w, Pipeline.arrRef spec0 w ≠ r)
    (h1 : r ∉ hostOps1_W) (k1 : ∀ w, Pipeline.arrRef spec1 w ≠ r)
    (h2 : r ∉ hostOps2_W) (k2 : ∀ w, Pipeline.arrRef spec2 w ≠ r) :
    W6 m ρ c (Proc.devRef .tc r) = m ((c : Thread nD τ).loc r) :=
  (W6_of_ne m ρ c r k2).trans ((W5_keep m ρ c r h2).trans (W4_untouched m ρ c r h0 k0 h1 k1))
theorem W8_untouched (c : Dev nD) (r : Ref sig .tc)
    (h0 : r ∉ hostOps0_W) (k0 : ∀ w, Pipeline.arrRef spec0 w ≠ r)
    (h1 : r ∉ hostOps1_W) (k1 : ∀ w, Pipeline.arrRef spec1 w ≠ r)
    (h2 : r ∉ hostOps2_W) (k2 : ∀ w, Pipeline.arrRef spec2 w ≠ r)
    (h3 : r ∉ hostOps3_W) (k3 : ∀ w, Pipeline.arrRef spec3 w ≠ r) :
    W8 m ρ c (Proc.devRef .tc r) = m ((c : Thread nD τ).loc r) :=
  (W8_of_ne m ρ c r k3).trans ((W7_keep m ρ c r h3).trans (W6_untouched m ρ c r h0 k0 h1 k1 h2 k2))

/-! ## More pure mathematics: the projection matrix by blocks, and the edge words under other names -/

/-- A 128 x 1024 matrix whose four blocks of 256 columns are the transposed halves of two 256 x 256 matrices is the
    projection matrix of those two. -/
theorem wcat_of (X : Fin 128 → Fin 1024 → EReal) (Wm Wr : Fin 256 → Fin 256 → EReal)
    (h0 : ∀ (k : Fin 128) (q : Fin 1024) (hq : q.val < 256), X k q = Wm ⟨q.val, hq⟩ ⟨k.val, by omega⟩)
    (h1 : ∀ (k : Fin 128) (q : Fin 1024) (hq1 : 256 ≤ q.val) (hq2 : q.val < 512),
      X k q = Wm ⟨q.val - 256, by omega⟩ ⟨128 + k.val, by omega⟩)
    (h2 : ∀ (k : Fin 128) (q : Fin 1024) (hq1 : 512 ≤ q.val) (hq2 : q.val < 768),
      X k q = Wr ⟨q.val - 512, by omega⟩ ⟨k.val, by omega⟩)
    (h3 : ∀ (k : Fin 128) (q : Fin 1024) (hq1 : 768 ≤ q.val), X k q = Wr ⟨q.val - 768, by omega⟩ ⟨128 + k.val, by omega⟩)
    (k : Fin 128) (q : Fin 1024) : X k q = AggMath.wcat Wm Wr k q := by
  unfold AggMath.wcat
  by_cases c1 : q.val < 256
  · rw [dif_pos c1]; exact h0 k q c1
  · rw [dif_neg c1]
    by_cases c2 : q.val < 512
    · rw [dif_pos c2]; exact h1 k q (by omega) c2
    · rw [dif_neg c2]
      by_cases c3 : q.val < 768
      · rw [dif_pos c3]; exact h2 k q (by omega) c3
      · rw [dif_neg c3]; exact h3 k q (by omega)

/-- The scattered far-end terms do not depend on how the two rows of edge words are named. -/
theorem term_congr (P : Fin 32768 → Fin 1024 → EReal) (f0 f1 e0 e1 : Fin 262144 → BitVec 32)
    (h0 : ∀ k, f0 k = e0 k) (h1 : ∀ k, f1 k = e1 k) (v : Fin 32768) (c : Fin 256) :
    0 + (∑ k : Fin 262144, if (f1 k).toInt = (v.val : Int) then P (Spec.gat (f0 k)) ⟨c.val, by omega⟩ else 0)
        + (∑ k : Fin 262144, if (f0 k).toInt = (v.val : Int) then P (Spec.gat (f1 k)) ⟨512 + c.val, by omega⟩ else 0)
      = 0 + (∑ k : Fin 262144, if (e1 k).toInt = (v.val : Int) then P (Spec.gat (e0 k)) ⟨c.val, by omega⟩ else 0)
        + (∑ k : Fin 262144, if (e0 k).toInt = (v.val : Int) then P (Spec.gat (e1 k)) ⟨512 + c.val, by omega⟩ else 0) := by
  obtain rfl : f0 = e0 := funext h0
  obtain rfl : f1 = e1 := funext h1
  rfl

/-! ## The two rows of edge words, and the arrays a later item reads, named at their literal array types -/

/-- The first and the second index word of every edge. -/
abbrev e0 (c : Dev nD) : Fin 262144 → BitVec 32 := fun k => a1 m c (ix2 (0 : Fin 2) k)
abbrev e1 (c : Dev nD) : Fin 262144 → BitVec 32 := fun k => a1 m c (ix2 (1 : Fin 2) k)

/-- The node rows after the first layer, and after both layers and the normalization. -/
abbrev lay0 (c : Dev nD) : Fin 32768 → Fin 128 → EReal :=
  Spec.lay 0 (a1 m c) (a2 m c) (a3 m c) (a4 m c) (a5 m c) (a6 m c) (a7 m c) (a8 m c) (a9 m c) (Spec.rows (a0 m c))
abbrev nodesOf (c : Dev nD) : Fin 32768 → Fin 128 → EReal :=
  Spec.nodes (a0 m c) (a1 m c) (a2 m c) (a3 m c) (a4 m c) (a5 m c) (a6 m c) (a7 m c) (a8 m c) (a9 m c)

/-- What region 0 leaves (the first layer's projected rows) and what region 2 leaves (the second layer's). -/
abbrev P2 (c : Dev nD) : Fin 32768 → Fin 1024 → EReal :=
  fun v q => (W2 m ρ c (Proc.devRef .tc main_v32) : S32768x1024.Idx → EReal) (ix2 v q)
abbrev P6 (c : Dev nD) : Fin 32768 → Fin 1024 → EReal :=
  fun v q => (W6 m ρ c (Proc.devRef .tc main_v98) : S32768x1024.Idx → EReal) (ix2 v q)

/-! ## Layer 0 -/

/-- The rows regions 0 and 1 read are the argument's rows. -/
theorem W1_v0 (c : Dev nD) (v : Fin 32768) (j : Fin 128) :
    (W1 m ρ c (Proc.devRef .tc main_v0) : S32768x128.Idx → EReal) (ix2 v j) = Spec.rows (a0 m c) v j :=
  HostV.main_v0_at (W0 m ρ c) v j

/-- The matrix region 0 multiplies by is the projection matrix of layer 0's message weights. -/
theorem W1_v31 (c : Dev nD) (k : Fin 128) (q : Fin 1024) :
    (W1 m ρ c (Proc.devRef .tc main_v31) : S128x1024.Idx → EReal) (ix2 k q)
      = AggMath.wcat (fun c' j => a2 m c (ix3 (0 : Fin 2) c' j)) (fun c' j => a4 m c (ix3 (0 : Fin 2) c' j)) k q :=
  wcat_of (fun k q => (W1 m ρ c (Proc.devRef .tc main_v31) : S128x1024.Idx → EReal) (ix2 k q))
    (fun c' j => a2 m c (ix3 (0 : Fin 2) c' j)) (fun c' j => a4 m c (ix3 (0 : Fin 2) c' j))
    (fun k q hq => HostV.main_v31_at0 (W0 m ρ c) k q hq)
    (fun k q hq1 hq2 => HostV.main_v31_at1 (W0 m ρ c) k q hq1 hq2)
    (fun k q hq1 hq2 => HostV.main_v31_at2 (W0 m ρ c) k q hq1 hq2)
    (fun k q hq1 => HostV.main_v31_at3 (W0 m ρ c) k q hq1) k q

/-- Region 0 leaves, for every node, the four projections of its row. -/
theorem W2_v32 (c : Dev nD) (v : Fin 32768) (q : Fin 1024) :
    P2 m ρ c v q = ∑ k : Fin 128, Spec.rows (a0 m c) v k
      * AggMath.wcat (fun c' j => a2 m c (ix3 (0 : Fin 2) c' j)) (fun c' j => a4 m c (ix3 (0 : Fin 2) c' j)) k q := by
  have h : P2 m ρ c v q
      = ∑ k : Fin 128, Val.hfA0 (Fr.V1 m ρ) c (ix2 v k) * Val.wcatA0 (Fr.V1 m ρ) c (ix2 k q) :=
    (congrFun (W2_arr m ρ c 2) (ix2 v q)).trans (Val.val0 (Fr.V1 m ρ) c v q)
  refine h.trans (Finset.sum_congr rfl fun k _ => ?_)
  exact congrArg₂ (fun (x y : EReal) => x * y) (W1_v0 m ρ c v k) (W1_v31 m ρ c k q)

/-- The two rows of edge words, made by the first stretch, are still there after region 0. -/
theorem W2_v2 (c : Dev nD) (k : Fin 262144) :
    (W2 m ρ c (Proc.devRef .tc main_v2) : S262144.Idx → BitVec 32) (ix1 k) = e0 m c k :=
  (congrFun (W2_of_ne m ρ c main_v2 (by decide)) (ix1 k)).trans (HostV.main_v2_at (W0 m ρ c) k)
theorem W2_v4 (c : Dev nD) (k : Fin 262144) :
    (W2 m ρ c (Proc.devRef .tc main_v4) : S262144.Idx → BitVec 32) (ix1 k) = e1 m c k :=
  (congrFun (W2_of_ne m ρ c main_v4 (by decide)) (ix1 k)).trans (HostV.main_v4_at (W0 m ρ c) k)

/-- What the second stretch hands to region 1. -/
theorem W3_v56 (c : Dev nD) (v : Fin 32768) (c' : Fin 256) :
    (W3 m ρ c (Proc.devRef .tc main_v56) : S32768x256.Idx → EReal) (ix2 v c')
      = 0 + (∑ k : Fin 262144, if (e1 m c k).toInt = (v.val : Int) then P2 m ρ c (Spec.gat (e0 m c k)) ⟨c'.val, by omega⟩ else 0)
        + (∑ k : Fin 262144, if (e0 m c k).toInt = (v.val : Int) then P2 m ρ c (Spec.gat (e1 m c k)) ⟨512 + c'.val, by omega⟩ else 0) :=
  (HostV.main_v56_at (W2 m ρ c) _ _ _ rfl rfl rfl v c').trans
    (term_congr (P2 m ρ c) (fun k => (W2 m ρ c (Proc.devRef .tc main_v2) : S262144.Idx → BitVec 32) (ix1 k))
      (fun k => (W2 m ρ c (Proc.devRef .tc main_v4) : S262144.Idx → BitVec 32) (ix1 k)) (e0 m c) (e1 m c)
      (W2_v2 m ρ c) (W2_v4 m ρ c) v c')
theorem W3_v57 (c : Dev nD) (v : Fin 32768) (c' : Fin 256) :
    (W3 m ρ c (Proc.devRef .tc main_v57) : S32768x256.Idx → EReal) (ix2 v c') = P2 m ρ c v ⟨256 + c'.val, by omega⟩ :=
  HostV.main_v57_at (W2 m ρ c) v c'
theorem W3_v58 (c : Dev nD) (v : Fin 32768) (c' : Fin 256) :
    (W3 m ρ c (Proc.devRef .tc main_v58) : S32768x256.Idx → EReal) (ix2 v c') = P2 m ρ c v ⟨768 + c'.val, by omega⟩ :=
  HostV.main_v58_at (W2 m ρ c) v c'

/-- The degrees, made by the first stretch, as region 1 finds them. -/
theorem W3_v9 (c : Dev nD) (v : Fin 32768) :
    (W3 m ρ c (Proc.devRef .tc main_v9) : S32768x1.Idx → EReal) (ix2 v (0 : Fin 1))
      = 0 + ∑ k : Fin 262144, if (e1 m c k).toInt = (v.val : Int) then Spec.one else 0 :=
  (congrFun ((W3_keep m ρ c main_v9 (by decide)).trans (W2_of_ne m ρ c main_v9 (by decide))) _).trans
    (HostV.main_v9_at (W0 m ρ c) (a1 m c) rfl v 0)
theorem W3_v13 (c : Dev nD) (v : Fin 32768) :
    (W3 m ρ c (Proc.devRef .tc main_v13) : S32768x1.Idx → EReal) (ix2 v (0 : Fin 1))
      = 0 + ∑ k : Fin 262144, if (e0 m c k).toInt = (v.val : Int) then Spec.one else 0 :=
  (congrFun ((W3_keep m ρ c main_v13 (by decide)).trans (W2_of_ne m ρ c main_v13 (by decide))) _).trans
    (HostV.main_v13_at (W0 m ρ c) (a1 m c) rfl v 0)

/-- The node rows as region 1 finds them: region 0 only read them. -/
theorem W3_v0 (c : Dev nD) (v : Fin 32768) (k : Fin 128) :
    (W3 m ρ c (Proc.devRef .tc main_v0) : S32768x128.Idx → EReal) (ix2 v k) = Spec.rows (a0 m c) v k :=
  (congrFun ((W3_keep m ρ c main_v0 (by decide)).trans (W2_in m ρ c 0 rfl)) _).trans (W1_v0 m ρ c v k)

/-- Layer 0's biases and cell weights as region 1 finds them. -/
theorem W3_v73 (c : Dev nD) (c' : Fin 256) :
    (W3 m ρ c (Proc.devRef .tc main_v73) : S1x256.Idx → EReal) (ix2 (0 : Fin 1) c') = a3 m c (ix2 (0 : Fin 2) c') :=
  (HostV.main_v73_at (W2 m ρ c) 0 c').trans (congrFun (W2_untouched m ρ c main_arg3 (by decide) (by decide)) _)
theorem W3_v74 (c : Dev nD) (c' : Fin 256) :
    (W3 m ρ c (Proc.devRef .tc main_v74) : S1x256.Idx → EReal) (ix2 (0 : Fin 1) c') = a5 m c (ix2 (0 : Fin 2) c') :=
  (HostV.main_v74_at (W2 m ρ c) 0 c').trans (congrFun (W2_untouched m ρ c main_arg5 (by decide) (by decide)) _)
theorem W3_v75 (c : Dev nD) (g : Fin 384) :
    (W3 m ρ c (Proc.devRef .tc main_v75) : S1x384.Idx → EReal) (ix2 (0 : Fin 1) g) = a8 m c (ix2 (0 : Fin 2) g) :=
  (HostV.main_v75_at (W2 m ρ c) 0 g).trans (congrFun (W2_untouched m ρ c main_arg8 (by decide) (by decide)) _)
theorem W3_v76 (c : Dev nD) (g : Fin 384) :
    (W3 m ρ c (Proc.devRef .tc main_v76) : S1x384.Idx → EReal) (ix2 (0 : Fin 1) g) = a9 m c (ix2 (0 : Fin 2) g) :=
  (HostV.main_v76_at (W2 m ρ c) 0 g).trans (congrFun (W2_untouched m ρ c main_arg9 (by decide) (by decide)) _)
theorem W3_v77 (c : Dev nD) (k : Fin 256) (g : Fin 384) :
    (W3 m ρ c (Proc.devRef .tc main_v77) : S256x384.Idx → EReal) (ix2 k g) = a6 m c (ix3 (0 : Fin 2) g k) :=
  (HostV.main_v77_at (W2 m ρ c) k g).trans (congrFun (W2_untouched m ρ c main_arg6 (by decide) (by decide)) _)
theorem W3_v78 (c : Dev nD) (k : Fin 128) (g : Fin 384) :
    (W3 m ρ c (Proc.devRef .tc main_v78) : S128x384.Idx → EReal) (ix2 k g) = a7 m c (ix3 (0 : Fin 2) g k) :=
  (HostV.main_v78_at (W2 m ρ c) k g).trans (congrFun (W2_untouched m ρ c main_arg7 (by decide) (by decide)) _)

/-- REGION 1 LEAVES THE FIRST LAYER: its aggregate is the sum of the arriving messages, its weights are slice 0 of the
    stacks, its rows are the argument's. -/
theorem k_layer1 (c : Dev nD) (v : Fin 32768) (j : Fin 128) :
    (W4 m ρ c (Proc.devRef .tc main_v79) : S32768x128.Idx → EReal) (ix2 v j) = lay0 m c v j := by
  refine (congrFun (W4_arr m ρ c 12) (ix2 v j)).trans ?_
  refine (Val.val1 (Fr.V3 m ρ) c v j).trans ?_
  refine cell_layer _ _ _ _ _ _ (Spec.rows (a0 m c)) (e0 m c) (e1 m c)
    (fun c' j => a2 m c (ix3 (0 : Fin 2) c' j)) (fun c' => a3 m c (ix2 (0 : Fin 2) c'))
    (fun c' j => a4 m c (ix3 (0 : Fin 2) c' j)) (fun c' => a5 m c (ix2 (0 : Fin 2) c'))
    (fun g k => a6 m c (ix3 (0 : Fin 2) g k)) (fun g k => a7 m c (ix3 (0 : Fin 2) g k))
    (fun g => a8 m c (ix2 (0 : Fin 2) g)) (fun g => a9 m c (ix2 (0 : Fin 2) g))
    ?_ ?_ ?_ ?_ ?_ ?_ v j
  · exact aggK_pointwise (P := P2 m ρ c) (W2_v32 m ρ c) (e0 m c) (e1 m c) _ _ _ _ _ _ _ _ _
      (W3_v56 m ρ c) (W3_v57 m ρ c) (W3_v58 m ρ c) (W3_v9 m ρ c) (W3_v13 m ρ c) (W3_v73 m ρ c) (W3_v74 m ρ c)
  · exact W3_v0 m ρ c
  · exact fun g k => W3_v77 m ρ c k g
  · exact W3_v75 m ρ c
  · exact fun g k => W3_v78 m ρ c k g
  · exact W3_v76 m ρ c

/-! ## Layer 1 -/

/-- The first layer's rows as the third stretch and region 2 find them. -/
theorem W5_v79 (c : Dev nD) (v : Fin 32768) (k : Fin 128) :
    (W5 m ρ c (Proc.devRef .tc main_v79) : S32768x128.Idx → EReal) (ix2 v k) = lay0 m c v k :=
  (congrFun (W5_keep m ρ c main_v79 (by decide)) _).trans (k_layer1 m ρ c v k)

/-- The matrix region 2 multiplies by is the projection matrix of layer 1's message weights. -/
theorem W5_v97 (c : Dev nD) (k : Fin 128) (q : Fin 1024) :
    (W5 m ρ c (Proc.devRef .tc main_v97) : S128x1024.Idx → EReal) (ix2 k q)
      = AggMath.wcat (fun c' j => a2 m c (ix3 (1 : Fin 2) c' j)) (fun c' j => a4 m c (ix3 (1 : Fin 2) c' j)) k q :=
  wcat_of (fun k q => (W5 m ρ c (Proc.devRef .tc main_v97) : S128x1024.Idx → EReal) (ix2 k q))
    (fun c' j => a2 m c (ix3 (1 : Fin 2) c' j)) (fun c' j => a4 m c (ix3 (1 : Fin 2) c' j))
    (fun k q hq => (HostV.main_v97_at0 (W4 m ρ c) k q hq).trans
      (congrFun (W4_untouched m ρ c main_arg2 (by decide) (by decide) (by decide) (by decide)) _))
    (fun k q hq1 hq2 => (HostV.main_v97_at1 (W4 m ρ c) k q hq1 hq2).trans
      (congrFun (W4_untouched m ρ c main_arg2 (by decide) (by decide) (by decide) (by decide)) _))
    (fun k q hq1 hq2 => (HostV.main_v97_at2 (W4 m ρ c) k q hq1 hq2).trans
      (congrFun (W4_untouched m ρ c main_arg4 (by decide) (by decide) (by decide) (by decide)) _))
    (fun k q hq1 => (HostV.main_v97_at3 (W4 m ρ c) k q hq1).trans
      (congrFun (W4_untouched m ρ c main_arg4 (by decide) (by decide) (by decide) (by decide)) _)) k q

/-- Region 2 leaves, for every node, the four projections of its first-layer row. -/
theorem W6_v98 (c : Dev nD) (v : Fin 32768) (q : Fin 1024) :
    P6 m ρ c v q = ∑ k : Fin 128, lay0 m c v k
      * AggMath.wcat (fun c' j => a2 m c (ix3 (1 : Fin 2) c' j)) (fun c' j => a4 m c (ix3 (1 : Fin 2) c' j)) k q := by
  have h : P6 m ρ c v q
      = ∑ k : Fin 128, Val.hfA2 (Fr.V5 m ρ) c (ix2 v k) * Val.wcatA2 (Fr.V5 m ρ) c (ix2 k q) :=
    (congrFun (W6_arr m ρ c 2) (ix2 v q)).trans (Val.val2 (Fr.V5 m ρ) c v q)
  refine h.trans (Finset.sum_congr rfl fun k _ => ?_)
  exact congrArg₂ (fun (x y : EReal) => x * y) (W5_v79 m ρ c v k) (W5_v97 m ρ c k q)

/-- The two rows of edge words are still there after region 2: no later item writes them and no region has them as an
    array. -/
theorem W6_v2 (c : Dev nD) (k : Fin 262144) :
    (W6 m ρ c (Proc.devRef .tc main_v2) : S262144.Idx → BitVec 32) (ix1 k) = e0 m c k :=
  (congrFun ((W6_of_ne m ρ c main_v2 (by decide)).trans ((W5_keep m ρ c main_v2 (by decide)).trans
    ((W4_of_ne m ρ c main_v2 (by decide)).trans (W3_keep m ρ c main_v2 (by decide))))) (ix1 k)).trans (W2_v2 m ρ c k)
theorem W6_v4 (c : Dev nD) (k : Fin 262144) :
    (W6 m ρ c (Proc.devRef .tc main_v4) : S262144.Idx → BitVec 32) (ix1 k) = e1 m c k :=
  (congrFun ((W6_of_ne m ρ c main_v4 (by decide)).trans ((W5_keep m ρ c main_v4 (by decide)).trans
    ((W4_of_ne m ρ c main_v4 (by decide)).trans (W3_keep m ρ c main_v4 (by decide))))) (ix1 k)).trans (W2_v4 m ρ c k)

/-- What the fourth stretch hands to region 3. -/
theorem W7_v122 (c : Dev nD) (v : Fin 32768) (c' : Fin 256) :
    (W7 m ρ c (Proc.devRef .tc main_v122) : S32768x256.Idx → EReal) (ix2 v c')
      = 0 + (∑ k : Fin 262144, if (e1 m c k).toInt = (v.val : Int) then P6 m ρ c (Spec.gat (e0 m c k)) ⟨c'.val, by omega⟩ else 0)
        + (∑ k : Fin 262144, if (e0 m c k).toInt = (v.val : Int) then P6 m ρ c (Spec.gat (e1 m c k)) ⟨512 + c'.val, by omega⟩ else 0) :=
  (HostV.main_v122_at (W6 m ρ c) _ _ _ rfl rfl rfl v c').trans
    (term_congr (P6 m ρ c) (fun k => (W6 m ρ c (Proc.devRef .tc main_v2) : S262144.Idx → BitVec 32) (ix1 k))
      (fun k => (W6 m ρ c (Proc.devRef .tc main_v4) : S262144.Idx → BitVec 32) (ix1 k)) (e0 m c) (e1 m c)
      (W6_v2 m ρ c) (W6_v4 m ρ c) v c')
theorem W7_v123 (c : Dev nD) (v : Fin 32768) (c' : Fin 256) :
    (W7 m ρ c (Proc.devRef .tc main_v123) : S32768x256.Idx → EReal) (ix2 v c') = P6 m ρ c v ⟨256 + c'.val, by omega⟩ :=
  HostV.main_v123_at (W6 m ρ c) v c'
theorem W7_v124 (c : Dev nD) (v : Fin 32768) (c' : Fin 256) :
    (W7 m ρ c (Proc.devRef .tc main_v124) : S32768x256.Idx → EReal) (ix2 v c') = P6 m ρ c v ⟨768 + c'.val, by omega⟩ :=
  HostV.main_v124_at (W6 m ρ c) v c'

/-- The degrees as region 3 finds them: region 1 only read them, nothing since wrote them. -/
theorem W7_v9 (c : Dev nD) (v : Fin 32768) :
    (W7 m ρ c (Proc.devRef .tc main_v9) : S32768x1.Idx → EReal) (ix2 v (0 : Fin 1))
      = 0 + ∑ k : Fin 262144, if (e1 m c k).toInt = (v.val : Int) then Spec.one else 0 :=
  (congrFun ((W7_keep m ρ c main_v9 (by decide)).trans ((W6_of_ne m ρ c main_v9 (by decide)).trans
    ((W5_keep m ρ c main_v9 (by decide)).trans (W4_in m ρ c 3 rfl)))) _).trans (W3_v9 m ρ c v)
theorem W7_v13 (c : Dev nD) (v : Fin 32768) :
    (W7 m ρ c (Proc.devRef .tc main_v13) : S32768x1.Idx → EReal) (ix2 v (0 : Fin 1))
      = 0 + ∑ k : Fin 262144, if (e0 m c k).toInt = (v.val : Int) then Spec.one else 0 :=
  (congrFun ((W7_keep m ρ c main_v13 (by decide)).trans ((W6_of_ne m ρ c main_v13 (by decide)).trans
    ((W5_keep m ρ c main_v13 (by decide)).trans (W4_in m ρ c 4 rfl)))) _).trans (W3_v13 m ρ c v)

/-- The first layer's rows as region 3 finds them: region 2 only read them. -/
theorem W7_v79 (c : Dev nD) (v : Fin 32768) (k : Fin 128) :
    (W7 m ρ c (Proc.devRef .tc main_v79) : S32768x128.Idx → EReal) (ix2 v k) = lay0 m c v k :=
  (congrFun ((W7_keep m ρ c main_v79 (by decide)).trans (W6_in m ρ c 0 rfl)) _).trans (W5_v79 m ρ c v k)

/-- Layer 1's biases and cell weights as region 3 finds them. -/
theorem W7_v139 (c : Dev nD) (c' : Fin 256) :
    (W7 m ρ c (Proc.devRef .tc main_v139) : S1x256.Idx → EReal) (ix2 (0 : Fin 1) c') = a3 m c (ix2 (1 : Fin 2) c') :=
  (HostV.main_v139_at (W6 m ρ c) 0 c').trans
    (congrFun (W6_untouched m ρ c main_arg3 (by decide) (by decide) (by decide) (by decide) (by decide) (by decide)) _)
theorem W7_v140 (c : Dev nD) (c' : Fin 256) :
    (W7 m ρ c (Proc.devRef .tc main_v140) : S1x256.Idx → EReal) (ix2 (0 : Fin 1) c') = a5 m c (ix2 (1 : Fin 2) c') :=
  (HostV.main_v140_at (W6 m ρ c) 0 c').trans
    (congrFun (W6_untouched m ρ c main_arg5 (by decide) (by decide) (by decide) (by decide) (by decide) (by decide)) _)
theorem W7_v141 (c : Dev nD) (g : Fin 384) :
    (W7 m ρ c (Proc.devRef .tc main_v141) : S1x384.Idx → EReal) (ix2 (0 : Fin 1) g) = a8 m c (ix2 (1 : Fin 2) g) :=
  (HostV.main_v141_at (W6 m ρ c) 0 g).trans
    (congrFun (W6_untouched m ρ c main_arg8 (by decide) (by decide) (by decide) (by decide) (by decide) (by decide)) _)
theorem W7_v142 (c : Dev nD) (g : Fin 384) :
    (W7 m ρ c (Proc.devRef .tc main_v142) : S1x384.Idx → EReal) (ix2 (0 : Fin 1) g) = a9 m c (ix2 (1 : Fin 2) g) :=
  (HostV.main_v142_at (W6 m ρ c) 0 g).trans
    (congrFun (W6_untouched m ρ c main_arg9 (by decide) (by decide) (by decide) (by decide) (by decide) (by decide)) _)
theorem W7_v143 (c : Dev nD) (k : Fin 256) (g : Fin 384) :
    (W7 m ρ c (Proc.devRef .tc main_v143) : S256x384.Idx → EReal) (ix2 k g) = a6 m c (ix3 (1 : Fin 2) g k) :=
  (HostV.main_v143_at (W6 m ρ c) k g).trans
    (congrFun (W6_untouched m ρ c main_arg6 (by decide) (by decide) (by decide) (by decide) (by decide) (by decide)) _)
theorem W7_v144 (c : Dev nD) (k : Fin 128) (g : Fin 384) :
    (W7 m ρ c (Proc.devRef .tc main_v144) : S128x384.Idx → EReal) (ix2 k g) = a7 m c (ix3 (1 : Fin 2) g k) :=
  (HostV.main_v144_at (W6 m ρ c) k g).trans
    (congrFun (W6_untouched m ρ c main_arg7 (by decide) (by decide) (by decide) (by decide) (by decide) (by decide)) _)

/-- REGION 3 LEAVES THE NORMALIZED ROWS: the second layer on the first layer's rows, its weights slice 1 of the stacks,
    every row divided by its length. -/
theorem k_nodes (c : Dev nD) (v : Fin 32768) (j : Fin 128) :
    (W8 m ρ c (Proc.devRef .tc main_v145) : S32768x128.Idx → EReal) (ix2 v j) = nodesOf m c v j := by
  refine (congrFun (W8_arr m ρ c 12) (ix2 v j)).trans ?_
  refine (Val.val3 (Fr.V7 m ρ) c v j).trans ?_
  refine unit_congr _ _ (fun v j => ?_) v j
  refine cell_layer _ _ _ _ _ _ (lay0 m c) (e0 m c) (e1 m c)
    (fun c' j => a2 m c (ix3 (1 : Fin 2) c' j)) (fun c' => a3 m c (ix2 (1 : Fin 2) c'))
    (fun c' j => a4 m c (ix3 (1 : Fin 2) c' j)) (fun c' => a5 m c (ix2 (1 : Fin 2) c'))
    (fun g k => a6 m c (ix3 (1 : Fin 2) g k)) (fun g k => a7 m c (ix3 (1 : Fin 2) g k))
    (fun g => a8 m c (ix2 (1 : Fin 2) g)) (fun g => a9 m c (ix2 (1 : Fin 2) g))
    ?_ ?_ ?_ ?_ ?_ ?_ v j
  · exact aggK_pointwise (P := P6 m ρ c) (W6_v98 m ρ c) (e0 m c) (e1 m c) _ _ _ _ _ _ _ _ _
      (W7_v122 m ρ c) (W7_v123 m ρ c) (W7_v124 m ρ c) (W7_v9 m ρ c) (W7_v13 m ρ c) (W7_v139 m ρ c) (W7_v140 m ρ c)
  · exact W7_v79 m ρ c
  · exact fun g k => W7_v143 m ρ c k g
  · exact W7_v141 m ρ c
  · exact fun g k => W7_v144 m ρ c k g
  · exact W7_v142 m ρ c

/-! ## The read-out -/

/-- The normalized rows regrouped graph by graph, as region 4 finds them. -/
theorem W9_v146 (c : Dev nD) (g : Fin 256) (i j : Fin 128) :
    (W9 m ρ c (Proc.devRef .tc main_v146) : S256x128x128.Idx → EReal) (ix3 g i j)
      = nodesOf m c ⟨g.val * 128 + i.val, by omega⟩ j :=
  (HostV.main_v146_at (W8 m ρ c) g i j).trans (k_nodes m ρ c _ j)

/-- The two read-outs' weights as region 4 finds them. -/
theorem W9_v148 (c : Dev nD) (k s : Fin 128) :
    (W9 m ρ c (Proc.devRef .tc main_v148) : S128x128.Idx → EReal) (ix2 k s) = a10 m c (ix2 s k) :=
  (HostV.main_v148_at (W8 m ρ c) k s).trans (congrFun (W8_untouched m ρ c main_arg10 (by decide) (by decide) (by decide) (by decide) (by decide) (by decide) (by decide) (by decide)) _)
theorem W9_v151 (c : Dev nD) (k s : Fin 128) :
    (W9 m ρ c (Proc.devRef .tc main_v151) : S128x128.Idx → EReal) (ix2 k s) = a14 m c (ix2 s k) :=
  (HostV.main_v151_at (W8 m ρ c) k s).trans (congrFun (W8_untouched m ρ c main_arg14 (by decide) (by decide) (by decide) (by decide) (by decide) (by decide) (by decide) (by decide)) _)
theorem W9_v149 (c : Dev nD) (k : Fin 128) :
    (W9 m ρ c (Proc.devRef .tc main_v149) : S1x128.Idx → EReal) (ix2 (0 : Fin 1) k) = a12 m c (ix2 (0 : Fin 1) k) :=
  (congrFun (HostV.main_v149_eq (W8 m ρ c)) _).trans (congrFun (W8_untouched m ρ c main_arg12 (by decide) (by decide) (by decide) (by decide) (by decide) (by decide) (by decide) (by decide)) _)
theorem W9_v152 (c : Dev nD) (k : Fin 128) :
    (W9 m ρ c (Proc.devRef .tc main_v152) : S1x128.Idx → EReal) (ix2 (0 : Fin 1) k) = a16 m c (ix2 (0 : Fin 1) k) :=
  (congrFun (HostV.main_v152_eq (W8 m ρ c)) _).trans (congrFun (W8_untouched m ρ c main_arg16 (by decide) (by decide) (by decide) (by decide) (by decide) (by decide) (by decide) (by decide)) _)
theorem W9_v153 (c : Dev nD) (s : Fin 128) :
    (W9 m ρ c (Proc.devRef .tc main_v153) : S1x128.Idx → EReal) (ix2 (0 : Fin 1) s) = a11 m c (ix1 s) :=
  (HostV.main_v153_at (W8 m ρ c) 0 s).trans (congrFun (W8_untouched m ρ c main_arg11 (by decide) (by decide) (by decide) (by decide) (by decide) (by decide) (by decide) (by decide)) _)
theorem W9_v155 (c : Dev nD) (s : Fin 128) :
    (W9 m ρ c (Proc.devRef .tc main_v155) : S1x128.Idx → EReal) (ix2 (0 : Fin 1) s) = a15 m c (ix1 s) :=
  (HostV.main_v155_at (W8 m ρ c) 0 s).trans (congrFun (W8_untouched m ρ c main_arg15 (by decide) (by decide) (by decide) (by decide) (by decide) (by decide) (by decide) (by decide)) _)
theorem W9_v154 (c : Dev nD) :
    (W9 m ρ c (Proc.devRef .tc main_v154) : S1x1.Idx → EReal) (ix2 (0 : Fin 1) (0 : Fin 1)) = a13 m c (ix1 (0 : Fin 1)) :=
  (HostV.main_v154_at (W8 m ρ c) 0 0).trans (congrFun (W8_untouched m ρ c main_arg13 (by decide) (by decide) (by decide) (by decide) (by decide) (by decide) (by decide) (by decide)) _)
theorem W9_v156 (c : Dev nD) :
    (W9 m ρ c (Proc.devRef .tc main_v156) : S1x1.Idx → EReal) (ix2 (0 : Fin 1) (0 : Fin 1)) = a17 m c (ix1 (0 : Fin 1)) :=
  (HostV.main_v156_at (W8 m ρ c) 0 0).trans (congrFun (W8_untouched m ρ c main_arg17 (by decide) (by decide) (by decide) (by decide) (by decide) (by decide) (by decide) (by decide)) _)

/-- THE FIRST RESULT: the normalized rows graph by graph. Region 4 only reads that array. -/
theorem k_res0 (c : Dev nD) (i : S256x128x128.Idx) :
    (W10 m ρ c (Proc.devRef .tc main_v146) : S256x128x128.Idx → EReal) i = Spec.res0 (nodesOf m c) i := by
  obtain ⟨g, i', j, rfl⟩ : ∃ (g : Fin 256) (i' j : Fin 128), i = ix3 g i' j := ⟨i 0, i 1, i 2, eq_ix3 i⟩
  exact (congrFun (W10_in m ρ c 0 rfl) (ix3 g i' j)).trans (W9_v146 m ρ c g i' j)

/-- THE SECOND RESULT: the first read-out of the normalized rows. -/
theorem k_res1 (c : Dev nD) (i : S256x128.Idx) :
    (W10 m ρ c (Proc.devRef .tc main_v157_0) : S256x128.Idx → EReal) i
      = Spec.res12 (nodesOf m c) (a10 m c) (a11 m c) (a12 m c) (a13 m c) i := by
  obtain ⟨g, s, rfl⟩ : ∃ (g : Fin 256) (s : Fin 128), i = ix2 g s := ⟨i 0, i 1, eq_ix2 i⟩
  refine (congrFun (W10_arr m ρ c 9) (ix2 g s)).trans ?_
  refine (Val.val4_9 (Fr.V9 m ρ) c g s).trans ?_
  show _ = Spec.unit (Spec.pooled (nodesOf m c) (fun s k => a10 m c (ix2 s k)) (fun s => a11 m c (ix1 s))
    (fun k => a12 m c (ix2 (0 : Fin 1) k)) (a13 m c (ix1 (0 : Fin 1)))) g s
  refine unit_congr _ _ (fun g s => ?_) g s
  rw [Spec.pooled_eq]
  exact pooled3_congr _ _ _ _ _ _ _ _ _ _ (fun g i k => W9_v146 m ρ c g i k) (fun s k => W9_v148 m ρ c k s)
    (W9_v153 m ρ c) (W9_v149 m ρ c) (W9_v154 m ρ c) g s

/-- THE THIRD RESULT: the second read-out of the normalized rows. -/
theorem k_res2 (c : Dev nD) (i : S256x128.Idx) :
    (W10 m ρ c (Proc.devRef .tc main_v157_1) : S256x128.Idx → EReal) i
      = Spec.res12 (nodesOf m c) (a14 m c) (a15 m c) (a16 m c) (a17 m c) i := by
  obtain ⟨g, s, rfl⟩ : ∃ (g : Fin 256) (s : Fin 128), i = ix2 g s := ⟨i 0, i 1, eq_ix2 i⟩
  refine (congrFun (W10_arr m ρ c 10) (ix2 g s)).trans ?_
  refine (Val.val4_10 (Fr.V9 m ρ) c g s).trans ?_
  show _ = Spec.unit (Spec.pooled (nodesOf m c) (fun s k => a14 m c (ix2 s k)) (fun s => a15 m c (ix1 s))
    (fun k => a16 m c (ix2 (0 : Fin 1) k)) (a17 m c (ix1 (0 : Fin 1)))) g s
  refine unit_congr _ _ (fun g s => ?_) g s
  rw [Spec.pooled_eq]
  exact pooled3_congr _ _ _ _ _ _ _ _ _ _ (fun g i k => W9_v146 m ρ c g i k) (fun s k => W9_v151 m ρ c k s)
    (W9_v155 m ρ c) (W9_v152 m ρ c) (W9_v156 m ρ c) g s

/-! ## The run's results -/

/-- THE KERNEL PROGRAM'S VALUES: every weakly fair execution of @main terminates, nothing faulting, and every final
    state holds the three results of the specification, as functions of the launch arguments, and the eighteen
    argument arrays as launched. -/
theorem kernel_vals : θ_run (defs (F := Ideal)) (onTc (τ := τ) (main (F := Ideal))) ⟨m, fun _ => 0, ρ⟩ (fun r => ∀ c : Dev nD,
      r.2.mem ((c.tc : Thread nD τ).loc main_v146) = Spec.res0 (nodesOf m c)
      ∧ r.2.mem ((c.tc : Thread nD τ).loc main_v157_0) = Spec.res12 (nodesOf m c) (a10 m c) (a11 m c) (a12 m c) (a13 m c)
      ∧ r.2.mem ((c.tc : Thread nD τ).loc main_v157_1) = Spec.res12 (nodesOf m c) (a14 m c) (a15 m c) (a16 m c) (a17 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨
    (h c _ (mem_uc main_v146 (by decide))).trans (funext (k_res0 m ρ c)),
    (h c _ (mem_uc main_v157_0 (by decide))).trans (funext (k_res1 m ρ c)),
    (h c _ (mem_uc main_v157_1 (by decide))).trans (funext (k_res2 m ρ c)),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c),
    (h c _ (mem_uc main_arg15 (by decide))).trans (W10_main_arg15 m ρ c),
    (h c _ (mem_uc main_arg16 (by decide))).trans (W10_main_arg16 m ρ c),
    (h c _ (mem_uc main_arg17 (by decide))).trans (W10_main_arg17 m ρ c)⟩) (run_all m ρ)

end Cert.KernelIdeal.Comp

end
-- ==== Proof.RefWrites.lean ====
/-
  What the reference's line of operations writes. Each operation writes exactly one buffer, its result, and the 278
  results are pairwise distinct intermediate values, none of them an argument of @main. So the fold of the operations'
  results, read at a buffer the operations do not write, is what was there before; read stage by stage (the first
  layer, the second layer, the rest) the same holds of each stage, which is how a later value is traced back through
  the stages that do not touch it.
-/
import proofs.«163521_j41618233098847_2_alg».proof.Proof.RefOps
import Idealize.ShloMosaic.Lib.Pipeline.Frame

set_option maxRecDepth 8192

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The fold, stage by stage and literal by literal -/

/-- The fold over the whole line is the fold over the third stage of the fold over the second of the fold over the first. -/
theorem after_split (V : Valuation τ sig (Elt F)) :
    after ops V = after opsC (after opsB (after opsA V)) :=
  (StableHlo.after_append (opsA ++ opsB : List (HloOp τ sig (Elt F))) opsC V).trans
    (congrArg (after opsC) (StableHlo.after_append (opsA : List (HloOp τ sig (Elt F))) opsB V))
theorem after_opsA (V : Valuation τ sig (Elt F)) : after opsA V = after ops2 (after ops1 V) :=
  StableHlo.after_append ops1 ops2 V
theorem after_opsB (V : Valuation τ sig (Elt F)) : after opsB V = after ops5 (after ops4 (after ops3 V)) :=
  (StableHlo.after_append (ops3 ++ ops4 : List (HloOp τ sig (Elt F))) ops5 V).trans
    (congrArg (after ops5) (StableHlo.after_append (ops3 : List (HloOp τ sig (Elt F))) ops4 V))
theorem after_opsC (V : Valuation τ sig (Elt F)) : after opsC V = after ops7 (after ops6 V) :=
  StableHlo.after_append ops6 ops7 V

/-! ## What each stage writes -/

/-- An operation that writes exactly the reference `y`, a member of the list `W`, writes within `W`. -/
theorem writes_sub_of_mem {W : List (Ref sig .tc)} {op : HloOp τ sig (Elt F)} (y : Ref sig .tc)
    (hw : op.writes = ({Proc.devRef (τ := τ) .tc y} : Finset (DevRef τ sig))) (hy : y ∈ W) :
    op.writes ⊆ (W.map (Proc.devRef (τ := τ) .tc)).toFinset := by
  rw [hw, Finset.singleton_subset_iff, List.mem_toFinset]; exact List.mem_map_of_mem hy

/-- The references the first stage's operations write, in order. -/
abbrev opsA_W : List (Ref sig .tc) := [main_v0, main_v1, main_v2, main_v3, main_v4, main_v5, main_v6, main_v7, main_v8, main_v9, main_v10, main_c, main_v11, main_v12, main_c_0, main_v13, main_v14, main_v15, main_v16, main_v17, main_c_1, main_v18, main_v19, main_c_2, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_cst, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_cst_3, main_v77, main_v78, main_cst_4, main_v79, main_v80, main_v81, main_v82, main_v83, main_cst_5, main_v84, main_v85, main_cst_6, main_v86, main_v87, main_v88, main_v89, main_v90, main_cst_7, main_v91, main_v92, main_v93, main_v94, main_v95]
/-- The references the second stage's operations write, in order. -/
abbrev opsB_W : List (Ref sig .tc) := [main_c_8, main_v96, main_v97, main_c_9, main_v98, main_v99, main_v100, main_v101, main_v102, main_c_10, main_v103, main_v104, main_c_11, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_cst_12, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_cst_13, main_v162, main_v163, main_cst_14, main_v164, main_v165, main_v166, main_v167, main_v168, main_cst_15, main_v169, main_v170, main_cst_16, main_v171, main_v172, main_v173, main_v174, main_v175, main_cst_17, main_v176, main_v177, main_v178, main_v179, main_v180]
/-- The references the third stage's operations write, in order. -/
abbrev opsC_W : List (Ref sig .tc) := [main_call0_v0, main_call0_cst, main_call0_v1, main_call0_v2, main_v181, main_cst_18, main_v182, main_v183, main_v184, main_v185, main_v186, main_v187, main_v188, main_v189, main_v190, main_v191, main_v192, main_v193, main_v194, main_v195, main_v196, main_v197, main_cst_19, main_v198, main_v199, main_cst_20, main_v200, main_v201, main_v202, main_v203, main_v204, main_cst_21, main_v205, main_call1_v0, main_call1_cst, main_call1_v1, main_call1_v2, main_v206, main_cst_22, main_v207, main_v208, main_v209, main_v210, main_v211, main_v212, main_v213, main_v214, main_v215, main_v216, main_v217, main_v218, main_v219, main_v220, main_v221, main_v222, main_cst_23, main_v223, main_v224, main_cst_24, main_v225, main_v226, main_v227, main_v228, main_v229, main_cst_25, main_v230, main_call2_v0, main_call2_cst, main_call2_v1, main_call2_v2, main_v231, main_cst_26, main_v232, main_v233, main_v234, main_v235, main_v236]

theorem ops1_writes : (ops1 : List (HloOp τ sig (Elt F))).Forall fun op => op.writes ⊆ (opsA_W.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide),
   writes_sub_of_mem main_v5 rfl (by decide),
   writes_sub_of_mem main_v6 rfl (by decide),
   writes_sub_of_mem main_v7 rfl (by decide),
   writes_sub_of_mem main_v8 rfl (by decide),
   writes_sub_of_mem main_v9 rfl (by decide),
   writes_sub_of_mem main_v10 rfl (by decide),
   writes_sub_of_mem main_c rfl (by decide),
   writes_sub_of_mem main_v11 rfl (by decide),
   writes_sub_of_mem main_v12 rfl (by decide),
   writes_sub_of_mem main_c_0 rfl (by decide),
   writes_sub_of_mem main_v13 rfl (by decide),
   writes_sub_of_mem main_v14 rfl (by decide),
   writes_sub_of_mem main_v15 rfl (by decide),
   writes_sub_of_mem main_v16 rfl (by decide),
   writes_sub_of_mem main_v17 rfl (by decide),
   writes_sub_of_mem main_c_1 rfl (by decide),
   writes_sub_of_mem main_v18 rfl (by decide),
   writes_sub_of_mem main_v19 rfl (by decide),
   writes_sub_of_mem main_c_2 rfl (by decide),
   writes_sub_of_mem main_v20 rfl (by decide),
   writes_sub_of_mem main_v21 rfl (by decide),
   writes_sub_of_mem main_v22 rfl (by decide),
   writes_sub_of_mem main_v23 rfl (by decide),
   writes_sub_of_mem main_v24 rfl (by decide),
   writes_sub_of_mem main_v25 rfl (by decide),
   writes_sub_of_mem main_v26 rfl (by decide),
   writes_sub_of_mem main_v27 rfl (by decide),
   writes_sub_of_mem main_v28 rfl (by decide),
   writes_sub_of_mem main_v29 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_v44 rfl (by decide),
   writes_sub_of_mem main_v45 rfl (by decide),
   writes_sub_of_mem main_v46 rfl (by decide),
   writes_sub_of_mem main_cst rfl (by decide),
   writes_sub_of_mem main_v47 rfl (by decide),
   writes_sub_of_mem main_v48 rfl (by decide),
   writes_sub_of_mem main_v49 rfl (by decide),
   writes_sub_of_mem main_v50 rfl (by decide),
   writes_sub_of_mem main_v51 rfl (by decide),
   writes_sub_of_mem main_v52 rfl (by decide),
   writes_sub_of_mem main_v53 rfl (by decide),
   writes_sub_of_mem main_v54 rfl (by decide)⟩
theorem ops2_writes : (ops2 : List (HloOp τ sig (Elt F))).Forall fun op => op.writes ⊆ (opsA_W.map (Proc.devRef (τ := τ) .tc)).toFinset :=
  ⟨writes_sub_of_mem main_v55 rfl (by decide),
   writes_sub_of_mem main_v56 rfl (by decide),
   writes_sub_of_mem main_v57 rfl (by decide),
   writes_sub_of_mem main_v58 rfl (by decide),
   writes_sub_of_mem main_v59 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_cst_3 rfl (by decide),
   writes_sub_of_mem main_v77 rfl (by decide),
   writes_sub_of_mem main_v78 rfl (by decide),
   writes_sub_of_mem main_cst_4 rfl (by decide),
   writes_sub_of_mem main_v79 rfl (by decide),
   writes_sub_of_mem main_v80 rfl (by decide),
   writes_sub_of_mem main_v81 rfl (by decide),
   writes_sub_of_mem main_v82 rfl (by decide),
   writes_sub_of_mem main_v83 rfl (by decide),
   writes_sub_of_mem main_cst_5 rfl (by decide),
   writes_sub_of_mem main_v84 rfl (by decide),
   writes_sub_of_mem main_v85 rfl (by decide),
   writes_sub_of_mem main_cst_6 rfl (by decide),
   writes_sub_of_mem main_v86 rfl (by decide),
   writes_sub_of_mem main_v87 rfl (by decide),
   writes_sub_of_mem main_v88 rfl (by decide),
   writes_sub_of_mem main_v89 rfl (by decide),
   writes_sub_of_mem main_v90 rfl (by decide),
   writes_sub_of_mem main_cst_7 rfl (by decide),
   writes_sub_of_mem main_v91 rfl (by decide),
   writes_sub_of_mem main_v92 rfl (by decide),
   writes_sub_of_mem main_v93 rfl (by decide),
   writes_sub_of_mem main_v94 rfl (by decide),
   writes_sub_of_mem main_v95 rfl (by decide)⟩
theorem ops3_writes : (ops3 : List (HloOp τ sig (Elt F))).Forall fun op => op.writes ⊆ (opsB_W.map (Proc.devRef (τ := τ) .tc)).toFinset :=
  ⟨writes_sub_of_mem main_c_8 rfl (by decide),
   writes_sub_of_mem main_v96 rfl (by decide),
   writes_sub_of_mem main_v97 rfl (by decide),
   writes_sub_of_mem main_c_9 rfl (by decide),
   writes_sub_of_mem main_v98 rfl (by decide),
   writes_sub_of_mem main_v99 rfl (by decide),
   writes_sub_of_mem main_v100 rfl (by decide),
   writes_sub_of_mem main_v101 rfl (by decide),
   writes_sub_of_mem main_v102 rfl (by decide),
   writes_sub_of_mem main_c_10 rfl (by decide),
   writes_sub_of_mem main_v103 rfl (by decide),
   writes_sub_of_mem main_v104 rfl (by decide),
   writes_sub_of_mem main_c_11 rfl (by decide),
   writes_sub_of_mem main_v105 rfl (by decide)⟩
theorem ops4_writes : (ops4 : List (HloOp τ sig (Elt F))).Forall fun op => op.writes ⊆ (opsB_W.map (Proc.devRef (τ := τ) .tc)).toFinset :=
  ⟨writes_sub_of_mem main_v106 rfl (by decide),
   writes_sub_of_mem main_v107 rfl (by decide),
   writes_sub_of_mem main_v108 rfl (by decide),
   writes_sub_of_mem main_v109 rfl (by decide),
   writes_sub_of_mem main_v110 rfl (by decide),
   writes_sub_of_mem main_v111 rfl (by decide),
   writes_sub_of_mem main_v112 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide),
   writes_sub_of_mem main_v118 rfl (by decide),
   writes_sub_of_mem main_v119 rfl (by decide),
   writes_sub_of_mem main_v120 rfl (by decide),
   writes_sub_of_mem main_v121 rfl (by decide),
   writes_sub_of_mem main_v122 rfl (by decide),
   writes_sub_of_mem main_v123 rfl (by decide),
   writes_sub_of_mem main_v124 rfl (by decide),
   writes_sub_of_mem main_v125 rfl (by decide),
   writes_sub_of_mem main_v126 rfl (by decide),
   writes_sub_of_mem main_v127 rfl (by decide),
   writes_sub_of_mem main_v128 rfl (by decide),
   writes_sub_of_mem main_v129 rfl (by decide),
   writes_sub_of_mem main_v130 rfl (by decide),
   writes_sub_of_mem main_v131 rfl (by decide),
   writes_sub_of_mem main_cst_12 rfl (by decide),
   writes_sub_of_mem main_v132 rfl (by decide),
   writes_sub_of_mem main_v133 rfl (by decide),
   writes_sub_of_mem main_v134 rfl (by decide),
   writes_sub_of_mem main_v135 rfl (by decide),
   writes_sub_of_mem main_v136 rfl (by decide),
   writes_sub_of_mem main_v137 rfl (by decide),
   writes_sub_of_mem main_v138 rfl (by decide),
   writes_sub_of_mem main_v139 rfl (by decide),
   writes_sub_of_mem main_v140 rfl (by decide),
   writes_sub_of_mem main_v141 rfl (by decide),
   writes_sub_of_mem main_v142 rfl (by decide),
   writes_sub_of_mem main_v143 rfl (by decide),
   writes_sub_of_mem main_v144 rfl (by decide),
   writes_sub_of_mem main_v145 rfl (by decide),
   writes_sub_of_mem main_v146 rfl (by decide),
   writes_sub_of_mem main_v147 rfl (by decide),
   writes_sub_of_mem main_v148 rfl (by decide),
   writes_sub_of_mem main_v149 rfl (by decide),
   writes_sub_of_mem main_v150 rfl (by decide),
   writes_sub_of_mem main_v151 rfl (by decide),
   writes_sub_of_mem main_v152 rfl (by decide),
   writes_sub_of_mem main_v153 rfl (by decide),
   writes_sub_of_mem main_v154 rfl (by decide),
   writes_sub_of_mem main_v155 rfl (by decide),
   writes_sub_of_mem main_v156 rfl (by decide),
   writes_sub_of_mem main_v157 rfl (by decide),
   writes_sub_of_mem main_v158 rfl (by decide),
   writes_sub_of_mem main_v159 rfl (by decide),
   writes_sub_of_mem main_v160 rfl (by decide),
   writes_sub_of_mem main_v161 rfl (by decide),
   writes_sub_of_mem main_cst_13 rfl (by decide),
   writes_sub_of_mem main_v162 rfl (by decide),
   writes_sub_of_mem main_v163 rfl (by decide)⟩
theorem ops5_writes : (ops5 : List (HloOp τ sig (Elt F))).Forall fun op => op.writes ⊆ (opsB_W.map (Proc.devRef (τ := τ) .tc)).toFinset :=
  ⟨writes_sub_of_mem main_cst_14 rfl (by decide),
   writes_sub_of_mem main_v164 rfl (by decide),
   writes_sub_of_mem main_v165 rfl (by decide),
   writes_sub_of_mem main_v166 rfl (by decide),
   writes_sub_of_mem main_v167 rfl (by decide),
   writes_sub_of_mem main_v168 rfl (by decide),
   writes_sub_of_mem main_cst_15 rfl (by decide),
   writes_sub_of_mem main_v169 rfl (by decide),
   writes_sub_of_mem main_v170 rfl (by decide),
   writes_sub_of_mem main_cst_16 rfl (by decide),
   writes_sub_of_mem main_v171 rfl (by decide),
   writes_sub_of_mem main_v172 rfl (by decide),
   writes_sub_of_mem main_v173 rfl (by decide),
   writes_sub_of_mem main_v174 rfl (by decide),
   writes_sub_of_mem main_v175 rfl (by decide),
   writes_sub_of_mem main_cst_17 rfl (by decide),
   writes_sub_of_mem main_v176 rfl (by decide),
   writes_sub_of_mem main_v177 rfl (by decide),
   writes_sub_of_mem main_v178 rfl (by decide),
   writes_sub_of_mem main_v179 rfl (by decide),
   writes_sub_of_mem main_v180 rfl (by decide)⟩
theorem ops6_writes : (ops6 : List (HloOp τ sig (Elt F))).Forall fun op => op.writes ⊆ (opsC_W.map (Proc.devRef (τ := τ) .tc)).toFinset :=
  ⟨writes_sub_of_mem main_call0_v0 rfl (by decide),
   writes_sub_of_mem main_call0_cst rfl (by decide),
   writes_sub_of_mem main_call0_v1 rfl (by decide),
   writes_sub_of_mem main_call0_v2 rfl (by decide),
   writes_sub_of_mem main_v181 rfl (by decide),
   writes_sub_of_mem main_cst_18 rfl (by decide),
   writes_sub_of_mem main_v182 rfl (by decide),
   writes_sub_of_mem main_v183 rfl (by decide),
   writes_sub_of_mem main_v184 rfl (by decide),
   writes_sub_of_mem main_v185 rfl (by decide),
   writes_sub_of_mem main_v186 rfl (by decide),
   writes_sub_of_mem main_v187 rfl (by decide),
   writes_sub_of_mem main_v188 rfl (by decide),
   writes_sub_of_mem main_v189 rfl (by decide),
   writes_sub_of_mem main_v190 rfl (by decide),
   writes_sub_of_mem main_v191 rfl (by decide),
   writes_sub_of_mem main_v192 rfl (by decide),
   writes_sub_of_mem main_v193 rfl (by decide),
   writes_sub_of_mem main_v194 rfl (by decide),
   writes_sub_of_mem main_v195 rfl (by decide),
   writes_sub_of_mem main_v196 rfl (by decide),
   writes_sub_of_mem main_v197 rfl (by decide),
   writes_sub_of_mem main_cst_19 rfl (by decide),
   writes_sub_of_mem main_v198 rfl (by decide),
   writes_sub_of_mem main_v199 rfl (by decide),
   writes_sub_of_mem main_cst_20 rfl (by decide),
   writes_sub_of_mem main_v200 rfl (by decide),
   writes_sub_of_mem main_v201 rfl (by decide),
   writes_sub_of_mem main_v202 rfl (by decide),
   writes_sub_of_mem main_v203 rfl (by decide),
   writes_sub_of_mem main_v204 rfl (by decide),
   writes_sub_of_mem main_cst_21 rfl (by decide),
   writes_sub_of_mem main_v205 rfl (by decide),
   writes_sub_of_mem main_call1_v0 rfl (by decide),
   writes_sub_of_mem main_call1_cst rfl (by decide),
   writes_sub_of_mem main_call1_v1 rfl (by decide),
   writes_sub_of_mem main_call1_v2 rfl (by decide),
   writes_sub_of_mem main_v206 rfl (by decide),
   writes_sub_of_mem main_cst_22 rfl (by decide),
   writes_sub_of_mem main_v207 rfl (by decide),
   writes_sub_of_mem main_v208 rfl (by decide),
   writes_sub_of_mem main_v209 rfl (by decide),
   writes_sub_of_mem main_v210 rfl (by decide),
   writes_sub_of_mem main_v211 rfl (by decide),
   writes_sub_of_mem main_v212 rfl (by decide),
   writes_sub_of_mem main_v213 rfl (by decide),
   writes_sub_of_mem main_v214 rfl (by decide)⟩
theorem ops7_writes : (ops7 : List (HloOp τ sig (Elt F))).Forall fun op => op.writes ⊆ (opsC_W.map (Proc.devRef (τ := τ) .tc)).toFinset :=
  ⟨writes_sub_of_mem main_v215 rfl (by decide),
   writes_sub_of_mem main_v216 rfl (by decide),
   writes_sub_of_mem main_v217 rfl (by decide),
   writes_sub_of_mem main_v218 rfl (by decide),
   writes_sub_of_mem main_v219 rfl (by decide),
   writes_sub_of_mem main_v220 rfl (by decide),
   writes_sub_of_mem main_v221 rfl (by decide),
   writes_sub_of_mem main_v222 rfl (by decide),
   writes_sub_of_mem main_cst_23 rfl (by decide),
   writes_sub_of_mem main_v223 rfl (by decide),
   writes_sub_of_mem main_v224 rfl (by decide),
   writes_sub_of_mem main_cst_24 rfl (by decide),
   writes_sub_of_mem main_v225 rfl (by decide),
   writes_sub_of_mem main_v226 rfl (by decide),
   writes_sub_of_mem main_v227 rfl (by decide),
   writes_sub_of_mem main_v228 rfl (by decide),
   writes_sub_of_mem main_v229 rfl (by decide),
   writes_sub_of_mem main_cst_25 rfl (by decide),
   writes_sub_of_mem main_v230 rfl (by decide),
   writes_sub_of_mem main_call2_v0 rfl (by decide),
   writes_sub_of_mem main_call2_cst rfl (by decide),
   writes_sub_of_mem main_call2_v1 rfl (by decide),
   writes_sub_of_mem main_call2_v2 rfl (by decide),
   writes_sub_of_mem main_v231 rfl (by decide),
   writes_sub_of_mem main_cst_26 rfl (by decide),
   writes_sub_of_mem main_v232 rfl (by decide),
   writes_sub_of_mem main_v233 rfl (by decide),
   writes_sub_of_mem main_v234 rfl (by decide),
   writes_sub_of_mem main_v235 rfl (by decide),
   writes_sub_of_mem main_v236 rfl (by decide)⟩

theorem opsA_writes : (opsA : List (HloOp τ sig (Elt F))).Forall fun op => op.writes ⊆ (opsA_W.map (Proc.devRef (τ := τ) .tc)).toFinset :=
  List.forall_append.mpr ⟨ops1_writes, ops2_writes⟩
/-- A reference `opsA` does not write keeps its contents through `opsA`. -/
theorem after_opsA_of_not_mem {r : Ref sig .tc} (V : Valuation τ sig (Elt F)) (hr : r ∉ opsA_W) :
    after opsA V (Proc.devRef .tc r) = V (Proc.devRef .tc r) := after_of_writes_sub opsA V opsA_writes hr

theorem opsB_writes : (opsB : List (HloOp τ sig (Elt F))).Forall fun op => op.writes ⊆ (opsB_W.map (Proc.devRef (τ := τ) .tc)).toFinset :=
  List.forall_append.mpr ⟨List.forall_append.mpr ⟨ops3_writes, ops4_writes⟩, ops5_writes⟩
/-- A reference `opsB` does not write keeps its contents through `opsB`. -/
theorem after_opsB_of_not_mem {r : Ref sig .tc} (V : Valuation τ sig (Elt F)) (hr : r ∉ opsB_W) :
    after opsB V (Proc.devRef .tc r) = V (Proc.devRef .tc r) := after_of_writes_sub opsB V opsB_writes hr

theorem opsC_writes : (opsC : List (HloOp τ sig (Elt F))).Forall fun op => op.writes ⊆ (opsC_W.map (Proc.devRef (τ := τ) .tc)).toFinset :=
  List.forall_append.mpr ⟨ops6_writes, ops7_writes⟩
/-- A reference `opsC` does not write keeps its contents through `opsC`. -/
theorem after_opsC_of_not_mem {r : Ref sig .tc} (V : Valuation τ sig (Elt F)) (hr : r ∉ opsC_W) :
    after opsC V (Proc.devRef .tc r) = V (Proc.devRef .tc r) := after_of_writes_sub opsC V opsC_writes hr

/-- A reference no stage writes keeps its contents through the whole line. -/
theorem after_ops_of_not_mem {r : Ref sig .tc} (V : Valuation τ sig (Elt F))
    (hA : r ∉ opsA_W) (hB : r ∉ opsB_W) (hC : r ∉ opsC_W) :
    after ops V (Proc.devRef .tc r) = V (Proc.devRef .tc r) :=
  (congrFun (after_split V) _).trans <| (after_opsC_of_not_mem _ hC).trans <|
    (after_opsB_of_not_mem _ hB).trans (after_opsA_of_not_mem _ hA)

/-! ## The arguments: no stage writes one -/

theorem arg0_notA : main_arg0 ∉ opsA_W := by decide
theorem arg0_notB : main_arg0 ∉ opsB_W := by decide
theorem arg0_notC : main_arg0 ∉ opsC_W := by decide
theorem arg1_notA : main_arg1 ∉ opsA_W := by decide
theorem arg1_notB : main_arg1 ∉ opsB_W := by decide
theorem arg1_notC : main_arg1 ∉ opsC_W := by decide
theorem arg2_notA : main_arg2 ∉ opsA_W := by decide
theorem arg2_notB : main_arg2 ∉ opsB_W := by decide
theorem arg2_notC : main_arg2 ∉ opsC_W := by decide
theorem arg3_notA : main_arg3 ∉ opsA_W := by decide
theorem arg3_notB : main_arg3 ∉ opsB_W := by decide
theorem arg3_notC : main_arg3 ∉ opsC_W := by decide
theorem arg4_notA : main_arg4 ∉ opsA_W := by decide
theorem arg4_notB : main_arg4 ∉ opsB_W := by decide
theorem arg4_notC : main_arg4 ∉ opsC_W := by decide
theorem arg5_notA : main_arg5 ∉ opsA_W := by decide
theorem arg5_notB : main_arg5 ∉ opsB_W := by decide
theorem arg5_notC : main_arg5 ∉ opsC_W := by decide
theorem arg6_notA : main_arg6 ∉ opsA_W := by decide
theorem arg6_notB : main_arg6 ∉ opsB_W := by decide
theorem arg6_notC : main_arg6 ∉ opsC_W := by decide
theorem arg7_notA : main_arg7 ∉ opsA_W := by decide
theorem arg7_notB : main_arg7 ∉ opsB_W := by decide
theorem arg7_notC : main_arg7 ∉ opsC_W := by decide
theorem arg8_notA : main_arg8 ∉ opsA_W := by decide
theorem arg8_notB : main_arg8 ∉ opsB_W := by decide
theorem arg8_notC : main_arg8 ∉ opsC_W := by decide
theorem arg9_notA : main_arg9 ∉ opsA_W := by decide
theorem arg9_notB : main_arg9 ∉ opsB_W := by decide
theorem arg9_notC : main_arg9 ∉ opsC_W := by decide
theorem arg10_notA : main_arg10 ∉ opsA_W := by decide
theorem arg10_notB : main_arg10 ∉ opsB_W := by decide
theorem arg10_notC : main_arg10 ∉ opsC_W := by decide
theorem arg11_notA : main_arg11 ∉ opsA_W := by decide
theorem arg11_notB : main_arg11 ∉ opsB_W := by decide
theorem arg11_notC : main_arg11 ∉ opsC_W := by decide
theorem arg12_notA : main_arg12 ∉ opsA_W := by decide
theorem arg12_notB : main_arg12 ∉ opsB_W := by decide
theorem arg12_notC : main_arg12 ∉ opsC_W := by decide
theorem arg13_notA : main_arg13 ∉ opsA_W := by decide
theorem arg13_notB : main_arg13 ∉ opsB_W := by decide
theorem arg13_notC : main_arg13 ∉ opsC_W := by decide
theorem arg14_notA : main_arg14 ∉ opsA_W := by decide
theorem arg14_notB : main_arg14 ∉ opsB_W := by decide
theorem arg14_notC : main_arg14 ∉ opsC_W := by decide
theorem arg15_notA : main_arg15 ∉ opsA_W := by decide
theorem arg15_notB : main_arg15 ∉ opsB_W := by decide
theorem arg15_notC : main_arg15 ∉ opsC_W := by decide
theorem arg16_notA : main_arg16 ∉ opsA_W := by decide
theorem arg16_notB : main_arg16 ∉ opsB_W := by decide
theorem arg16_notC : main_arg16 ∉ opsC_W := by decide
theorem arg17_notA : main_arg17 ∉ opsA_W := by decide
theorem arg17_notB : main_arg17 ∉ opsB_W := by decide
theorem arg17_notC : main_arg17 ∉ opsC_W := by decide

theorem after_opsA_arg0 (V : Valuation τ sig (Elt F)) : after opsA V (Proc.devRef .tc main_arg0) = V (Proc.devRef .tc main_arg0) := after_opsA_of_not_mem V arg0_notA
theorem after_opsB_arg0 (V : Valuation τ sig (Elt F)) : after opsB V (Proc.devRef .tc main_arg0) = V (Proc.devRef .tc main_arg0) := after_opsB_of_not_mem V arg0_notB
theorem after_opsC_arg0 (V : Valuation τ sig (Elt F)) : after opsC V (Proc.devRef .tc main_arg0) = V (Proc.devRef .tc main_arg0) := after_opsC_of_not_mem V arg0_notC
theorem after_ops_arg0 (V : Valuation τ sig (Elt F)) : after ops V (Proc.devRef .tc main_arg0) = V (Proc.devRef .tc main_arg0) := after_ops_of_not_mem V arg0_notA arg0_notB arg0_notC
theorem after_opsA_arg1 (V : Valuation τ sig (Elt F)) : after opsA V (Proc.devRef .tc main_arg1) = V (Proc.devRef .tc main_arg1) := after_opsA_of_not_mem V arg1_notA
theorem after_opsB_arg1 (V : Valuation τ sig (Elt F)) : after opsB V (Proc.devRef .tc main_arg1) = V (Proc.devRef .tc main_arg1) := after_opsB_of_not_mem V arg1_notB
theorem after_opsC_arg1 (V : Valuation τ sig (Elt F)) : after opsC V (Proc.devRef .tc main_arg1) = V (Proc.devRef .tc main_arg1) := after_opsC_of_not_mem V arg1_notC
theorem after_ops_arg1 (V : Valuation τ sig (Elt F)) : after ops V (Proc.devRef .tc main_arg1) = V (Proc.devRef .tc main_arg1) := after_ops_of_not_mem V arg1_notA arg1_notB arg1_notC
theorem after_opsA_arg2 (V : Valuation τ sig (Elt F)) : after opsA V (Proc.devRef .tc main_arg2) = V (Proc.devRef .tc main_arg2) := after_opsA_of_not_mem V arg2_notA
theorem after_opsB_arg2 (V : Valuation τ sig (Elt F)) : after opsB V (Proc.devRef .tc main_arg2) = V (Proc.devRef .tc main_arg2) := after_opsB_of_not_mem V arg2_notB
theorem after_opsC_arg2 (V : Valuation τ sig (Elt F)) : after opsC V (Proc.devRef .tc main_arg2) = V (Proc.devRef .tc main_arg2) := after_opsC_of_not_mem V arg2_notC
theorem after_ops_arg2 (V : Valuation τ sig (Elt F)) : after ops V (Proc.devRef .tc main_arg2) = V (Proc.devRef .tc main_arg2) := after_ops_of_not_mem V arg2_notA arg2_notB arg2_notC
theorem after_opsA_arg3 (V : Valuation τ sig (Elt F)) : after opsA V (Proc.devRef .tc main_arg3) = V (Proc.devRef .tc main_arg3) := after_opsA_of_not_mem V arg3_notA
theorem after_opsB_arg3 (V : Valuation τ sig (Elt F)) : after opsB V (Proc.devRef .tc main_arg3) = V (Proc.devRef .tc main_arg3) := after_opsB_of_not_mem V arg3_notB
theorem after_opsC_arg3 (V : Valuation τ sig (Elt F)) : after opsC V (Proc.devRef .tc main_arg3) = V (Proc.devRef .tc main_arg3) := after_opsC_of_not_mem V arg3_notC
theorem after_ops_arg3 (V : Valuation τ sig (Elt F)) : after ops V (Proc.devRef .tc main_arg3) = V (Proc.devRef .tc main_arg3) := after_ops_of_not_mem V arg3_notA arg3_notB arg3_notC
theorem after_opsA_arg4 (V : Valuation τ sig (Elt F)) : after opsA V (Proc.devRef .tc main_arg4) = V (Proc.devRef .tc main_arg4) := after_opsA_of_not_mem V arg4_notA
theorem after_opsB_arg4 (V : Valuation τ sig (Elt F)) : after opsB V (Proc.devRef .tc main_arg4) = V (Proc.devRef .tc main_arg4) := after_opsB_of_not_mem V arg4_notB
theorem after_opsC_arg4 (V : Valuation τ sig (Elt F)) : after opsC V (Proc.devRef .tc main_arg4) = V (Proc.devRef .tc main_arg4) := after_opsC_of_not_mem V arg4_notC
theorem after_ops_arg4 (V : Valuation τ sig (Elt F)) : after ops V (Proc.devRef .tc main_arg4) = V (Proc.devRef .tc main_arg4) := after_ops_of_not_mem V arg4_notA arg4_notB arg4_notC
theorem after_opsA_arg5 (V : Valuation τ sig (Elt F)) : after opsA V (Proc.devRef .tc main_arg5) = V (Proc.devRef .tc main_arg5) := after_opsA_of_not_mem V arg5_notA
theorem after_opsB_arg5 (V : Valuation τ sig (Elt F)) : after opsB V (Proc.devRef .tc main_arg5) = V (Proc.devRef .tc main_arg5) := after_opsB_of_not_mem V arg5_notB
theorem after_opsC_arg5 (V : Valuation τ sig (Elt F)) : after opsC V (Proc.devRef .tc main_arg5) = V (Proc.devRef .tc main_arg5) := after_opsC_of_not_mem V arg5_notC
theorem after_ops_arg5 (V : Valuation τ sig (Elt F)) : after ops V (Proc.devRef .tc main_arg5) = V (Proc.devRef .tc main_arg5) := after_ops_of_not_mem V arg5_notA arg5_notB arg5_notC
theorem after_opsA_arg6 (V : Valuation τ sig (Elt F)) : after opsA V (Proc.devRef .tc main_arg6) = V (Proc.devRef .tc main_arg6) := after_opsA_of_not_mem V arg6_notA
theorem after_opsB_arg6 (V : Valuation τ sig (Elt F)) : after opsB V (Proc.devRef .tc main_arg6) = V (Proc.devRef .tc main_arg6) := after_opsB_of_not_mem V arg6_notB
theorem after_opsC_arg6 (V : Valuation τ sig (Elt F)) : after opsC V (Proc.devRef .tc main_arg6) = V (Proc.devRef .tc main_arg6) := after_opsC_of_not_mem V arg6_notC
theorem after_ops_arg6 (V : Valuation τ sig (Elt F)) : after ops V (Proc.devRef .tc main_arg6) = V (Proc.devRef .tc main_arg6) := after_ops_of_not_mem V arg6_notA arg6_notB arg6_notC
theorem after_opsA_arg7 (V : Valuation τ sig (Elt F)) : after opsA V (Proc.devRef .tc main_arg7) = V (Proc.devRef .tc main_arg7) := after_opsA_of_not_mem V arg7_notA
theorem after_opsB_arg7 (V : Valuation τ sig (Elt F)) : after opsB V (Proc.devRef .tc main_arg7) = V (Proc.devRef .tc main_arg7) := after_opsB_of_not_mem V arg7_notB
theorem after_opsC_arg7 (V : Valuation τ sig (Elt F)) : after opsC V (Proc.devRef .tc main_arg7) = V (Proc.devRef .tc main_arg7) := after_opsC_of_not_mem V arg7_notC
theorem after_ops_arg7 (V : Valuation τ sig (Elt F)) : after ops V (Proc.devRef .tc main_arg7) = V (Proc.devRef .tc main_arg7) := after_ops_of_not_mem V arg7_notA arg7_notB arg7_notC
theorem after_opsA_arg8 (V : Valuation τ sig (Elt F)) : after opsA V (Proc.devRef .tc main_arg8) = V (Proc.devRef .tc main_arg8) := after_opsA_of_not_mem V arg8_notA
theorem after_opsB_arg8 (V : Valuation τ sig (Elt F)) : after opsB V (Proc.devRef .tc main_arg8) = V (Proc.devRef .tc main_arg8) := after_opsB_of_not_mem V arg8_notB
theorem after_opsC_arg8 (V : Valuation τ sig (Elt F)) : after opsC V (Proc.devRef .tc main_arg8) = V (Proc.devRef .tc main_arg8) := after_opsC_of_not_mem V arg8_notC
theorem after_ops_arg8 (V : Valuation τ sig (Elt F)) : after ops V (Proc.devRef .tc main_arg8) = V (Proc.devRef .tc main_arg8) := after_ops_of_not_mem V arg8_notA arg8_notB arg8_notC
theorem after_opsA_arg9 (V : Valuation τ sig (Elt F)) : after opsA V (Proc.devRef .tc main_arg9) = V (Proc.devRef .tc main_arg9) := after_opsA_of_not_mem V arg9_notA
theorem after_opsB_arg9 (V : Valuation τ sig (Elt F)) : after opsB V (Proc.devRef .tc main_arg9) = V (Proc.devRef .tc main_arg9) := after_opsB_of_not_mem V arg9_notB
theorem after_opsC_arg9 (V : Valuation τ sig (Elt F)) : after opsC V (Proc.devRef .tc main_arg9) = V (Proc.devRef .tc main_arg9) := after_opsC_of_not_mem V arg9_notC
theorem after_ops_arg9 (V : Valuation τ sig (Elt F)) : after ops V (Proc.devRef .tc main_arg9) = V (Proc.devRef .tc main_arg9) := after_ops_of_not_mem V arg9_notA arg9_notB arg9_notC
theorem after_opsA_arg10 (V : Valuation τ sig (Elt F)) : after opsA V (Proc.devRef .tc main_arg10) = V (Proc.devRef .tc main_arg10) := after_opsA_of_not_mem V arg10_notA
theorem after_opsB_arg10 (V : Valuation τ sig (Elt F)) : after opsB V (Proc.devRef .tc main_arg10) = V (Proc.devRef .tc main_arg10) := after_opsB_of_not_mem V arg10_notB
theorem after_opsC_arg10 (V : Valuation τ sig (Elt F)) : after opsC V (Proc.devRef .tc main_arg10) = V (Proc.devRef .tc main_arg10) := after_opsC_of_not_mem V arg10_notC
theorem after_ops_arg10 (V : Valuation τ sig (Elt F)) : after ops V (Proc.devRef .tc main_arg10) = V (Proc.devRef .tc main_arg10) := after_ops_of_not_mem V arg10_notA arg10_notB arg10_notC
theorem after_opsA_arg11 (V : Valuation τ sig (Elt F)) : after opsA V (Proc.devRef .tc main_arg11) = V (Proc.devRef .tc main_arg11) := after_opsA_of_not_mem V arg11_notA
theorem after_opsB_arg11 (V : Valuation τ sig (Elt F)) : after opsB V (Proc.devRef .tc main_arg11) = V (Proc.devRef .tc main_arg11) := after_opsB_of_not_mem V arg11_notB
theorem after_opsC_arg11 (V : Valuation τ sig (Elt F)) : after opsC V (Proc.devRef .tc main_arg11) = V (Proc.devRef .tc main_arg11) := after_opsC_of_not_mem V arg11_notC
theorem after_ops_arg11 (V : Valuation τ sig (Elt F)) : after ops V (Proc.devRef .tc main_arg11) = V (Proc.devRef .tc main_arg11) := after_ops_of_not_mem V arg11_notA arg11_notB arg11_notC
theorem after_opsA_arg12 (V : Valuation τ sig (Elt F)) : after opsA V (Proc.devRef .tc main_arg12) = V (Proc.devRef .tc main_arg12) := after_opsA_of_not_mem V arg12_notA
theorem after_opsB_arg12 (V : Valuation τ sig (Elt F)) : after opsB V (Proc.devRef .tc main_arg12) = V (Proc.devRef .tc main_arg12) := after_opsB_of_not_mem V arg12_notB
theorem after_opsC_arg12 (V : Valuation τ sig (Elt F)) : after opsC V (Proc.devRef .tc main_arg12) = V (Proc.devRef .tc main_arg12) := after_opsC_of_not_mem V arg12_notC
theorem after_ops_arg12 (V : Valuation τ sig (Elt F)) : after ops V (Proc.devRef .tc main_arg12) = V (Proc.devRef .tc main_arg12) := after_ops_of_not_mem V arg12_notA arg12_notB arg12_notC
theorem after_opsA_arg13 (V : Valuation τ sig (Elt F)) : after opsA V (Proc.devRef .tc main_arg13) = V (Proc.devRef .tc main_arg13) := after_opsA_of_not_mem V arg13_notA
theorem after_opsB_arg13 (V : Valuation τ sig (Elt F)) : after opsB V (Proc.devRef .tc main_arg13) = V (Proc.devRef .tc main_arg13) := after_opsB_of_not_mem V arg13_notB
theorem after_opsC_arg13 (V : Valuation τ sig (Elt F)) : after opsC V (Proc.devRef .tc main_arg13) = V (Proc.devRef .tc main_arg13) := after_opsC_of_not_mem V arg13_notC
theorem after_ops_arg13 (V : Valuation τ sig (Elt F)) : after ops V (Proc.devRef .tc main_arg13) = V (Proc.devRef .tc main_arg13) := after_ops_of_not_mem V arg13_notA arg13_notB arg13_notC
theorem after_opsA_arg14 (V : Valuation τ sig (Elt F)) : after opsA V (Proc.devRef .tc main_arg14) = V (Proc.devRef .tc main_arg14) := after_opsA_of_not_mem V arg14_notA
theorem after_opsB_arg14 (V : Valuation τ sig (Elt F)) : after opsB V (Proc.devRef .tc main_arg14) = V (Proc.devRef .tc main_arg14) := after_opsB_of_not_mem V arg14_notB
theorem after_opsC_arg14 (V : Valuation τ sig (Elt F)) : after opsC V (Proc.devRef .tc main_arg14) = V (Proc.devRef .tc main_arg14) := after_opsC_of_not_mem V arg14_notC
theorem after_ops_arg14 (V : Valuation τ sig (Elt F)) : after ops V (Proc.devRef .tc main_arg14) = V (Proc.devRef .tc main_arg14) := after_ops_of_not_mem V arg14_notA arg14_notB arg14_notC
theorem after_opsA_arg15 (V : Valuation τ sig (Elt F)) : after opsA V (Proc.devRef .tc main_arg15) = V (Proc.devRef .tc main_arg15) := after_opsA_of_not_mem V arg15_notA
theorem after_opsB_arg15 (V : Valuation τ sig (Elt F)) : after opsB V (Proc.devRef .tc main_arg15) = V (Proc.devRef .tc main_arg15) := after_opsB_of_not_mem V arg15_notB
theorem after_opsC_arg15 (V : Valuation τ sig (Elt F)) : after opsC V (Proc.devRef .tc main_arg15) = V (Proc.devRef .tc main_arg15) := after_opsC_of_not_mem V arg15_notC
theorem after_ops_arg15 (V : Valuation τ sig (Elt F)) : after ops V (Proc.devRef .tc main_arg15) = V (Proc.devRef .tc main_arg15) := after_ops_of_not_mem V arg15_notA arg15_notB arg15_notC
theorem after_opsA_arg16 (V : Valuation τ sig (Elt F)) : after opsA V (Proc.devRef .tc main_arg16) = V (Proc.devRef .tc main_arg16) := after_opsA_of_not_mem V arg16_notA
theorem after_opsB_arg16 (V : Valuation τ sig (Elt F)) : after opsB V (Proc.devRef .tc main_arg16) = V (Proc.devRef .tc main_arg16) := after_opsB_of_not_mem V arg16_notB
theorem after_opsC_arg16 (V : Valuation τ sig (Elt F)) : after opsC V (Proc.devRef .tc main_arg16) = V (Proc.devRef .tc main_arg16) := after_opsC_of_not_mem V arg16_notC
theorem after_ops_arg16 (V : Valuation τ sig (Elt F)) : after ops V (Proc.devRef .tc main_arg16) = V (Proc.devRef .tc main_arg16) := after_ops_of_not_mem V arg16_notA arg16_notB arg16_notC
theorem after_opsA_arg17 (V : Valuation τ sig (Elt F)) : after opsA V (Proc.devRef .tc main_arg17) = V (Proc.devRef .tc main_arg17) := after_opsA_of_not_mem V arg17_notA
theorem after_opsB_arg17 (V : Valuation τ sig (Elt F)) : after opsB V (Proc.devRef .tc main_arg17) = V (Proc.devRef .tc main_arg17) := after_opsB_of_not_mem V arg17_notB
theorem after_opsC_arg17 (V : Valuation τ sig (Elt F)) : after opsC V (Proc.devRef .tc main_arg17) = V (Proc.devRef .tc main_arg17) := after_opsC_of_not_mem V arg17_notC
theorem after_ops_arg17 (V : Valuation τ sig (Elt F)) : after ops V (Proc.devRef .tc main_arg17) = V (Proc.devRef .tc main_arg17) := after_ops_of_not_mem V arg17_notA arg17_notB arg17_notC

end Cert.ReferenceIdeal.RunP

end
-- ==== Proof.RefFrame.lean ====
/-
  The reference runs and leaves its arguments as launched: its run ends with every buffer at the fold of the
  operations' results over the launch contents, and no operation writes an argument, so at each of the eighteen
  argument buffers the fold is the launch contents.
-/
import proofs.«163521_j41618233098847_2_alg».proof.Proof.RefWrites
import proofs.«163521_j41618233098847_2_alg».proof.Defs
import proofs.«163521_j41618233098847_2_alg».proof.Proof.Gen.Pre_finite_inputs

noncomputable section

namespace Cert.ReferenceIdeal.RunP

open Cert.ReferenceIdeal Cert.ReferenceIdeal.Gen Idealize.ShloMosaic Idealize.ShloMosaic.TcCoe Idealize.SL.Sem Idealize.ShloMosaic.StableHlo

/-- `Cert.frame_ReferenceIdeal`: the run over the extended reals, read at the argument buffers. -/
theorem frame_ri : Cert.frame_ReferenceIdeal := by
  intro m g _
  refine (θ_run (defs (F := Ideal)) _ _).mono (fun r h c => ?_) (Cert.ReferenceIdeal.RunP.run (F := Ideal) m g)
  exact ⟨(h c main_arg0).trans (after_ops_arg0 _),
    (h c main_arg1).trans (after_ops_arg1 _),
    (h c main_arg2).trans (after_ops_arg2 _),
    (h c main_arg3).trans (after_ops_arg3 _),
    (h c main_arg4).trans (after_ops_arg4 _),
    (h c main_arg5).trans (after_ops_arg5 _),
    (h c main_arg6).trans (after_ops_arg6 _),
    (h c main_arg7).trans (after_ops_arg7 _),
    (h c main_arg8).trans (after_ops_arg8 _),
    (h c main_arg9).trans (after_ops_arg9 _),
    (h c main_arg10).trans (after_ops_arg10 _),
    (h c main_arg11).trans (after_ops_arg11 _),
    (h c main_arg12).trans (after_ops_arg12 _),
    (h c main_arg13).trans (after_ops_arg13 _),
    (h c main_arg14).trans (after_ops_arg14 _),
    (h c main_arg15).trans (after_ops_arg15 _),
    (h c main_arg16).trans (after_ops_arg16 _),
    (h c main_arg17).trans (after_ops_arg17 _)⟩

end Cert.ReferenceIdeal.RunP

end
-- ==== Proof.RefVals.lean ====
/-
  The reference's three results as the stage functions of the arguments.

  The reference program is a straight line of 278 host operations, and its final buffers are the fold of those
  operations over the launch contents. Each stage function of the Read module is the value one operation writes, given
  as that operation applied to the stage functions of its operands, down to the arguments. So the fold read at a
  result's buffer and the result's stage function are the SAME composition of the same operations of the same argument
  arrays: the fold looks each operand up through the earlier operations' updates (a buffer is written once, and the
  lookup passes every other write by the references' decidable inequality), the stage function names it. The two sides
  are therefore equal by computation alone, at any float instance. The comparison is left to the kernel's own
  conversion check, which shares the repeated parts (the second layer reads the first layer's rows four times, each
  read-out the normalized rows several times); written out as one tree the results would be terms of megabytes.
-/
import proofs.«163521_j41618233098847_2_alg».proof.Proof.RefWrites
import proofs.«163521_j41618233098847_2_alg».proof.Proof.RefRead
import Idealize.ShloMosaic.Lib.Pipeline.Regions

noncomputable section

namespace Cert.ReferenceIdeal.Vals

open Cert.ReferenceIdeal Cert.ReferenceIdeal.Gen Idealize.ShloMosaic Idealize.ShloMosaic.TcCoe Idealize.SL.Sem Idealize.ShloMosaic.StableHlo
open Idealize.ShloMosaic.Pipeline

variable {F : FTy → Type} [FloatOps F]
variable (m : (ℓ : Loc nD τ sig) → Buf (Elt F) ℓ) (c : Dev nD)

set_option maxRecDepth 1000000 in
/-- The first result: the normalized node rows after both layers, reshaped graph by graph. -/
theorem v236_eq : after RunP.ops (launchContents m c) (Proc.devRef .tc main_v236) = ReadP.val_main_v236 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  chain_rfl

set_option maxRecDepth 1000000 in
/-- The second result: the first read-out of the normalized rows. -/
theorem v210_eq : after RunP.ops (launchContents m c) (Proc.devRef .tc main_v210) = ReadP.val_main_v210 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  chain_rfl

set_option maxRecDepth 1000000 in
/-- The third result: the second read-out of the normalized rows. -/
theorem v235_eq : after RunP.ops (launchContents m c) (Proc.devRef .tc main_v235) = ReadP.val_main_v235 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg16)) (m ((c.tc : Thread nD τ).loc main_arg17)) := by
  chain_rfl

end Cert.ReferenceIdeal.Vals

end
-- ==== Proof.RefLayer1.lean ====
/-
  The reference program's message-passing layer read index by index.

  The reference lays the edge list out twice (first ends then second ends, and the other way round), gathers the
  node rows at both lists (a negative index word wrapped by the number of rows, the start then clamped), joins each
  pair of rows into one row of 256 features, multiplies the first half of the edges by the forward weights and the
  second half by the reverse weights, adds the biases, and scatter-adds all 524288 message rows at the second list
  into a zero matrix; the gated recurrent cell then reads the aggregate and the node's own row. Each stage is read
  here at explicit coordinates, and the last theorem says the layer's result is `Spec.lay` of the rows it started from.
-/
import proofs.«163521_j41618233098847_2_alg».proof.Proof.RefRead
import proofs.«163521_j41618233098847_2_alg».proof.Proof.Spec
import proofs.«163521_j41618233098847_2_alg».proof.Proof.LibIndex
import Mathlib.Algebra.BigOperators.Fin

noncomputable section

open scoped BigOperators

namespace Cert.ReferenceIdeal.Math

open Cert.ReferenceIdeal Cert.ReferenceIdeal.Gen Cert.ReferenceIdeal.ReadP Idealize.ShloMosaic Idealize.ShloMosaic.ValueIdx
  Idealize.ShloMosaic.TcCoe Idealize.ShloMosaic.StableHlo Cert.LibIndex

/-! ## Two equal pieces laid end to end, read at an index -/

section Pieces
variable {α : Type}

/-- Two vectors of `n` entries end to end: entry `k` lies in the first. -/
theorem cat1_lo {n m : Nat} (hc : Shape.Concatenates [(⟨1, ![n]⟩ : Shape), ⟨1, ![n]⟩] ⟨1, ![m]⟩ (0 : Fin 1))
    (x y : (⟨1, ![n]⟩ : Shape).Idx → α) (k : Fin n) (hk : k.val < m) :
    concatenate ⟨1, ![m]⟩ (0 : Fin 1) [⟨⟨1, ![n]⟩, x⟩, ⟨⟨1, ![n]⟩, y⟩] hc (ix1 ⟨k.val, hk⟩) = x (ix1 k) :=
  concatenate_pair_apply_left (t := ⟨1, ![m]⟩) (s₁ := ⟨1, ![n]⟩) (s₂ := ⟨1, ![n]⟩) (0 : Fin 1) x y hc _ rfl (ix1 k)
    (fun b => match b with | ⟨0, _⟩ => rfl)

/-- Entry `n + k` is entry `k` of the second. -/
theorem cat1_hi {n m : Nat} (hc : Shape.Concatenates [(⟨1, ![n]⟩ : Shape), ⟨1, ![n]⟩] ⟨1, ![m]⟩ (0 : Fin 1))
    (x y : (⟨1, ![n]⟩ : Shape).Idx → α) (k : Fin n) (hk : n + k.val < m) :
    concatenate ⟨1, ![m]⟩ (0 : Fin 1) [⟨⟨1, ![n]⟩, x⟩, ⟨⟨1, ![n]⟩, y⟩] hc (ix1 ⟨n + k.val, hk⟩) = y (ix1 k) :=
  concatenate_pair_apply_right (t := ⟨1, ![m]⟩) (s₁ := ⟨1, ![n]⟩) (s₂ := ⟨1, ![n]⟩) (0 : Fin 1) x y hc _ rfl rfl (ix1 k)
    (fun b => match b with | ⟨0, _⟩ => fun hb => absurd rfl hb)
    (by show k.val + n = n + k.val; omega)

/-- Two matrices of `n` rows one above the other: row `k` lies in the first. -/
theorem cat2r_lo {n m c : Nat} (hc : Shape.Concatenates [(⟨2, ![n, c]⟩ : Shape), ⟨2, ![n, c]⟩] ⟨2, ![m, c]⟩ (0 : Fin 2))
    (x y : (⟨2, ![n, c]⟩ : Shape).Idx → α) (k : Fin n) (hk : k.val < m) (j : Fin c) :
    concatenate ⟨2, ![m, c]⟩ (0 : Fin 2) [⟨⟨2, ![n, c]⟩, x⟩, ⟨⟨2, ![n, c]⟩, y⟩] hc (ix2 ⟨k.val, hk⟩ j) = x (ix2 k j) :=
  concatenate_pair_apply_left (t := ⟨2, ![m, c]⟩) (s₁ := ⟨2, ![n, c]⟩) (s₂ := ⟨2, ![n, c]⟩) (0 : Fin 2) x y hc _ rfl (ix2 k j)
    (fun b => match b with | ⟨0, _⟩ => rfl | ⟨1, _⟩ => rfl)

/-- Row `n + k` is row `k` of the second. -/
theorem cat2r_hi {n m c : Nat} (hc : Shape.Concatenates [(⟨2, ![n, c]⟩ : Shape), ⟨2, ![n, c]⟩] ⟨2, ![m, c]⟩ (0 : Fin 2))
    (x y : (⟨2, ![n, c]⟩ : Shape).Idx → α) (k : Fin n) (hk : n + k.val < m) (j : Fin c) :
    concatenate ⟨2, ![m, c]⟩ (0 : Fin 2) [⟨⟨2, ![n, c]⟩, x⟩, ⟨⟨2, ![n, c]⟩, y⟩] hc (ix2 ⟨n + k.val, hk⟩ j) = y (ix2 k j) :=
  concatenate_pair_apply_right (t := ⟨2, ![m, c]⟩) (s₁ := ⟨2, ![n, c]⟩) (s₂ := ⟨2, ![n, c]⟩) (0 : Fin 2) x y hc _ rfl rfl (ix2 k j)
    (fun b => match b with | ⟨0, _⟩ => fun hb => absurd rfl hb | ⟨1, _⟩ => fun _ => rfl)
    (by show k.val + n = n + k.val; omega)

/-- Two matrices of `n` columns side by side: column `k` lies in the first. -/
theorem cat2c_lo {r n m : Nat} (hc : Shape.Concatenates [(⟨2, ![r, n]⟩ : Shape), ⟨2, ![r, n]⟩] ⟨2, ![r, m]⟩ (1 : Fin 2))
    (x y : (⟨2, ![r, n]⟩ : Shape).Idx → α) (e : Fin r) (k : Fin n) (hk : k.val < m) :
    concatenate ⟨2, ![r, m]⟩ (1 : Fin 2) [⟨⟨2, ![r, n]⟩, x⟩, ⟨⟨2, ![r, n]⟩, y⟩] hc (ix2 e ⟨k.val, hk⟩) = x (ix2 e k) :=
  concatenate_pair_apply_left (t := ⟨2, ![r, m]⟩) (s₁ := ⟨2, ![r, n]⟩) (s₂ := ⟨2, ![r, n]⟩) (1 : Fin 2) x y hc _ rfl (ix2 e k)
    (fun b => match b with | ⟨0, _⟩ => rfl | ⟨1, _⟩ => rfl)

/-- Column `n + k` is column `k` of the second. -/
theorem cat2c_hi {r n m : Nat} (hc : Shape.Concatenates [(⟨2, ![r, n]⟩ : Shape), ⟨2, ![r, n]⟩] ⟨2, ![r, m]⟩ (1 : Fin 2))
    (x y : (⟨2, ![r, n]⟩ : Shape).Idx → α) (e : Fin r) (k : Fin n) (hk : n + k.val < m) :
    concatenate ⟨2, ![r, m]⟩ (1 : Fin 2) [⟨⟨2, ![r, n]⟩, x⟩, ⟨⟨2, ![r, n]⟩, y⟩] hc (ix2 e ⟨n + k.val, hk⟩) = y (ix2 e k) :=
  concatenate_pair_apply_right (t := ⟨2, ![r, m]⟩) (s₁ := ⟨2, ![r, n]⟩) (s₂ := ⟨2, ![r, n]⟩) (1 : Fin 2) x y hc _ rfl rfl (ix2 e k)
    (fun b => match b with | ⟨0, _⟩ => fun _ => rfl | ⟨1, _⟩ => fun hb => absurd rfl hb)
    (by show k.val + n = n + k.val; omega)

/-- Side by side, at any column: the first piece below `n`, the second from `n` on. -/
theorem cat2c_apply {r n m : Nat} (hm : m = n + n)
    (hc : Shape.Concatenates [(⟨2, ![r, n]⟩ : Shape), ⟨2, ![r, n]⟩] ⟨2, ![r, m]⟩ (1 : Fin 2))
    (x y : (⟨2, ![r, n]⟩ : Shape).Idx → α) (e : Fin r) (j : Fin m) :
    concatenate ⟨2, ![r, m]⟩ (1 : Fin 2) [⟨⟨2, ![r, n]⟩, x⟩, ⟨⟨2, ![r, n]⟩, y⟩] hc (ix2 e j)
      = if h : j.val < n then x (ix2 e ⟨j.val, h⟩) else y (ix2 e ⟨j.val - n, by have := j.isLt; omega⟩) := by
  by_cases h : j.val < n
  · rw [dif_pos h]
    exact cat2c_lo hc x y e ⟨j.val, h⟩ j.isLt
  · rw [dif_neg h]
    have hlt : n + (j.val - n) < m := by have := j.isLt; omega
    have hj : j = ⟨n + (j.val - n), hlt⟩ := Fin.ext (by show j.val = n + (j.val - n); omega)
    exact (congrArg (fun t => concatenate ⟨2, ![r, m]⟩ (1 : Fin 2) [⟨⟨2, ![r, n]⟩, x⟩, ⟨⟨2, ![r, n]⟩, y⟩] hc (ix2 e t)) hj).trans
      (cat2c_hi hc x y e ⟨j.val - n, by have := j.isLt; omega⟩ hlt)

end Pieces

/-! ## Small facts -/

/-- The literal `1.0` is the extended real `1`. -/
theorem lit_one : Ideal.ofBits .f32 0x3F800000#32 = (1 : EReal) := by
  simp [Ideal.ofBits, Ideal.ieee, -EReal.coe_mul]; norm_num

/-- A sum over the doubled edge list is the sum over its first half plus the sum over its second half. -/
theorem sum_edges2 (f : Fin 524288 → EReal) :
    ∑ k : Fin 524288, f k
      = (∑ k : Fin 262144, f ⟨k.val, by have := k.isLt; omega⟩) + ∑ k : Fin 262144, f ⟨262144 + k.val, by have := k.isLt; omega⟩ :=
  Fin.sum_univ_add (a := 262144) (b := 262144) f

/-- The wrap-around of an index word: a negative word is raised by the number of rows. -/
def wrap (w : BitVec 32) : BitVec 32 := if w.slt 0#32 then w + 32768#32 else w

/-- The wrap-around as the reference's compare, add and select spell it. -/
theorem select_wrap (w : BitVec 32) :
    Scalar.select (IntOp.cmpi .slt w 0#32) (IntOp.addi w 32768#32) w = wrap w := by
  unfold wrap
  cases h : w.slt 0#32 <;> simp [Scalar.select, IntOp.cmpi, IntOp.addi, h]

/-- An index vector as a one-column matrix, read at its only column. -/
theorem col0_eq (e : Fin 524288) (f : S524288x1.Idx → S524288.Idx)
    (hf : ∀ i : S524288x1.Idx, (f i 0).val = (i 0).val) : f (ix2 e (0 : Fin 1)) = ix1 e :=
  funext fun a => match a with | ⟨0, _⟩ => Fin.ext (hf _)

/-! ## The node rows and the edge list -/

section Rows
variable {x1 : (⟨S2x262144, .i32⟩ : BufTy).Contents (Elt Ideal)}

/-- The first reshape: node `v` is row `v % 128` of graph `v / 128`. -/
theorem ref_rows (x0 : (⟨S256x128x128, .f32⟩ : BufTy).Contents (Elt Ideal)) (v : Fin 32768) (j : Fin 128) :
    val_main_v0 x0 (ix2 v j) = Spec.rows x0 v j := by
  rw [val_main_v0_apply]
  unfold Spec.rows
  refine congrArg x0 (funext fun a => Fin.ext ?_)
  have hv := v.isLt; have hj := j.isLt
  match a with
  | ⟨0, _⟩ => show (v.val * 128 + j.val) / 16384 = v.val / 128; omega
  | ⟨1, _⟩ => show (v.val * 128 + j.val) / 128 % 128 = v.val % 128; omega
  | ⟨2, _⟩ => show (v.val * 128 + j.val) % 128 = j.val; omega

/-- The four vectors cut out of the edge list: its first row twice, its second row twice. -/
theorem v2_at (k : Fin 262144) : val_main_v2 x1 (ix1 k) = x1 (ix2 (0 : Fin 2) k) := by
  rw [val_main_v2_apply, val_main_v1_apply]
  refine congrArg x1 (funext fun a => Fin.ext ?_)
  match a with
  | ⟨0, _⟩ => rfl
  | ⟨1, _⟩ => exact Nat.mod_eq_of_lt k.isLt

theorem v4_at (k : Fin 262144) : val_main_v4 x1 (ix1 k) = x1 (ix2 (1 : Fin 2) k) := by
  rw [val_main_v4_apply, val_main_v3_apply]
  refine congrArg x1 (funext fun a => Fin.ext ?_)
  match a with
  | ⟨0, _⟩ => rfl
  | ⟨1, _⟩ => exact Nat.mod_eq_of_lt k.isLt

theorem v7_at (k : Fin 262144) : val_main_v7 x1 (ix1 k) = x1 (ix2 (1 : Fin 2) k) := by
  rw [val_main_v7_apply, val_main_v6_apply]
  refine congrArg x1 (funext fun a => Fin.ext ?_)
  match a with
  | ⟨0, _⟩ => rfl
  | ⟨1, _⟩ => exact Nat.mod_eq_of_lt k.isLt

theorem v9_at (k : Fin 262144) : val_main_v9 x1 (ix1 k) = x1 (ix2 (0 : Fin 2) k) := by
  rw [val_main_v9_apply, val_main_v8_apply]
  refine congrArg x1 (funext fun a => Fin.ext ?_)
  match a with
  | ⟨0, _⟩ => rfl
  | ⟨1, _⟩ => exact Nat.mod_eq_of_lt k.isLt

/-- The first doubled list: first ends, then second ends. -/
theorem v5_lo (k : Fin 262144) : val_main_v5 x1 (ix1 ⟨k.val, by have := k.isLt; omega⟩) = x1 (ix2 (0 : Fin 2) k) := by
  unfold val_main_v5
  exact (cat1_lo concatenates_S262144_S262144_S524288_d0 (val_main_v2 x1) (val_main_v4 x1) k _).trans (v2_at k)

theorem v5_hi (k : Fin 262144) : val_main_v5 x1 (ix1 ⟨262144 + k.val, by have := k.isLt; omega⟩) = x1 (ix2 (1 : Fin 2) k) := by
  unfold val_main_v5
  exact (cat1_hi concatenates_S262144_S262144_S524288_d0 (val_main_v2 x1) (val_main_v4 x1) k _).trans (v4_at k)

/-- The second doubled list: second ends, then first ends. -/
theorem v10_lo (k : Fin 262144) : val_main_v10 x1 (ix1 ⟨k.val, by have := k.isLt; omega⟩) = x1 (ix2 (1 : Fin 2) k) := by
  unfold val_main_v10
  exact (cat1_lo concatenates_S262144_S262144_S524288_d0 (val_main_v7 x1) (val_main_v9 x1) k _).trans (v7_at k)

theorem v10_hi (k : Fin 262144) : val_main_v10 x1 (ix1 ⟨262144 + k.val, by have := k.isLt; omega⟩) = x1 (ix2 (0 : Fin 2) k) := by
  unfold val_main_v10
  exact (cat1_hi concatenates_S262144_S262144_S524288_d0 (val_main_v7 x1) (val_main_v9 x1) k _).trans (v9_at k)

end Rows

/-! ## The layer -/

section Layer
variable {x0 : (⟨S256x128x128, .f32⟩ : BufTy).Contents (Elt Ideal)} {x1 : (⟨S2x262144, .i32⟩ : BufTy).Contents (Elt Ideal)}
  {x2 : (⟨S2x256x256, .f32⟩ : BufTy).Contents (Elt Ideal)} {x3 : (⟨S2x256, .f32⟩ : BufTy).Contents (Elt Ideal)}
  {x4 : (⟨S2x256x256, .f32⟩ : BufTy).Contents (Elt Ideal)} {x5 : (⟨S2x256, .f32⟩ : BufTy).Contents (Elt Ideal)}
  {x6 : (⟨S2x384x256, .f32⟩ : BufTy).Contents (Elt Ideal)} {x7 : (⟨S2x384x128, .f32⟩ : BufTy).Contents (Elt Ideal)}
  {x8 x9 : (⟨S2x384, .f32⟩ : BufTy).Contents (Elt Ideal)}

/-- The slice of the stacked weights this layer reads. -/
local notation "ℓ" => (0 : Fin 2)

/-! ### The gathered rows -/

/-- A word of the first doubled list after the wrap-around. -/
theorem l1_wrapA (i : S524288.Idx) :
    val_main_v15 x1 i = wrap (val_main_v5 x1 i) := by
  rw [val_main_v15_apply, val_main_v12_apply, val_main_v14_apply, val_main_v11_apply, val_main_c_apply,
    val_main_v13_apply, val_main_c_0_apply]
  exact select_wrap _

/-- A word of the second doubled list after the wrap-around. -/
theorem l1_wrapB (i : S524288.Idx) :
    val_main_v22 x1 i = wrap (val_main_v10 x1 i) := by
  rw [val_main_v22_apply, val_main_v19_apply, val_main_v21_apply, val_main_v18_apply, val_main_c_1_apply,
    val_main_v20_apply, val_main_c_2_apply]
  exact select_wrap _

/-- The rows gathered at the first doubled list. -/
theorem l1_gatherA (e : Fin 524288) (c : Fin 128) :
    val_main_v17 x0 x1 (ix2 e c) = val_main_v0 x0 (ix2 (Spec.gat (val_main_v5 x1 (ix1 e))) c) := by
  unfold val_main_v17
  refine (gather_row_apply_of (N := 32768) (C := 128) (R := 524288) (by decide)
    gather_S32768x128_S524288x1_S524288x128_1_0_n_n_0_1_1128 rfl rfl rfl rfl rfl rfl rfl (val_main_v0 x0) (val_main_v16 x1) e c).trans ?_
  have h16 : val_main_v16 x1 (ix2 e (0 : Fin 1))
      = wrap (val_main_v5 x1 (ix1 e)) := by
    rw [val_main_v16_apply, col0_eq e idx_main_v16 (fun _ => rfl)]
    exact l1_wrapA _
  refine congrArg (fun r => val_main_v0 x0 (ix2 r c)) (Fin.ext ?_)
  show min (BitVec.toInt (val_main_v16 x1 (ix2 e (0 : Fin 1)))).toNat 32767 = min (BitVec.toInt (wrap (val_main_v5 x1 (ix1 e)))).toNat 32767
  rw [h16]

/-- The rows gathered at the second doubled list. -/
theorem l1_gatherB (e : Fin 524288) (c : Fin 128) :
    val_main_v24 x0 x1 (ix2 e c) = val_main_v0 x0 (ix2 (Spec.gat (val_main_v10 x1 (ix1 e))) c) := by
  unfold val_main_v24
  refine (gather_row_apply_of (N := 32768) (C := 128) (R := 524288) (by decide)
    gather_S32768x128_S524288x1_S524288x128_1_0_n_n_0_1_1128 rfl rfl rfl rfl rfl rfl rfl (val_main_v0 x0) (val_main_v23 x1) e c).trans ?_
  have h23 : val_main_v23 x1 (ix2 e (0 : Fin 1))
      = wrap (val_main_v10 x1 (ix1 e)) := by
    rw [val_main_v23_apply, col0_eq e idx_main_v23 (fun _ => rfl)]
    exact l1_wrapB _
  refine congrArg (fun r => val_main_v0 x0 (ix2 r c)) (Fin.ext ?_)
  show min (BitVec.toInt (val_main_v23 x1 (ix2 e (0 : Fin 1)))).toNat 32767 = min (BitVec.toInt (wrap (val_main_v10 x1 (ix1 e)))).toNat 32767
  rw [h23]

/-- The pair of gathered rows as one row of 256 features. -/
theorem l1_pair (e : Fin 524288) (j : Fin 256) :
    val_main_v25 x0 x1 (ix2 e j)
      = if h : j.val < 128 then val_main_v0 x0 (ix2 (Spec.gat (val_main_v5 x1 (ix1 e))) ⟨j.val, h⟩)
        else val_main_v0 x0 (ix2 (Spec.gat (val_main_v10 x1 (ix1 e))) ⟨j.val - 128, by have := j.isLt; omega⟩) := by
  unfold val_main_v25
  refine (cat2c_apply (n := 128) rfl concatenates_S524288x128_S524288x128_S524288x256_d1 (val_main_v17 x0 x1) (val_main_v24 x0 x1) e j).trans ?_
  simp only [l1_gatherA, l1_gatherB]

/-- The two halves of the pair rows. -/
theorem l1_halfA (k : Fin 262144) (j : Fin 256) :
    val_main_v26 x0 x1 (ix2 k j) = val_main_v25 x0 x1 (ix2 ⟨k.val, by have := k.isLt; omega⟩ j) := by
  rw [val_main_v26_apply]
  exact congrArg (val_main_v25 x0 x1) (funext fun a => match a with | ⟨0, _⟩ => rfl | ⟨1, _⟩ => rfl)

theorem l1_halfB (k : Fin 262144) (j : Fin 256) :
    val_main_v36 x0 x1 (ix2 k j) = val_main_v25 x0 x1 (ix2 ⟨262144 + k.val, by have := k.isLt; omega⟩ j) := by
  rw [val_main_v36_apply]
  exact congrArg (val_main_v25 x0 x1) (funext fun a => match a with | ⟨0, _⟩ => rfl | ⟨1, _⟩ => rfl)

/-! ### The weights and biases, as the program slices, reshapes, transposes and broadcasts them -/

theorem l1_wm (j c : Fin 256) : val_main_v29 x2 (ix2 j c) = x2 (ix3 ℓ c j) := by
  rw [val_main_v29_apply, val_main_v28_apply, val_main_v27_apply]
  refine congrArg x2 (funext fun a => Fin.ext ?_)
  have hj := j.isLt; have hc := c.isLt
  match a with
  | ⟨0, _⟩ => rfl
  | ⟨1, _⟩ => show (c.val * 256 + j.val) / 256 % 256 = c.val; omega
  | ⟨2, _⟩ => show (c.val * 256 + j.val) % 256 = j.val; omega

theorem l1_wr (j c : Fin 256) : val_main_v39 x4 (ix2 j c) = x4 (ix3 ℓ c j) := by
  rw [val_main_v39_apply, val_main_v38_apply, val_main_v37_apply]
  refine congrArg x4 (funext fun a => Fin.ext ?_)
  have hj := j.isLt; have hc := c.isLt
  match a with
  | ⟨0, _⟩ => rfl
  | ⟨1, _⟩ => show (c.val * 256 + j.val) / 256 % 256 = c.val; omega
  | ⟨2, _⟩ => show (c.val * 256 + j.val) % 256 = j.val; omega

theorem l1_wih (k : Fin 256) (g : Fin 384) : val_main_v52 x6 (ix2 k g) = x6 (ix3 ℓ g k) := by
  rw [val_main_v52_apply, val_main_v51_apply, val_main_v50_apply]
  refine congrArg x6 (funext fun a => Fin.ext ?_)
  have hk := k.isLt; have hg := g.isLt
  match a with
  | ⟨0, _⟩ => rfl
  | ⟨1, _⟩ => show (g.val * 256 + k.val) / 256 % 384 = g.val; omega
  | ⟨2, _⟩ => show (g.val * 256 + k.val) % 256 = k.val; omega

theorem l1_whh (k : Fin 128) (g : Fin 384) : val_main_v61 x7 (ix2 k g) = x7 (ix3 ℓ g k) := by
  rw [val_main_v61_apply, val_main_v60_apply, val_main_v59_apply]
  refine congrArg x7 (funext fun a => Fin.ext ?_)
  have hk := k.isLt; have hg := g.isLt
  match a with
  | ⟨0, _⟩ => rfl
  | ⟨1, _⟩ => show (g.val * 128 + k.val) / 128 % 384 = g.val; omega
  | ⟨2, _⟩ => show (g.val * 128 + k.val) % 128 = k.val; omega

theorem l1_bm (k : Fin 262144) (c : Fin 256) : val_main_v34 x3 (ix2 k c) = x3 (ix2 ℓ c) := by
  rw [val_main_v34_apply, val_main_v33_apply, val_main_v32_apply, val_main_v31_apply]
  refine congrArg x3 (funext fun a => Fin.ext ?_)
  match a with
  | ⟨0, _⟩ => rfl
  | ⟨1, _⟩ => exact Nat.mod_eq_of_lt c.isLt

theorem l1_br (k : Fin 262144) (c : Fin 256) : val_main_v44 x5 (ix2 k c) = x5 (ix2 ℓ c) := by
  rw [val_main_v44_apply, val_main_v43_apply, val_main_v42_apply, val_main_v41_apply]
  refine congrArg x5 (funext fun a => Fin.ext ?_)
  match a with
  | ⟨0, _⟩ => rfl
  | ⟨1, _⟩ => exact Nat.mod_eq_of_lt c.isLt

theorem l1_bih (v : Fin 32768) (g : Fin 384) : val_main_v57 x8 (ix2 v g) = x8 (ix2 ℓ g) := by
  rw [val_main_v57_apply, val_main_v56_apply, val_main_v55_apply, val_main_v54_apply]
  refine congrArg x8 (funext fun a => Fin.ext ?_)
  match a with
  | ⟨0, _⟩ => rfl
  | ⟨1, _⟩ => exact Nat.mod_eq_of_lt g.isLt

theorem l1_bhh (v : Fin 32768) (g : Fin 384) : val_main_v66 x9 (ix2 v g) = x9 (ix2 ℓ g) := by
  rw [val_main_v66_apply, val_main_v65_apply, val_main_v64_apply, val_main_v63_apply]
  refine congrArg x9 (funext fun a => Fin.ext ?_)
  match a with
  | ⟨0, _⟩ => rfl
  | ⟨1, _⟩ => exact Nat.mod_eq_of_lt g.isLt

/-! ### The messages -/

/-- The forward message of edge `k`: the pair (row at the first end, row at the second end) against the forward weights. -/
theorem l1_msgF (k : Fin 262144) (c : Fin 256) :
    val_main_v35 x0 x1 x2 x3 (ix2 k c)
      = Spec.msg (fun v j => val_main_v0 x0 (ix2 v j)) (fun c j => x2 (ix3 ℓ c j)) (fun c => x3 (ix2 ℓ c)) (Spec.gat (x1 (ix2 (0 : Fin 2) k))) (Spec.gat (x1 (ix2 (1 : Fin 2) k))) c := by
  rw [val_main_v35_apply, val_main_v30_apply, l1_bm, Ideal.addf_def]
  unfold Spec.msg
  refine congrArg (· + x3 (ix2 ℓ c)) (Finset.sum_congr rfl fun j _ => ?_)
  have hl : lidx_main_v30 (ix2 k c) j = ix2 k j := funext fun a => match a with | ⟨0, _⟩ => rfl | ⟨1, _⟩ => rfl
  have hr : ridx_main_v30 (ix2 k c) j = ix2 j c := funext fun a => match a with | ⟨0, _⟩ => rfl | ⟨1, _⟩ => rfl
  rw [hl, hr, l1_wm, l1_halfA, l1_pair, v5_lo, v10_lo]

/-- The reverse message of edge `k`: the pair the other way round against the reverse weights. -/
theorem l1_msgR (k : Fin 262144) (c : Fin 256) :
    val_main_v45 x0 x1 x4 x5 (ix2 k c)
      = Spec.msg (fun v j => val_main_v0 x0 (ix2 v j)) (fun c j => x4 (ix3 ℓ c j)) (fun c => x5 (ix2 ℓ c)) (Spec.gat (x1 (ix2 (1 : Fin 2) k))) (Spec.gat (x1 (ix2 (0 : Fin 2) k))) c := by
  rw [val_main_v45_apply, val_main_v40_apply, l1_br, Ideal.addf_def]
  unfold Spec.msg
  refine congrArg (· + x5 (ix2 ℓ c)) (Finset.sum_congr rfl fun j _ => ?_)
  have hl : lidx_main_v40 (ix2 k c) j = ix2 k j := funext fun a => match a with | ⟨0, _⟩ => rfl | ⟨1, _⟩ => rfl
  have hr : ridx_main_v40 (ix2 k c) j = ix2 j c := funext fun a => match a with | ⟨0, _⟩ => rfl | ⟨1, _⟩ => rfl
  rw [hl, hr, l1_wr, l1_halfB, l1_pair, v5_hi, v10_hi]

/-! ### The aggregate -/

/-- The index matrix of the scatter-add is the second doubled list, unwrapped. -/
theorem l1_at (e : Fin 524288) : val_main_v48 x1 (ix2 e (0 : Fin 1)) = val_main_v10 x1 (ix1 e) := by
  rw [val_main_v48_apply, col0_eq e idx_main_v48 (fun _ => rfl)]

/-- What the scatter-add leaves at node `v`. -/
theorem l1_agg (v : Fin 32768) (c : Fin 256) :
    val_main_v49 x0 x1 x2 x3 x4 x5 (ix2 v c) = (Spec.agg (fun v j => val_main_v0 x0 (ix2 v j)) (fun k => x1 (ix2 (0 : Fin 2) k)) (fun k => x1 (ix2 (1 : Fin 2) k)) (fun c j => x2 (ix3 ℓ c j)) (fun c => x3 (ix2 ℓ c)) (fun c j => x4 (ix3 ℓ c j)) (fun c => x5 (ix2 ℓ c))) v c := by
  unfold val_main_v49
  refine (scatterAdd_row_apply_of (N := 32768) (C := 256) (R := 524288) scatter_S32768x256_S524288x1_S524288x256_1_0_0_1 rfl rfl rfl rfl
    (val_main_v47 (F := Ideal)) (val_main_v48 x1) (val_main_v46 x0 x1 x2 x3 x4 x5) v c).trans ?_
  have hz : val_main_v47 (F := Ideal) (ix2 v c) = (0 : EReal) := by
    rw [val_main_v47_apply]; exact Ideal.ofBits_zero_f32
  have hlo : ∀ k : Fin 262144, val_main_v46 x0 x1 x2 x3 x4 x5 (ix2 ⟨k.val, by have := k.isLt; omega⟩ c) = val_main_v35 x0 x1 x2 x3 (ix2 k c) := fun k => by
    unfold val_main_v46
    exact cat2r_lo concatenates_S262144x256_S262144x256_S524288x256_d0 (val_main_v35 x0 x1 x2 x3) (val_main_v45 x0 x1 x4 x5) k _ c
  have hhi : ∀ k : Fin 262144, val_main_v46 x0 x1 x2 x3 x4 x5 (ix2 ⟨262144 + k.val, by have := k.isLt; omega⟩ c) = val_main_v45 x0 x1 x4 x5 (ix2 k c) := fun k => by
    unfold val_main_v46
    exact cat2r_hi concatenates_S262144x256_S262144x256_S524288x256_d0 (val_main_v35 x0 x1 x2 x3) (val_main_v45 x0 x1 x4 x5) k _ c
  rw [hz, zero_add, sum_edges2]
  unfold Spec.agg
  refine congrArg₂ (· + ·) (Finset.sum_congr rfl fun k _ => ?_) (Finset.sum_congr rfl fun k _ => ?_)
  · rw [l1_at, v10_lo, hlo, l1_msgF]
  · rw [l1_at, v10_hi, hhi, l1_msgR]

/-! ### The cell -/

/-- The affine map of the aggregate. -/
theorem l1_gateIn (v : Fin 32768) (g : Fin 384) :
    val_main_v58 x0 x1 x2 x3 x4 x5 x6 x8 (ix2 v g) = Spec.gateIn (fun v c => val_main_v49 x0 x1 x2 x3 x4 x5 (ix2 v c)) (fun g k => x6 (ix3 ℓ g k)) (fun g => x8 (ix2 ℓ g)) v g := by
  rw [val_main_v58_apply, val_main_v53_apply, l1_bih, Ideal.addf_def]
  unfold Spec.gateIn
  refine congrArg (· + x8 (ix2 ℓ g)) (Finset.sum_congr rfl fun k _ => ?_)
  have hl : lidx_main_v53 (ix2 v g) k = ix2 v k := funext fun a => match a with | ⟨0, _⟩ => rfl | ⟨1, _⟩ => rfl
  have hr : ridx_main_v53 (ix2 v g) k = ix2 k g := funext fun a => match a with | ⟨0, _⟩ => rfl | ⟨1, _⟩ => rfl
  rw [hl, hr, l1_wih]

/-- The affine map of the node's own row. -/
theorem l1_gateHid (v : Fin 32768) (g : Fin 384) :
    val_main_v67 x0 x7 x9 (ix2 v g) = Spec.gateHid (fun v j => val_main_v0 x0 (ix2 v j)) (fun g k => x7 (ix3 ℓ g k)) (fun g => x9 (ix2 ℓ g)) v g := by
  rw [val_main_v67_apply, val_main_v62_apply, l1_bhh, Ideal.addf_def]
  unfold Spec.gateHid
  refine congrArg (· + x9 (ix2 ℓ g)) (Finset.sum_congr rfl fun k _ => ?_)
  have hl : lidx_main_v62 (ix2 v g) k = ix2 v k := funext fun a => match a with | ⟨0, _⟩ => rfl | ⟨1, _⟩ => rfl
  have hr : ridx_main_v62 (ix2 v g) k = ix2 k g := funext fun a => match a with | ⟨0, _⟩ => rfl | ⟨1, _⟩ => rfl
  rw [hl, hr, l1_whh]

/-- The gated recurrent cell on the two gate matrices. -/
theorem l1_cell (v : Fin 32768) (j : Fin 128) :
    val_main_v95 x0 x1 x2 x3 x4 x5 x6 x7 x8 x9 (ix2 v j)
      = Spec.cell (fun v g => val_main_v58 x0 x1 x2 x3 x4 x5 x6 x8 (ix2 v g)) (fun v g => val_main_v67 x0 x7 x9 (ix2 v g)) (fun v j => val_main_v0 x0 (ix2 v j)) v j := by
  have e68 : idx_main_v68 (ix2 v j) = ix2 v ⟨j.val, by have := j.isLt; omega⟩ := funext fun a => match a with | ⟨0, _⟩ => rfl | ⟨1, _⟩ => rfl
  have e69 : idx_main_v69 (ix2 v j) = ix2 v ⟨128 + j.val, by have := j.isLt; omega⟩ := funext fun a => match a with | ⟨0, _⟩ => rfl | ⟨1, _⟩ => rfl
  have e70 : idx_main_v70 (ix2 v j) = ix2 v ⟨256 + j.val, by have := j.isLt; omega⟩ := funext fun a => match a with | ⟨0, _⟩ => rfl | ⟨1, _⟩ => rfl
  have e71 : idx_main_v71 (ix2 v j) = ix2 v ⟨j.val, by have := j.isLt; omega⟩ := funext fun a => match a with | ⟨0, _⟩ => rfl | ⟨1, _⟩ => rfl
  have e72 : idx_main_v72 (ix2 v j) = ix2 v ⟨128 + j.val, by have := j.isLt; omega⟩ := funext fun a => match a with | ⟨0, _⟩ => rfl | ⟨1, _⟩ => rfl
  have e73 : idx_main_v73 (ix2 v j) = ix2 v ⟨256 + j.val, by have := j.isLt; omega⟩ := funext fun a => match a with | ⟨0, _⟩ => rfl | ⟨1, _⟩ => rfl
  rw [val_main_v95_apply, val_main_v93_apply, val_main_v94_apply, val_main_v92_apply, val_main_v91_apply, val_main_cst_7_apply,
    val_main_v90_apply, val_main_v89_apply, val_main_v88_apply, val_main_v87_apply, val_main_v86_apply, val_main_cst_6_apply,
    val_main_v85_apply, val_main_v84_apply, val_main_cst_5_apply, val_main_v83_apply, val_main_v82_apply, val_main_v81_apply,
    val_main_v80_apply, val_main_v79_apply, val_main_cst_4_apply, val_main_v78_apply, val_main_v77_apply, val_main_cst_3_apply,
    val_main_v76_apply, val_main_v75_apply, val_main_v74_apply,
    val_main_v68_apply, val_main_v69_apply, val_main_v70_apply, val_main_v71_apply, val_main_v72_apply, val_main_v73_apply,
    e68, e69, e70, e71, e72, e73]
  simp only [Spec.cell, Spec.one, Ideal.ofBits_def, lit_one, Ideal.addf_def, Ideal.mulf_def, Ideal.subf_def, Ideal.hostDivf_def,
    Ideal.hostUnary_exp_def, Ideal.hostUnary_tanh_def, Ideal.hostNegf_def, Ideal.negf_def, Ideal.logistic]

/-! ### The layer's result -/

variable (x0 x1 x2 x3 x4 x5 x6 x7 x8 x9) in
/-- The reference's layer is `Spec.lay` at its slice of the weights, on the rows it started from. -/
theorem ref_layer1 (v : Fin 32768) (j : Fin 128) :
    val_main_v95 x0 x1 x2 x3 x4 x5 x6 x7 x8 x9 (ix2 v j)
      = Spec.lay ℓ x1 x2 x3 x4 x5 x6 x7 x8 x9 (fun v j => val_main_v0 x0 (ix2 v j)) v j := by
  have hag : (fun v c => val_main_v49 x0 x1 x2 x3 x4 x5 (ix2 v c))
      = Spec.agg (fun v j => val_main_v0 x0 (ix2 v j)) (fun k => x1 (ix2 (0 : Fin 2) k)) (fun k => x1 (ix2 (1 : Fin 2) k))
          (fun c j => x2 (ix3 ℓ c j)) (fun c => x3 (ix2 ℓ c)) (fun c j => x4 (ix3 ℓ c j)) (fun c => x5 (ix2 ℓ c)) :=
    funext fun v => funext fun c => l1_agg v c
  have hgi : (fun v g => val_main_v58 x0 x1 x2 x3 x4 x5 x6 x8 (ix2 v g))
      = Spec.gateIn (Spec.agg (fun v j => val_main_v0 x0 (ix2 v j)) (fun k => x1 (ix2 (0 : Fin 2) k)) (fun k => x1 (ix2 (1 : Fin 2) k))
          (fun c j => x2 (ix3 ℓ c j)) (fun c => x3 (ix2 ℓ c)) (fun c j => x4 (ix3 ℓ c j)) (fun c => x5 (ix2 ℓ c)))
          (fun g k => x6 (ix3 ℓ g k)) (fun g => x8 (ix2 ℓ g)) :=
    funext fun v => funext fun g => (l1_gateIn v g).trans (by rw [hag])
  have hgh : (fun v g => val_main_v67 x0 x7 x9 (ix2 v g))
      = Spec.gateHid (fun v j => val_main_v0 x0 (ix2 v j)) (fun g k => x7 (ix3 ℓ g k)) (fun g => x9 (ix2 ℓ g)) :=
    funext fun v => funext fun g => l1_gateHid v g
  rw [l1_cell, hgi, hgh]
  rfl

end Layer

end Cert.ReferenceIdeal.Math

end
-- ==== Proof.RefLayer2.lean ====
/-
  The reference program's second message-passing layer read index by index: the same stages as the first layer's,
  on the first layer's result, with the second slice of every stacked weight array.
-/
import proofs.«163521_j41618233098847_2_alg».proof.Proof.RefLayer1

noncomputable section

open scoped BigOperators

namespace Cert.ReferenceIdeal.Math

open Cert.ReferenceIdeal Cert.ReferenceIdeal.Gen Cert.ReferenceIdeal.ReadP Idealize.ShloMosaic Idealize.ShloMosaic.ValueIdx
  Idealize.ShloMosaic.TcCoe Idealize.ShloMosaic.StableHlo Cert.LibIndex

/-! ## The layer -/

section Layer
variable {x0 : (⟨S256x128x128, .f32⟩ : BufTy).Contents (Elt Ideal)} {x1 : (⟨S2x262144, .i32⟩ : BufTy).Contents (Elt Ideal)}
  {x2 : (⟨S2x256x256, .f32⟩ : BufTy).Contents (Elt Ideal)} {x3 : (⟨S2x256, .f32⟩ : BufTy).Contents (Elt Ideal)}
  {x4 : (⟨S2x256x256, .f32⟩ : BufTy).Contents (Elt Ideal)} {x5 : (⟨S2x256, .f32⟩ : BufTy).Contents (Elt Ideal)}
  {x6 : (⟨S2x384x256, .f32⟩ : BufTy).Contents (Elt Ideal)} {x7 : (⟨S2x384x128, .f32⟩ : BufTy).Contents (Elt Ideal)}
  {x8 x9 : (⟨S2x384, .f32⟩ : BufTy).Contents (Elt Ideal)}

/-- The slice of the stacked weights this layer reads. -/
local notation "ℓ" => (1 : Fin 2)

/-! ### The gathered rows -/

/-- A word of the first doubled list after the wrap-around. -/
theorem l2_wrapA (i : S524288.Idx) :
    val_main_v100 x1 i = wrap (val_main_v5 x1 i) := by
  rw [val_main_v100_apply, val_main_v97_apply, val_main_v99_apply, val_main_v96_apply, val_main_c_8_apply,
    val_main_v98_apply, val_main_c_9_apply]
  exact select_wrap _

/-- A word of the second doubled list after the wrap-around. -/
theorem l2_wrapB (i : S524288.Idx) :
    val_main_v107 x1 i = wrap (val_main_v10 x1 i) := by
  rw [val_main_v107_apply, val_main_v104_apply, val_main_v106_apply, val_main_v103_apply, val_main_c_10_apply,
    val_main_v105_apply, val_main_c_11_apply]
  exact select_wrap _

/-- The rows gathered at the first doubled list. -/
theorem l2_gatherA (e : Fin 524288) (c : Fin 128) :
    val_main_v102 x0 x1 x2 x3 x4 x5 x6 x7 x8 x9 (ix2 e c) = val_main_v95 x0 x1 x2 x3 x4 x5 x6 x7 x8 x9 (ix2 (Spec.gat (val_main_v5 x1 (ix1 e))) c) := by
  unfold val_main_v102
  refine (gather_row_apply_of (N := 32768) (C := 128) (R := 524288) (by decide)
    gather_S32768x128_S524288x1_S524288x128_1_0_n_n_0_1_1128 rfl rfl rfl rfl rfl rfl rfl (val_main_v95 x0 x1 x2 x3 x4 x5 x6 x7 x8 x9) (val_main_v101 x1) e c).trans ?_
  have h16 : val_main_v101 x1 (ix2 e (0 : Fin 1))
      = wrap (val_main_v5 x1 (ix1 e)) := by
    rw [val_main_v101_apply, col0_eq e idx_main_v101 (fun _ => rfl)]
    exact l2_wrapA _
  refine congrArg (fun r => val_main_v95 x0 x1 x2 x3 x4 x5 x6 x7 x8 x9 (ix2 r c)) (Fin.ext ?_)
  show min (BitVec.toInt (val_main_v101 x1 (ix2 e (0 : Fin 1)))).toNat 32767 = min (BitVec.toInt (wrap (val_main_v5 x1 (ix1 e)))).toNat 32767
  rw [h16]

/-- The rows gathered at the second doubled list. -/
theorem l2_gatherB (e : Fin 524288) (c : Fin 128) :
    val_main_v109 x0 x1 x2 x3 x4 x5 x6 x7 x8 x9 (ix2 e c) = val_main_v95 x0 x1 x2 x3 x4 x5 x6 x7 x8 x9 (ix2 (Spec.gat (val_main_v10 x1 (ix1 e))) c) := by
  unfold val_main_v109
  refine (gather_row_apply_of (N := 32768) (C := 128) (R := 524288) (by decide)
    gather_S32768x128_S524288x1_S524288x128_1_0_n_n_0_1_1128 rfl rfl rfl rfl rfl rfl rfl (val_main_v95 x0 x1 x2 x3 x4 x5 x6 x7 x8 x9) (val_main_v108 x1) e c).trans ?_
  have h23 : val_main_v108 x1 (ix2 e (0 : Fin 1))
      = wrap (val_main_v10 x1 (ix1 e)) := by
    rw [val_main_v108_apply, col0_eq e idx_main_v108 (fun _ => rfl)]
    exact l2_wrapB _
  refine congrArg (fun r => val_main_v95 x0 x1 x2 x3 x4 x5 x6 x7 x8 x9 (ix2 r c)) (Fin.ext ?_)
  show min (BitVec.toInt (val_main_v108 x1 (ix2 e (0 : Fin 1)))).toNat 32767 = min (BitVec.toInt (wrap (val_main_v10 x1 (ix1 e)))).toNat 32767
  rw [h23]

/-- The pair of gathered rows as one row of 256 features. -/
theorem l2_pair (e : Fin 524288) (j : Fin 256) :
    val_main_v110 x0 x1 x2 x3 x4 x5 x6 x7 x8 x9 (ix2 e j)
      = if h : j.val < 128 then val_main_v95 x0 x1 x2 x3 x4 x5 x6 x7 x8 x9 (ix2 (Spec.gat (val_main_v5 x1 (ix1 e))) ⟨j.val, h⟩)
        else val_main_v95 x0 x1 x2 x3 x4 x5 x6 x7 x8 x9 (ix2 (Spec.gat (val_main_v10 x1 (ix1 e))) ⟨j.val - 128, by have := j.isLt; omega⟩) := by
  unfold val_main_v110
  refine (cat2c_apply (n := 128) rfl concatenates_S524288x128_S524288x128_S524288x256_d1 (val_main_v102 x0 x1 x2 x3 x4 x5 x6 x7 x8 x9) (val_main_v109 x0 x1 x2 x3 x4 x5 x6 x7 x8 x9) e j).trans ?_
  simp only [l2_gatherA, l2_gatherB]

/-- The two halves of the pair rows. -/
theorem l2_halfA (k : Fin 262144) (j : Fin 256) :
    val_main_v111 x0 x1 x2 x3 x4 x5 x6 x7 x8 x9 (ix2 k j) = val_main_v110 x0 x1 x2 x3 x4 x5 x6 x7 x8 x9 (ix2 ⟨k.val, by have := k.isLt; omega⟩ j) := by
  rw [val_main_v111_apply]
  exact congrArg (val_main_v110 x0 x1 x2 x3 x4 x5 x6 x7 x8 x9) (funext fun a => match a with | ⟨0, _⟩ => rfl | ⟨1, _⟩ => rfl)

theorem l2_halfB (k : Fin 262144) (j : Fin 256) :
    val_main_v121 x0 x1 x2 x3 x4 x5 x6 x7 x8 x9 (ix2 k j) = val_main_v110 x0 x1 x2 x3 x4 x5 x6 x7 x8 x9 (ix2 ⟨262144 + k.val, by have := k.isLt; omega⟩ j) := by
  rw [val_main_v121_apply]
  exact congrArg (val_main_v110 x0 x1 x2 x3 x4 x5 x6 x7 x8 x9) (funext fun a => match a with | ⟨0, _⟩ => rfl | ⟨1, _⟩ => rfl)

/-! ### The weights and biases, as the program slices, reshapes, transposes and broadcasts them -/

theorem l2_wm (j c : Fin 256) : val_main_v114 x2 (ix2 j c) = x2 (ix3 ℓ c j) := by
  rw [val_main_v114_apply, val_main_v113_apply, val_main_v112_apply]
  refine congrArg x2 (funext fun a => Fin.ext ?_)
  have hj := j.isLt; have hc := c.isLt
  match a with
  | ⟨0, _⟩ => rfl
  | ⟨1, _⟩ => show (c.val * 256 + j.val) / 256 % 256 = c.val; omega
  | ⟨2, _⟩ => show (c.val * 256 + j.val) % 256 = j.val; omega

theorem l2_wr (j c : Fin 256) : val_main_v124 x4 (ix2 j c) = x4 (ix3 ℓ c j) := by
  rw [val_main_v124_apply, val_main_v123_apply, val_main_v122_apply]
  refine congrArg x4 (funext fun a => Fin.ext ?_)
  have hj := j.isLt; have hc := c.isLt
  match a with
  | ⟨0, _⟩ => rfl
  | ⟨1, _⟩ => show (c.val * 256 + j.val) / 256 % 256 = c.val; omega
  | ⟨2, _⟩ => show (c.val * 256 + j.val) % 256 = j.val; omega

theorem l2_wih (k : Fin 256) (g : Fin 384) : val_main_v137 x6 (ix2 k g) = x6 (ix3 ℓ g k) := by
  rw [val_main_v137_apply, val_main_v136_apply, val_main_v135_apply]
  refine congrArg x6 (funext fun a => Fin.ext ?_)
  have hk := k.isLt; have hg := g.isLt
  match a with
  | ⟨0, _⟩ => rfl
  | ⟨1, _⟩ => show (g.val * 256 + k.val) / 256 % 384 = g.val; omega
  | ⟨2, _⟩ => show (g.val * 256 + k.val) % 256 = k.val; omega

theorem l2_whh (k : Fin 128) (g : Fin 384) : val_main_v146 x7 (ix2 k g) = x7 (ix3 ℓ g k) := by
  rw [val_main_v146_apply, val_main_v145_apply, val_main_v144_apply]
  refine congrArg x7 (funext fun a => Fin.ext ?_)
  have hk := k.isLt; have hg := g.isLt
  match a with
  | ⟨0, _⟩ => rfl
  | ⟨1, _⟩ => show (g.val * 128 + k.val) / 128 % 384 = g.val; omega
  | ⟨2, _⟩ => show (g.val * 128 + k.val) % 128 = k.val; omega

theorem l2_bm (k : Fin 262144) (c : Fin 256) : val_main_v119 x3 (ix2 k c) = x3 (ix2 ℓ c) := by
  rw [val_main_v119_apply, val_main_v118_apply, val_main_v117_apply, val_main_v116_apply]
  refine congrArg x3 (funext fun a => Fin.ext ?_)
  match a with
  | ⟨0, _⟩ => rfl
  | ⟨1, _⟩ => exact Nat.mod_eq_of_lt c.isLt

theorem l2_br (k : Fin 262144) (c : Fin 256) : val_main_v129 x5 (ix2 k c) = x5 (ix2 ℓ c) := by
  rw [val_main_v129_apply, val_main_v128_apply, val_main_v127_apply, val_main_v126_apply]
  refine congrArg x5 (funext fun a => Fin.ext ?_)
  match a with
  | ⟨0, _⟩ => rfl
  | ⟨1, _⟩ => exact Nat.mod_eq_of_lt c.isLt

theorem l2_bih (v : Fin 32768) (g : Fin 384) : val_main_v142 x8 (ix2 v g) = x8 (ix2 ℓ g) := by
  rw [val_main_v142_apply, val_main_v141_apply, val_main_v140_apply, val_main_v139_apply]
  refine congrArg x8 (funext fun a => Fin.ext ?_)
  match a with
  | ⟨0, _⟩ => rfl
  | ⟨1, _⟩ => exact Nat.mod_eq_of_lt g.isLt

theorem l2_bhh (v : Fin 32768) (g : Fin 384) : val_main_v151 x9 (ix2 v g) = x9 (ix2 ℓ g) := by
  rw [val_main_v151_apply, val_main_v150_apply, val_main_v149_apply, val_main_v148_apply]
  refine congrArg x9 (funext fun a => Fin.ext ?_)
  match a with
  | ⟨0, _⟩ => rfl
  | ⟨1, _⟩ => exact Nat.mod_eq_of_lt g.isLt

/-! ### The messages -/

/-- The forward message of edge `k`: the pair (row at the first end, row at the second end) against the forward weights. -/
theorem l2_msgF (k : Fin 262144) (c : Fin 256) :
    val_main_v120 x0 x1 x2 x3 x4 x5 x6 x7 x8 x9 (ix2 k c)
      = Spec.msg (fun v j => val_main_v95 x0 x1 x2 x3 x4 x5 x6 x7 x8 x9 (ix2 v j)) (fun c j => x2 (ix3 ℓ c j)) (fun c => x3 (ix2 ℓ c)) (Spec.gat (x1 (ix2 (0 : Fin 2) k))) (Spec.gat (x1 (ix2 (1 : Fin 2) k))) c := by
  rw [val_main_v120_apply, val_main_v115_apply, l2_bm, Ideal.addf_def]
  unfold Spec.msg
  refine congrArg (· + x3 (ix2 ℓ c)) (Finset.sum_congr rfl fun j _ => ?_)
  have hl : lidx_main_v115 (ix2 k c) j = ix2 k j := funext fun a => match a with | ⟨0, _⟩ => rfl | ⟨1, _⟩ => rfl
  have hr : ridx_main_v115 (ix2 k c) j = ix2 j c := funext fun a => match a with | ⟨0, _⟩ => rfl | ⟨1, _⟩ => rfl
  rw [hl, hr, l2_wm, l2_halfA, l2_pair, v5_lo, v10_lo]

/-- The reverse message of edge `k`: the pair the other way round against the reverse weights. -/
theorem l2_msgR (k : Fin 262144) (c : Fin 256) :
    val_main_v130 x0 x1 x2 x3 x4 x5 x6 x7 x8 x9 (ix2 k c)
      = Spec.msg (fun v j => val_main_v95 x0 x1 x2 x3 x4 x5 x6 x7 x8 x9 (ix2 v j)) (fun c j => x4 (ix3 ℓ c j)) (fun c => x5 (ix2 ℓ c)) (Spec.gat (x1 (ix2 (1 : Fin 2) k))) (Spec.gat (x1 (ix2 (0 : Fin 2) k))) c := by
  rw [val_main_v130_apply, val_main_v125_apply, l2_br, Ideal.addf_def]
  unfold Spec.msg
  refine congrArg (· + x5 (ix2 ℓ c)) (Finset.sum_congr rfl fun j _ => ?_)
  have hl : lidx_main_v125 (ix2 k c) j = ix2 k j := funext fun a => match a with | ⟨0, _⟩ => rfl | ⟨1, _⟩ => rfl
  have hr : ridx_main_v125 (ix2 k c) j = ix2 j c := funext fun a => match a with | ⟨0, _⟩ => rfl | ⟨1, _⟩ => rfl
  rw [hl, hr, l2_wr, l2_halfB, l2_pair, v5_hi, v10_hi]

/-! ### The aggregate -/

/-- The index matrix of the scatter-add is the second doubled list, unwrapped. -/
theorem l2_at (e : Fin 524288) : val_main_v133 x1 (ix2 e (0 : Fin 1)) = val_main_v10 x1 (ix1 e) := by
  rw [val_main_v133_apply, col0_eq e idx_main_v133 (fun _ => rfl)]

/-- What the scatter-add leaves at node `v`. -/
theorem l2_agg (v : Fin 32768) (c : Fin 256) :
    val_main_v134 x0 x1 x2 x3 x4 x5 x6 x7 x8 x9 (ix2 v c) = (Spec.agg (fun v j => val_main_v95 x0 x1 x2 x3 x4 x5 x6 x7 x8 x9 (ix2 v j)) (fun k => x1 (ix2 (0 : Fin 2) k)) (fun k => x1 (ix2 (1 : Fin 2) k)) (fun c j => x2 (ix3 ℓ c j)) (fun c => x3 (ix2 ℓ c)) (fun c j => x4 (ix3 ℓ c j)) (fun c => x5 (ix2 ℓ c))) v c := by
  unfold val_main_v134
  refine (scatterAdd_row_apply_of (N := 32768) (C := 256) (R := 524288) scatter_S32768x256_S524288x1_S524288x256_1_0_0_1 rfl rfl rfl rfl
    (val_main_v132 (F := Ideal)) (val_main_v133 x1) (val_main_v131 x0 x1 x2 x3 x4 x5 x6 x7 x8 x9) v c).trans ?_
  have hz : val_main_v132 (F := Ideal) (ix2 v c) = (0 : EReal) := by
    rw [val_main_v132_apply]; exact Ideal.ofBits_zero_f32
  have hlo : ∀ k : Fin 262144, val_main_v131 x0 x1 x2 x3 x4 x5 x6 x7 x8 x9 (ix2 ⟨k.val, by have := k.isLt; omega⟩ c) = val_main_v120 x0 x1 x2 x3 x4 x5 x6 x7 x8 x9 (ix2 k c) := fun k => by
    unfold val_main_v131
    exact cat2r_lo concatenates_S262144x256_S262144x256_S524288x256_d0 (val_main_v120 x0 x1 x2 x3 x4 x5 x6 x7 x8 x9) (val_main_v130 x0 x1 x2 x3 x4 x5 x6 x7 x8 x9) k _ c
  have hhi : ∀ k : Fin 262144, val_main_v131 x0 x1 x2 x3 x4 x5 x6 x7 x8 x9 (ix2 ⟨262144 + k.val, by have := k.isLt; omega⟩ c) = val_main_v130 x0 x1 x2 x3 x4 x5 x6 x7 x8 x9 (ix2 k c) := fun k => by
    unfold val_main_v131
    exact cat2r_hi concatenates_S262144x256_S262144x256_S524288x256_d0 (val_main_v120 x0 x1 x2 x3 x4 x5 x6 x7 x8 x9) (val_main_v130 x0 x1 x2 x3 x4 x5 x6 x7 x8 x9) k _ c
  rw [hz, zero_add, sum_edges2]
  unfold Spec.agg
  refine congrArg₂ (· + ·) (Finset.sum_congr rfl fun k _ => ?_) (Finset.sum_congr rfl fun k _ => ?_)
  · rw [l2_at, v10_lo, hlo, l2_msgF]
  · rw [l2_at, v10_hi, hhi, l2_msgR]

/-! ### The cell -/

/-- The affine map of the aggregate. -/
theorem l2_gateIn (v : Fin 32768) (g : Fin 384) :
    val_main_v143 x0 x1 x2 x3 x4 x5 x6 x7 x8 x9 (ix2 v g) = Spec.gateIn (fun v c => val_main_v134 x0 x1 x2 x3 x4 x5 x6 x7 x8 x9 (ix2 v c)) (fun g k => x6 (ix3 ℓ g k)) (fun g => x8 (ix2 ℓ g)) v g := by
  rw [val_main_v143_apply, val_main_v138_apply, l2_bih, Ideal.addf_def]
  unfold Spec.gateIn
  refine congrArg (· + x8 (ix2 ℓ g)) (Finset.sum_congr rfl fun k _ => ?_)
  have hl : lidx_main_v138 (ix2 v g) k = ix2 v k := funext fun a => match a with | ⟨0, _⟩ => rfl | ⟨1, _⟩ => rfl
  have hr : ridx_main_v138 (ix2 v g) k = ix2 k g := funext fun a => match a with | ⟨0, _⟩ => rfl | ⟨1, _⟩ => rfl
  rw [hl, hr, l2_wih]

/-- The affine map of the node's own row. -/
theorem l2_gateHid (v : Fin 32768) (g : Fin 384) :
    val_main_v152 x0 x1 x2 x3 x4 x5 x6 x7 x8 x9 (ix2 v g) = Spec.gateHid (fun v j => val_main_v95 x0 x1 x2 x3 x4 x5 x6 x7 x8 x9 (ix2 v j)) (fun g k => x7 (ix3 ℓ g k)) (fun g => x9 (ix2 ℓ g)) v g := by
  rw [val_main_v152_apply, val_main_v147_apply, l2_bhh, Ideal.addf_def]
  unfold Spec.gateHid
  refine congrArg (· + x9 (ix2 ℓ g)) (Finset.sum_congr rfl fun k _ => ?_)
  have hl : lidx_main_v147 (ix2 v g) k = ix2 v k := funext fun a => match a with | ⟨0, _⟩ => rfl | ⟨1, _⟩ => rfl
  have hr : ridx_main_v147 (ix2 v g) k = ix2 k g := funext fun a => match a with | ⟨0, _⟩ => rfl | ⟨1, _⟩ => rfl
  rw [hl, hr, l2_whh]

/-- The gated recurrent cell on the two gate matrices. -/
theorem l2_cell (v : Fin 32768) (j : Fin 128) :
    val_main_v180 x0 x1 x2 x3 x4 x5 x6 x7 x8 x9 (ix2 v j)
      = Spec.cell (fun v g => val_main_v143 x0 x1 x2 x3 x4 x5 x6 x7 x8 x9 (ix2 v g)) (fun v g => val_main_v152 x0 x1 x2 x3 x4 x5 x6 x7 x8 x9 (ix2 v g)) (fun v j => val_main_v95 x0 x1 x2 x3 x4 x5 x6 x7 x8 x9 (ix2 v j)) v j := by
  have e68 : idx_main_v153 (ix2 v j) = ix2 v ⟨j.val, by have := j.isLt; omega⟩ := funext fun a => match a with | ⟨0, _⟩ => rfl | ⟨1, _⟩ => rfl
  have e69 : idx_main_v154 (ix2 v j) = ix2 v ⟨128 + j.val, by have := j.isLt; omega⟩ := funext fun a => match a with | ⟨0, _⟩ => rfl | ⟨1, _⟩ => rfl
  have e70 : idx_main_v155 (ix2 v j) = ix2 v ⟨256 + j.val, by have := j.isLt; omega⟩ := funext fun a => match a with | ⟨0, _⟩ => rfl | ⟨1, _⟩ => rfl
  have e71 : idx_main_v156 (ix2 v j) = ix2 v ⟨j.val, by have := j.isLt; omega⟩ := funext fun a => match a with | ⟨0, _⟩ => rfl | ⟨1, _⟩ => rfl
  have e72 : idx_main_v157 (ix2 v j) = ix2 v ⟨128 + j.val, by have := j.isLt; omega⟩ := funext fun a => match a with | ⟨0, _⟩ => rfl | ⟨1, _⟩ => rfl
  have e73 : idx_main_v158 (ix2 v j) = ix2 v ⟨256 + j.val, by have := j.isLt; omega⟩ := funext fun a => match a with | ⟨0, _⟩ => rfl | ⟨1, _⟩ => rfl
  rw [val_main_v180_apply, val_main_v178_apply, val_main_v179_apply, val_main_v177_apply, val_main_v176_apply, val_main_cst_17_apply,
    val_main_v175_apply, val_main_v174_apply, val_main_v173_apply, val_main_v172_apply, val_main_v171_apply, val_main_cst_16_apply,
    val_main_v170_apply, val_main_v169_apply, val_main_cst_15_apply, val_main_v168_apply, val_main_v167_apply, val_main_v166_apply,
    val_main_v165_apply, val_main_v164_apply, val_main_cst_14_apply, val_main_v163_apply, val_main_v162_apply, val_main_cst_13_apply,
    val_main_v161_apply, val_main_v160_apply, val_main_v159_apply,
    val_main_v153_apply, val_main_v154_apply, val_main_v155_apply, val_main_v156_apply, val_main_v157_apply, val_main_v158_apply,
    e68, e69, e70, e71, e72, e73]
  simp only [Spec.cell, Spec.one, Ideal.ofBits_def, lit_one, Ideal.addf_def, Ideal.mulf_def, Ideal.subf_def, Ideal.hostDivf_def,
    Ideal.hostUnary_exp_def, Ideal.hostUnary_tanh_def, Ideal.hostNegf_def, Ideal.negf_def, Ideal.logistic]

/-! ### The layer's result -/

variable (x0 x1 x2 x3 x4 x5 x6 x7 x8 x9) in
/-- The reference's layer is `Spec.lay` at its slice of the weights, on the rows it started from. -/
theorem ref_layer2 (v : Fin 32768) (j : Fin 128) :
    val_main_v180 x0 x1 x2 x3 x4 x5 x6 x7 x8 x9 (ix2 v j)
      = Spec.lay ℓ x1 x2 x3 x4 x5 x6 x7 x8 x9 (fun v j => val_main_v95 x0 x1 x2 x3 x4 x5 x6 x7 x8 x9 (ix2 v j)) v j := by
  have hag : (fun v c => val_main_v134 x0 x1 x2 x3 x4 x5 x6 x7 x8 x9 (ix2 v c))
      = Spec.agg (fun v j => val_main_v95 x0 x1 x2 x3 x4 x5 x6 x7 x8 x9 (ix2 v j)) (fun k => x1 (ix2 (0 : Fin 2) k)) (fun k => x1 (ix2 (1 : Fin 2) k))
          (fun c j => x2 (ix3 ℓ c j)) (fun c => x3 (ix2 ℓ c)) (fun c j => x4 (ix3 ℓ c j)) (fun c => x5 (ix2 ℓ c)) :=
    funext fun v => funext fun c => l2_agg v c
  have hgi : (fun v g => val_main_v143 x0 x1 x2 x3 x4 x5 x6 x7 x8 x9 (ix2 v g))
      = Spec.gateIn (Spec.agg (fun v j => val_main_v95 x0 x1 x2 x3 x4 x5 x6 x7 x8 x9 (ix2 v j)) (fun k => x1 (ix2 (0 : Fin 2) k)) (fun k => x1 (ix2 (1 : Fin 2) k))
          (fun c j => x2 (ix3 ℓ c j)) (fun c => x3 (ix2 ℓ c)) (fun c j => x4 (ix3 ℓ c j)) (fun c => x5 (ix2 ℓ c)))
          (fun g k => x6 (ix3 ℓ g k)) (fun g => x8 (ix2 ℓ g)) :=
    funext fun v => funext fun g => (l2_gateIn v g).trans (by rw [hag])
  have hgh : (fun v g => val_main_v152 x0 x1 x2 x3 x4 x5 x6 x7 x8 x9 (ix2 v g))
      = Spec.gateHid (fun v j => val_main_v95 x0 x1 x2 x3 x4 x5 x6 x7 x8 x9 (ix2 v j)) (fun g k => x7 (ix3 ℓ g k)) (fun g => x9 (ix2 ℓ g)) :=
    funext fun v => funext fun g => l2_gateHid v g
  rw [l2_cell, hgi, hgh]
  rfl

end Layer

end Cert.ReferenceIdeal.Math

end
-- ==== Proof.RefTail.lean ====
/-
  The end of the reference, read index by index. After the second layer every node row is divided by its Euclidean
  length, the length floored at a small literal. Each of the two read-outs takes an affine image of every normalized
  row, multiplies it by the logistic gate of an affine functional of the row, adds the 128 rows of each graph, and
  divides each of the 256 sums by its floored length. The first result is the normalized rows arranged graph by graph.
  Every statement is at explicit coordinates. The program spells the logistic function as `1 / (1 + exp (−x))`, which
  is its definition over the extended reals once the literal `1.0` is read as `1`.
-/
import proofs.«163521_j41618233098847_2_alg».proof.Proof.RefRead
import proofs.«163521_j41618233098847_2_alg».proof.Proof.Spec
import Idealize.ShloMosaic.Lib.IdealHost

noncomputable section

open scoped BigOperators

namespace Cert.ReferenceIdeal.Math

open Cert.ReferenceIdeal Cert.ReferenceIdeal.ReadP Idealize.ShloMosaic Idealize.ShloMosaic.ValueIdx

variable (x0 : (⟨S256x128x128, .f32⟩ : BufTy).Contents (Elt Ideal)) (x1 : (⟨S2x262144, .i32⟩ : BufTy).Contents (Elt Ideal))
  (x2 : (⟨S2x256x256, .f32⟩ : BufTy).Contents (Elt Ideal)) (x3 : (⟨S2x256, .f32⟩ : BufTy).Contents (Elt Ideal))
  (x4 : (⟨S2x256x256, .f32⟩ : BufTy).Contents (Elt Ideal)) (x5 : (⟨S2x256, .f32⟩ : BufTy).Contents (Elt Ideal))
  (x6 : (⟨S2x384x256, .f32⟩ : BufTy).Contents (Elt Ideal)) (x7 : (⟨S2x384x128, .f32⟩ : BufTy).Contents (Elt Ideal))
  (x8 x9 : (⟨S2x384, .f32⟩ : BufTy).Contents (Elt Ideal))
  (x10 : (⟨S128x128, .f32⟩ : BufTy).Contents (Elt Ideal)) (x11 : (⟨S128, .f32⟩ : BufTy).Contents (Elt Ideal))
  (x12 : (⟨S1x128, .f32⟩ : BufTy).Contents (Elt Ideal)) (x13 : (⟨S1, .f32⟩ : BufTy).Contents (Elt Ideal))
  (x14 : (⟨S128x128, .f32⟩ : BufTy).Contents (Elt Ideal)) (x15 : (⟨S128, .f32⟩ : BufTy).Contents (Elt Ideal))
  (x16 : (⟨S1x128, .f32⟩ : BufTy).Contents (Elt Ideal)) (x17 : (⟨S1, .f32⟩ : BufTy).Contents (Elt Ideal))

/-! ## An index is the index of its coordinates -/

theorem tl_ix1_ext {n : Nat} {i : (⟨1, ![n]⟩ : Shape).Idx} {a : Fin n} (h0 : (i 0).val = a.val) : i = ix1 a := by
  funext d; match d with | ⟨0, _⟩ => exact Fin.ext h0

theorem tl_ix2_ext {n0 n1 : Nat} {i : (⟨2, ![n0, n1]⟩ : Shape).Idx} {a : Fin n0} {b : Fin n1}
    (h0 : (i 0).val = a.val) (h1 : (i 1).val = b.val) : i = ix2 a b := by
  funext d; match d with | ⟨0, _⟩ => exact Fin.ext h0 | ⟨1, _⟩ => exact Fin.ext h1

theorem tl_ix3_ext {n0 n1 n2 : Nat} {i : (⟨3, ![n0, n1, n2]⟩ : Shape).Idx} {a : Fin n0} {b : Fin n1} {c : Fin n2}
    (h0 : (i 0).val = a.val) (h1 : (i 1).val = b.val) (h2 : (i 2).val = c.val) : i = ix3 a b c := by
  funext d; match d with | ⟨0, _⟩ => exact Fin.ext h0 | ⟨1, _⟩ => exact Fin.ext h1 | ⟨2, _⟩ => exact Fin.ext h2

/-! ## The node rows over their lengths -/

theorem tl_idx_call0v1 (v : Fin 32768) (k : Fin 128) : idx_main_call0_v1 (ix1 v) k = ix2 v k := tl_ix2_ext rfl rfl
theorem tl_idx_call0v2 (v : Fin 32768) (c : Fin 1) : idx_main_call0_v2 (ix2 v c) = ix1 v := tl_ix1_ext rfl
theorem tl_idx184 (v : Fin 32768) (j : Fin 128) : idx_main_v184 (ix2 v j) = ix2 v (0 : Fin 1) := tl_ix2_ext rfl rfl

/-- The sum of the squares of row `v` after the second layer. -/
theorem tl_sq_call0 (v : Fin 32768) :
    val_main_call0_v1 (F := Ideal) x0 x1 x2 x3 x4 x5 x6 x7 x8 x9 (ix1 v) = ∑ k : Fin 128, val_main_v180 (F := Ideal) x0 x1 x2 x3 x4 x5 x6 x7 x8 x9 (ix2 v k) * val_main_v180 (F := Ideal) x0 x1 x2 x3 x4 x5 x6 x7 x8 x9 (ix2 v k) := by
  rw [val_main_call0_v1_apply, val_main_call0_cst_apply, Ideal.ofBits_def, Ideal.ofBits_zero_f32, zero_add]
  refine Finset.sum_congr rfl fun k _ => ?_
  rw [tl_idx_call0v1, val_main_call0_v0_apply, Ideal.mulf_def]

/-- Its floored length. -/
theorem tl_r183 (v : Fin 32768) (c : Fin 1) :
    val_main_v183 (F := Ideal) x0 x1 x2 x3 x4 x5 x6 x7 x8 x9 (ix2 v c)
      = max (Ideal.sqrt (∑ k : Fin 128, val_main_v180 (F := Ideal) x0 x1 x2 x3 x4 x5 x6 x7 x8 x9 (ix2 v k) * val_main_v180 (F := Ideal) x0 x1 x2 x3 x4 x5 x6 x7 x8 x9 (ix2 v k))) Spec.tiny := by
  rw [val_main_v183_apply, val_main_v181_apply, val_main_call0_v2_apply, tl_idx_call0v2, tl_sq_call0, val_main_v182_apply,
    val_main_cst_18_apply, Ideal.maximumf_def, Ideal.hostUnary_sqrt_def, Ideal.ofBits_def]

/-- Every row over its floored length. -/
theorem ref_unit (v : Fin 32768) (j : Fin 128) :
    val_main_v185 (F := Ideal) x0 x1 x2 x3 x4 x5 x6 x7 x8 x9 (ix2 v j) = Spec.unit (fun v j => val_main_v180 (F := Ideal) x0 x1 x2 x3 x4 x5 x6 x7 x8 x9 (ix2 v j)) v j := by
  rw [val_main_v185_apply, val_main_v184_apply, tl_idx184, tl_r183, Ideal.hostDivf_def]
  rfl

/-! ## The first result: the normalized rows, graph by graph -/

theorem tl_idx236 (g : Fin 256) (r j : Fin 128) :
    idx_main_v236 (ix3 g r j) = ix2 (⟨g.val * 128 + r.val, by omega⟩ : Fin 32768) j :=
  tl_ix2_ext (by have := j.isLt; show ((g.val * 128 + r.val) * 128 + j.val) / 128 = g.val * 128 + r.val; omega)
    (by have := j.isLt; show ((g.val * 128 + r.val) * 128 + j.val) % 128 = j.val; omega)

theorem ref_res0 (i : S256x128x128.Idx) :
    val_main_v236 (F := Ideal) x0 x1 x2 x3 x4 x5 x6 x7 x8 x9 i = Spec.res0 (fun v j => val_main_v185 (F := Ideal) x0 x1 x2 x3 x4 x5 x6 x7 x8 x9 (ix2 v j)) i := by
  obtain ⟨g, r, j, rfl⟩ : ∃ (g : Fin 256) (r j : Fin 128), i = ix3 g r j := ⟨i 0, i 1, i 2, eq_ix3 i⟩
  rw [val_main_v236_apply, tl_idx236]
  rfl

/-! ## The first read-out -/

theorem tl_idx186 (k s : Fin 128) : idx_main_v186 (ix2 k s) = ix2 s k := tl_ix2_ext rfl rfl
theorem tl_lidx187 (v : Fin 32768) (s k : Fin 128) : lidx_main_v187 (ix2 v s) k = ix2 v k := tl_ix2_ext rfl rfl
theorem tl_ridx187 (v : Fin 32768) (s k : Fin 128) : ridx_main_v187 (ix2 v s) k = ix2 k s := tl_ix2_ext rfl rfl
theorem tl_idx189 (v : Fin 32768) (s : Fin 128) : idx_main_v188 (idx_main_v189 (ix2 v s)) = ix1 s := tl_ix1_ext rfl
theorem tl_idx191 (k : Fin 128) (c : Fin 1) : idx_main_v191 (ix2 k c) = ix2 (0 : Fin 1) k :=
  tl_ix2_ext (by show c.val = 0; have := c.isLt; omega) rfl
theorem tl_lidx192 (v : Fin 32768) (c : Fin 1) (k : Fin 128) : lidx_main_v192 (ix2 v c) k = ix2 v k := tl_ix2_ext rfl rfl
theorem tl_ridx192 (v : Fin 32768) (c : Fin 1) (k : Fin 128) : ridx_main_v192 (ix2 v c) k = ix2 k c := tl_ix2_ext rfl rfl
theorem tl_idx194 (v : Fin 32768) (c : Fin 1) : idx_main_v193 (idx_main_v194 (ix2 v c)) = ix1 (0 : Fin 1) := tl_ix1_ext rfl
theorem tl_idx202 (v : Fin 32768) (s : Fin 128) : idx_main_v202 (ix2 v s) = ix2 v (0 : Fin 1) := tl_ix2_ext rfl rfl
theorem tl_idx204 (g : Fin 256) (i s : Fin 128) :
    idx_main_v204 (ix3 g i s) = ix2 (⟨g.val * 128 + i.val, by omega⟩ : Fin 32768) s :=
  tl_ix2_ext (by have := s.isLt; show ((g.val * 128 + i.val) * 128 + s.val) / 128 = g.val * 128 + i.val; omega)
    (by have := s.isLt; show ((g.val * 128 + i.val) * 128 + s.val) % 128 = s.val; omega)
theorem tl_idx205 (g : Fin 256) (s i : Fin 128) : idx_main_v205 (ix2 g s) i = ix3 g i s := tl_ix3_ext rfl rfl rfl
theorem tl_idx_call1v1 (g : Fin 256) (k : Fin 128) : idx_main_call1_v1 (ix1 g) k = ix2 g k := tl_ix2_ext rfl rfl
theorem tl_idx_call1v2 (g : Fin 256) (c : Fin 1) : idx_main_call1_v2 (ix2 g c) = ix1 g := tl_ix1_ext rfl
theorem tl_idx209 (g : Fin 256) (s : Fin 128) : idx_main_v209 (ix2 g s) = ix2 g (0 : Fin 1) := tl_ix2_ext rfl rfl

/-- The affine image of row `v`: the row against row `s` of the weights (the program transposes them first), plus the bias. -/
theorem tl_r187 (v : Fin 32768) (s : Fin 128) :
    val_main_v187 (F := Ideal) x0 x1 x2 x3 x4 x5 x6 x7 x8 x9 x10 (ix2 v s) = ∑ k : Fin 128, val_main_v185 (F := Ideal) x0 x1 x2 x3 x4 x5 x6 x7 x8 x9 (ix2 v k) * x10 (ix2 s k) := by
  rw [val_main_v187_apply]
  refine Finset.sum_congr rfl fun k _ => ?_
  rw [tl_lidx187, tl_ridx187, val_main_v186_apply, tl_idx186]

theorem tl_r189 (v : Fin 32768) (s : Fin 128) : val_main_v189 (F := Ideal) x11 (ix2 v s) = x11 (ix1 s) := by
  rw [val_main_v189_apply, val_main_v188_apply, tl_idx189]

theorem tl_r190 (v : Fin 32768) (s : Fin 128) :
    val_main_v190 (F := Ideal) x0 x1 x2 x3 x4 x5 x6 x7 x8 x9 x10 x11 (ix2 v s) = ((∑ k : Fin 128, val_main_v185 (F := Ideal) x0 x1 x2 x3 x4 x5 x6 x7 x8 x9 (ix2 v k) * x10 (ix2 s k)) + x11 (ix1 s)) := by
  rw [val_main_v190_apply, tl_r187, tl_r189, Ideal.addf_def]

/-- The affine functional of row `v` that the gate is taken of. -/
theorem tl_r192 (v : Fin 32768) (c : Fin 1) :
    val_main_v192 (F := Ideal) x0 x1 x2 x3 x4 x5 x6 x7 x8 x9 x12 (ix2 v c) = ∑ k : Fin 128, val_main_v185 (F := Ideal) x0 x1 x2 x3 x4 x5 x6 x7 x8 x9 (ix2 v k) * x12 (ix2 (0 : Fin 1) k) := by
  rw [val_main_v192_apply]
  refine Finset.sum_congr rfl fun k _ => ?_
  rw [tl_lidx192, tl_ridx192, val_main_v191_apply, tl_idx191]

theorem tl_r194 (v : Fin 32768) (c : Fin 1) : val_main_v194 (F := Ideal) x13 (ix2 v c) = x13 (ix1 (0 : Fin 1)) := by
  rw [val_main_v194_apply, val_main_v193_apply, tl_idx194]

/-- The gate: the program spells the logistic function as `1 / (1 + exp (−x))`, its definition over the extended reals,
    the literal `1.0` being `1`. -/
theorem tl_r201 (v : Fin 32768) (c : Fin 1) :
    val_main_v201 (F := Ideal) x0 x1 x2 x3 x4 x5 x6 x7 x8 x9 x12 x13 (ix2 v c) = Ideal.logistic ((∑ k : Fin 128, val_main_v185 (F := Ideal) x0 x1 x2 x3 x4 x5 x6 x7 x8 x9 (ix2 v k) * x12 (ix2 (0 : Fin 1) k)) + x13 (ix1 (0 : Fin 1))) := by
  rw [val_main_v201_apply, val_main_v200_apply, val_main_cst_20_apply, val_main_v199_apply, val_main_v198_apply,
    val_main_cst_19_apply, val_main_v197_apply, val_main_v196_apply, val_main_v195_apply, tl_r192, tl_r194]
  simp only [Ideal.hostDivf_def, Ideal.addf_def, Ideal.hostUnary_exp_def, Ideal.hostNegf_def, Ideal.negf_def, Ideal.ofBits_def,
    Ideal.ofBits_one_f32]
  rfl

/-- The gated image of row `v`. -/
theorem tl_r203 (v : Fin 32768) (s : Fin 128) :
    val_main_v203 (F := Ideal) x0 x1 x2 x3 x4 x5 x6 x7 x8 x9 x10 x11 x12 x13 (ix2 v s) = ((∑ k : Fin 128, val_main_v185 (F := Ideal) x0 x1 x2 x3 x4 x5 x6 x7 x8 x9 (ix2 v k) * x10 (ix2 s k)) + x11 (ix1 s)) * Ideal.logistic ((∑ k : Fin 128, val_main_v185 (F := Ideal) x0 x1 x2 x3 x4 x5 x6 x7 x8 x9 (ix2 v k) * x12 (ix2 (0 : Fin 1) k)) + x13 (ix1 (0 : Fin 1))) := by
  rw [val_main_v203_apply, tl_r190, val_main_v202_apply, tl_idx202, tl_r201, Ideal.mulf_def]

/-- The same by graph and row within the graph: node `g * 128 + i`. -/
theorem tl_r204 (g : Fin 256) (i s : Fin 128) :
    val_main_v204 (F := Ideal) x0 x1 x2 x3 x4 x5 x6 x7 x8 x9 x10 x11 x12 x13 (ix3 g i s) = ((∑ k : Fin 128, val_main_v185 (F := Ideal) x0 x1 x2 x3 x4 x5 x6 x7 x8 x9 (ix2 (⟨g.val * 128 + i.val, by omega⟩ : Fin 32768) k) * x10 (ix2 s k)) + x11 (ix1 s)) * Ideal.logistic ((∑ k : Fin 128, val_main_v185 (F := Ideal) x0 x1 x2 x3 x4 x5 x6 x7 x8 x9 (ix2 (⟨g.val * 128 + i.val, by omega⟩ : Fin 32768) k) * x12 (ix2 (0 : Fin 1) k)) + x13 (ix1 (0 : Fin 1))) := by
  rw [val_main_v204_apply, tl_idx204, tl_r203]

/-- The sum over the rows of graph `g`: the specification's pooled sum. -/
theorem tl_r205 (g : Fin 256) (s : Fin 128) :
    val_main_v205 (F := Ideal) x0 x1 x2 x3 x4 x5 x6 x7 x8 x9 x10 x11 x12 x13 (ix2 g s) = Spec.pooled (fun v j => val_main_v185 (F := Ideal) x0 x1 x2 x3 x4 x5 x6 x7 x8 x9 (ix2 v j)) (fun s k => x10 (ix2 s k)) (fun s => x11 (ix1 s)) (fun k => x12 (ix2 (0 : Fin 1) k)) (x13 (ix1 (0 : Fin 1))) g s := by
  rw [val_main_v205_apply, val_main_cst_21_apply, Ideal.ofBits_def, Ideal.ofBits_zero_f32, zero_add]
  unfold Spec.pooled
  refine Finset.sum_congr rfl fun i _ => ?_
  rw [tl_idx205, tl_r204]

/-- The sum of the squares of the pooled row of graph `g`. -/
theorem tl_sq_call1 (g : Fin 256) :
    val_main_call1_v1 (F := Ideal) x0 x1 x2 x3 x4 x5 x6 x7 x8 x9 x10 x11 x12 x13 (ix1 g) = ∑ k : Fin 128, Spec.pooled (fun v j => val_main_v185 (F := Ideal) x0 x1 x2 x3 x4 x5 x6 x7 x8 x9 (ix2 v j)) (fun s k => x10 (ix2 s k)) (fun s => x11 (ix1 s)) (fun k => x12 (ix2 (0 : Fin 1) k)) (x13 (ix1 (0 : Fin 1))) g k * Spec.pooled (fun v j => val_main_v185 (F := Ideal) x0 x1 x2 x3 x4 x5 x6 x7 x8 x9 (ix2 v j)) (fun s k => x10 (ix2 s k)) (fun s => x11 (ix1 s)) (fun k => x12 (ix2 (0 : Fin 1) k)) (x13 (ix1 (0 : Fin 1))) g k := by
  rw [val_main_call1_v1_apply, val_main_call1_cst_apply, Ideal.ofBits_def, Ideal.ofBits_zero_f32, zero_add]
  refine Finset.sum_congr rfl fun k _ => ?_
  rw [tl_idx_call1v1, val_main_call1_v0_apply, tl_r205, Ideal.mulf_def]

/-- Its floored length. -/
theorem tl_r208 (g : Fin 256) (c : Fin 1) :
    val_main_v208 (F := Ideal) x0 x1 x2 x3 x4 x5 x6 x7 x8 x9 x10 x11 x12 x13 (ix2 g c)
      = max (Ideal.sqrt (∑ k : Fin 128, Spec.pooled (fun v j => val_main_v185 (F := Ideal) x0 x1 x2 x3 x4 x5 x6 x7 x8 x9 (ix2 v j)) (fun s k => x10 (ix2 s k)) (fun s => x11 (ix1 s)) (fun k => x12 (ix2 (0 : Fin 1) k)) (x13 (ix1 (0 : Fin 1))) g k * Spec.pooled (fun v j => val_main_v185 (F := Ideal) x0 x1 x2 x3 x4 x5 x6 x7 x8 x9 (ix2 v j)) (fun s k => x10 (ix2 s k)) (fun s => x11 (ix1 s)) (fun k => x12 (ix2 (0 : Fin 1) k)) (x13 (ix1 (0 : Fin 1))) g k)) Spec.tiny := by
  rw [val_main_v208_apply, val_main_v206_apply, val_main_call1_v2_apply, tl_idx_call1v2, tl_sq_call1, val_main_v207_apply,
    val_main_cst_22_apply, Ideal.maximumf_def, Ideal.hostUnary_sqrt_def, Ideal.ofBits_def]

/-- The first read-out is the specification's, at every index. -/
theorem ref_res1 (i : S256x128.Idx) :
    val_main_v210 (F := Ideal) x0 x1 x2 x3 x4 x5 x6 x7 x8 x9 x10 x11 x12 x13 i = Spec.res12 (fun v j => val_main_v185 (F := Ideal) x0 x1 x2 x3 x4 x5 x6 x7 x8 x9 (ix2 v j)) x10 x11 x12 x13 i := by
  obtain ⟨g, s, rfl⟩ : ∃ (g : Fin 256) (s : Fin 128), i = ix2 g s := ⟨i 0, i 1, eq_ix2 i⟩
  rw [val_main_v210_apply, tl_r205, val_main_v209_apply, tl_idx209, tl_r208, Ideal.hostDivf_def]
  rfl

/-! ## The second read-out -/

theorem tl_idx211 (k s : Fin 128) : idx_main_v211 (ix2 k s) = ix2 s k := tl_ix2_ext rfl rfl
theorem tl_lidx212 (v : Fin 32768) (s k : Fin 128) : lidx_main_v212 (ix2 v s) k = ix2 v k := tl_ix2_ext rfl rfl
theorem tl_ridx212 (v : Fin 32768) (s k : Fin 128) : ridx_main_v212 (ix2 v s) k = ix2 k s := tl_ix2_ext rfl rfl
theorem tl_idx214 (v : Fin 32768) (s : Fin 128) : idx_main_v213 (idx_main_v214 (ix2 v s)) = ix1 s := tl_ix1_ext rfl
theorem tl_idx216 (k : Fin 128) (c : Fin 1) : idx_main_v216 (ix2 k c) = ix2 (0 : Fin 1) k :=
  tl_ix2_ext (by show c.val = 0; have := c.isLt; omega) rfl
theorem tl_lidx217 (v : Fin 32768) (c : Fin 1) (k : Fin 128) : lidx_main_v217 (ix2 v c) k = ix2 v k := tl_ix2_ext rfl rfl
theorem tl_ridx217 (v : Fin 32768) (c : Fin 1) (k : Fin 128) : ridx_main_v217 (ix2 v c) k = ix2 k c := tl_ix2_ext rfl rfl
theorem tl_idx219 (v : Fin 32768) (c : Fin 1) : idx_main_v218 (idx_main_v219 (ix2 v c)) = ix1 (0 : Fin 1) := tl_ix1_ext rfl
theorem tl_idx227 (v : Fin 32768) (s : Fin 128) : idx_main_v227 (ix2 v s) = ix2 v (0 : Fin 1) := tl_ix2_ext rfl rfl
theorem tl_idx229 (g : Fin 256) (i s : Fin 128) :
    idx_main_v229 (ix3 g i s) = ix2 (⟨g.val * 128 + i.val, by omega⟩ : Fin 32768) s :=
  tl_ix2_ext (by have := s.isLt; show ((g.val * 128 + i.val) * 128 + s.val) / 128 = g.val * 128 + i.val; omega)
    (by have := s.isLt; show ((g.val * 128 + i.val) * 128 + s.val) % 128 = s.val; omega)
theorem tl_idx230 (g : Fin 256) (s i : Fin 128) : idx_main_v230 (ix2 g s) i = ix3 g i s := tl_ix3_ext rfl rfl rfl
theorem tl_idx_call2v1 (g : Fin 256) (k : Fin 128) : idx_main_call2_v1 (ix1 g) k = ix2 g k := tl_ix2_ext rfl rfl
theorem tl_idx_call2v2 (g : Fin 256) (c : Fin 1) : idx_main_call2_v2 (ix2 g c) = ix1 g := tl_ix1_ext rfl
theorem tl_idx234 (g : Fin 256) (s : Fin 128) : idx_main_v234 (ix2 g s) = ix2 g (0 : Fin 1) := tl_ix2_ext rfl rfl

/-- The affine image of row `v`: the row against row `s` of the weights (the program transposes them first), plus the bias. -/
theorem tl_r212 (v : Fin 32768) (s : Fin 128) :
    val_main_v212 (F := Ideal) x0 x1 x2 x3 x4 x5 x6 x7 x8 x9 x14 (ix2 v s) = ∑ k : Fin 128, val_main_v185 (F := Ideal) x0 x1 x2 x3 x4 x5 x6 x7 x8 x9 (ix2 v k) * x14 (ix2 s k) := by
  rw [val_main_v212_apply]
  refine Finset.sum_congr rfl fun k _ => ?_
  rw [tl_lidx212, tl_ridx212, val_main_v211_apply, tl_idx211]

theorem tl_r214 (v : Fin 32768) (s : Fin 128) : val_main_v214 (F := Ideal) x15 (ix2 v s) = x15 (ix1 s) := by
  rw [val_main_v214_apply, val_main_v213_apply, tl_idx214]

theorem tl_r215 (v : Fin 32768) (s : Fin 128) :
    val_main_v215 (F := Ideal) x0 x1 x2 x3 x4 x5 x6 x7 x8 x9 x14 x15 (ix2 v s) = ((∑ k : Fin 128, val_main_v185 (F := Ideal) x0 x1 x2 x3 x4 x5 x6 x7 x8 x9 (ix2 v k) * x14 (ix2 s k)) + x15 (ix1 s)) := by
  rw [val_main_v215_apply, tl_r212, tl_r214, Ideal.addf_def]

/-- The affine functional of row `v` that the gate is taken of. -/
theorem tl_r217 (v : Fin 32768) (c : Fin 1) :
    val_main_v217 (F := Ideal) x0 x1 x2 x3 x4 x5 x6 x7 x8 x9 x16 (ix2 v c) = ∑ k : Fin 128, val_main_v185 (F := Ideal) x0 x1 x2 x3 x4 x5 x6 x7 x8 x9 (ix2 v k) * x16 (ix2 (0 : Fin 1) k) := by
  rw [val_main_v217_apply]
  refine Finset.sum_congr rfl fun k _ => ?_
  rw [tl_lidx217, tl_ridx217, val_main_v216_apply, tl_idx216]

theorem tl_r219 (v : Fin 32768) (c : Fin 1) : val_main_v219 (F := Ideal) x17 (ix2 v c) = x17 (ix1 (0 : Fin 1)) := by
  rw [val_main_v219_apply, val_main_v218_apply, tl_idx219]

/-- The gate: the program spells the logistic function as `1 / (1 + exp (−x))`, its definition over the extended reals,
    the literal `1.0` being `1`. -/
theorem tl_r226 (v : Fin 32768) (c : Fin 1) :
    val_main_v226 (F := Ideal) x0 x1 x2 x3 x4 x5 x6 x7 x8 x9 x16 x17 (ix2 v c) = Ideal.logistic ((∑ k : Fin 128, val_main_v185 (F := Ideal) x0 x1 x2 x3 x4 x5 x6 x7 x8 x9 (ix2 v k) * x16 (ix2 (0 : Fin 1) k)) + x17 (ix1 (0 : Fin 1))) := by
  rw [val_main_v226_apply, val_main_v225_apply, val_main_cst_24_apply, val_main_v224_apply, val_main_v223_apply,
    val_main_cst_23_apply, val_main_v222_apply, val_main_v221_apply, val_main_v220_apply, tl_r217, tl_r219]
  simp only [Ideal.hostDivf_def, Ideal.addf_def, Ideal.hostUnary_exp_def, Ideal.hostNegf_def, Ideal.negf_def, Ideal.ofBits_def,
    Ideal.ofBits_one_f32]
  rfl

/-- The gated image of row `v`. -/
theorem tl_r228 (v : Fin 32768) (s : Fin 128) :
    val_main_v228 (F := Ideal) x0 x1 x2 x3 x4 x5 x6 x7 x8 x9 x14 x15 x16 x17 (ix2 v s) = ((∑ k : Fin 128, val_main_v185 (F := Ideal) x0 x1 x2 x3 x4 x5 x6 x7 x8 x9 (ix2 v k) * x14 (ix2 s k)) + x15 (ix1 s)) * Ideal.logistic ((∑ k : Fin 128, val_main_v185 (F := Ideal) x0 x1 x2 x3 x4 x5 x6 x7 x8 x9 (ix2 v k) * x16 (ix2 (0 : Fin 1) k)) + x17 (ix1 (0 : Fin 1))) := by
  rw [val_main_v228_apply, tl_r215, val_main_v227_apply, tl_idx227, tl_r226, Ideal.mulf_def]

/-- The same by graph and row within the graph: node `g * 128 + i`. -/
theorem tl_r229 (g : Fin 256) (i s : Fin 128) :
    val_main_v229 (F := Ideal) x0 x1 x2 x3 x4 x5 x6 x7 x8 x9 x14 x15 x16 x17 (ix3 g i s) = ((∑ k : Fin 128, val_main_v185 (F := Ideal) x0 x1 x2 x3 x4 x5 x6 x7 x8 x9 (ix2 (⟨g.val * 128 + i.val, by omega⟩ : Fin 32768) k) * x14 (ix2 s k)) + x15 (ix1 s)) * Ideal.logistic ((∑ k : Fin 128, val_main_v185 (F := Ideal) x0 x1 x2 x3 x4 x5 x6 x7 x8 x9 (ix2 (⟨g.val * 128 + i.val, by omega⟩ : Fin 32768) k) * x16 (ix2 (0 : Fin 1) k)) + x17 (ix1 (0 : Fin 1))) := by
  rw [val_main_v229_apply, tl_idx229, tl_r228]

/-- The sum over the rows of graph `g`: the specification's pooled sum. -/
theorem tl_r230 (g : Fin 256) (s : Fin 128) :
    val_main_v230 (F := Ideal) x0 x1 x2 x3 x4 x5 x6 x7 x8 x9 x14 x15 x16 x17 (ix2 g s) = Spec.pooled (fun v j => val_main_v185 (F := Ideal) x0 x1 x2 x3 x4 x5 x6 x7 x8 x9 (ix2 v j)) (fun s k => x14 (ix2 s k)) (fun s => x15 (ix1 s)) (fun k => x16 (ix2 (0 : Fin 1) k)) (x17 (ix1 (0 : Fin 1))) g s := by
  rw [val_main_v230_apply, val_main_cst_25_apply, Ideal.ofBits_def, Ideal.ofBits_zero_f32, zero_add]
  unfold Spec.pooled
  refine Finset.sum_congr rfl fun i _ => ?_
  rw [tl_idx230, tl_r229]

/-- The sum of the squares of the pooled row of graph `g`. -/
theorem tl_sq_call2 (g : Fin 256) :
    val_main_call2_v1 (F := Ideal) x0 x1 x2 x3 x4 x5 x6 x7 x8 x9 x14 x15 x16 x17 (ix1 g) = ∑ k : Fin 128, Spec.pooled (fun v j => val_main_v185 (F := Ideal) x0 x1 x2 x3 x4 x5 x6 x7 x8 x9 (ix2 v j)) (fun s k => x14 (ix2 s k)) (fun s => x15 (ix1 s)) (fun k => x16 (ix2 (0 : Fin 1) k)) (x17 (ix1 (0 : Fin 1))) g k * Spec.pooled (fun v j => val_main_v185 (F := Ideal) x0 x1 x2 x3 x4 x5 x6 x7 x8 x9 (ix2 v j)) (fun s k => x14 (ix2 s k)) (fun s => x15 (ix1 s)) (fun k => x16 (ix2 (0 : Fin 1) k)) (x17 (ix1 (0 : Fin 1))) g k := by
  rw [val_main_call2_v1_apply, val_main_call2_cst_apply, Ideal.ofBits_def, Ideal.ofBits_zero_f32, zero_add]
  refine Finset.sum_congr rfl fun k _ => ?_
  rw [tl_idx_call2v1, val_main_call2_v0_apply, tl_r230, Ideal.mulf_def]

/-- Its floored length. -/
theorem tl_r233 (g : Fin 256) (c : Fin 1) :
    val_main_v233 (F := Ideal) x0 x1 x2 x3 x4 x5 x6 x7 x8 x9 x14 x15 x16 x17 (ix2 g c)
      = max (Ideal.sqrt (∑ k : Fin 128, Spec.pooled (fun v j => val_main_v185 (F := Ideal) x0 x1 x2 x3 x4 x5 x6 x7 x8 x9 (ix2 v j)) (fun s k => x14 (ix2 s k)) (fun s => x15 (ix1 s)) (fun k => x16 (ix2 (0 : Fin 1) k)) (x17 (ix1 (0 : Fin 1))) g k * Spec.pooled (fun v j => val_main_v185 (F := Ideal) x0 x1 x2 x3 x4 x5 x6 x7 x8 x9 (ix2 v j)) (fun s k => x14 (ix2 s k)) (fun s => x15 (ix1 s)) (fun k => x16 (ix2 (0 : Fin 1) k)) (x17 (ix1 (0 : Fin 1))) g k)) Spec.tiny := by
  rw [val_main_v233_apply, val_main_v231_apply, val_main_call2_v2_apply, tl_idx_call2v2, tl_sq_call2, val_main_v232_apply,
    val_main_cst_26_apply, Ideal.maximumf_def, Ideal.hostUnary_sqrt_def, Ideal.ofBits_def]

/-- The second read-out is the specification's, at every index. -/
theorem ref_res2 (i : S256x128.Idx) :
    val_main_v235 (F := Ideal) x0 x1 x2 x3 x4 x5 x6 x7 x8 x9 x14 x15 x16 x17 i = Spec.res12 (fun v j => val_main_v185 (F := Ideal) x0 x1 x2 x3 x4 x5 x6 x7 x8 x9 (ix2 v j)) x14 x15 x16 x17 i := by
  obtain ⟨g, s, rfl⟩ : ∃ (g : Fin 256) (s : Fin 128), i = ix2 g s := ⟨i 0, i 1, eq_ix2 i⟩
  rw [val_main_v235_apply, tl_r230, val_main_v234_apply, tl_idx234, tl_r233, Ideal.hostDivf_def]
  rfl

end Cert.ReferenceIdeal.Math

end
-- ==== Proof.RefComp.lean ====
/-
  The reference program's three results as the mathematics of `Spec`: the fold of its host operations read back
  as the stage functions of the arguments, each stage read index by index; the node rows after both layers and the
  normalization are `Spec.nodes` of the arguments, and the results are its reshape and its two read-outs. The run
  ends with every buffer at the fold over the launch contents, so the three result buffers hold these functions of
  the launch contents of the eighteen arguments, which no operation writes.
-/
import proofs.«163521_j41618233098847_2_alg».proof.Proof.RefVals
import proofs.«163521_j41618233098847_2_alg».proof.Proof.RefFrame
import proofs.«163521_j41618233098847_2_alg».proof.Proof.RefLayer1
import proofs.«163521_j41618233098847_2_alg».proof.Proof.RefLayer2
import proofs.«163521_j41618233098847_2_alg».proof.Proof.RefTail
import proofs.«163521_j41618233098847_2_alg».proof.Proof.Spec

noncomputable section

namespace Cert.ReferenceIdeal.Comp

open Cert.ReferenceIdeal Cert.ReferenceIdeal.Gen Cert.ReferenceIdeal.ReadP Cert.ReferenceIdeal.Math
open Idealize.ShloMosaic Idealize.ShloMosaic.TcCoe Idealize.SL.Sem Idealize.ShloMosaic.StableHlo Idealize.ShloMosaic.ValueIdx

section Values

variable (x0 : (⟨S256x128x128, .f32⟩ : BufTy).Contents (Elt Ideal)) (x1 : (⟨S2x262144, .i32⟩ : BufTy).Contents (Elt Ideal))
  (x2 : (⟨S2x256x256, .f32⟩ : BufTy).Contents (Elt Ideal)) (x3 : (⟨S2x256, .f32⟩ : BufTy).Contents (Elt Ideal))
  (x4 : (⟨S2x256x256, .f32⟩ : BufTy).Contents (Elt Ideal)) (x5 : (⟨S2x256, .f32⟩ : BufTy).Contents (Elt Ideal))
  (x6 : (⟨S2x384x256, .f32⟩ : BufTy).Contents (Elt Ideal)) (x7 : (⟨S2x384x128, .f32⟩ : BufTy).Contents (Elt Ideal))
  (x8 x9 : (⟨S2x384, .f32⟩ : BufTy).Contents (Elt Ideal))
  (y0 : (⟨S128x128, .f32⟩ : BufTy).Contents (Elt Ideal)) (y1 : (⟨S128, .f32⟩ : BufTy).Contents (Elt Ideal))
  (y2 : (⟨S1x128, .f32⟩ : BufTy).Contents (Elt Ideal)) (y3 : (⟨S1, .f32⟩ : BufTy).Contents (Elt Ideal))

/-- The normalized node rows of the reference are `Spec.nodes` of the arguments: the row normalization of the second
    layer of the first layer of the reshaped features. -/
theorem nodes_eq :
    (fun (v : Fin 32768) (j : Fin 128) => val_main_v185 (F := Ideal) x0 x1 x2 x3 x4 x5 x6 x7 x8 x9 (ix2 v j))
      = Cert.Spec.nodes x0 x1 x2 x3 x4 x5 x6 x7 x8 x9 := by
  have h0 : (fun (v : Fin 32768) (j : Fin 128) => val_main_v0 (F := Ideal) x0 (ix2 v j)) = Cert.Spec.rows x0 :=
    funext fun v => funext fun j => ref_rows x0 v j
  have h1 : (fun (v : Fin 32768) (j : Fin 128) => val_main_v95 (F := Ideal) x0 x1 x2 x3 x4 x5 x6 x7 x8 x9 (ix2 v j))
      = Cert.Spec.lay 0 x1 x2 x3 x4 x5 x6 x7 x8 x9 (Cert.Spec.rows x0) := by
    funext v j
    rw [ref_layer1, h0]
  have h2 : (fun (v : Fin 32768) (j : Fin 128) => val_main_v180 (F := Ideal) x0 x1 x2 x3 x4 x5 x6 x7 x8 x9 (ix2 v j))
      = Cert.Spec.lay 1 x1 x2 x3 x4 x5 x6 x7 x8 x9 (Cert.Spec.lay 0 x1 x2 x3 x4 x5 x6 x7 x8 x9 (Cert.Spec.rows x0)) := by
    funext v j
    rw [ref_layer2, h1]
  funext v j
  rw [ref_unit, h2]
  rfl

/-- The first result is the normalized rows, graph by graph. -/
theorem res0_eq :
    val_main_v236 (F := Ideal) x0 x1 x2 x3 x4 x5 x6 x7 x8 x9
      = Cert.Spec.res0 (Cert.Spec.nodes x0 x1 x2 x3 x4 x5 x6 x7 x8 x9) := by
  funext i
  rw [ref_res0, nodes_eq]

/-- The second result is the read-out of the normalized rows with the first read-out's weights. -/
theorem res1_eq :
    val_main_v210 (F := Ideal) x0 x1 x2 x3 x4 x5 x6 x7 x8 x9 y0 y1 y2 y3
      = Cert.Spec.res12 (Cert.Spec.nodes x0 x1 x2 x3 x4 x5 x6 x7 x8 x9) y0 y1 y2 y3 := by
  funext i
  rw [ref_res1, nodes_eq]

/-- The third result is the read-out of the normalized rows with the second read-out's weights. -/
theorem res2_eq :
    val_main_v235 (F := Ideal) x0 x1 x2 x3 x4 x5 x6 x7 x8 x9 y0 y1 y2 y3
      = Cert.Spec.res12 (Cert.Spec.nodes x0 x1 x2 x3 x4 x5 x6 x7 x8 x9) y0 y1 y2 y3 := by
  funext i
  rw [ref_res2, nodes_eq]

end Values

/-- THE REFERENCE'S RUN over the extended reals: it terminates with the three result buffers at `Spec.res0` and
    `Spec.res12` of `Spec.nodes` of the launch contents of the arguments, and with the eighteen arguments as launched. -/
theorem ref_vals (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v236) = Cert.Spec.res0 (Cert.Spec.nodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_v210) = Cert.Spec.res12 (Cert.Spec.nodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v235) = Cert.Spec.res12 (Cert.Spec.nodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run (defs (F := Ideal)) _ _).mono (fun r h c => ?_) (Cert.ReferenceIdeal.RunP.run (F := Ideal) m ρ)
  exact ⟨((h c main_v236).trans (Vals.v236_eq m c)).trans (res0_eq _ _ _ _ _ _ _ _ _ _),
    ((h c main_v210).trans (Vals.v210_eq m c)).trans (res1_eq _ _ _ _ _ _ _ _ _ _ _ _ _ _),
    ((h c main_v235).trans (Vals.v235_eq m c)).trans (res2_eq _ _ _ _ _ _ _ _ _ _ _ _ _ _),
    (h c main_arg0).trans (RunP.after_ops_arg0 _),
    (h c main_arg1).trans (RunP.after_ops_arg1 _),
    (h c main_arg2).trans (RunP.after_ops_arg2 _),
    (h c main_arg3).trans (RunP.after_ops_arg3 _),
    (h c main_arg4).trans (RunP.after_ops_arg4 _),
    (h c main_arg5).trans (RunP.after_ops_arg5 _),
    (h c main_arg6).trans (RunP.after_ops_arg6 _),
    (h c main_arg7).trans (RunP.after_ops_arg7 _),
    (h c main_arg8).trans (RunP.after_ops_arg8 _),
    (h c main_arg9).trans (RunP.after_ops_arg9 _),
    (h c main_arg10).trans (RunP.after_ops_arg10 _),
    (h c main_arg11).trans (RunP.after_ops_arg11 _),
    (h c main_arg12).trans (RunP.after_ops_arg12 _),
    (h c main_arg13).trans (RunP.after_ops_arg13 _),
    (h c main_arg14).trans (RunP.after_ops_arg14 _),
    (h c main_arg15).trans (RunP.after_ops_arg15 _),
    (h c main_arg16).trans (RunP.after_ops_arg16 _),
    (h c main_arg17).trans (RunP.after_ops_arg17 _)⟩

end Cert.ReferenceIdeal.Comp

end
-- ==== Proof.lean ====
/- The certificate of `Cert.Claim`. Both kernel programs run @main's five pipelined regions between stretches of host
   operations; their frames are the run of that chain of segments, each region's body run once at a generic grid point.
   At the ideal instance the kernel program's three results and the reference's are the same functions of the eighteen
   arguments (`Spec.res0`, `Spec.res12` of `Spec.nodes`): the kernel's projection of every node once, with the near-end
   terms and the biases weighted by the in- and out-degree, is the reference's sum of per-edge messages, by commutativity
   and associativity of the extended reals' sum and `n • x = n * x`; no finiteness of the inputs is used. -/
import proofs.«163521_j41618233098847_2_alg».proof.Defs
import proofs.«163521_j41618233098847_2_alg».proof.Proof.Gen.Kernel
import proofs.«163521_j41618233098847_2_alg».proof.Proof.Gen.KernelIdeal
import proofs.«163521_j41618233098847_2_alg».proof.Proof.Gen.ReferenceIdeal
import proofs.«163521_j41618233098847_2_alg».proof.Proof.Gen.Pre_finite_inputs
import proofs.«163521_j41618233098847_2_alg».proof.Proof.K.Run
import proofs.«163521_j41618233098847_2_alg».proof.Proof.KI.Run
import proofs.«163521_j41618233098847_2_alg».proof.Proof.KV.Comp
import proofs.«163521_j41618233098847_2_alg».proof.Proof.RefFrame
import proofs.«163521_j41618233098847_2_alg».proof.Proof.RefComp

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ

theorem algebraic : Cert.algebraic_KernelIdeal_ReferenceIdeal := by
  intro m ρ m' ρ' _ hagree
  refine ⟨_, _, _, Cert.KernelIdeal.Comp.kernel_vals m ρ, ?_⟩
  refine (θ_run Cert.ReferenceIdeal.defs _ _).mono (fun r h c => ?_) (Cert.ReferenceIdeal.Comp.ref_vals m' ρ')
  obtain ⟨h0, h1, h2, hargs⟩ := h c
  obtain ⟨e0, e1, e2, e3, e4, e5, e6, e7, e8, e9, e10, e11, e12, e13, e14, e15, e16, e17⟩ := hagree c
  refine ⟨?_, ?_, ?_, hargs⟩
  · rw [h0, e0, e1, e2, e3, e4, e5, e6, e7, e8, e9]
  · rw [h1, e0, e1, e2, e3, e4, e5, e6, e7, e8, e9, e10, e11, e12, e13]
  · rw [h2, e0, e1, e2, e3, e4, e5, e6, e7, e8, e9, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RunP.frame_ri, trivial, algebraic⟩

end Cert.Proof

end
